-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S1024x4096 : Shape := ⟨2, ![1024, 4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel

variable [Facts]

def fn {F : FTy → Type} [FloatOps F] (main_arg0 : FVec F S1024x4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  main_v3
-- ==== Kernel.lean ====
abbrev S1024x512 : Shape := ⟨2, ![1024, 512]⟩
abbrev S8x2x1024 : Shape := ⟨3, ![8, 2, 1024]⟩
abbrev S8 : Shape := ⟨1, ![8]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S2x1024 : Shape := ⟨2, ![2, 1024]⟩
abbrev S1x2x1024 : Shape := ⟨3, ![1, 2, 1024]⟩
abbrev S1 : Shape := ⟨1, ![1]⟩
abbrev S7x1x1024 : Shape := ⟨3, ![7, 1, 1024]⟩
abbrev S7x1024 : Shape := ⟨2, ![7, 1024]⟩
abbrev S1x1x1024 : Shape := ⟨3, ![1, 1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | .local _ .vmem, ⟨0, _⟩ => ⟨S1024x512, .f32⟩
  | .local _ .vmem, ⟨1, _⟩ => ⟨S1024x512, .bf16⟩
  | .local _ .vmem, ⟨2, _⟩ => ⟨S1024x512, .bf16⟩
  | .local _ .vmem, ⟨3, _⟩ => ⟨S8x2x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_27 : BitVec 32 := 1#32
  let v39 : BitVec 32 := Scalar.xori v2 c1_i32_27
  let c1_i32_32 : BitVec 32 := 1#32
  let v40 : BitVec 32 := Scalar.muli v39 c1_i32_32
  let v41 : BitVec 32 := Scalar.addi c0_i32_33 v40
  v41.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_38 : BitVec 32 := 3#32
  let v50 : BitVec 32 := Scalar.xori v2 c3_i32_38
  let c1_i32_43 : BitVec 32 := 1#32
  let v51 : BitVec 32 := Scalar.muli v50 c1_i32_43
  let v52 : BitVec 32 := Scalar.addi c0_i32_44 v51
  v52.toNat
def k0_dev10 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_49 : BitVec 32 := 4#32
  let v61 : BitVec 32 := Scalar.xori v2 c4_i32_49
  let c1_i32_54 : BitVec 32 := 1#32
  let v62 : BitVec 32 := Scalar.muli v61 c1_i32_54
  let v63 : BitVec 32 := Scalar.addi c0_i32_55 v62
  v63.toNat
def k0_dev11 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v72 : BitVec 32 := Scalar.xori v2 c2_i32_60
  let c1_i32_65 : BitVec 32 := 1#32
  let v73 : BitVec 32 := Scalar.muli v72 c1_i32_65
  let v74 : BitVec 32 := Scalar.addi c0_i32_66 v73
  v74.toNat
def k0_dev12 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_71 : BitVec 32 := 5#32
  let v83 : BitVec 32 := Scalar.xori v2 c5_i32_71
  let c1_i32_76 : BitVec 32 := 1#32
  let v84 : BitVec 32 := Scalar.muli v83 c1_i32_76
  let v85 : BitVec 32 := Scalar.addi c0_i32_77 v84
  v85.toNat
def k0_dev13 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_82 : BitVec 32 := 7#32
  let v94 : BitVec 32 := Scalar.xori v2 c7_i32_82
  let c1_i32_87 : BitVec 32 := 1#32
  let v95 : BitVec 32 := Scalar.muli v94 c1_i32_87
  let v96 : BitVec 32 := Scalar.addi c0_i32_88 v95
  v96.toNat
def k0_dev14 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_93 : BitVec 32 := 6#32
  let v105 : BitVec 32 := Scalar.xori v2 c6_i32_93
  let c1_i32_98 : BitVec 32 := 1#32
  let v106 : BitVec 32 := Scalar.muli v105 c1_i32_98
  let v107 : BitVec 32 := Scalar.addi c0_i32_99 v106
  v107.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  shapeCasts_S1024_S1x1024 : S1024.ShapeCasts S1x1024
  concatenates_S1x1024_S1x1024_S2x1024_d0 : Shape.Concatenates [S1x1024, S1x1024] S2x1024 0
  inb_S8x2x1024_S1x2x1024_0_0_0 : ∀ a, (![0, 0, 0] : Fin 3 → Nat) a + S1x2x1024.size a ≤ S8x2x1024.size a
  h_S1x2x1024 : 0 < S1x2x1024.numel
  shapeCasts_S1x2x1024_S2x1024 : S1x2x1024.ShapeCasts S2x1024
  shapeCasts_S2x1024_S1x2x1024 : S2x1024.ShapeCasts S1x2x1024
  hamt_7 : (7#32 : BitVec 32).msb = false
  inb_S8_S1_1 : ∀ a, (![1] : Fin 1 → Nat) a + S1.size a ≤ S8.size a
  squeezes_S1_S_ : S1.Squeezes S_
  inb_S8x2x1024_S1x2x1024_1_0_0 : ∀ a, (![1, 0, 0] : Fin 3 → Nat) a + S1x2x1024.size a ≤ S8x2x1024.size a
  squeezes_S1x2x1024_S2x1024 : S1x2x1024.Squeezes S2x1024
  inb_S8_S1_2 : ∀ a, (![2] : Fin 1 → Nat) a + S1.size a ≤ S8.size a
  inb_S8x2x1024_S1x2x1024_2_0_0 : ∀ a, (![2, 0, 0] : Fin 3 → Nat) a + S1x2x1024.size a ≤ S8x2x1024.size a
  inb_S8_S1_3 : ∀ a, (![3] : Fin 1 → Nat) a + S1.size a ≤ S8.size a
  inb_S8x2x1024_S1x2x1024_3_0_0 : ∀ a, (![3, 0, 0] : Fin 3 → Nat) a + S1x2x1024.size a ≤ S8x2x1024.size a
  inb_S8_S1_4 : ∀ a, (![4] : Fin 1 → Nat) a + S1.size a ≤ S8.size a
  inb_S8x2x1024_S1x2x1024_4_0_0 : ∀ a, (![4, 0, 0] : Fin 3 → Nat) a + S1x2x1024.size a ≤ S8x2x1024.size a
  inb_S8_S1_5 : ∀ a, (![5] : Fin 1 → Nat) a + S1.size a ≤ S8.size a
  inb_S8x2x1024_S1x2x1024_5_0_0 : ∀ a, (![5, 0, 0] : Fin 3 → Nat) a + S1x2x1024.size a ≤ S8x2x1024.size a
  inb_S8_S1_6 : ∀ a, (![6] : Fin 1 → Nat) a + S1.size a ≤ S8.size a
  inb_S8x2x1024_S1x2x1024_6_0_0 : ∀ a, (![6, 0, 0] : Fin 3 → Nat) a + S1x2x1024.size a ≤ S8x2x1024.size a
  inb_S8_S1_7 : ∀ a, (![7] : Fin 1 → Nat) a + S1.size a ≤ S8.size a
  inb_S8x2x1024_S1x2x1024_7_0_0 : ∀ a, (![7, 0, 0] : Fin 3 → Nat) a + S1x2x1024.size a ≤ S8x2x1024.size a
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  inb_S8x2x1024_S7x1x1024_0_0_0 : ∀ a, (![0, 0, 0] : Fin 3 → Nat) a + S7x1x1024.size a ≤ S8x2x1024.size a
  h_S7x1x1024 : 0 < S7x1x1024.numel
  shapeCasts_S7x1x1024_S7x1024 : S7x1x1024.ShapeCasts S7x1024
  inb_S8x2x1024_S7x1x1024_0_1_0 : ∀ a, (![0, 1, 0] : Fin 3 → Nat) a + S7x1x1024.size a ≤ S8x2x1024.size a
  reduces_S7x1024_S1024 : S7x1024.Reduces [0] S1024
  broadcasts_S1x1024_S7x1024 : S1x1024.Broadcasts S7x1024
  inb_S8x2x1024_S1x1x1024_7_0_0 : ∀ a, (![7, 0, 0] : Fin 3 → Nat) a + S1x1x1024.size a ≤ S8x2x1024.size a
  h_S1x1x1024 : 0 < S1x1x1024.numel
  shapeCasts_S1x1x1024_S1024 : S1x1x1024.ShapeCasts S1024
  inb_S8x2x1024_S1x1x1024_7_1_0 : ∀ a, (![7, 1, 0] : Fin 3 → Nat) a + S1x1x1024.size a ≤ S8x2x1024.size a
  hcc0_scratch2 : 2 + S8.numel ≤ 18
  hcc0_scratch3 : 10 + S8.numel ≤ 18
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch2 : DmaSems sig S8 := SemArray.consecutive 2 S8 hcc0_scratch2
abbrev cc0_scratch3 : DmaSems sig S8 := SemArray.consecutive 10 S8 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S_ : Shape := ⟨0, ![]⟩
abbrev S1024 : Shape := ⟨1, ![1024]⟩
abbrev S1024x1 : Shape := ⟨2, ![1024, 1]⟩

abbrev nBuf : Space → Nat
  | .hbm => 13
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x4096, .f32⟩
  | .hbm, ⟨11, _⟩ => ⟨S1024x4096, .f32⟩
  | .hbm, ⟨12, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S1024x1_S1024x4096_0_1 : S1024x1.BroadcastsInDim S1024x4096 (![0, 1] : Fin 2 → Fin S1024x4096.rank)
  bitsLt_bf16_f32 : FTy.bits .bf16 < FTy.bits .f32

variable [Facts₀]

class Facts : Prop extends Facts₀ where

variable [Facts]
-- ==== Proof.Mesh.lean ====
/-
  The mesh: eight devices in a row, paired by the exclusive or of their positions.

  Device `c` talks to the seven devices `c xor k`, `k = 1 … 7`. Pairing by `k` is an involution, so the device
  that `c` addresses with key `k` addresses `c` with the same key. The statistics a device receives from the peer
  of key `k` land in row `slotOf k` of its gather buffer; `keyOf` is the inverse table, row to key. Row 0 is the
  device's own (key 0).
-/
import proofs.«900601_g7700000000000602_dist_softmax_colshard_i_m1024_n512_v7x_i8_bf16_1_alg».proof.Proof.Gen.KernelIdeal

namespace Cert.KernelIdeal.Mesh

open Cert.KernelIdeal Cert.KernelIdeal.Gen Idealize.ShloMosaic

/-- The device whose position is `c`'s exclusive or with `k`. -/
def peer (c : Dev nD) (k : Fin 8) : Dev nD := ⟨(c.val ^^^ k.val) % 8, Nat.mod_lt _ (by decide)⟩

/-- The key of the peer whose statistics land in row `s`. -/
def keyOf : Fin 8 → Fin 8 := ![0, 1, 3, 4, 2, 5, 7, 6]
/-- The row in which the statistics of the peer of key `k` land. -/
def slotOf : Fin 8 → Fin 8 := ![0, 1, 4, 2, 3, 5, 7, 6]

theorem keyOf_slotOf (k : Fin 8) : keyOf (slotOf k) = k := by revert k; decide
theorem slotOf_keyOf (s : Fin 8) : slotOf (keyOf s) = s := by revert s; decide
theorem keyOf_zero : keyOf 0 = 0 := rfl
theorem keyOf_ne_zero (s : Fin 8) (h : s ≠ 0) : keyOf s ≠ 0 := by revert s; decide

theorem peer_zero (c : Dev nD) : peer c 0 = c := by revert c; decide
theorem peer_peer (c : Dev nD) (k : Fin 8) : peer (peer c k) k = c := by revert c k; decide
theorem peer_ne (c : Dev nD) (k : Fin 8) (h : k ≠ 0) : peer c k ≠ c := by revert c k; decide
theorem peer_inj_key (c : Dev nD) (k k' : Fin 8) (h : peer c k = peer c k') : k = k' := by revert c k k'; decide
theorem peer_inj_dev (c c' : Dev nD) (k : Fin 8) (h : peer c k = peer c' k) : c = c' := by revert c c' k; decide
/-- Every device is the peer of `c` at exactly one key. -/
theorem peer_surj (c d : Dev nD) : ∃ k : Fin 8, peer c k = d := by revert c d; decide

/-- Pairing by a fixed key permutes the devices. -/
def peerEquiv (k : Fin 8) : Dev nD ≃ Dev nD := ⟨fun c => peer c k, fun c => peer c k, fun c => peer_peer c k, fun c => peer_peer c k⟩
/-- For a fixed device, key to peer is a bijection of the eight keys with the eight devices. -/
noncomputable def keyEquiv (c : Dev nD) : Fin 8 ≃ Dev nD :=
  Equiv.ofBijective (peer c) ⟨fun k k' h => peer_inj_key c k k' h, fun d => peer_surj c d⟩

/-! The printed device chains: the seven entry signals address the peers of keys 1 … 7 in order; the seven copies
    address the peers of the keys of rows 1 … 7 in order. -/

theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 4 := by revert c; decide +kernel
theorem dev5_eq (c : Dev nD) : (⟨k0_dev5 c, k0_dev5_lt c⟩ : Dev nD) = peer c 5 := by revert c; decide +kernel
theorem dev6_eq (c : Dev nD) : (⟨k0_dev6 c, k0_dev6_lt c⟩ : Dev nD) = peer c 6 := by revert c; decide +kernel
theorem dev7_eq (c : Dev nD) : (⟨k0_dev7 c, k0_dev7_lt c⟩ : Dev nD) = peer c 7 := by revert c; decide +kernel
theorem dev8_eq (c : Dev nD) : (⟨k0_dev8 c, k0_dev8_lt c⟩ : Dev nD) = peer c (keyOf 1) := by revert c; decide +kernel
theorem dev9_eq (c : Dev nD) : (⟨k0_dev9 c, k0_dev9_lt c⟩ : Dev nD) = peer c (keyOf 2) := by revert c; decide +kernel
theorem dev10_eq (c : Dev nD) : (⟨k0_dev10 c, k0_dev10_lt c⟩ : Dev nD) = peer c (keyOf 3) := by revert c; decide +kernel
theorem dev11_eq (c : Dev nD) : (⟨k0_dev11 c, k0_dev11_lt c⟩ : Dev nD) = peer c (keyOf 4) := by revert c; decide +kernel
theorem dev12_eq (c : Dev nD) : (⟨k0_dev12 c, k0_dev12_lt c⟩ : Dev nD) = peer c (keyOf 5) := by revert c; decide +kernel
theorem dev13_eq (c : Dev nD) : (⟨k0_dev13 c, k0_dev13_lt c⟩ : Dev nD) = peer c (keyOf 6) := by revert c; decide +kernel
theorem dev14_eq (c : Dev nD) : (⟨k0_dev14 c, k0_dev14_lt c⟩ : Dev nD) = peer c (keyOf 7) := by revert c; decide +kernel

end Cert.KernelIdeal.Mesh
-- ==== Proof.Spec.lean ====
/-
  What the kernel computes on device `c`, as pure terms of every device's block of the input.

  Each device reduces its own block `x` of 512 columns to two rows of 1024 numbers: the row maxima `m` and the row
  sums `s` of `exp (x - m)`. It keeps them in row 0 of an 8 × 2 × 1024 gather buffer and sends them to its seven peers;
  row `r` of the buffer ends holding the statistics of the peer whose key is `keyOf r`. From rows 0 … 6 it forms a
  partial maximum and a partial sum rescaled to it, merges row 7 into both, and scales its own `exp (x - m)` by
  `exp (m - gmax) / gsum`: its block of the softmax over all 4096 columns.
-/
import proofs.«900601_g7700000000000602_dist_softmax_colshard_i_m1024_n512_v7x_i8_bf16_1_alg».proof.Proof.Gen.KernelIdeal.Skeleton
import proofs.«900601_g7700000000000602_dist_softmax_colshard_i_m1024_n512_v7x_i8_bf16_1_alg».proof.Proof.Mesh

noncomputable section

namespace Cert.KernelIdeal.Spec

open Cert.KernelIdeal Cert.KernelIdeal.Gen Cert.KernelIdeal.Mesh Idealize.ShloMosaic

variable {F : FTy → Type} [FloatOps F]

/-- The gather buffer, whole. -/
abbrev gM : Memref sig .tc .vmem S8x2x1024 .f32 := Memref.whole cc0_scratch1

/-- The four rectangles the merge reads: the maxima and the sums of rows 0 … 6, and those of row 7. -/
abbrev rNearM : Rect S8x2x1024 := Rect.unit (s := S8x2x1024) ![0, 0, 0] S7x1x1024.size inb_S8x2x1024_S7x1x1024_0_0_0
abbrev rNearS : Rect S8x2x1024 := Rect.unit (s := S8x2x1024) ![0, 1, 0] S7x1x1024.size inb_S8x2x1024_S7x1x1024_0_1_0
abbrev rFarM : Rect S8x2x1024 := Rect.unit (s := S8x2x1024) ![7, 0, 0] S1x1x1024.size inb_S8x2x1024_S1x1x1024_7_0_0
abbrev rFarS : Rect S8x2x1024 := Rect.unit (s := S8x2x1024) ![7, 1, 0] S1x1x1024.size inb_S8x2x1024_S1x1x1024_7_1_0

/-- A block's statistics as the device publishes them: row maxima over row sums of the shifted exponentials. -/
def stat (x : Vec F S1024x512 .f32) : FVec F S1x2x1024 .f32 := k0_pay4 x

/-- The gather buffer of device `c` once every copy has landed: row `r` is the statistics of the peer of key `keyOf r`. -/
def gat (X : Dev nD → Vec F S1024x512 .f32) (c : Dev nD) : (cc0_scratch1 : Ref sig .tc).ty.Contents (Elt F) :=
  fun i => stat (X (peer c (keyOf ⟨(i 0).val, (i 0).isLt⟩)))
    (fun a => match a with
      | ⟨0, _⟩ => ⟨0, Nat.one_pos⟩
      | ⟨1, _⟩ => ⟨(i 1).val, (i 1).isLt⟩
      | ⟨2, _⟩ => ⟨(i 2).val, (i 2).isLt⟩)

/-- What the four loads of the merge read off it. -/
def nearM (X : Dev nD → Vec F S1024x512 .f32) (c : Dev nD) : Vec F S7x1x1024 .f32 :=
  (gM : Memref sig .tc .vmem S8x2x1024 .f32).view.readAt (Elt F) rNearM.toLoadRect (gat X c)
def nearS (X : Dev nD → Vec F S1024x512 .f32) (c : Dev nD) : Vec F S7x1x1024 .f32 :=
  (gM : Memref sig .tc .vmem S8x2x1024 .f32).view.readAt (Elt F) rNearS.toLoadRect (gat X c)
def farM (X : Dev nD → Vec F S1024x512 .f32) (c : Dev nD) : Vec F S1x1x1024 .f32 :=
  (gM : Memref sig .tc .vmem S8x2x1024 .f32).view.readAt (Elt F) rFarM.toLoadRect (gat X c)
def farS (X : Dev nD → Vec F S1024x512 .f32) (c : Dev nD) : Vec F S1x1x1024 .f32 :=
  (gM : Memref sig .tc .vmem S8x2x1024 .f32).view.readAt (Elt F) rFarS.toLoadRect (gat X c)

/-- The shifted exponentials a device keeps of its own block, in the result's format. -/
def expBlk (x : Vec F S1024x512 .f32) : FVec F S1024x512 .bf16 := k0_pay5 (k0_pay3 x)

/-- The result block of device `c`. -/
def outOf (X : Dev nD → Vec F S1024x512 .f32) (c : Dev nD) : FVec F S1024x512 .bf16 :=
  k0_pay13 (k0_pay2 (X c)) (k0_pay8 (nearM X c) (nearS X c)) (k0_pay9 (farM X c)) (k0_pay10 (farS X c))
    (k0_pay11 (nearM X c) (farM X c)) (k0_pay12 (nearM X c) (farM X c)) (expBlk (X c))

end Cert.KernelIdeal.Spec

end
-- ==== Proof.Sched.lean ====
/-
  The protocol of the eight devices, as a schedule of rounds.

  Every device owns fifteen cells: the entry cell (the barrier semaphore), and for each of the seven rows `s = 1 … 7`
  of its gather buffer a departure cell and an arrival cell. Everything happens in round 0.

  * The entry cell of device `d` has seven duties of one unit, duty `k` paid by the peer of key `k`. With its unit the
    peer hands over the row of ITS OWN gather buffer into which `d` will copy — row `slotOf k` — and the fact that its
    arrival cell of that row has reached round 0. After waiting for all seven units a device owns one row on each peer.
  * The copy of row 0 into row `s` of the peer of key `keyOf s` pays two duties of the row's size: the one duty of the
    sender's departure cell `s`, which returns the share of row 0 the copy was lent, and the one duty of the
    receiver's arrival cell `s`, which hands the receiver its row `s` holding the sender's statistics.
  * Row 0 is read by seven copies at once and by the device itself, so it is held in eight shares: the left half
    stays with the device, the right half is cut into seven for the copies.

  A device waits on its entry cell while it still owes the seven arrivals, so arrival cells lie above entry cells;
  it waits on arrival and departure cells owing nothing.
-/
import proofs.«900601_g7700000000000602_dist_softmax_colshard_i_m1024_n512_v7x_i8_bf16_1_alg».proof.Proof.Spec
import proofs.«900601_g7700000000000602_dist_softmax_colshard_i_m1024_n512_v7x_i8_bf16_1_alg».proof.Proof.Gen.KernelIdeal.Launch
import proofs.«900601_g7700000000000602_dist_softmax_colshard_i_m1024_n512_v7x_i8_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Mesh Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's, whose duties are named by a key or 0 -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs, rows and cells -/

abbrev xM : Memref sig .tc .vmem S1024x512 .f32 := Memref.whole cc0_stg0_0
abbrev oM : Memref sig .tc .vmem S1024x512 .bf16 := Memref.whole cc0_stg1_0
abbrev eM : Memref sig .tc .vmem S1024x512 .bf16 := Memref.whole cc0_scratch0

theorem row_inb (s : Fin 8) : ∀ a, (![s.val, 0, 0] : Fin 3 → Nat) a + S1x2x1024.size a ≤ S8x2x1024.size a := by
  intro a; have := s.isLt
  match a with
  | ⟨0, _⟩ => show s.val + 1 ≤ 8; omega
  | ⟨1, _⟩ => show 0 + 2 ≤ 2; omega
  | ⟨2, _⟩ => show 0 + 1024 ≤ 1024; omega

/-- Row `s` of the gather buffer as a rectangle of it, -/
abbrev rowR (s : Fin 8) : Rect S8x2x1024 := Rect.unit (s := S8x2x1024) ![s.val, 0, 0] S1x2x1024.size (row_inb s)
/-- and as the 2 × 1024 memref a copy reads or writes. -/
abbrev rowM (s : Fin 8) : Memref sig .tc .vmem S2x1024 .f32 :=
  ((gM : Memref sig .tc .vmem S8x2x1024 .f32).slice (rowR s) (fun _ => rfl)).squeeze S2x1024 squeezes_S1x2x1024_S2x1024

/-- The runtime's barrier semaphore of collective id 0 (unscoped); the departure and arrival semaphores of row `s`. -/
abbrev barS : Sem sig := (SemArray.scalar (sig.barrier 0 rfl) : Sems sig S_).sem
def sendSem (s : Fin 8) : DmaSem sig := ⟨2 + s.val, by have := s.isLt; show 2 + s.val < 18; omega⟩
def recvSem (s : Fin 8) : DmaSem sig := ⟨10 + s.val, by have := s.isLt; show 10 + s.val < 18; omega⟩

abbrev barCell (c : Dev nD) : GSem nD τ sig := ((c : Thread nD τ), .reg barS)
abbrev sendCell (c : Dev nD) (s : Fin 8) : GSem nD τ sig := ((c : Thread nD τ), .dma (sendSem s))
abbrev recvCell (c : Dev nD) (s : Fin 8) : GSem nD τ sig := ((c : Thread nD τ), .dma (recvSem s))

/-- The units a copy of one row credits. -/
abbrev N : ℕ := (rowM 0).view.dmaCredit
theorem N_pos : 0 < N := View.dmaCredit_pos _ (by decide)

/-! ## Contents -/

/-- Device `d`'s block of the input, as its staging buffer holds it at the one grid point. -/
def X (d : Dev nD) : Vec F S1024x512 .f32 :=
  (win0_0.blk (0 : Fin 1)).view.read (Elt F) ((s₀ m ρ).mem ((d : Thread nD τ).loc main_arg0))

/-- The shares of row 0: the left half stays with the device, the right half is cut into seven for the copies. -/
def rowShare : Fin 8 → PosShare TreeShare := fun
  | 0 => fullShare.left
  | 1 => fullShare.right.left.left.left
  | 2 => fullShare.right.left.left.right
  | 3 => fullShare.right.left.right.left
  | 4 => fullShare.right.left.right.right
  | 5 => fullShare.right.right.left.left
  | 6 => fullShare.right.right.left.right
  | 7 => fullShare.right.right.right

/-- Row `s` of device `c`'s gather buffer, held at share `q` with contents `f` (only `f`'s values on the row matter). -/
def rowPts (c : Dev nD) (s : Fin 8) (q : PosShare TreeShare) (f : Buf (Elt F) ((rowM s).view.loc (c : Thread nD τ))) : sProp 𝕄 :=
  (rowM s).view.loc (c : Thread nD τ) ↦[(rowM s).view.set]{q} f

/-! ## The schedule -/

/-- Duty `k` of device `d`'s entry cell, paid by the peer of key `k`: that peer's row for `d`'s copy, and that the
    peer's arrival cell of that row has reached round 0. -/
def barPay (d : Dev nD) (k : Fin 8) : sProp 𝕄 :=
  iprop((∃ f, rowPts (peer d k) (slotOf k) fullShare f) ∗ reached ER (recvCell (peer d k) (slotOf k)) 0)
/-- The arrival in row `s` of device `c`: the row, holding what the whole gather buffer holds there in the end. -/
def recvPay (c : Dev nD) (s : Fin 8) : sProp 𝕄 := rowPts c s fullShare (gat (X m ρ) c)
/-- The departure of the copy into row `s`: the share of row 0 it was lent. -/
def sendPay (c : Dev nD) (s : Fin 8) : sProp 𝕄 := rowPts c 0 (rowShare s) (gat (X m ρ) c)

/-- The row a DMA semaphore serves: 2 … 9 are the departures of rows 0 … 7, 10 … 17 the arrivals. -/
def semRow (q : DmaSem sig) : Fin 8 := ⟨(q.val - 2) % 8, Nat.mod_lt _ (by decide)⟩
abbrev IsBar (g : GSem nD τ sig) : Prop := g.1.2 = .tc ∧ g.2 = .reg barS
/-- A departure or arrival cell of one of the rows 1 … 7. -/
def IsXfer (g : GSem nD τ sig) : Prop :=
  g.1.2 = .tc ∧ ∃ s : Fin 8, s ≠ 0 ∧ (g.2 = .dma (sendSem s) ∨ g.2 = .dma (recvSem s))
instance (g : GSem nD τ sig) : Decidable (IsXfer g) := by unfold IsXfer; infer_instance

/-- One round, round 0: an entry cell has the seven duties `1 … 7` of one unit each, a departure or arrival cell of
    a row `1 … 7` the one duty `0` of the row's credit. -/
def ringRd : Rounds.Schedule (GSem nD τ sig) (Fin 8) 𝕄 where
  duties g r := if r = 0 ∧ IsBar g then Finset.univ.erase 0 else if r = 0 ∧ IsXfer g then {0} else ∅
  unitless _ := False
  amount g _ _ := if g.2 = .reg barS then 1 else N
  payload g _ d := match g.2 with
    | .reg _ => barPay g.1.1 d
    | .dma q => if 10 ≤ q.val then recvPay m ρ g.1.1 (semRow q) else sendPay m ρ g.1.1 (semRow q)
  amount_pos g _ _ _ := by
    by_cases h : g.2 = .reg barS
    · rw [if_pos h]; exact Nat.one_pos
    · rw [if_neg h]; exact N_pos

/-! ## What each device owes at launch; the levels -/

/-- The keys, or rows, `1 … 7`. -/
abbrev seven : Finset (Fin 8) := Finset.univ.erase 0

/-- Device `c` owes the arrival cell of row `s` on the peer of key `keyOf s` the row's credit, and every peer's entry
    cell one unit — written out summand by summand, the first signal's unit last. -/
def O₀ (c : Dev nD) : CellTallies nD τ sig Unit :=
  tallyAt (recvCell (peer c (keyOf 7)) 7) () N + tallyAt (recvCell (peer c (keyOf 6)) 6) () N + tallyAt (recvCell (peer c (keyOf 5)) 5) () N
    + tallyAt (recvCell (peer c (keyOf 4)) 4) () N + tallyAt (recvCell (peer c (keyOf 3)) 3) () N + tallyAt (recvCell (peer c (keyOf 2)) 2) () N
    + tallyAt (recvCell (peer c (keyOf 1)) 1) () N
    + tallyAt (barCell (peer c 7)) () 1 + tallyAt (barCell (peer c 6)) () 1 + tallyAt (barCell (peer c 5)) () 1 + tallyAt (barCell (peer c 4)) () 1
    + tallyAt (barCell (peer c 3)) () 1 + tallyAt (barCell (peer c 2)) () 1 + tallyAt (barCell (peer c 1)) () 1

/-- What is left of it once the seven signals are sent: the seven arrivals. -/
def O₁ (c : Dev nD) : CellTallies nD τ sig Unit :=
  tallyAt (recvCell (peer c (keyOf 7)) 7) () N + tallyAt (recvCell (peer c (keyOf 6)) 6) () N + tallyAt (recvCell (peer c (keyOf 5)) 5) () N
    + tallyAt (recvCell (peer c (keyOf 4)) 4) () N + tallyAt (recvCell (peer c (keyOf 3)) 3) () N + tallyAt (recvCell (peer c (keyOf 2)) 2) () N
    + tallyAt (recvCell (peer c (keyOf 1)) 1) () N

def L (g : GSem nD τ sig) : Finset Unit := if g.1.2 = .tc then {()} else ∅
/-- Entry cells at 1, arrival cells at 2, everything else (staging, departure) at 0. -/
def lv (g : GSem nD τ sig) (_ : Unit) : ℕ := match g.2 with
  | .reg _ => 1
  | .dma q => if 10 ≤ q.val then 2 else 0

/-! ## The ghost state of one device -/

/-- The invariants device `c`'s body opens, under the names `K` the launch allocated them at: its own fifteen cells,
    every peer's entry cell (its signals), and the arrival cell its copy into each peer pays. -/
def invs (K : GSem nD τ sig → ℕ) (c : Dev nD) : sProp 𝕄 :=
  iprop(cellInv ER (ringRd m ρ) (K (barCell c)) (barCell c)
    ∗ (bigSep seven fun s => iprop(cellInv ER (ringRd m ρ) (K (sendCell c s)) (sendCell c s) ∗ cellInv ER (ringRd m ρ) (K (recvCell c s)) (recvCell c s)))
    ∗ (bigSep seven fun k => cellInv ER (ringRd m ρ) (K (barCell (peer c k))) (barCell (peer c k)))
    ∗ (bigSep seven fun s => cellInv ER (ringRd m ρ) (K (recvCell (peer c (keyOf s)) s)) (recvCell (peer c (keyOf s)) s)))

instance invs_persistent (K : GSem nD τ sig → ℕ) (c : Dev nD) : BI.Persistent (invs m ρ K c) := by unfold invs; infer_instance

/-- The rounds reached that device `c` relies on: round 0 of the cells it pays and of its own departure and arrival cells. -/
def marks (c : Dev nD) : sProp 𝕄 :=
  iprop((bigSep seven fun k => reached ER (barCell (peer c k)) 0)
    ∗ (bigSep seven fun s => reached ER (recvCell (peer c (keyOf s)) s) 0)
    ∗ (bigSep seven fun s => iprop(reached ER (sendCell c s) 0 ∗ reached ER (recvCell c s) 0)))

instance marks_persistent (c : Dev nD) : BI.Persistent (marks (F := F) c) := by unfold marks; infer_instance

/-- Its positions at round 0 of its fifteen cells, and the tokens of the twenty-one duties it pays. -/
def linear (c : Dev nD) : sProp 𝕄 :=
  iprop(atPos ER (barCell c) 0 ∅ 0
    ∗ (bigSep seven fun s => iprop(atPos ER (sendCell c s) 0 ∅ 0 ∗ atPos ER (recvCell c s) 0 ∅ 0))
    ∗ (bigSep seven fun k => dutyTok ER (barCell (peer c k)) 0 k)
    ∗ (bigSep seven fun s => iprop(dutyTok ER (recvCell (peer c (keyOf s)) s) 0 0 ∗ dutyTok ER (sendCell c s) 0 0)))

def ghost (K : GSem nD τ sig → ℕ) (c : Dev nD) : sProp 𝕄 := iprop(invs m ρ K c ∗ marks c ∗ linear c)

/-- What device `c`'s body starts from: that at some names, the credit of its entry cell (seven units) and of its
    seven arrival cells, the level facts, and the counters of the two DMA semaphores of row 0, which no copy uses. -/
def start (c : Dev nD) : sProp 𝕄 :=
  iprop((∃ K, ghost m ρ K c) ∗ cred (tallyAt (barCell c) () 7) ∗ (bigSep seven fun s => cred (tallyAt (recvCell c s) () N)) ∗ levAts L lv
    ∗ semVal (sendCell c 0) 0 ∗ semVal (recvCell c 0) 0)

/-- Before the point: that, and the two scratch buffers at some contents. -/
def Φ₀ (c : Dev nD) : sProp 𝕄 :=
  iprop(start m ρ c ∗ (∃ f, ((c : Thread nD τ).loc cc0_scratch0) ↦{fullShare} f) ∗ (∃ f, ((c : Thread nD τ).loc cc0_scratch1) ↦{fullShare} f))
/-- After it: the two scratch buffers at some contents, and all sixteen own counters at zero. -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ (bigSep Finset.univ fun s : Fin 8 => semVal (sendCell c s) 0) ∗ (bigSep Finset.univ fun s : Fin 8 => semVal (recvCell c s) 0))

/-! ## The pipeline's proof data -/

/-- The one grid point. -/
theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => outOf (X m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Proto

end
-- ==== Proof.LaunchDefs.lean ====
/-
  The launch's shared vocabulary: the kernel's sixteen own DMA semaphores as the launch theorem indexes them, and what
  the step that allocates every device's cells at once hands each device.
-/
import proofs.«900601_g7700000000000602_dist_softmax_colshard_i_m1024_n512_v7x_i8_bf16_1_alg».proof.Proof.Sched

noncomputable section

namespace Cert.KernelIdeal.Proto

open Cert.KernelIdeal Cert.KernelIdeal.Gen Cert.KernelIdeal.Mesh Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own (scoped) semaphores: the eight departure semaphores, then the eight arrival semaphores. -/
abbrev osem : Fin 16 → SemLoc sig := fun j =>
  if h : j.val < 8 then .dma (sendSem ⟨j.val, h⟩) else .dma (recvSem ⟨j.val - 8, by have := j.isLt; omega⟩)

/-- What the allocation of all cells hands device `c`: its ghost state at some names, and the counters of the two
    semaphores of row 0, which are no cells. -/
def G' (c : Dev nD) : sProp 𝕄 :=
  iprop((∃ K, ghost m ρ K c) ∗ semVal (sendCell c 0) 0 ∗ semVal (recvCell c 0) 0)

end Cert.KernelIdeal.Proto

end
-- ==== Proof.Tables.lean ====
/-
  The tables of the eight devices' schedule, cell by cell.

  The schedule has one round. An entry cell has the seven duties 1 … 7 of one unit each; the departure cell and the
  arrival cell of a row 1 … 7 have the one duty 0 of the row's credit. This module reads the schedule's four tables
  (duties, amounts, expected units, payloads) at each of a device's fifteen cells, lists a family over the seven keys
  as a seven-fold product, and proves the order of the levels: departure cells at 0, entry cells at 1, arrival cells
  at 2, so that a device may wait on a departure cell owing anything, and on its entry cell owing the seven arrivals.

  The departure semaphore of row s is number 2 + s, the arrival semaphore number 10 + s: the numbers below 10 are the
  departures, the row is the number less 2 modulo 8.
-/
import proofs.«900601_g7700000000000602_dist_softmax_colshard_i_m1024_n512_v7x_i8_bf16_1_alg».proof.Proof.Sched

noncomputable section

namespace Cert.KernelIdeal.Proto

open Cert.KernelIdeal Cert.KernelIdeal.Gen Cert.KernelIdeal.Mesh Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Tables

variable {F : FTy → Type} [FloatOps F] (m : (ℓ : Loc nD τ sig) → Buf (Elt F) ℓ) (ρ : Dev nD → PrngReg) (c : Dev nD)

local notation "𝕄" => MT nD τ sig Unit (Elt F) ℕ UU ℕ

/-! ## The semaphores: sixteen numbers, none of them the entry semaphore -/

theorem sendSem_val (s : Fin 8) : (sendSem s).val = 2 + s.val := rfl
theorem recvSem_val (s : Fin 8) : (recvSem s).val = 10 + s.val := rfl

theorem send_ne_bar (s : Fin 8) : (SemLoc.dma (sendSem s) : SemLoc sig) ≠ .reg barS := fun h => by cases h
theorem recv_ne_bar (s : Fin 8) : (SemLoc.dma (recvSem s) : SemLoc sig) ≠ .reg barS := fun h => by cases h

/-- A departure number is below 10, an arrival number is not. -/
theorem send_ne_recv (s s' : Fin 8) : (SemLoc.dma (sendSem s) : SemLoc sig) ≠ .dma (recvSem s') := fun h => by
  have h1 : (sendSem s).val = (recvSem s').val := congrArg Fin.val (SemLoc.dma.inj h)
  rw [sendSem_val, recvSem_val] at h1
  have := s.isLt
  omega

theorem sendSem_inj {s s' : Fin 8} (h : sendSem s = sendSem s') : s = s' := by
  have h1 : (sendSem s).val = (sendSem s').val := congrArg Fin.val h
  rw [sendSem_val, sendSem_val] at h1
  exact Fin.ext (by omega)

theorem recvSem_inj {s s' : Fin 8} (h : recvSem s = recvSem s') : s = s' := by
  have h1 : (recvSem s).val = (recvSem s').val := congrArg Fin.val h
  rw [recvSem_val, recvSem_val] at h1
  exact Fin.ext (by omega)

/-- The row of a departure semaphore: (2 + s - 2) mod 8 = s. -/
theorem semRow_send (s : Fin 8) : semRow (sendSem s) = s :=
  Fin.ext (show (2 + s.val - 2) % 8 = s.val by have := s.isLt; omega)

/-- The row of an arrival semaphore: (10 + s - 2) mod 8 = s. -/
theorem semRow_recv (s : Fin 8) : semRow (recvSem s) = s :=
  Fin.ext (show (10 + s.val - 2) % 8 = s.val by have := s.isLt; omega)

theorem isXfer_send (s : Fin 8) (hs : s ≠ 0) : IsXfer (sendCell c s) := ⟨rfl, s, hs, .inl rfl⟩
theorem isXfer_recv (s : Fin 8) (hs : s ≠ 0) : IsXfer (recvCell c s) := ⟨rfl, s, hs, .inr rfl⟩

theorem not_bar_send (s : Fin 8) : ¬ IsBar (sendCell c s) := fun h => send_ne_bar s h.2
theorem not_bar_recv (s : Fin 8) : ¬ IsBar (recvCell c s) := fun h => recv_ne_bar s h.2

/-! ## Duties, amounts and expected units of round 0 -/

theorem duties_bar : (ringRd (F := F) m ρ).duties (barCell c) 0 = seven := by
  dsimp only [ringRd]; exact if_pos ⟨rfl, rfl, rfl⟩

theorem duties_send (s : Fin 8) (hs : s ≠ 0) : (ringRd (F := F) m ρ).duties (sendCell c s) 0 = {0} := by
  dsimp only [ringRd]
  exact (if_neg fun h => not_bar_send c s h.2).trans (if_pos ⟨rfl, isXfer_send c s hs⟩)

theorem duties_recv (s : Fin 8) (hs : s ≠ 0) : (ringRd (F := F) m ρ).duties (recvCell c s) 0 = {0} := by
  dsimp only [ringRd]
  exact (if_neg fun h => not_bar_recv c s h.2).trans (if_pos ⟨rfl, isXfer_recv c s hs⟩)

/-- There is no round after round 0. -/
theorem duties_later (g : GSem nD τ sig) : ∀ r, 1 ≤ r → (ringRd (F := F) m ρ).duties g r = ∅ := fun r hr => by
  have hr0 : r ≠ 0 := by omega
  dsimp only [ringRd]
  exact (if_neg fun h => hr0 h.1).trans (if_neg fun h => hr0 h.1)

theorem amount_bar (d : Fin 8) : (ringRd (F := F) m ρ).amount (barCell c) 0 d = 1 := by
  dsimp only [ringRd]; exact if_pos rfl

theorem amount_send (s d : Fin 8) : (ringRd (F := F) m ρ).amount (sendCell c s) 0 d = N := by
  dsimp only [ringRd]; exact if_neg (send_ne_bar s)

theorem amount_recv (s d : Fin 8) : (ringRd (F := F) m ρ).amount (recvCell c s) 0 d = N := by
  dsimp only [ringRd]; exact if_neg (recv_ne_bar s)

/-- Seven duties of one unit. -/
theorem expect_bar : (ringRd (F := F) m ρ).expect (barCell c) 0 = 7 := by
  unfold Schedule.expect Schedule.amountOf
  rw [duties_bar, Finset.sum_congr rfl fun d _ => amount_bar m ρ c d, Finset.sum_const, smul_eq_mul, mul_one]
  rfl

theorem expect_send (s : Fin 8) (hs : s ≠ 0) : (ringRd (F := F) m ρ).expect (sendCell c s) 0 = N := by
  unfold Schedule.expect Schedule.amountOf
  rw [duties_send m ρ c s hs, Finset.sum_singleton, amount_send]

theorem expect_recv (s : Fin 8) (hs : s ≠ 0) : (ringRd (F := F) m ρ).expect (recvCell c s) 0 = N := by
  unfold Schedule.expect Schedule.amountOf
  rw [duties_recv m ρ c s hs, Finset.sum_singleton, amount_recv]

/-! ## Payloads -/

theorem payload_bar (k : Fin 8) : (ringRd (F := F) m ρ).payload (barCell c) 0 k = barPay c k := rfl

theorem payload_send (s d : Fin 8) : (ringRd (F := F) m ρ).payload (sendCell c s) 0 d = sendPay m ρ c s := by
  show (if 10 ≤ (sendSem s).val then recvPay m ρ c (semRow (sendSem s)) else sendPay m ρ c (semRow (sendSem s))) = _
  rw [if_neg (by rw [sendSem_val]; have := s.isLt; omega), semRow_send]

theorem payload_recv (s d : Fin 8) : (ringRd (F := F) m ρ).payload (recvCell c s) 0 d = recvPay m ρ c s := by
  show (if 10 ≤ (recvSem s).val then recvPay m ρ c (semRow (recvSem s)) else sendPay m ρ c (semRow (recvSem s))) = _
  rw [if_pos (by rw [recvSem_val]; omega), semRow_recv]

/-! ## Families over the seven keys and over the eight rows, listed -/

/-- The seven keys listed: a family over them is the seven-fold product, in this order. -/
theorem bigSep_seven {M : Type} [URA M] (Φ : Fin 8 → sProp M) :
    bigSep seven Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ

theorem bigSep_eight {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The rest of each cell's round with no duty taken yet -/

theorem rest_bar : bigSep ((ringRd (F := F) m ρ).duties (barCell c) 0 \ ∅) (fun d => (ringRd (F := F) m ρ).payload (barCell c) 0 d)
    = iprop(barPay c 1 ∗ barPay c 2 ∗ barPay c 3 ∗ barPay c 4 ∗ barPay c 5 ∗ barPay c 6 ∗ barPay c 7) := by
  rw [Finset.sdiff_empty, duties_bar, bigSep_seven]
  rfl

theorem rest_send (s : Fin 8) (hs : s ≠ 0) : bigSep ((ringRd (F := F) m ρ).duties (sendCell c s) 0 \ ∅) (fun d => (ringRd (F := F) m ρ).payload (sendCell c s) 0 d) = sendPay m ρ c s := by
  rw [Finset.sdiff_empty, duties_send m ρ c s hs, bigSep_singleton, payload_send]

theorem rest_recv (s : Fin 8) (hs : s ≠ 0) : bigSep ((ringRd (F := F) m ρ).duties (recvCell c s) 0 \ ∅) (fun d => (ringRd (F := F) m ρ).payload (recvCell c s) 0 d) = recvPay m ρ c s := by
  rw [Finset.sdiff_empty, duties_recv m ρ c s hs, bigSep_singleton, payload_recv]

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- An entry cell lies at level 1, -/
theorem lv_bar (c : Dev nD) : lv (barCell c) () = 1 := rfl
/-- an arrival cell at level 2, -/
theorem lv_recv (c : Dev nD) (s : Fin 8) : lv (recvCell c s) () = 2 := by
  show (if 10 ≤ (recvSem s).val then 2 else 0) = 2
  rw [if_pos (by rw [recvSem_val]; omega)]
/-- and a DMA semaphore numbered below 10 (staging, departure) at level 0. -/
theorem lv_low (c : Dev nD) (q : DmaSem sig) (hq : q.val < 10) : lv ((c : Thread nD τ), .dma q) () = 0 := by
  show (if 10 ≤ q.val then 2 else 0) = 0
  rw [if_neg (by omega)]

/-- A one-cell tally is positive at its own cell only. -/
theorem cell_of_pos {g' g : GSem nD τ sig} {k : ℕ} {u : Unit} (h : 0 < tallyAt g' () k g u) : g = g' :=
  (Pipeline.tallyAt_pos h).1

/-- What a device owes once its signals are sent is owed to arrival cells of rows 1 … 7. -/
theorem O₁_pos {c : Dev nD} {g : GSem nD τ sig} {u : Unit} (h : 0 < O₁ c g u) :
    ∃ s : Fin 8, s ≠ 0 ∧ g = recvCell (peer c (keyOf s)) s := by
  have key : ∀ s : Fin 8, s ≠ 0 → 0 < tallyAt (recvCell (peer c (keyOf s)) s) () N g u →
      ∃ s : Fin 8, s ≠ 0 ∧ g = recvCell (peer c (keyOf s)) s := fun s hs h => ⟨s, hs, cell_of_pos h⟩
  unfold O₁ at h
  refine (Pipeline.add_pos_cases h).elim (fun h => ?_) (key 1 (by decide))
  refine (Pipeline.add_pos_cases h).elim (fun h => ?_) (key 2 (by decide))
  refine (Pipeline.add_pos_cases h).elim (fun h => ?_) (key 3 (by decide))
  refine (Pipeline.add_pos_cases h).elim (fun h => ?_) (key 4 (by decide))
  refine (Pipeline.add_pos_cases h).elim (fun h => ?_) (key 5 (by decide))
  refine (Pipeline.add_pos_cases h).elim (fun h => ?_) (key 6 (by decide))
  exact key 7 (by decide) h

/-- What a device owes at launch is owed to arrival cells of rows 1 … 7 and to its peers' entry cells. -/
theorem O₀_pos {c : Dev nD} {g : GSem nD τ sig} {u : Unit} (h : 0 < O₀ c g u) :
    (∃ s : Fin 8, s ≠ 0 ∧ g = recvCell (peer c (keyOf s)) s) ∨ (∃ k : Fin 8, k ≠ 0 ∧ g = barCell (peer c k)) := by
  have keyB : ∀ k : Fin 8, k ≠ 0 → 0 < tallyAt (barCell (peer c k)) () 1 g u →
      (∃ s : Fin 8, s ≠ 0 ∧ g = recvCell (peer c (keyOf s)) s) ∨ (∃ k : Fin 8, k ≠ 0 ∧ g = barCell (peer c k)) :=
    fun k hk h => .inr ⟨k, hk, cell_of_pos h⟩
  have keyR : ∀ s : Fin 8, s ≠ 0 → 0 < tallyAt (recvCell (peer c (keyOf s)) s) () N g u →
      (∃ s : Fin 8, s ≠ 0 ∧ g = recvCell (peer c (keyOf s)) s) ∨ (∃ k : Fin 8, k ≠ 0 ∧ g = barCell (peer c k)) :=
    fun s hs h => .inl ⟨s, hs, cell_of_pos h⟩
  unfold O₀ at h
  refine (Pipeline.add_pos_cases h).elim (fun h => ?_) (keyB 1 (by decide))
  refine (Pipeline.add_pos_cases h).elim (fun h => ?_) (keyB 2 (by decide))
  refine (Pipeline.add_pos_cases h).elim (fun h => ?_) (keyB 3 (by decide))
  refine (Pipeline.add_pos_cases h).elim (fun h => ?_) (keyB 4 (by decide))
  refine (Pipeline.add_pos_cases h).elim (fun h => ?_) (keyB 5 (by decide))
  refine (Pipeline.add_pos_cases h).elim (fun h => ?_) (keyB 6 (by decide))
  refine (Pipeline.add_pos_cases h).elim (fun h => ?_) (keyB 7 (by decide))
  refine (Pipeline.add_pos_cases h).elim (fun h => ?_) (keyR 1 (by decide))
  refine (Pipeline.add_pos_cases h).elim (fun h => ?_) (keyR 2 (by decide))
  refine (Pipeline.add_pos_cases h).elim (fun h => ?_) (keyR 3 (by decide))
  refine (Pipeline.add_pos_cases h).elim (fun h => ?_) (keyR 4 (by decide))
  refine (Pipeline.add_pos_cases h).elim (fun h => ?_) (keyR 5 (by decide))
  refine (Pipeline.add_pos_cases h).elim (fun h => ?_) (keyR 6 (by decide))
  exact keyR 7 (by decide) h

/-- A wait on a level-0 DMA semaphore (staging or departure) is allowed owing all of O₀, or nothing: everything owed
    lies at level 1 or 2. -/
theorem mayWait_stage (c : Dev nD) (q : DmaSem sig) (hq : q.val < 10) (O : CellTallies nD τ sig Unit) (hO : O = O₀ c ∨ O = 0) :
    (levAts L lv : sProp (MT nD τ sig Unit (Elt F) ℕ UU ℕ)) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨s, -, rfl⟩ | ⟨k, -, rfl⟩ <;> (rw [L_tc]; exact Finset.mem_singleton_self _))
      (fun p hp => by rw [Finset.mem_singleton.mp hp]; exact (lv_low c q hq).le)
      (fun g u hg => by
        rcases O₀_pos hg with ⟨s, -, rfl⟩ | ⟨k, -, rfl⟩
        · rw [lv_recv]; exact Nat.two_pos
        · rw [lv_bar]; exact Nat.one_pos)
  · rw [MayWait_zero]; iintro -; iempintro

/-- At its entry wait a device owes the seven arrivals only: arrival cells lie above entry cells. -/
theorem mayWait_bar (c : Dev nD) :
    (levAts L lv : sProp (MT nD τ sig Unit (Elt F) ℕ UU ℕ)) ⊢ MayWait (c : Thread nD τ) (.reg barS) () (O₁ c) :=
  MayOwe.of_cut (L := L) (lev := lv) 1
    (fun p hp => by rw [Finset.mem_singleton.mp hp, L_tc]; exact Finset.mem_singleton_self _)
    (fun g u hg => by obtain ⟨s, -, rfl⟩ := O₁_pos hg; rw [L_tc]; exact Finset.mem_singleton_self _)
    (fun p hp => by rw [Finset.mem_singleton.mp hp]; exact (lv_bar c).le)
    (fun g u hg => by obtain ⟨s, -, rfl⟩ := O₁_pos hg; rw [lv_recv]; exact Nat.one_lt_two)

end Tables

end Cert.KernelIdeal.Proto

end

/-- info: 'Cert.KernelIdeal.Proto.mayWait_bar' depends on axioms: [propext, Classical.choice, Quot.sound] -/
#guard_msgs in #print axioms Cert.KernelIdeal.Proto.mayWait_bar
-- ==== Proof.LaunchRun.lean ====
/-
  The launch of the eight devices' kernels, and what their arrays hold in the end.

  At launch every device is dealt, per cell of its own, one credit token for every unit the other devices owe that
  cell. Counting what is owed: the entry cell of a device is owed one unit by each of the seven other devices (every
  other device is its peer at exactly one key), and the arrival cell of its row `s` the row's credit by the one
  peer whose copy lands there. With that credit, the level facts, and the ghost state the allocation of all cells
  hands it, a device enters the invariant of the kernel's one grid point; it leaves it with the two scratch buffers
  and its sixteen own counters back at zero. The launch theorem then runs all eight kernels; since the one window of
  each array is the whole array, the input array is unchanged and the result array is the block the body wrote.
-/
import proofs.«900601_g7700000000000602_dist_softmax_colshard_i_m1024_n512_v7x_i8_bf16_1_alg».proof.Proof.LaunchDefs
import proofs.«900601_g7700000000000602_dist_softmax_colshard_i_m1024_n512_v7x_i8_bf16_1_alg».proof.Proof.Tables

noncomputable section

namespace Cert.KernelIdeal.Proto

open Cert.KernelIdeal Cert.KernelIdeal.Gen Cert.KernelIdeal.Mesh Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem share_eq (m : (ℓ : Loc nD τ sig) → Buf (Elt F) ℓ) (ρ : Dev nD → PrngReg) (c : Dev nD) (w : Fin cfg0.W) : (dats m ρ 0 c).share w = fullShare := by unfold Dat.share; split <;> rfl

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} {s s' : Fin 8} : Iff (recvCell a s = recvCell b s') (a = b ∧ s = s') :=
  ⟨fun h => ⟨Fin.ext (congrArg (fun g : GSem nD τ sig => g.1.1.val) h),
      recvSem_inj (SemLoc.dma.inj (congrArg Prod.snd h))⟩, fun h => by rw [h.1, h.2]⟩
omit [FloatOps F] in
theorem bar_ne_recv (a b : Dev nD) (s : Fin 8) : barCell a ≠ recvCell b s := fun h => recv_ne_bar s (congrArg Prod.snd h).symm
omit [FloatOps F] in
theorem recv_ne_bar_cell (a b : Dev nD) (s : Fin 8) : recvCell b s ≠ barCell a := fun h => recv_ne_bar s (congrArg Prod.snd h)

/-- Among the keys 1 … 7, the peers of `d` hit `c` exactly once unless `c = d`. -/
theorem count_bar : ∀ d c : Dev nD,
    (((((((if c = peer d 7 then 1 else 0) + (if c = peer d 6 then 1 else 0)) + (if c = peer d 5 then 1 else 0)) + (if c = peer d 4 then 1 else 0))
      + (if c = peer d 3 then 1 else 0)) + (if c = peer d 2 then 1 else 0)) + (if c = peer d 1 then 1 else 0)) = (if d ≠ c then 1 else 0 : ℕ) := by decide

omit [FloatOps F] in
/-- What device `d` owes the entry cell of device `c`: one unit, unless it is `c` itself. -/
theorem owed_bar (d c : Dev nD) : O₀ d (barCell c) () = if d ≠ c then 1 else 0 := by
  unfold O₀
  simp only [Pi.add_apply, Finsupp.add_apply, tallyAt_apply, bar_eq_iff, bar_ne_recv, and_true, false_and, if_false, Nat.zero_add]
  exact count_bar d c

/-- Among the rows 1 … 7, row `s` of device `c` is the destination of `d`'s copy exactly when `d` is the peer of `c` whose key is the row's. -/
theorem count_recv : ∀ (d c : Dev nD) (s : Fin 8),
    (((((((if c = peer d (keyOf 7) ∧ s = 7 then 1 else 0) + (if c = peer d (keyOf 6) ∧ s = 6 then 1 else 0)) + (if c = peer d (keyOf 5) ∧ s = 5 then 1 else 0))
      + (if c = peer d (keyOf 4) ∧ s = 4 then 1 else 0)) + (if c = peer d (keyOf 3) ∧ s = 3 then 1 else 0)) + (if c = peer d (keyOf 2) ∧ s = 2 then 1 else 0))
      + (if c = peer d (keyOf 1) ∧ s = 1 then 1 else 0)) = (if s ≠ 0 ∧ d = peer c (keyOf s) then 1 else 0 : ℕ) := by decide

omit [FloatOps F] in
theorem ite_scale (p : Prop) [Decidable p] (n : ℕ) : (if p then n else 0) = n * (if p then 1 else 0) := by
  split <;> simp

omit [FloatOps F] in
/-- What device `d` owes the arrival cell of row `s` of device `c`: the row's credit, if its copy into that row goes to `c`. -/
theorem owed_recv (d c : Dev nD) (s : Fin 8) : O₀ d (recvCell c s) () = if s ≠ 0 ∧ d = peer c (keyOf s) then N else 0 := by
  unfold O₀
  simp only [Pi.add_apply, Finsupp.add_apply, tallyAt_apply, recv_eq_iff, recv_ne_bar_cell, and_true, false_and, if_false, Nat.add_zero]
  rw [ite_scale _ N, ite_scale _ N, ite_scale _ N, ite_scale _ N, ite_scale _ N, ite_scale _ N, ite_scale _ N, ite_scale (s ≠ 0 ∧ d = peer c (keyOf s)) N,
    ← Nat.mul_add, ← Nat.mul_add, ← Nat.mul_add, ← Nat.mul_add, ← Nat.mul_add, ← Nat.mul_add, count_recv d c s]

omit [FloatOps F] in
theorem sum_others : ∀ c : Dev nD, (∑ d : Dev nD, if d ≠ c then 1 else 0) = 7 := by decide

omit [FloatOps F] in
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, sum_others]

omit [FloatOps F] in
theorem launch_recv (c : Dev nD) (s : Fin 8) (hs : s ≠ 0) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s]
  simp only [hs, ne_eq, not_false_eq_true, true_and]
  rw [Finset.sum_ite_eq' Finset.univ (peer c (keyOf s)) fun _ => N, if_pos (Finset.mem_univ _)]

omit [FloatOps F] in
theorem recvLoc_injective : Function.Injective (fun s : Fin 8 => (SemLoc.dma (recvSem s) : SemLoc sig)) :=
  fun s s' h => recvSem_inj (SemLoc.dma.inj h)

omit [FloatOps F] in
/-- The launch deals a device the credit of its entry cell, seven units, and of each of its seven arrival cells. -/
theorem creds (c : Dev nD) :
    (Pipeline.launchCred O₀ c : sProp 𝕄) ⊢ iprop(cred (tallyAt (barCell c) () 7) ∗ bigSep seven fun s => cred (tallyAt (recvCell c s) () N)) := by
  unfold Pipeline.launchCred
  rw [bigSep_univ_at _ (SemLoc.reg barS), launch_bar]
  refine sep_mono_right ?_
  refine (bigSep_subset (t := seven.map ⟨fun s : Fin 8 => (SemLoc.dma (recvSem s) : SemLoc sig), recvLoc_injective⟩) fun q hq => ?_).trans ?_
  · obtain ⟨s, -, rfl⟩ := Finset.mem_map.mp hq
    exact Finset.mem_erase.mpr ⟨recv_ne_bar s, Finset.mem_univ _⟩
  · rw [bigSep_map]
    refine bigSep_mono fun s hs => ?_
    rw [← launch_recv c s (Finset.mem_erase.mp hs).1]
    exact .refl _

/-! ## The launch theorem's side conditions -/

/-- Into the body's starting state: the launch credit sorted, the two plain counters of row 0 carried over. -/
theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G'
  iintro ⟨-, Hlev, Hcr, -, HG, Hs0, Hr0⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    isplitl [Hs0]; · iexact Hs0
    iexact Hr0
  · iempintro

theorem phi0_intro (m : (ℓ : Loc nD τ sig) → Buf (Elt F) ℓ) (ρ : Dev nD → PrngReg) (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Ha, Hb⟩
  isplitl [Hs]; · iexact Hs
  isplitl [Ha]; · iexact Ha
  iexact Hb

omit [FloatOps F] in
/-- The kernel's sixteen own semaphores at zero, listed: the eight departure counters, then the eight arrival counters. -/
theorem ownSems0_list (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (sendCell c 4) 0 ∗ semVal (sendCell c 5) 0 ∗ semVal (sendCell c 6) 0 ∗ semVal (sendCell c 7) 0
        ∗ semVal (recvCell c 0) 0 ∗ semVal (recvCell c 1) 0 ∗ semVal (recvCell c 2) 0 ∗ semVal (recvCell c 3) 0
        ∗ semVal (recvCell c 4) 0 ∗ semVal (recvCell c 5) 0 ∗ semVal (recvCell c 6) 0 ∗ semVal (recvCell c 7) 0) := by
  rw [Pipeline.ownSems0_eq_of_list c osem [0, 1, 2, 3, 4, 5, 6, 7, 8, 9, 10, 11, 12, 13, 14, 15] (by decide) (by decide)]; rfl

omit [FloatOps F] in
/-- So they are what the body gives back: the eight departure and the eight arrival counters at zero. -/
theorem ownSems0_intro (c : Dev nD) :
    iprop((bigSep Finset.univ fun s : Fin 8 => semVal (sendCell c s) 0) ∗ (bigSep Finset.univ fun s : Fin 8 => semVal (recvCell c s) 0))
      ⊢ (Pipeline.ownSems0 (Ix := Unit) (Name := ℕ) (U := UU) (Lvl := ℕ) (Val := Elt F) (τ := τ) osem c : sProp 𝕄) := by
  rw [ownSems0_list, bigSep_eight, bigSep_eight]
  iintro ⟨⟨S0, S1, S2, S3, S4, S5, S6, S7⟩, R0, R1, R2, R3, R4, R5, R6, R7⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R7

theorem phi1_exit (m : (ℓ : Loc nD τ sig) → Buf (Elt F) ℓ) (ρ : Dev nD → PrngReg) (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁
  iintro ⟨Ha, Hb, HS, HR⟩
  isplitr; · iempintro
  isplitl [HS HR]
  · iapply (ownSems0_intro (F := F) c)
    isplitl [HS] <;> iassumption
  isplitl [Ha]; · iexact Ha
  iexact Hb

/-- The pipeline's own waits (on the two staging semaphores) lie below everything a device owes. -/
theorem waits (m : (ℓ : Loc nD τ sig) → Buf (Elt F) ℓ) (ρ : Dev nD → PrngReg) (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- At the compiled mesh of eight devices, for any float values, from any memory with zero counters: given the body
    obligation of every device and the step that allocates all devices' cells at once, every weakly fair execution
    of @main — the eight kernels signalling each other's entry cells, then copying their statistics to each other —
    terminates, and every final state has each device's arrays at the contents the pipeline's proof data name. -/
theorem run_main (m : (ℓ : Loc nD τ sig) → Buf (Elt F) ℓ) (ρ : Dev nD → PrngReg) (G : Dev nD → sProp 𝕄) (u₀ : UU) (hown : Pipeline.OwnSemFacts cfg0.spec osem)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄) ⊢ |={Set.univ}=> bigSep Finset.univ (G' m ρ))
    (hbody : ∀ c, BodyObligation (dats (F := F) m ρ 0 c) (defs₀ (F := F)) 𝒱₀ () Set.univ) :
    θ_run defs (onTc (τ := τ) (main (F := F))) (s₀ m ρ) (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ hown (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' m ρ) (u₀ := u₀)
    (hu₀ := hu₀)
    (hglob := hglob)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Proto.run_main' depends on axioms: [propext, Classical.choice, Quot.sound] -/
#guard_msgs in #print axioms run_main

/-! ## The final arrays -/

omit [FloatOps F] in
/-- A device's block as its staging buffer holds it is its input array: the window is the whole array, at the one point. -/
theorem X_eq (m : (ℓ : Loc nD τ sig) → Buf (Elt F) ℓ) (ρ : Dev nD → PrngReg) (d : Dev nD) : X m ρ d = m ((d.tc : Thread nD τ).loc main_arg0) := by
  have hz0 : (fun a => (win0_0.index (0 : Fin 1)) a * main_arg0.ty.shape.size a) = fun _ => 0 :=
    funext fun a => by fin_cases a <;> decide
  exact Memref.read_access_unit_zero (Elt F) main_arg0 hz0 (fun a => by fin_cases a <;> decide) _

/-- The input array is never written: it ends holding what it held. -/
theorem finalA_x (m : (ℓ : Loc nD τ sig) → Buf (Elt F) ℓ) (ρ : Dev nD → PrngReg) (c : Dev nD) : (dats m ρ 0 c).arrAt (0 : Fin 2) cfg0.N = m ((c.tc : Thread nD τ).loc main_arg0) :=
  (dats (F := F) m ρ 0 c).arrAt_in (0 : Fin 2) rfl _

/-- The result array is written back once, whole, at the one point: it ends holding the block the body left. -/
theorem finalA_out (m : (ℓ : Loc nD τ sig) → Buf (Elt F) ℓ) (ρ : Dev nD → PrngReg) (c : Dev nD) : (dats m ρ 0 c).arrAt (1 : Fin 2) cfg0.N = outOf (fun d => m ((d.tc : Thread nD τ).loc main_arg0)) c := by
  have hz : (fun a => (win0_1.index t₀) a * main_v1.ty.shape.size a) = fun _ => 0 :=
    funext fun a => by fin_cases a <;> decide
  rw [show cfg0.N = (t₀ : Fin cfg0.N).val + 1 from rfl, (dats m ρ 0 c).arrAt_succ (1 : Fin 2) t₀, if_pos (flush0_1 t₀),
    show (fun d : Dev nD => m ((d.tc : Thread nD τ).loc main_arg0)) = X m ρ from funext fun d => (X_eq m ρ d).symm]
  exact Memref.write_access_unit_zero_univ (Elt F) main_v1 hz (fun a => by fin_cases a <;> decide) _ _

/-- THE RUN, in its strongest form: every device's result array ends at its block of the result as a pure term of all
    devices' input arrays, and its input array is unchanged. -/
theorem run_values (m : (ℓ : Loc nD τ sig) → Buf (Elt F) ℓ) (ρ : Dev nD → PrngReg) (G : Dev nD → sProp 𝕄) (u₀ : UU) (hown : Pipeline.OwnSemFacts cfg0.spec osem)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄) ⊢ |={Set.univ}=> bigSep Finset.univ (G' m ρ))
    (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outOf (fun d => m ((d.tc : Thread nD τ).loc main_arg0)) c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩)
    (run_main m ρ G u₀ hown hu₀ hglob hbody)

/-- info: 'Cert.KernelIdeal.Proto.run_values' depends on axioms: [propext, Classical.choice, Quot.sound] -/
#guard_msgs in #print axioms run_values

end Cert.KernelIdeal.Proto

end
-- ==== Proof.LaunchAlloc.lean ====
/-
  The launch's allocation step: every device's fifteen cells funded and made invariants at once, and the duty
  tokens dealt to the devices that pay them.

  The launch element of the protocol's copy of the algebra holds, for each device, the round state, the position and
  the mark of round 0 of its fifteen cells, and the tokens of those cells' twenty-one duties. With the counters of the
  cells at zero each round state closes into an invariant. The tokens are minted at the cell that owns the duty but
  are spent by the device that pays it: duty `k` of a device's entry cell by its peer of key `k`, the arrival duty of
  its row `s` by its peer of key `keyOf s`, the departure duty by the device itself. Pairing by a fixed key permutes
  the devices, so dealing the tokens is re-indexing each family along that permutation.
-/
import proofs.«900601_g7700000000000602_dist_softmax_colshard_i_m1024_n512_v7x_i8_bf16_1_alg».proof.Proof.LaunchDefs
import proofs.«900601_g7700000000000602_dist_softmax_colshard_i_m1024_n512_v7x_i8_bf16_1_alg».proof.Proof.Tables

noncomputable section

namespace Cert.KernelIdeal.Proto

open Cert.KernelIdeal Cert.KernelIdeal.Gen Cert.KernelIdeal.Mesh Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every payload of the schedule can be kept in an invariant. -/
instance ringRd_payload_storable (g : GSem nD τ sig) (r : ℕ) (d : Fin 8) :
    BI.Storable (upEmb : UEmb _ 𝕄) ((ringRd (F := F) m ρ).payload g r d) := by
  show BI.Storable upEmb (match g.2 with
    | .reg _ => barPay g.1.1 d
    | .dma q => if 10 ≤ q.val then recvPay m ρ g.1.1 (semRow q) else sendPay m ρ g.1.1 (semRow q))
  unfold barPay recvPay sendPay rowPts
  (repeat' split) <;> infer_instance

/-! ## The kernel's own semaphores and the barrier semaphore, at zero -/

theorem ownSemFacts : Pipeline.OwnSemFacts cfg0.spec osem := by decide

theorem osem_send (s : Fin 8) : osem (finSumFinEquiv (m := 8) (n := 8) (Sum.inl s)) = .dma (sendSem s) := by revert s; decide
theorem osem_recv (s : Fin 8) : osem (finSumFinEquiv (m := 8) (n := 8) (Sum.inr s)) = .dma (recvSem s) := by revert s; decide

omit [FloatOps F] in
/-- The sixteen own semaphores are the eight departure and the eight arrival semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 8 => semVal (sendCell c s) 0) ∗ (bigSep Finset.univ fun s : Fin 8 => semVal (recvCell c s) 0)) := by
  unfold Pipeline.ownSems0
  rw [bigSep_univ_equiv (finSumFinEquiv (m := 8) (n := 8)), bigSep_univ_sum]
  exact congrArg₂ BI.sep (bigSep_congr fun s _ => by rw [osem_send s]) (bigSep_congr fun s _ => by rw [osem_recv s])

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells and the duty tokens -/

/-- The rows, or keys, `1 … 7`. -/
abbrev R7 : Type := {s : Fin 8 // s ≠ 0}

/-- A device's fifteen cells: the entry cell, then a departure and an arrival cell for each row `1 … 7`. -/
abbrev CI : Type := Unit ⊕ (R7 ⊕ R7)

def csem : CI → SemLoc sig
  | .inl _ => .reg barS
  | .inr (.inl s) => .dma (sendSem s.1)
  | .inr (.inr s) => .dma (recvSem s.1)

abbrev kcell (ck : Dev nD × CI) : GSem nD τ sig := ((ck.1 : Thread nD τ), csem ck.2)

theorem csem_injective : Function.Injective csem := by
  rintro (a | a | a) (b | b | b) h
  · rfl
  · cases h
  · cases h
  · cases h
  · exact congrArg (fun x => Sum.inr (Sum.inl x)) (Subtype.ext (sendSem_inj (SemLoc.dma.inj h)))
  · exact absurd h (send_ne_recv _ _)
  · cases h
  · exact absurd h.symm (send_ne_recv _ _)
  · exact congrArg (fun x => Sum.inr (Sum.inr x)) (Subtype.ext (recvSem_inj (SemLoc.dma.inj h)))

theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- All the protocol's cells: fifteen a device. -/
def ringCells : Finset (GSem nD τ sig) := Finset.univ.map ⟨kcell, kcell_injective⟩

theorem bar_mem (c : Dev nD) : barCell c ∈ ringCells := Finset.mem_map.mpr ⟨(c, .inl ()), Finset.mem_univ _, rfl⟩
theorem send_mem (c : Dev nD) {s : Fin 8} (hs : s ∈ seven) : sendCell c s ∈ ringCells :=
  Finset.mem_map.mpr ⟨(c, .inr (.inl ⟨s, Finset.ne_of_mem_erase hs⟩)), Finset.mem_univ _, rfl⟩
theorem recv_mem (c : Dev nD) {s : Fin 8} (hs : s ∈ seven) : recvCell c s ∈ ringCells :=
  Finset.mem_map.mpr ⟨(c, .inr (.inr ⟨s, Finset.ne_of_mem_erase hs⟩)), Finset.mem_univ _, rfl⟩

/-- A device's own cells' duty tokens as minted: the seven of its entry cell, then one for each departure and each
    arrival cell. -/
abbrev TI : Type := R7 ⊕ (R7 ⊕ R7)

def tokOf (cj : Dev nD × TI) : GSem nD τ sig × ℕ × Fin 8 := match cj.2 with
  | .inl k => (barCell cj.1, 0, k.1)
  | .inr (.inl s) => (sendCell cj.1 s.1, 0, 0)
  | .inr (.inr s) => (recvCell cj.1 s.1, 0, 0)

theorem tokOf_injective : Function.Injective (tokOf : Dev nD × TI → GSem nD τ sig × ℕ × Fin 8) := by
  rintro ⟨c, j⟩ ⟨c', j'⟩ h
  have h1 : c = c' := by
    have := congrArg (fun x : GSem nD τ sig × ℕ × Fin 8 => x.1.1.1) h
    rcases j with j | j | j <;> rcases j' with j' | j' | j' <;> exact this
  subst h1
  have hs : (tokOf (c, j)).1.2 = (tokOf (c, j')).1.2 := congrArg (fun x : GSem nD τ sig × ℕ × Fin 8 => x.1.2) h
  have hd : (tokOf (c, j)).2.2 = (tokOf (c, j')).2.2 := congrArg (fun x : GSem nD τ sig × ℕ × Fin 8 => x.2.2) h
  have : j = j' := by
    rcases j with j | j | j <;> rcases j' with j' | j' | j'
    · exact congrArg Sum.inl (Subtype.ext hd)
    · cases hs
    · cases hs
    · cases hs
    · exact congrArg (fun x => Sum.inr (Sum.inl x)) (Subtype.ext (sendSem_inj (SemLoc.dma.inj hs)))
    · exact absurd hs (send_ne_recv _ _)
    · cases hs
    · exact absurd hs.symm (send_ne_recv _ _)
    · exact congrArg (fun x => Sum.inr (Sum.inr x)) (Subtype.ext (recvSem_inj (SemLoc.dma.inj hs)))
  subst this; rfl

def ringToks : Finset (GSem nD τ sig × ℕ × Fin 8) := Finset.univ.map ⟨tokOf, tokOf_injective⟩

/-- The launch element: the pipeline's copy for the staging cells, the protocol's for ours. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep seven fun k => dutyTok ER (barCell c) 0 k)
    ∗ (bigSep seven fun s => dutyTok ER (sendCell c s) 0 0)
    ∗ (bigSep seven fun s => dutyTok ER (recvCell c s) 0 0))

/-- What the launch element deals device `c`: the round states of its fifteen cells, its positions at them with the
    marks of round 0, and the tokens of those cells' duties. -/
def G (c : Dev nD) : sProp 𝕄 :=
  iprop((bigSep Finset.univ fun k : CI => roundState ER (ringRd m ρ) (kcell (c, k)) 0)
    ∗ (bigSep Finset.univ fun k : CI => iprop(atPos ER (kcell (c, k)) 0 ∅ 0 ∗ reached ER (kcell (c, k)) 0)) ∗ toks c)

/-! ## Families over a device's cells and tokens, by kind -/

omit [FloatOps F] in
/-- A family over a device's fifteen cells: the entry cell's member, and for each row `1 … 7` the departure cell's and
    the arrival cell's. -/
theorem bigSep_cells (c : Dev nD) (Φ : GSem nD τ sig → sProp 𝕄) :
    (bigSep Finset.univ fun k : CI => Φ (kcell (c, k)))
      = iprop(Φ (barCell c) ∗ bigSep seven fun s => iprop(Φ (sendCell c s) ∗ Φ (recvCell c s))) := by
  rw [bigSep_univ_sum, bigSep_univ_sum, bigSep_univ_of_subsingleton (), bigSep_sep',
    ← bigSep_subtype_ne (0 : Fin 8) (fun s => Φ (sendCell c s)), ← bigSep_subtype_ne (0 : Fin 8) (fun s => Φ (recvCell c s))]
  rfl

omit [FloatOps F] in
theorem bigSep_toks (c : Dev nD) :
    (bigSep Finset.univ fun j : TI => (dutyTok ER (tokOf (c, j)).1 (tokOf (c, j)).2.1 (tokOf (c, j)).2.2 : sProp 𝕄)) = toks c := by
  unfold toks
  rw [bigSep_univ_sum, bigSep_univ_sum, ← bigSep_subtype_ne (0 : Fin 8) (fun k => (dutyTok ER (barCell c) 0 k : sProp 𝕄)),
    ← bigSep_subtype_ne (0 : Fin 8) (fun s => (dutyTok ER (sendCell c s) 0 0 : sProp 𝕄)),
    ← bigSep_subtype_ne (0 : Fin 8) (fun s => (dutyTok ER (recvCell c s) 0 0 : sProp 𝕄))]
  rfl

omit [FloatOps F] in
theorem bigSep_ringCells (Φ : GSem nD τ sig → sProp 𝕄) :
    bigSep ringCells Φ = bigSep Finset.univ fun c : Dev nD => bigSep Finset.univ fun k : CI => Φ (kcell (c, k)) := by
  unfold ringCells; rw [bigSep_map, bigSep_univ_prod]; rfl

/-! ## Funding -/

theorem fund_ring : BI.own (ER (initOf ringCells ringToks)) ⊢ (|==> bigSep Finset.univ (G m ρ) : sProp 𝕄) := by
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => bigSep_toks c
  iintro HX
  imod (Rounds.fund ER (ringRd m ρ) ringCells ringToks) $$ HX with ⟨Hst, Hr, Hat, Htok⟩
  imodintro
  ihave Hst' := (Entails.of_eq (bigSep_ringCells fun g => roundState ER (ringRd m ρ) g 0)) $$ Hst
  ihave Hat' := (Entails.of_eq (bigSep_ringCells fun g => atPos ER g 0 ∅ 0)) $$ Hat
  ihave Hr' := (Entails.of_eq (bigSep_ringCells fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element pays for the pipeline's copy and for every device's share of the protocol's. -/
theorem fund_all : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The cells' counters close their round states into invariants -/

omit [FloatOps F] in
/-- A device's seventeen counters at zero: those of its fifteen cells, and the two of row 0, which are set aside. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell (c, k)) 0) ∗ semVal (sendCell c 0) 0 ∗ semVal (recvCell c 0) 0) : sProp 𝕄) := by
  rw [ownSems0_eq, unscopedSems0_eq, bigSep_cells c (fun g => semVal g 0), bigSep_sep',
    bigSep_univ_at (fun s : Fin 8 => (semVal (sendCell c s) 0 : sProp 𝕄)) 0, bigSep_univ_at (fun s : Fin 8 => (semVal (recvCell c s) 0 : sProp 𝕄)) 0]
  iintro ⟨⟨⟨HS0, HS⟩, HV0, HV⟩, HB⟩
  isplitl [HB HS HV]
  · isplitl [HB]; · iexact HB
    isplitl [HS] <;> iassumption
  isplitl [HS0] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (ringRd m ρ) κ (kcell (c, k))))
          ∗ (bigSep Finset.univ fun k : CI => iprop(atPos ER (kcell (c, k)) 0 ∅ 0 ∗ reached ER (kcell (c, k)) 0)) ∗ toks c
          ∗ semVal (sendCell c 0) 0 ∗ semVal (recvCell c 0) 0) := by
  unfold G
  iintro ⟨Hos, Hus, Hst, Hat, Htok⟩
  ihave Hv := (sems0_eq (F := F) c) $$ [Hos Hus]
  · isplitl [Hos] <;> iassumption
  icases Hv with ⟨Hv, HS0, HV0⟩
  imod (show iprop((bigSep Finset.univ fun k : CI => semVal (kcell (c, k)) 0) ∗ bigSep Finset.univ fun k : CI => roundState ER (ringRd m ρ) (kcell (c, k)) 0)
      ⊢ (|={Set.univ}=> bigSep Finset.univ fun k : CI => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [HS0] <;> iassumption

/-! ## The records every device reads, and the dealing of the tokens -/

/-- All the invariants, under the names `K`, and all the marks of round 0. -/
def records (K : GSem nD τ sig → ℕ) : sProp 𝕄 :=
  iprop((bigSep ringCells fun g => cellInv ER (ringRd m ρ) (K g) g) ∗ bigSep ringCells fun g => reached ER g 0)

instance records_persistent (K : GSem nD τ sig → ℕ) : BI.Persistent (records m ρ K) := by unfold records; infer_instance

theorem inv_at (K : GSem nD τ sig → ℕ) {g : GSem nD τ sig} (hg : g ∈ ringCells) : records m ρ K ⊢ cellInv ER (ringRd m ρ) (K g) g := by
  unfold records
  have h : (bigSep ringCells fun g => (cellInv ER (ringRd m ρ) (K g) g : sProp 𝕄)) ⊢ cellInv ER (ringRd m ρ) (K g) g := bigSep_elim hg
  iintro ⟨HI, -⟩
  iapply h; iexact HI

theorem reached_at (K : GSem nD τ sig → ℕ) {g : GSem nD τ sig} (hg : g ∈ ringCells) : records m ρ K ⊢ reached ER g 0 := by
  unfold records
  have h : (bigSep ringCells fun g => (reached ER g 0 : sProp 𝕄)) ⊢ reached ER g 0 := bigSep_elim hg
  iintro ⟨-, HR⟩
  iapply h; iexact HR

theorem invs_intro (K : GSem nD τ sig → ℕ) (c : Dev nD) : records m ρ K ⊢ invs m ρ K c := by
  have h1 : records m ρ K ⊢ (bigSep seven fun s => iprop(cellInv ER (ringRd m ρ) (K (sendCell c s)) (sendCell c s) ∗ cellInv ER (ringRd m ρ) (K (recvCell c s)) (recvCell c s)) : sProp 𝕄) :=
    bigSep_intro_persistent fun s hs => by
      iintro #HR
      isplitr
      · iapply (inv_at m ρ K (send_mem c hs)); iexact HR
      · iapply (inv_at m ρ K (recv_mem c hs)); iexact HR
  have h2 : records m ρ K ⊢ (bigSep seven fun k => cellInv ER (ringRd m ρ) (K (barCell (peer c k))) (barCell (peer c k)) : sProp 𝕄) :=
    bigSep_intro_persistent fun k _ => inv_at m ρ K (bar_mem (peer c k))
  have h3 : records m ρ K ⊢ (bigSep seven fun s => cellInv ER (ringRd m ρ) (K (recvCell (peer c (keyOf s)) s)) (recvCell (peer c (keyOf s)) s) : sProp 𝕄) :=
    bigSep_intro_persistent fun s hs => inv_at m ρ K (recv_mem (peer c (keyOf s)) hs)
  unfold invs
  iintro #HR
  isplitr; · iapply (inv_at m ρ K (bar_mem c)); iexact HR
  isplitr; · iapply h1; iexact HR
  isplitr; · iapply h2; iexact HR
  iapply h3; iexact HR

theorem marks_intro (K : GSem nD τ sig → ℕ) (c : Dev nD) : records m ρ K ⊢ marks c := by
  have h1 : records m ρ K ⊢ (bigSep seven fun k => reached ER (barCell (peer c k)) 0 : sProp 𝕄) :=
    bigSep_intro_persistent fun k _ => reached_at m ρ K (bar_mem (peer c k))
  have h2 : records m ρ K ⊢ (bigSep seven fun s => reached ER (recvCell (peer c (keyOf s)) s) 0 : sProp 𝕄) :=
    bigSep_intro_persistent fun s hs => reached_at m ρ K (recv_mem (peer c (keyOf s)) hs)
  have h3 : records m ρ K ⊢ (bigSep seven fun s => iprop(reached ER (sendCell c s) 0 ∗ reached ER (recvCell c s) 0) : sProp 𝕄) :=
    bigSep_intro_persistent fun s hs => by
      iintro #HR
      isplitr
      · iapply (reached_at m ρ K (send_mem c hs)); iexact HR
      · iapply (reached_at m ρ K (recv_mem c hs)); iexact HR
  unfold marks
  iintro #HR
  isplitr; · iapply h1; iexact HR
  isplitr; · iapply h2; iexact HR
  iapply h3; iexact HR

/-- The tokens of the duties device `c` pays: duty `k` of the entry cell of its peer of key `k`; for each row `s`, the
    arrival duty of that row on the peer of key `keyOf s`, and its own departure duty. -/
def payToks (c : Dev nD) : sProp 𝕄 :=
  iprop((bigSep seven fun k => dutyTok ER (barCell (peer c k)) 0 k)
    ∗ (bigSep seven fun s => iprop(dutyTok ER (recvCell (peer c (keyOf s)) s) 0 0 ∗ dutyTok ER (sendCell c s) 0 0)))

omit [FloatOps F] in
/-- A doubly indexed family, each column re-indexed by a permutation of the rows of its own. -/
theorem bigSep_deal {I J : Type} [Fintype I] [DecidableEq J] (S : Finset J) (A : I → J → sProp 𝕄) (e : J → I ≃ I) :
    (bigSep Finset.univ fun c => bigSep S fun k => A c k) = bigSep Finset.univ fun c => bigSep S fun k => A (e k c) k := by
  induction S using Finset.induction_on with
  | empty => simp only [bigSep_empty]
  | insert k S hk ih =>
    have e1 : (bigSep Finset.univ fun c => bigSep (insert k S) fun k => A c k)
        = iprop((bigSep Finset.univ fun c => A c k) ∗ bigSep Finset.univ fun c => bigSep S fun k => A c k) := by
      rw [← bigSep_sep']; exact bigSep_congr fun c _ => bigSep_insert hk
    have e2 : (bigSep Finset.univ fun c => bigSep (insert k S) fun k => A (e k c) k)
        = iprop((bigSep Finset.univ fun c => A (e k c) k) ∗ bigSep Finset.univ fun c => bigSep S fun k => A (e k c) k) := by
      rw [← bigSep_sep']; exact bigSep_congr fun c _ => bigSep_insert hk
    rw [e1, e2, ih, bigSep_univ_equiv (e k) (fun c => A c k)]

omit [FloatOps F] in
/-- The tokens dealt: each from the device that owns the duty's cell to the device that pays the duty. -/
theorem toks_around : (bigSep Finset.univ fun c : Dev nD => (toks c : sProp 𝕄)) ⊢ bigSep Finset.univ fun c : Dev nD => payToks c := by
  unfold toks payToks
  rw [bigSep_sep', bigSep_sep', bigSep_sep',
    bigSep_deal seven (fun (c : Dev nD) k => (dutyTok ER (barCell c) 0 k : sProp 𝕄)) peerEquiv,
    bigSep_deal seven (fun (c : Dev nD) s => (dutyTok ER (recvCell c s) 0 0 : sProp 𝕄)) (fun s => peerEquiv (keyOf s)),
    bigSep_congr (s := Finset.univ) (fun (c : Dev nD) _ => bigSep_sep' seven (fun s => (dutyTok ER (recvCell (peer c (keyOf s)) s) 0 0 : sProp 𝕄)) (fun s => dutyTok ER (sendCell c s) 0 0)),
    bigSep_sep']
  iintro ⟨H1, H2, H3⟩
  isplitl [H1]; · iexact H1
  isplitl [H3]; · iexact H3
  iexact H2

/-! ## Every device's ghost state -/

theorem ghost_intro (K : GSem nD τ sig → ℕ) (c : Dev nD) :
    iprop(records m ρ K ∗ ((bigSep Finset.univ fun k : CI => atPos ER (kcell (c, k)) 0 ∅ 0) ∗ payToks c) ∗ semVal (sendCell c 0) 0 ∗ semVal (recvCell c 0) 0)
      ⊢ G' m ρ c := by
  rw [bigSep_cells c (fun g => atPos ER g 0 ∅ 0)]
  unfold G' ghost payToks
  iintro ⟨#HR, ⟨⟨HaB, HaX⟩, HtB, HtX⟩, HS, HV⟩
  isplitr [HS HV]
  · iexists K
    isplitr; · iapply (invs_intro m ρ K c); iexact HR
    isplitr; · iapply (marks_intro m ρ K c); iexact HR
    unfold linear
    isplitl [HaB]; · iexact HaB
    isplitl [HaX]; · iexact HaX
    isplitl [HtB]; · iexact HtB
    iexact HtX
  isplitl [HS] <;> iassumption

theorem regroup :
    (bigSep Finset.univ fun c : Dev nD => iprop((bigSep Finset.univ fun k : CI => iprop(∃ κ : ℕ, cellInv ER (ringRd m ρ) κ (kcell (c, k))))
          ∗ (bigSep Finset.univ fun k : CI => iprop(atPos ER (kcell (c, k)) 0 ∅ 0 ∗ reached ER (kcell (c, k)) 0)) ∗ toks c
          ∗ semVal (sendCell c 0) 0 ∗ semVal (recvCell c 0) 0) : sProp 𝕄)
      ⊢ bigSep Finset.univ (G' m ρ) := by
  have hjoin : iprop(((bigSep Finset.univ fun c : Dev nD => bigSep Finset.univ fun k : CI => (atPos ER (kcell (c, k)) 0 ∅ 0 : sProp 𝕄)) ∗ bigSep Finset.univ fun c : Dev nD => payToks c)
        ∗ bigSep Finset.univ fun c : Dev nD => iprop(semVal (sendCell c 0) 0 ∗ semVal (recvCell c 0) 0))
      ⊢ (bigSep Finset.univ fun c : Dev nD => iprop(((bigSep Finset.univ fun k : CI => atPos ER (kcell (c, k)) 0 ∅ 0) ∗ payToks c) ∗ semVal (sendCell c 0) 0 ∗ semVal (recvCell c 0) 0) : sProp 𝕄) :=
    Entails.of_eq (by rw [← bigSep_sep', ← bigSep_sep'])
  rw [bigSep_sep', bigSep_sep', bigSep_sep', ← bigSep_ringCells (fun g => iprop(∃ κ : ℕ, cellInv ER (ringRd m ρ) κ g)),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_ringCells (fun g => (reached ER g 0 : sProp 𝕄))]
  iintro ⟨HI, ⟨Hat, #HR⟩, Htok, Hsv⟩
  ihave HK := (BI.bigSep_exists_pi ringCells (fun (g : GSem nD τ sig) (κ : ℕ) => (cellInv ER (ringRd m ρ) κ g : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  iapply hjoin
  isplitl [Hat Htk]
  · isplitl [Hat] <;> iassumption
  iexact Hsv

/-- The global step: every device's counters at zero and its share of the launch element become every device's ghost
    state, with the two counters of row 0 untouched. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelIdeal.Proto.ownSemFacts' depends on axioms: [propext, Classical.choice, Quot.sound] -/
#guard_msgs in #print axioms ownSemFacts
/-- info: 'Cert.KernelIdeal.Proto.ownSems0_eq' depends on axioms: [propext, Classical.choice, Quot.sound] -/
#guard_msgs in #print axioms ownSems0_eq
/-- info: 'Cert.KernelIdeal.Proto.unscopedSems0_eq' depends on axioms: [propext, Classical.choice, Quot.sound] -/
#guard_msgs in #print axioms unscopedSems0_eq
/-- info: 'Cert.KernelIdeal.Proto.fund_all' depends on axioms: [propext, Classical.choice, Quot.sound] -/
#guard_msgs in #print axioms fund_all
/-- info: 'Cert.KernelIdeal.Proto.glob' depends on axioms: [propext, Classical.choice, Quot.sound] -/
#guard_msgs in #print axioms glob

end Cert.KernelIdeal.Proto

end
-- ==== Proof.Rows.lean ====
/-
  The gather buffer by rows and by shares.

  The buffer of a device is eight rows of 2 × 1024 numbers. An element lies in row `s` exactly when its first
  coordinate is `s`, and the 2 × 1024 view of the row places `(b, r)` at `(s, b, r)`. From this: the whole buffer is
  the eight rows side by side; the loads and the store of the body stay inside the rows they name; a row at the full
  share is its two halves, and row 0 is its eight shares; the row a device wrote from its own block, and the row a
  copy of a peer's row 0 landed in, hold the statistics the final buffer holds there.
-/
import proofs.«900601_g7700000000000602_dist_softmax_colshard_i_m1024_n512_v7x_i8_bf16_1_alg».proof.Proof.Tables
import Idealize.ShloMosaic.Lib.ValueIdx
import Idealize.ShloMosaic.Lib.ValueLayout

noncomputable section

namespace Cert.KernelIdeal.Proto

open Cert.KernelIdeal Cert.KernelIdeal.Gen Cert.KernelIdeal.Mesh Cert.KernelIdeal.Spec

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Rows

variable {F : FTy → Type} [FloatOps F]

local notation "𝕄" => MT nD τ sig Unit (Elt F) ℕ UU ℕ

/-- The rectangle of the body's own load and store of row 0. -/
abbrev r0 : Rect S8x2x1024 := Rect.unit (s := S8x2x1024) ![0, 0, 0] S1x2x1024.size inb_S8x2x1024_S1x2x1024_0_0_0

/-! ## Rows by coordinates -/

/-- An element of the buffer lies in row `s` exactly when its first coordinate is `s`. -/
theorem mem_row_iff (s : Fin 8) (i : S8x2x1024.Idx) : i ∈ (rowM s).view.set ↔ (i 0).val = s.val := by
  rw [View.set_reshape, View.set_slice_whole, Rect.mem_set_unit]
  constructor
  · intro h
    have h0 := h 0
    have e : (![s.val, 0, 0] : Fin 3 → Nat) 0 = s.val := rfl
    have e' : S1x2x1024.size 0 = 1 := rfl
    rw [e, e'] at h0
    omega
  · intro h a
    match a with
    | ⟨0, _⟩ => show s.val ≤ (i 0).val ∧ (i 0).val < s.val + 1; omega
    | ⟨1, _⟩ => show 0 ≤ (i 1).val ∧ (i 1).val < 0 + 2; have : (i 1).val < 2 := (i 1).isLt; omega
    | ⟨2, _⟩ => show 0 ≤ (i 2).val ∧ (i 2).val < 0 + 1024; have : (i 2).val < 1024 := (i 2).isLt; omega

/-- The 2 × 1024 view of row `s` places `(b, r)` at `(s, b, r)`. -/
theorem rowM_emb (s : Fin 8) (b : Fin 2) (r : Fin 1024) : (rowM s).view.emb (ix2 b r) = (ix3 s b r : S8x2x1024.Idx) := by
  show (rowR s).emb (Shape.reshapeEquiv _ (ix2 b r)) = _
  refine (congrArg (rowR s).emb (reshapeEquiv_ix2_1ab _ b r)).trans ?_
  funext a
  apply Fin.ext
  match a with
  | ⟨0, _⟩ => show s.val + 1 * 0 = s.val; omega
  | ⟨1, _⟩ => show 0 + 1 * b.val = b.val; omega
  | ⟨2, _⟩ => show 0 + 1 * r.val = r.val; omega

/-- An element whose first coordinate is `s` is `(s, b, r)` for its other two coordinates. -/
theorem eq_ix3_of_row (s : Fin 8) (i : S8x2x1024.Idx) (h : (i 0).val = s.val) :
    i = (ix3 s (⟨(i 1).val, (i 1).isLt⟩ : Fin 2) (⟨(i 2).val, (i 2).isLt⟩ : Fin 1024) : S8x2x1024.Idx) := by
  funext a
  apply Fin.ext
  match a with
  | ⟨0, _⟩ => exact h
  | ⟨1, _⟩ => rfl
  | ⟨2, _⟩ => rfl

/-- Row `t` of the final buffer holds the statistics of the device `peer c (keyOf t)`. -/
theorem gat_ix3 (Xs : Dev nD → Vec F S1024x512 .f32) (d : Dev nD) (t : Fin 8) (b : Fin 2) (r : Fin 1024) :
    gat Xs d (ix3 t b r : S8x2x1024.Idx) = stat (Xs (peer d (keyOf t))) (ix3 (0 : Fin 1) b r) := by
  unfold gat
  refine congrArg (stat (Xs (peer d (keyOf t)))) (funext fun a => ?_)
  match a with
  | ⟨0, _⟩ => rfl
  | ⟨1, _⟩ => rfl
  | ⟨2, _⟩ => rfl

/-! ## Contents of a row after the device's own store and after a copy has landed -/

/-- What the device stores into row 0 from its own block is what the final buffer holds there. -/
theorem row0_written (c : Dev nD) (g0 : Buf (Elt F) ((gM : Memref sig .tc .vmem S8x2x1024 .f32).view.loc (c : Thread nD τ))) (Xs : Dev nD → Vec F S1024x512 .f32) :
    ∀ i ∈ (rowM 0).view.set, (((gM : Memref sig .tc .vmem S8x2x1024 .f32).access r0).write (Elt F) g0 (k0_pay4 (Xs c)) Finset.univ) i = gat Xs c i := by
  intro i hi
  have h0 : (i 0).val = (0 : Fin 8).val := (mem_row_iff 0 i).mp hi
  have hb : (i 1).val < 2 := (i 1).isLt
  have hr : (i 2).val < 1024 := (i 2).isLt
  have e : i = ((gM : Memref sig .tc .vmem S8x2x1024 .f32).access r0).emb (ix3 (0 : Fin 1) (⟨(i 1).val, hb⟩ : Fin 2) (⟨(i 2).val, hr⟩ : Fin 1024)) := by
    funext a
    apply Fin.ext
    match a with
    | ⟨0, _⟩ => show (i 0).val = 0 + 1 * 0; rw [h0]; rfl
    | ⟨1, _⟩ => show (i 1).val = 0 + 1 * (i 1).val; omega
    | ⟨2, _⟩ => show (i 2).val = 0 + 1 * (i 2).val; omega
  have eg : gat Xs c i = k0_pay4 (Xs c) (ix3 (0 : Fin 1) (⟨(i 1).val, hb⟩ : Fin 2) (⟨(i 2).val, hr⟩ : Fin 1024)) := by
    refine (congrArg (gat Xs c) (eq_ix3_of_row 0 i h0)).trans ?_
    rw [gat_ix3, keyOf_zero, peer_zero]
    rfl
  rw [eg]
  refine (congrArg _ e).trans ?_
  exact View.write_emb_of_mem _ _ (Finset.mem_univ _)

/-- Row `s` of the peer of key `keyOf s`, once the copy of this device's row 0 has landed in it, holds what that
    peer's final buffer holds there: the statistics of this device. -/
theorem landed (c : Dev nD) (s : Fin 8) (hs : s ≠ 0) (Xs : Dev nD → Vec F S1024x512 .f32)
    (fd : Buf (Elt F) ((rowM s).view.loc (peer c (keyOf s) : Thread nD τ))) (fs : Buf (Elt F) ((rowM 0).view.loc (c : Thread nD τ)))
    (hfs : ∀ j ∈ (rowM 0).view.set, fs j = gat Xs c j) :
    ∀ i ∈ (rowM s).view.set, ((rowM s).view.write (Elt F) fd ((rowM 0).view.read (Elt F) fs) Finset.univ) i = gat Xs (peer c (keyOf s)) i := by
  intro i hi
  have h0 : (i 0).val = s.val := (mem_row_iff s i).mp hi
  have hb : (i 1).val < 2 := (i 1).isLt
  have hr : (i 2).val < 1024 := (i 2).isLt
  have e : i = (rowM s).view.emb (ix2 (⟨(i 1).val, hb⟩ : Fin 2) (⟨(i 2).val, hr⟩ : Fin 1024)) :=
    (eq_ix3_of_row s i h0).trans (rowM_emb s _ _).symm
  have eg : gat Xs (peer c (keyOf s)) i = gat Xs c ((rowM 0).view.emb (ix2 (⟨(i 1).val, hb⟩ : Fin 2) (⟨(i 2).val, hr⟩ : Fin 1024))) := by
    refine (congrArg (gat Xs (peer c (keyOf s))) (eq_ix3_of_row s i h0)).trans ?_
    rw [rowM_emb, gat_ix3, gat_ix3, peer_peer, keyOf_zero, peer_zero]
  rw [eg]
  refine (congrArg _ e).trans ?_
  refine (View.write_emb_of_mem _ _ (Finset.mem_univ _)).trans ?_
  rw [View.read_apply, cast_cast, cast_eq]
  exact hfs _ (View.emb_mem_set _ _)

/-! ## The two payloads of a copy -/

/-- The share of row 0 a copy was lent, holding the device's statistics, is the departure's payload. -/
theorem hpay_send (m : (ℓ : Loc nD τ sig) → Buf (Elt F) ℓ) (ρ : Dev nD → PrngReg) (c : Dev nD) (s : Fin 8) (g1 : Buf (Elt F) ((rowM 0).view.loc (c : Thread nD τ))) (h : ∀ j ∈ (rowM 0).view.set, g1 j = gat (X m ρ) c j) :
    (((rowM 0).view.loc (c : Thread nD τ) ↦[(rowM 0).view.set]{rowShare s} g1 : sProp 𝕄)) ⊢ (ringRd (F := F) m ρ).payload (sendCell c s) 0 0 := by
  rw [payload_send]
  unfold sendPay rowPts
  exact Entails.of_eq (pointsTo_congr h)

/-- The row a copy landed in is the arrival's payload. -/
theorem hpay_recv (m : (ℓ : Loc nD τ sig) → Buf (Elt F) ℓ) (ρ : Dev nD → PrngReg) (c : Dev nD) (s : Fin 8) (hs : s ≠ 0) (fd : Buf (Elt F) ((rowM s).view.loc (peer c (keyOf s) : Thread nD τ))) (fs : Buf (Elt F) ((rowM 0).view.loc (c : Thread nD τ)))
    (hfs : ∀ j ∈ (rowM 0).view.set, fs j = gat (X m ρ) c j) :
    (((rowM s).view.loc (peer c (keyOf s) : Thread nD τ) ↦[(rowM s).view.set]{fullShare} ((rowM s).view.write (Elt F) fd ((rowM 0).view.read (Elt F) fs) Finset.univ) : sProp 𝕄))
      ⊢ (ringRd (F := F) m ρ).payload (recvCell (peer c (keyOf s)) s) 0 0 := by
  rw [payload_recv]
  unfold recvPay rowPts
  exact Entails.of_eq (pointsTo_congr (landed c s hs (X m ρ) fd fs hfs))

/-! ## Bientailments as equations; a points-to cut along shares and along disjoint sets -/

theorem eq_of_equiv {M : Type} [URA M] {P Q : sProp M} (h : P ⊣⊢ Q) : P = Q := BI.equiv_iff.mp ⟨h.1, h.2⟩

theorem sep_assoc_eq {M : Type} [URA M] (A B C : sProp M) : iprop((A ∗ B) ∗ C) = iprop(A ∗ B ∗ C) :=
  eq_of_equiv Laws.sep_assoc

/-- A points-to at a share is the product of the same at the share's two halves. -/
theorem pts_halves {ℓ : Loc nD τ sig} (I : Finset (Idx ℓ)) (q : PosShare TreeShare) (f : Buf (Elt F) ℓ) :
    (ℓ ↦[I]{q} f : sProp 𝕄) = iprop((ℓ ↦[I]{q.left} f) ∗ ℓ ↦[I]{q.right} f) :=
  eq_of_equiv (pointsTo_share (PosShare.mem_left_op_right q))

/-- A points-to on a disjoint union is the product of the two. -/
theorem pts_union {ℓ : Loc nD τ sig} (I J : Finset (Idx ℓ)) (q : PosShare TreeShare) (f : Buf (Elt F) ℓ) (h : Disjoint I J) :
    (ℓ ↦[I ∪ J]{q} f : sProp 𝕄) = iprop((ℓ ↦[I]{q} f) ∗ ℓ ↦[J]{q} f) :=
  eq_of_equiv (pointsTo_union h)

/-- Seven pairwise disjoint sets. -/
theorem pts_union7 {ℓ : Loc nD τ sig} (K : Fin 8 → Finset (Idx ℓ)) (hd : ∀ s t : Fin 8, s ≠ t → Disjoint (K s) (K t))
    (q : PosShare TreeShare) (f : Buf (Elt F) ℓ) :
    (ℓ ↦[K 0 ∪ K 1 ∪ K 2 ∪ K 3 ∪ K 4 ∪ K 5 ∪ K 6]{q} f : sProp 𝕄)
      = iprop((ℓ ↦[K 0]{q} f) ∗ (ℓ ↦[K 1]{q} f) ∗ (ℓ ↦[K 2]{q} f) ∗ (ℓ ↦[K 3]{q} f) ∗ (ℓ ↦[K 4]{q} f) ∗ (ℓ ↦[K 5]{q} f) ∗ (ℓ ↦[K 6]{q} f)) := by
  have d1 : Disjoint (K 0) (K 1) := hd 0 1 (by decide)
  have d2 : Disjoint (K 0 ∪ K 1) (K 2) := by
    simp only [Finset.disjoint_union_left]; exact ⟨hd 0 2 (by decide), hd 1 2 (by decide)⟩
  have d3 : Disjoint (K 0 ∪ K 1 ∪ K 2) (K 3) := by
    simp only [Finset.disjoint_union_left]; exact ⟨⟨hd 0 3 (by decide), hd 1 3 (by decide)⟩, hd 2 3 (by decide)⟩
  have d4 : Disjoint (K 0 ∪ K 1 ∪ K 2 ∪ K 3) (K 4) := by
    simp only [Finset.disjoint_union_left]
    exact ⟨⟨⟨hd 0 4 (by decide), hd 1 4 (by decide)⟩, hd 2 4 (by decide)⟩, hd 3 4 (by decide)⟩
  have d5 : Disjoint (K 0 ∪ K 1 ∪ K 2 ∪ K 3 ∪ K 4) (K 5) := by
    simp only [Finset.disjoint_union_left]
    exact ⟨⟨⟨⟨hd 0 5 (by decide), hd 1 5 (by decide)⟩, hd 2 5 (by decide)⟩, hd 3 5 (by decide)⟩, hd 4 5 (by decide)⟩
  have d6 : Disjoint (K 0 ∪ K 1 ∪ K 2 ∪ K 3 ∪ K 4 ∪ K 5) (K 6) := by
    simp only [Finset.disjoint_union_left]
    exact ⟨⟨⟨⟨⟨hd 0 6 (by decide), hd 1 6 (by decide)⟩, hd 2 6 (by decide)⟩, hd 3 6 (by decide)⟩, hd 4 6 (by decide)⟩, hd 5 6 (by decide)⟩
  rw [pts_union _ _ q f d6, pts_union _ _ q f d5, pts_union _ _ q f d4, pts_union _ _ q f d3, pts_union _ _ q f d2,
    pts_union _ _ q f d1]
  simp only [sep_assoc_eq]

/-! ## The buffer is its eight rows -/

theorem rows_disjoint (s t : Fin 8) (h : s ≠ t) : Disjoint (rowM s).view.set (rowM t).view.set := by
  rw [Finset.disjoint_left]
  intro i hs ht
  exact h (Fin.ext (((mem_row_iff s i).mp hs).symm.trans ((mem_row_iff t i).mp ht)))

theorem rows_cover (c : Dev nD) :
    (Finset.univ : Finset (Idx ((c : Thread nD τ).loc cc0_scratch1))) = Finset.univ.biUnion fun s : Fin 8 => (rowM s).view.set := by
  ext i
  simp only [Finset.mem_univ, Finset.mem_biUnion, true_and, true_iff]
  exact ⟨⟨(i 0).val, (i 0).isLt⟩, (mem_row_iff _ i).mpr rfl⟩

/-- (1) The whole gather buffer is its eight rows. -/
theorem rows_split (c : Dev nD) (f : Buf (Elt F) ((c : Thread nD τ).loc cc0_scratch1)) :
    ((((c : Thread nD τ).loc cc0_scratch1) ↦{fullShare} f : sProp 𝕄))
      = iprop(((rowM 0).view.loc (c : Thread nD τ) ↦[(rowM 0).view.set]{fullShare} f) ∗ ((rowM 1).view.loc (c : Thread nD τ) ↦[(rowM 1).view.set]{fullShare} f)
          ∗ ((rowM 2).view.loc (c : Thread nD τ) ↦[(rowM 2).view.set]{fullShare} f) ∗ ((rowM 3).view.loc (c : Thread nD τ) ↦[(rowM 3).view.set]{fullShare} f)
          ∗ ((rowM 4).view.loc (c : Thread nD τ) ↦[(rowM 4).view.set]{fullShare} f) ∗ ((rowM 5).view.loc (c : Thread nD τ) ↦[(rowM 5).view.set]{fullShare} f)
          ∗ ((rowM 6).view.loc (c : Thread nD τ) ↦[(rowM 6).view.set]{fullShare} f) ∗ ((rowM 7).view.loc (c : Thread nD τ) ↦[(rowM 7).view.set]{fullShare} f)) := by
  refine (congrArg (fun I => (pointsTo ((c : Thread nD τ).loc cc0_scratch1) I fullShare f : sProp 𝕄)) (rows_cover c)).trans ?_
  refine (pointsTo_biUnion (ℓ := (c : Thread nD τ).loc cc0_scratch1) (q := fullShare) (f := f) Finset.univ
    (fun s : Fin 8 => (rowM s).view.set) (fun s _ t _ hst => rows_disjoint s t hst)).trans ?_
  exact bigSep_eight _

/-- (3) A row at the full share is its two halves. -/
theorem row_halves (c : Dev nD) (s : Fin 8) (f : Buf (Elt F) ((rowM s).view.loc (c : Thread nD τ))) :
    (((rowM s).view.loc (c : Thread nD τ) ↦[(rowM s).view.set]{fullShare} f : sProp 𝕄))
      = iprop(((rowM s).view.loc (c : Thread nD τ) ↦[(rowM s).view.set]{fullShare.left} f) ∗ ((rowM s).view.loc (c : Thread nD τ) ↦[(rowM s).view.set]{fullShare.right} f)) :=
  pts_halves _ fullShare f

/-- (2) Row 0 at the full share is row 0 at its eight shares. -/
theorem row0_shares (c : Dev nD) (f : Buf (Elt F) ((rowM 0).view.loc (c : Thread nD τ))) :
    (((rowM 0).view.loc (c : Thread nD τ) ↦[(rowM 0).view.set]{fullShare} f : sProp 𝕄))
      = iprop(((rowM 0).view.loc (c : Thread nD τ) ↦[(rowM 0).view.set]{rowShare 0} f) ∗ ((rowM 0).view.loc (c : Thread nD τ) ↦[(rowM 0).view.set]{rowShare 1} f)
          ∗ ((rowM 0).view.loc (c : Thread nD τ) ↦[(rowM 0).view.set]{rowShare 2} f) ∗ ((rowM 0).view.loc (c : Thread nD τ) ↦[(rowM 0).view.set]{rowShare 3} f)
          ∗ ((rowM 0).view.loc (c : Thread nD τ) ↦[(rowM 0).view.set]{rowShare 4} f) ∗ ((rowM 0).view.loc (c : Thread nD τ) ↦[(rowM 0).view.set]{rowShare 5} f)
          ∗ ((rowM 0).view.loc (c : Thread nD τ) ↦[(rowM 0).view.set]{rowShare 6} f) ∗ ((rowM 0).view.loc (c : Thread nD τ) ↦[(rowM 0).view.set]{rowShare 7} f)) := by
  have e0 : rowShare 0 = fullShare.left := rfl
  have e1 : rowShare 1 = fullShare.right.left.left.left := rfl
  have e2 : rowShare 2 = fullShare.right.left.left.right := rfl
  have e3 : rowShare 3 = fullShare.right.left.right.left := rfl
  have e4 : rowShare 4 = fullShare.right.left.right.right := rfl
  have e5 : rowShare 5 = fullShare.right.right.left.left := rfl
  have e6 : rowShare 6 = fullShare.right.right.left.right := rfl
  have e7 : rowShare 7 = fullShare.right.right.right := rfl
  rw [e0, e1, e2, e3, e4, e5, e6, e7]
  rw [pts_halves _ fullShare f, pts_halves _ fullShare.right f, pts_halves _ fullShare.right.left f, pts_halves _ fullShare.right.right f,
    pts_halves _ fullShare.right.left.left f, pts_halves _ fullShare.right.left.right f, pts_halves _ fullShare.right.right.left f]
  simp only [sep_assoc_eq]

/-! ## The body's loads and its store stay inside the rows they name -/

/-- Through the whole buffer an index set is itself. -/
theorem setOn_gM (M : Finset S8x2x1024.Idx) : (gM : Memref sig .tc .vmem S8x2x1024 .f32).view.setOn M = M := Finset.map_refl

theorem far_sub_M : (gM : Memref sig .tc .vmem S8x2x1024 .f32).view.setOn rFarM.toLoadRect.set ⊆ (rowM 7).view.set := by
  intro i hi
  rw [setOn_gM, Rect.mem_set_unit] at hi
  refine (mem_row_iff 7 i).mpr ?_
  have h0 : 7 ≤ (i 0).val ∧ (i 0).val < 7 + 1 := hi 0
  show (i 0).val = 7
  omega

theorem far_sub_S : (gM : Memref sig .tc .vmem S8x2x1024 .f32).view.setOn rFarS.toLoadRect.set ⊆ (rowM 7).view.set := by
  intro i hi
  rw [setOn_gM, Rect.mem_set_unit] at hi
  refine (mem_row_iff 7 i).mpr ?_
  have h0 : 7 ≤ (i 0).val ∧ (i 0).val < 7 + 1 := hi 0
  show (i 0).val = 7
  omega

theorem row0_sub_load : (gM : Memref sig .tc .vmem S8x2x1024 .f32).view.setOn (r0.toLoadRect).set ⊆ (rowM 0).view.set := by
  intro i hi
  rw [setOn_gM, Rect.mem_set_unit] at hi
  refine (mem_row_iff 0 i).mpr ?_
  have h0 : 0 ≤ (i 0).val ∧ (i 0).val < 0 + 1 := hi 0
  show (i 0).val = 0
  omega

theorem row0_sub_store : ((gM : Memref sig .tc .vmem S8x2x1024 .f32).access r0).setOn Finset.univ ⊆ (rowM 0).view.set := by
  intro i hi
  rw [View.setOn_univ, View.set_slice_whole, Rect.mem_set_unit] at hi
  refine (mem_row_iff 0 i).mpr ?_
  have h0 : 0 ≤ (i 0).val ∧ (i 0).val < 0 + 1 := hi 0
  show (i 0).val = 0
  omega

/-! ## Rows 0 … 6 as one region -/

/-- (4) The elements of rows 0 … 6. -/
def nearSet (c : Dev nD) : Finset (Idx ((gM : Memref sig .tc .vmem S8x2x1024 .f32).view.loc (c : Thread nD τ))) :=
  (rowM 0).view.set ∪ (rowM 1).view.set ∪ (rowM 2).view.set ∪ (rowM 3).view.set ∪ (rowM 4).view.set ∪ (rowM 5).view.set ∪ (rowM 6).view.set

theorem near_join (c : Dev nD) (f : Buf (Elt F) ((gM : Memref sig .tc .vmem S8x2x1024 .f32).view.loc (c : Thread nD τ))) :
    (iprop(((rowM 0).view.loc (c : Thread nD τ) ↦[(rowM 0).view.set]{fullShare.left} f) ∗ ((rowM 1).view.loc (c : Thread nD τ) ↦[(rowM 1).view.set]{fullShare.left} f)
          ∗ ((rowM 2).view.loc (c : Thread nD τ) ↦[(rowM 2).view.set]{fullShare.left} f) ∗ ((rowM 3).view.loc (c : Thread nD τ) ↦[(rowM 3).view.set]{fullShare.left} f)
          ∗ ((rowM 4).view.loc (c : Thread nD τ) ↦[(rowM 4).view.set]{fullShare.left} f) ∗ ((rowM 5).view.loc (c : Thread nD τ) ↦[(rowM 5).view.set]{fullShare.left} f)
          ∗ ((rowM 6).view.loc (c : Thread nD τ) ↦[(rowM 6).view.set]{fullShare.left} f)) : sProp 𝕄)
      = ((gM : Memref sig .tc .vmem S8x2x1024 .f32).view.loc (c : Thread nD τ) ↦[nearSet c]{fullShare.left} f) :=
  (pts_union7 (ℓ := (gM : Memref sig .tc .vmem S8x2x1024 .f32).view.loc (c : Thread nD τ)) (fun s : Fin 8 => (rowM s).view.set)
    rows_disjoint fullShare.left f).symm

/-- An element whose first coordinate is below 7 lies in rows 0 … 6. -/
theorem mem_nearSet (c : Dev nD) (i : S8x2x1024.Idx) (h : (i 0).val < 7) : i ∈ nearSet c := by
  unfold nearSet
  simp only [Finset.mem_union]
  have h7 : (i 0).val = 0 ∨ (i 0).val = 1 ∨ (i 0).val = 2 ∨ (i 0).val = 3 ∨ (i 0).val = 4 ∨ (i 0).val = 5 ∨ (i 0).val = 6 := by omega
  rcases h7 with h | h | h | h | h | h | h
  · exact Or.inl (Or.inl (Or.inl (Or.inl (Or.inl (Or.inl ((mem_row_iff 0 i).mpr h))))))
  · exact Or.inl (Or.inl (Or.inl (Or.inl (Or.inl (Or.inr ((mem_row_iff 1 i).mpr h))))))
  · exact Or.inl (Or.inl (Or.inl (Or.inl (Or.inr ((mem_row_iff 2 i).mpr h)))))
  · exact Or.inl (Or.inl (Or.inl (Or.inr ((mem_row_iff 3 i).mpr h))))
  · exact Or.inl (Or.inl (Or.inr ((mem_row_iff 4 i).mpr h)))
  · exact Or.inl (Or.inr ((mem_row_iff 5 i).mpr h))
  · exact Or.inr ((mem_row_iff 6 i).mpr h)

theorem near_sub_M (c : Dev nD) : (gM : Memref sig .tc .vmem S8x2x1024 .f32).view.setOn rNearM.toLoadRect.set ⊆ nearSet c := by
  intro i hi
  rw [setOn_gM, Rect.mem_set_unit] at hi
  have h0 : 0 ≤ (i 0).val ∧ (i 0).val < 0 + 7 := hi 0
  exact mem_nearSet c i (by omega)

theorem near_sub_S (c : Dev nD) : (gM : Memref sig .tc .vmem S8x2x1024 .f32).view.setOn rNearS.toLoadRect.set ⊆ nearSet c := by
  intro i hi
  rw [setOn_gM, Rect.mem_set_unit] at hi
  have h0 : 0 ≤ (i 0).val ∧ (i 0).val < 0 + 7 := hi 0
  exact mem_nearSet c i (by omega)

end Rows

end Cert.KernelIdeal.Proto

end

/-- info: 'Cert.KernelIdeal.Proto.hpay_send' depends on axioms: [propext, Classical.choice, Quot.sound] -/
#guard_msgs in #print axioms Cert.KernelIdeal.Proto.hpay_send
/-- info: 'Cert.KernelIdeal.Proto.hpay_recv' depends on axioms: [propext, Classical.choice, Quot.sound] -/
#guard_msgs in #print axioms Cert.KernelIdeal.Proto.hpay_recv
/-- info: 'Cert.KernelIdeal.Proto.row0_written' depends on axioms: [propext, Classical.choice, Quot.sound] -/
#guard_msgs in #print axioms Cert.KernelIdeal.Proto.row0_written
/-- info: 'Cert.KernelIdeal.Proto.rows_split' depends on axioms: [propext, Classical.choice, Quot.sound] -/
#guard_msgs in #print axioms Cert.KernelIdeal.Proto.rows_split
/-- info: 'Cert.KernelIdeal.Proto.row0_shares' depends on axioms: [propext, Classical.choice, Quot.sound] -/
#guard_msgs in #print axioms Cert.KernelIdeal.Proto.row0_shares
/-- info: 'Cert.KernelIdeal.Proto.near_join' depends on axioms: [propext, Classical.choice, Quot.sound] -/
#guard_msgs in #print axioms Cert.KernelIdeal.Proto.near_join
/-- info: 'Cert.KernelIdeal.Proto.near_sub_M' depends on axioms: [propext, Classical.choice, Quot.sound] -/
#guard_msgs in #print axioms Cert.KernelIdeal.Proto.near_sub_M
/-- info: 'Cert.KernelIdeal.Proto.row0_sub_store' depends on axioms: [propext, Classical.choice, Quot.sound] -/
#guard_msgs in #print axioms Cert.KernelIdeal.Proto.row0_sub_store
-- ==== Proof.BodyCore.lean ====
/-
  One device's body, run once at a symbolic device.

  The body signals the seven peers' entry cells, handing each peer the row of its own gather buffer that the peer will
  fill; reduces its block to row maxima and row sums and keeps them in row 0; waits for its own seven entry units,
  which bring it one row on each peer; copies row 0 into those seven rows, lending each copy one share of row 0;
  keeps the shifted exponentials; waits for six arrivals and merges rows 0 … 6, waits for the seventh and merges
  row 7; scales the exponentials and writes the result; and waits for its seven departures, which return the shares.

  The gather buffer is cut into its eight rows at the start and row 0 into its eight shares before the copies; at the
  end every piece holds the same final contents, so the shares, the halves and the rows join back into the whole
  buffer. The fourteen cells of the seven rows end with nothing left to happen and are closed.
-/
import proofs.«900601_g7700000000000602_dist_softmax_colshard_i_m1024_n512_v7x_i8_bf16_1_alg».proof.Proof.Rows
import proofs.«900601_g7700000000000602_dist_softmax_colshard_i_m1024_n512_v7x_i8_bf16_1_alg».proof.Proof.Gen.KernelIdeal.Skeleton
noncomputable section
namespace Cert.KernelIdeal.Proto
open Cert.KernelIdeal Cert.KernelIdeal.Gen Cert.KernelIdeal.Mesh Cert.KernelIdeal.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg) (c : Dev nD)

/-! ## The schedule's tables at the literal keys and rows -/

theorem duties_bar' : (ringRd (F := F) m ρ).duties (barCell c) 0 = seven := duties_bar m ρ c
theorem expect_bar' : (ringRd (F := F) m ρ).expect (barCell c) 0 = 7 := expect_bar m ρ c
theorem duties_send_1 : (ringRd (F := F) m ρ).duties (sendCell c 1) 0 = {0} := duties_send m ρ c 1 (by decide)
theorem duties_send_2 : (ringRd (F := F) m ρ).duties (sendCell c 2) 0 = {0} := duties_send m ρ c 2 (by decide)
theorem duties_send_3 : (ringRd (F := F) m ρ).duties (sendCell c 3) 0 = {0} := duties_send m ρ c 3 (by decide)
theorem duties_send_4 : (ringRd (F := F) m ρ).duties (sendCell c 4) 0 = {0} := duties_send m ρ c 4 (by decide)
theorem duties_send_5 : (ringRd (F := F) m ρ).duties (sendCell c 5) 0 = {0} := duties_send m ρ c 5 (by decide)
theorem duties_send_6 : (ringRd (F := F) m ρ).duties (sendCell c 6) 0 = {0} := duties_send m ρ c 6 (by decide)
theorem duties_send_7 : (ringRd (F := F) m ρ).duties (sendCell c 7) 0 = {0} := duties_send m ρ c 7 (by decide)
theorem duties_recv_1 : (ringRd (F := F) m ρ).duties (recvCell c 1) 0 = {0} := duties_recv m ρ c 1 (by decide)
theorem duties_recv_2 : (ringRd (F := F) m ρ).duties (recvCell c 2) 0 = {0} := duties_recv m ρ c 2 (by decide)
theorem duties_recv_3 : (ringRd (F := F) m ρ).duties (recvCell c 3) 0 = {0} := duties_recv m ρ c 3 (by decide)
theorem duties_recv_4 : (ringRd (F := F) m ρ).duties (recvCell c 4) 0 = {0} := duties_recv m ρ c 4 (by decide)
theorem duties_recv_5 : (ringRd (F := F) m ρ).duties (recvCell c 5) 0 = {0} := duties_recv m ρ c 5 (by decide)
theorem duties_recv_6 : (ringRd (F := F) m ρ).duties (recvCell c 6) 0 = {0} := duties_recv m ρ c 6 (by decide)
theorem duties_recv_7 : (ringRd (F := F) m ρ).duties (recvCell c 7) 0 = {0} := duties_recv m ρ c 7 (by decide)
theorem expect_send_1 : (ringRd (F := F) m ρ).expect (sendCell c 1) 0 = N := expect_send m ρ c 1 (by decide)
theorem expect_send_2 : (ringRd (F := F) m ρ).expect (sendCell c 2) 0 = N := expect_send m ρ c 2 (by decide)
theorem expect_send_3 : (ringRd (F := F) m ρ).expect (sendCell c 3) 0 = N := expect_send m ρ c 3 (by decide)
theorem expect_send_4 : (ringRd (F := F) m ρ).expect (sendCell c 4) 0 = N := expect_send m ρ c 4 (by decide)
theorem expect_send_5 : (ringRd (F := F) m ρ).expect (sendCell c 5) 0 = N := expect_send m ρ c 5 (by decide)
theorem expect_send_6 : (ringRd (F := F) m ρ).expect (sendCell c 6) 0 = N := expect_send m ρ c 6 (by decide)
theorem expect_send_7 : (ringRd (F := F) m ρ).expect (sendCell c 7) 0 = N := expect_send m ρ c 7 (by decide)
theorem expect_recv_1 : (ringRd (F := F) m ρ).expect (recvCell c 1) 0 = N := expect_recv m ρ c 1 (by decide)
theorem expect_recv_2 : (ringRd (F := F) m ρ).expect (recvCell c 2) 0 = N := expect_recv m ρ c 2 (by decide)
theorem expect_recv_3 : (ringRd (F := F) m ρ).expect (recvCell c 3) 0 = N := expect_recv m ρ c 3 (by decide)
theorem expect_recv_4 : (ringRd (F := F) m ρ).expect (recvCell c 4) 0 = N := expect_recv m ρ c 4 (by decide)
theorem expect_recv_5 : (ringRd (F := F) m ρ).expect (recvCell c 5) 0 = N := expect_recv m ρ c 5 (by decide)
theorem expect_recv_6 : (ringRd (F := F) m ρ).expect (recvCell c 6) 0 = N := expect_recv m ρ c 6 (by decide)
theorem expect_recv_7 : (ringRd (F := F) m ρ).expect (recvCell c 7) 0 = N := expect_recv m ρ c 7 (by decide)
theorem duties_recvp_1 : (ringRd (F := F) m ρ).duties (recvCell (peer c 1) 1) 0 = {0} := duties_recv m ρ (peer c 1) 1 (by decide)
theorem duties_recvp_2 : (ringRd (F := F) m ρ).duties (recvCell (peer c 3) 2) 0 = {0} := duties_recv m ρ (peer c 3) 2 (by decide)
theorem duties_recvp_3 : (ringRd (F := F) m ρ).duties (recvCell (peer c 4) 3) 0 = {0} := duties_recv m ρ (peer c 4) 3 (by decide)
theorem duties_recvp_4 : (ringRd (F := F) m ρ).duties (recvCell (peer c 2) 4) 0 = {0} := duties_recv m ρ (peer c 2) 4 (by decide)
theorem duties_recvp_5 : (ringRd (F := F) m ρ).duties (recvCell (peer c 5) 5) 0 = {0} := duties_recv m ρ (peer c 5) 5 (by decide)
theorem duties_recvp_6 : (ringRd (F := F) m ρ).duties (recvCell (peer c 7) 6) 0 = {0} := duties_recv m ρ (peer c 7) 6 (by decide)
theorem duties_recvp_7 : (ringRd (F := F) m ρ).duties (recvCell (peer c 6) 7) 0 = {0} := duties_recv m ρ (peer c 6) 7 (by decide)
theorem amount_bar' (d : Dev nD) (k : Fin 8) : (ringRd (F := F) m ρ).amount (barCell d) 0 k = 1 := amount_bar m ρ d k
theorem amount_send' (d : Dev nD) (s k : Fin 8) : (ringRd (F := F) m ρ).amount (sendCell d s) 0 k = N := amount_send m ρ d s k
theorem amount_recv' (d : Dev nD) (s k : Fin 8) : (ringRd (F := F) m ρ).amount (recvCell d s) 0 k = N := amount_recv m ρ d s k
theorem duties_barp (k : Fin 8) : (ringRd (F := F) m ρ).duties (barCell (peer c k)) 0 = seven := duties_bar m ρ (peer c k)

theorem pay_bar_peer_1 : (ringRd (F := F) m ρ).payload (barCell (peer c 1)) 0 1
    = iprop((∃ f, (rowM 1).view.loc (c : Thread nD τ) ↦[(rowM 1).view.set]{fullShare} f) ∗ reached ER (recvCell c 1) 0) := by
  rw [payload_bar m ρ (peer c 1) 1]; unfold barPay rowPts; rw [peer_peer]; rfl
theorem pay_bar_peer_2 : (ringRd (F := F) m ρ).payload (barCell (peer c 2)) 0 2
    = iprop((∃ f, (rowM 4).view.loc (c : Thread nD τ) ↦[(rowM 4).view.set]{fullShare} f) ∗ reached ER (recvCell c 4) 0) := by
  rw [payload_bar m ρ (peer c 2) 2]; unfold barPay rowPts; rw [peer_peer]; rfl
theorem pay_bar_peer_3 : (ringRd (F := F) m ρ).payload (barCell (peer c 3)) 0 3
    = iprop((∃ f, (rowM 2).view.loc (c : Thread nD τ) ↦[(rowM 2).view.set]{fullShare} f) ∗ reached ER (recvCell c 2) 0) := by
  rw [payload_bar m ρ (peer c 3) 3]; unfold barPay rowPts; rw [peer_peer]; rfl
theorem pay_bar_peer_4 : (ringRd (F := F) m ρ).payload (barCell (peer c 4)) 0 4
    = iprop((∃ f, (rowM 3).view.loc (c : Thread nD τ) ↦[(rowM 3).view.set]{fullShare} f) ∗ reached ER (recvCell c 3) 0) := by
  rw [payload_bar m ρ (peer c 4) 4]; unfold barPay rowPts; rw [peer_peer]; rfl
theorem pay_bar_peer_5 : (ringRd (F := F) m ρ).payload (barCell (peer c 5)) 0 5
    = iprop((∃ f, (rowM 5).view.loc (c : Thread nD τ) ↦[(rowM 5).view.set]{fullShare} f) ∗ reached ER (recvCell c 5) 0) := by
  rw [payload_bar m ρ (peer c 5) 5]; unfold barPay rowPts; rw [peer_peer]; rfl
theorem pay_bar_peer_6 : (ringRd (F := F) m ρ).payload (barCell (peer c 6)) 0 6
    = iprop((∃ f, (rowM 7).view.loc (c : Thread nD τ) ↦[(rowM 7).view.set]{fullShare} f) ∗ reached ER (recvCell c 7) 0) := by
  rw [payload_bar m ρ (peer c 6) 6]; unfold barPay rowPts; rw [peer_peer]; rfl
theorem pay_bar_peer_7 : (ringRd (F := F) m ρ).payload (barCell (peer c 7)) 0 7
    = iprop((∃ f, (rowM 6).view.loc (c : Thread nD τ) ↦[(rowM 6).view.set]{fullShare} f) ∗ reached ER (recvCell c 6) 0) := by
  rw [payload_bar m ρ (peer c 7) 7]; unfold barPay rowPts; rw [peer_peer]; rfl
theorem pay_bar_own_1 : (ringRd (F := F) m ρ).payload (barCell c) 0 1
    = iprop((∃ f, (rowM 1).view.loc (peer c 1 : Thread nD τ) ↦[(rowM 1).view.set]{fullShare} f) ∗ reached ER (recvCell (peer c 1) 1) 0) := by
  rw [payload_bar m ρ c 1]; unfold barPay rowPts; rfl
theorem pay_bar_own_2 : (ringRd (F := F) m ρ).payload (barCell c) 0 2
    = iprop((∃ f, (rowM 4).view.loc (peer c 2 : Thread nD τ) ↦[(rowM 4).view.set]{fullShare} f) ∗ reached ER (recvCell (peer c 2) 4) 0) := by
  rw [payload_bar m ρ c 2]; unfold barPay rowPts; rfl
theorem pay_bar_own_3 : (ringRd (F := F) m ρ).payload (barCell c) 0 3
    = iprop((∃ f, (rowM 2).view.loc (peer c 3 : Thread nD τ) ↦[(rowM 2).view.set]{fullShare} f) ∗ reached ER (recvCell (peer c 3) 2) 0) := by
  rw [payload_bar m ρ c 3]; unfold barPay rowPts; rfl
theorem pay_bar_own_4 : (ringRd (F := F) m ρ).payload (barCell c) 0 4
    = iprop((∃ f, (rowM 3).view.loc (peer c 4 : Thread nD τ) ↦[(rowM 3).view.set]{fullShare} f) ∗ reached ER (recvCell (peer c 4) 3) 0) := by
  rw [payload_bar m ρ c 4]; unfold barPay rowPts; rfl
theorem pay_bar_own_5 : (ringRd (F := F) m ρ).payload (barCell c) 0 5
    = iprop((∃ f, (rowM 5).view.loc (peer c 5 : Thread nD τ) ↦[(rowM 5).view.set]{fullShare} f) ∗ reached ER (recvCell (peer c 5) 5) 0) := by
  rw [payload_bar m ρ c 5]; unfold barPay rowPts; rfl
theorem pay_bar_own_6 : (ringRd (F := F) m ρ).payload (barCell c) 0 6
    = iprop((∃ f, (rowM 7).view.loc (peer c 6 : Thread nD τ) ↦[(rowM 7).view.set]{fullShare} f) ∗ reached ER (recvCell (peer c 6) 7) 0) := by
  rw [payload_bar m ρ c 6]; unfold barPay rowPts; rfl
theorem pay_bar_own_7 : (ringRd (F := F) m ρ).payload (barCell c) 0 7
    = iprop((∃ f, (rowM 6).view.loc (peer c 7 : Thread nD τ) ↦[(rowM 6).view.set]{fullShare} f) ∗ reached ER (recvCell (peer c 7) 6) 0) := by
  rw [payload_bar m ρ c 7]; unfold barPay rowPts; rfl
theorem pay_recv_1 : (ringRd (F := F) m ρ).payload (recvCell c 1) 0 0
    = ((rowM 1).view.loc (c : Thread nD τ) ↦[(rowM 1).view.set]{fullShare} gat (X m ρ) c : sProp 𝕄) := by
  rw [payload_recv m ρ c 1 0]; rfl
theorem pay_recv_2 : (ringRd (F := F) m ρ).payload (recvCell c 2) 0 0
    = ((rowM 2).view.loc (c : Thread nD τ) ↦[(rowM 2).view.set]{fullShare} gat (X m ρ) c : sProp 𝕄) := by
  rw [payload_recv m ρ c 2 0]; rfl
theorem pay_recv_3 : (ringRd (F := F) m ρ).payload (recvCell c 3) 0 0
    = ((rowM 3).view.loc (c : Thread nD τ) ↦[(rowM 3).view.set]{fullShare} gat (X m ρ) c : sProp 𝕄) := by
  rw [payload_recv m ρ c 3 0]; rfl
theorem pay_recv_4 : (ringRd (F := F) m ρ).payload (recvCell c 4) 0 0
    = ((rowM 4).view.loc (c : Thread nD τ) ↦[(rowM 4).view.set]{fullShare} gat (X m ρ) c : sProp 𝕄) := by
  rw [payload_recv m ρ c 4 0]; rfl
theorem pay_recv_5 : (ringRd (F := F) m ρ).payload (recvCell c 5) 0 0
    = ((rowM 5).view.loc (c : Thread nD τ) ↦[(rowM 5).view.set]{fullShare} gat (X m ρ) c : sProp 𝕄) := by
  rw [payload_recv m ρ c 5 0]; rfl
theorem pay_recv_6 : (ringRd (F := F) m ρ).payload (recvCell c 6) 0 0
    = ((rowM 6).view.loc (c : Thread nD τ) ↦[(rowM 6).view.set]{fullShare} gat (X m ρ) c : sProp 𝕄) := by
  rw [payload_recv m ρ c 6 0]; rfl
theorem pay_recv_7 : (ringRd (F := F) m ρ).payload (recvCell c 7) 0 0
    = ((rowM 7).view.loc (c : Thread nD τ) ↦[(rowM 7).view.set]{fullShare} gat (X m ρ) c : sProp 𝕄) := by
  rw [payload_recv m ρ c 7 0]; rfl
theorem pay_send_1 : (ringRd (F := F) m ρ).payload (sendCell c 1) 0 0
    = ((rowM 0).view.loc (c : Thread nD τ) ↦[(rowM 0).view.set]{rowShare 1} gat (X m ρ) c : sProp 𝕄) := by
  rw [payload_send m ρ c 1 0]; rfl
theorem pay_send_2 : (ringRd (F := F) m ρ).payload (sendCell c 2) 0 0
    = ((rowM 0).view.loc (c : Thread nD τ) ↦[(rowM 0).view.set]{rowShare 2} gat (X m ρ) c : sProp 𝕄) := by
  rw [payload_send m ρ c 2 0]; rfl
theorem pay_send_3 : (ringRd (F := F) m ρ).payload (sendCell c 3) 0 0
    = ((rowM 0).view.loc (c : Thread nD τ) ↦[(rowM 0).view.set]{rowShare 3} gat (X m ρ) c : sProp 𝕄) := by
  rw [payload_send m ρ c 3 0]; rfl
theorem pay_send_4 : (ringRd (F := F) m ρ).payload (sendCell c 4) 0 0
    = ((rowM 0).view.loc (c : Thread nD τ) ↦[(rowM 0).view.set]{rowShare 4} gat (X m ρ) c : sProp 𝕄) := by
  rw [payload_send m ρ c 4 0]; rfl
theorem pay_send_5 : (ringRd (F := F) m ρ).payload (sendCell c 5) 0 0
    = ((rowM 0).view.loc (c : Thread nD τ) ↦[(rowM 0).view.set]{rowShare 5} gat (X m ρ) c : sProp 𝕄) := by
  rw [payload_send m ρ c 5 0]; rfl
theorem pay_send_6 : (ringRd (F := F) m ρ).payload (sendCell c 6) 0 0
    = ((rowM 0).view.loc (c : Thread nD τ) ↦[(rowM 0).view.set]{rowShare 6} gat (X m ρ) c : sProp 𝕄) := by
  rw [payload_send m ρ c 6 0]; rfl
theorem pay_send_7 : (ringRd (F := F) m ρ).payload (sendCell c 7) 0 0
    = ((rowM 0).view.loc (c : Thread nD τ) ↦[(rowM 0).view.set]{rowShare 7} gat (X m ρ) c : sProp 𝕄) := by
  rw [payload_send m ρ c 7 0]; rfl

/-- The copies' device chains with the key written out. -/
theorem dev8_eq' : (⟨k0_dev8 c, k0_dev8_lt c⟩ : Dev nD) = peer c 1 := dev8_eq c
theorem dev9_eq' : (⟨k0_dev9 c, k0_dev9_lt c⟩ : Dev nD) = peer c 3 := dev9_eq c
theorem dev10_eq' : (⟨k0_dev10 c, k0_dev10_lt c⟩ : Dev nD) = peer c 4 := dev10_eq c
theorem dev11_eq' : (⟨k0_dev11 c, k0_dev11_lt c⟩ : Dev nD) = peer c 2 := dev11_eq c
theorem dev12_eq' : (⟨k0_dev12 c, k0_dev12_lt c⟩ : Dev nD) = peer c 5 := dev12_eq c
theorem dev13_eq' : (⟨k0_dev13 c, k0_dev13_lt c⟩ : Dev nD) = peer c 7 := dev13_eq c
theorem dev14_eq' : (⟨k0_dev14 c, k0_dev14_lt c⟩ : Dev nD) = peer c 6 := dev14_eq c

attribute [local sl_rounds] duties_bar' expect_bar' duties_barp amount_bar' amount_send' amount_recv'
  duties_send_1 duties_recv_1 expect_send_1 expect_recv_1 duties_recvp_1 pay_bar_own_1 pay_recv_1 pay_send_1 duties_send_2 duties_recv_2 expect_send_2 expect_recv_2 duties_recvp_2 pay_bar_own_2 pay_recv_2 pay_send_2 duties_send_3 duties_recv_3 expect_send_3 expect_recv_3 duties_recvp_3 pay_bar_own_3 pay_recv_3 pay_send_3 duties_send_4 duties_recv_4 expect_send_4 expect_recv_4 duties_recvp_4 pay_bar_own_4 pay_recv_4 pay_send_4 duties_send_5 duties_recv_5 expect_send_5 expect_recv_5 duties_recvp_5 pay_bar_own_5 pay_recv_5 pay_send_5 duties_send_6 duties_recv_6 expect_send_6 expect_recv_6 duties_recvp_6 pay_bar_own_6 pay_recv_6 pay_send_6 duties_send_7 duties_recv_7 expect_send_7 expect_recv_7 duties_recvp_7 pay_bar_own_7 pay_recv_7 pay_send_7
attribute [local sl_rounds high] pay_bar_peer_1 pay_bar_peer_2 pay_bar_peer_3 pay_bar_peer_4 pay_bar_peer_5 pay_bar_peer_6 pay_bar_peer_7
attribute [local sl_canon] dev1_eq dev2_eq dev3_eq dev4_eq dev5_eq dev6_eq dev7_eq dev8_eq' dev9_eq' dev10_eq' dev11_eq' dev12_eq' dev13_eq' dev14_eq'
attribute [local irreducible] Cert.KernelIdeal.Mesh.peer

/-! ## One copy: row 0, lent at the share of row `s`, into row `s` of the peer of key `keyOf s` -/

theorem wp_send_row (K : GSem nD τ sig → ℕ) (s : Fin 8) (hs : s ≠ 0) (n : Dev nD) (hn : n = peer c (keyOf s))
    {hsc : (rowM s : Memref sig (Dev.tc n : Thread nD τ).2.kind .vmem S2x1024 .f32).view.ref.isScScratch = false}
    {hsrc : (rowM 0 : Memref sig .tc .vmem S2x1024 .f32).view.WordExact} {hdst : (rowM s : Memref sig .tc .vmem S2x1024 .f32).view.WordExact}
    {hsem : DmaTarget.Typed .vmem (.dma (recvSem s)) (.remote (Dev.tc n : Thread nD τ) (rowM s : Memref sig .tc .vmem S2x1024 .f32) (.dma (sendSem s)) hsc)}
    {α : Type} {Q : α → sProp 𝕄} {k : PUnit → Prog (TpuEff nD τ sig (Elt F) Λ₀ .tc) α}
    (fs : Buf (Elt F) ((rowM 0).view.loc (c : Thread nD τ))) (hfs : ∀ j ∈ (rowM 0).view.set, fs j = gat (X m ρ) c j)
    (fd : Buf (Elt F) ((rowM s).view.loc (peer c (keyOf s) : Thread nD τ)))
    (O₀' O : CellTallies nD τ sig Unit) (hO : O₀' = O + tallyAt (recvCell (peer c (keyOf s)) s) () N) (W : Waits sig Unit)
    (hN : (rowM s).view.amount (.dma (recvSem s)) = N) :
    iprop(cellInv ER (ringRd m ρ) (K (sendCell c s)) (sendCell c s) ∗ cellInv ER (ringRd m ρ) (K (recvCell (peer c (keyOf s)) s)) (recvCell (peer c (keyOf s)) s)
        ∗ ((rowM 0).view.loc (c : Thread nD τ) ↦[(rowM 0).view.set]{rowShare s} fs)
        ∗ ((rowM s).view.loc (peer c (keyOf s) : Thread nD τ) ↦[(rowM s).view.set]{fullShare} fd)
        ∗ owes (c : Thread nD τ) O₀' W
        ∗ dutyTok ER (sendCell c s) 0 0 ∗ reached ER (sendCell c s) 0
        ∗ dutyTok ER (recvCell (peer c (keyOf s)) s) 0 0 ∗ reached ER (recvCell (peer c (keyOf s)) s) 0)
      ⊢ iprop(((cred (tallyAt (sendCell c s) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0) (.remote (Dev.tc n : Thread nD τ) (rowM s) (.dma (sendSem s)) hsc) (.dma (recvSem s)) hsrc hdst hsem) k) Q) := by
  subst hn
  exact Rounds.wp_send_pointsTo 𝒱₀ ER (ringRd m ρ) (c : Thread nD τ) none (κ₁ := K (sendCell c s)) (κ₂ := K (recvCell (peer c (keyOf s)) s))
    (r₁ := 0) (r₂ := 0) (d₁ := 0) (d₂ := 0) (fd := fd)
    (by rw [duties_send m ρ c s hs]; exact Finset.mem_singleton_self _) (by rw [duties_recv m ρ _ s hs]; exact Finset.mem_singleton_self _)
    () () N hN (amount_send m ρ c s 0) (amount_recv m ρ _ s 0) O hO (W := W)
    (hpay_send m ρ c s fs hfs) (hpay_recv m ρ c s hs fd fs hfs)

/-- What the entry wait returns: each peer's row for this device's copy, and the mark that comes with it. -/
theorem bar_payloads : (bigSep seven fun d => (ringRd (F := F) m ρ).payload (barCell c) 0 d)
    = iprop(((∃ f, (rowM 1).view.loc (peer c 1 : Thread nD τ) ↦[(rowM 1).view.set]{fullShare} f) ∗ reached ER (recvCell (peer c 1) 1) 0)
        ∗ ((∃ f, (rowM 4).view.loc (peer c 2 : Thread nD τ) ↦[(rowM 4).view.set]{fullShare} f) ∗ reached ER (recvCell (peer c 2) 4) 0)
        ∗ ((∃ f, (rowM 2).view.loc (peer c 3 : Thread nD τ) ↦[(rowM 2).view.set]{fullShare} f) ∗ reached ER (recvCell (peer c 3) 2) 0)
        ∗ ((∃ f, (rowM 3).view.loc (peer c 4 : Thread nD τ) ↦[(rowM 3).view.set]{fullShare} f) ∗ reached ER (recvCell (peer c 4) 3) 0)
        ∗ ((∃ f, (rowM 5).view.loc (peer c 5 : Thread nD τ) ↦[(rowM 5).view.set]{fullShare} f) ∗ reached ER (recvCell (peer c 5) 5) 0)
        ∗ ((∃ f, (rowM 7).view.loc (peer c 6 : Thread nD τ) ↦[(rowM 7).view.set]{fullShare} f) ∗ reached ER (recvCell (peer c 6) 7) 0)
        ∗ ((∃ f, (rowM 6).view.loc (peer c 7 : Thread nD τ) ↦[(rowM 6).view.set]{fullShare} f) ∗ reached ER (recvCell (peer c 7) 6) 0)) := by
  rw [bigSep_seven, pay_bar_own_1 m ρ c, pay_bar_own_2 m ρ c, pay_bar_own_3 m ρ c, pay_bar_own_4 m ρ c, pay_bar_own_5 m ρ c, pay_bar_own_6 m ρ c, pay_bar_own_7 m ρ c]

/-- A load of the whole input staging buffer reads its contents. -/
theorem read_x (f : (cc0_stg0_0 : Ref sig .tc).ty.Contents (Elt F)) :
    View.readAt (Elt F) (Memref.whole cc0_stg0_0 : Memref sig .tc .vmem S1024x512 .f32).view
      (Rect.unit (s := S1024x512) ![0, 0] S1024x512.size inb_S1024x512_S1024x512_0_0).toLoadRect f = f :=
  Memref.readAt_unit_zero (Elt F) cc0_stg0_0 (funext fun a => by fin_cases a <;> rfl) _ f

/-- Returning a value and going on is going on with the value. -/
theorem ret_bind {E : Type → Type} {α β : Type} (a : α) (k : α → Prog E β) : (Prog.ret a).bind k = k a := rfl

/-- A whole buffer held through its memref's view is the buffer held. -/
theorem whole_x (f : (cc0_stg0_0 : Ref sig .tc).ty.Contents (Elt F)) :
    (((Memref.whole cc0_stg0_0 : Memref sig .tc .vmem _ _).view.loc (c : Thread nD τ) ↦[(Memref.whole cc0_stg0_0 : Memref sig .tc .vmem _ _).view.set]{fullShare} f : sProp 𝕄))
      = (((c : Thread nD τ).loc cc0_stg0_0) ↦{fullShare} f) := by rw [View.set_whole]
theorem whole_o (f : (cc0_stg1_0 : Ref sig .tc).ty.Contents (Elt F)) :
    (((Memref.whole cc0_stg1_0 : Memref sig .tc .vmem _ _).view.loc (c : Thread nD τ) ↦[(Memref.whole cc0_stg1_0 : Memref sig .tc .vmem _ _).view.set]{fullShare} f : sProp 𝕄))
      = (((c : Thread nD τ).loc cc0_stg1_0) ↦{fullShare} f) := by rw [View.set_whole]
theorem whole_e (f : (cc0_scratch0 : Ref sig .tc).ty.Contents (Elt F)) :
    (((Memref.whole cc0_scratch0 : Memref sig .tc .vmem _ _).view.loc (c : Thread nD τ) ↦[(Memref.whole cc0_scratch0 : Memref sig .tc .vmem _ _).view.set]{fullShare} f : sProp 𝕄))
      = (((c : Thread nD τ).loc cc0_scratch0) ↦{fullShare} f) := by rw [View.set_whole]
theorem hz2 : (![0, 0] : Fin 2 → Nat) = fun _ => 0 := funext fun a => by fin_cases a <;> rfl
/-- One store over the whole output staging buffer leaves the stored block. -/
theorem out_written (o0 w : (cc0_stg1_0 : Ref sig .tc).ty.Contents (Elt F)) :
    (Memref.whole cc0_stg1_0 : Memref sig .tc .vmem S1024x512 .bf16).view.writes (Elt F) o0
      [⟨Rect.unit (s := S1024x512) ![0, 0] S1024x512.size inb_S1024x512_S1024x512_0_0, w⟩] = w := by
  show (((Memref.whole cc0_stg1_0 : Memref sig .tc .vmem S1024x512 .bf16).access (Rect.unit (s := S1024x512) ![0, 0] S1024x512.size inb_S1024x512_S1024x512_0_0) : View sig .tc _ _ _)).write (Elt F) o0 w Finset.univ = w
  exact Memref.write_access_unit_zero_univ (Elt F) cc0_stg1_0 hz2 _ o0 w

/-- What the body leaves: both scratch buffers at some contents, the fourteen cells it closed back as plain counters at
    zero, nothing owed, the input block in place and the result block in the output's staging buffer. -/
def corePost : sProp 𝕄 :=
  iprop((∃ f, ((c : Thread nD τ).loc cc0_scratch0) ↦{fullShare} f) ∗ (∃ f, ((c : Thread nD τ).loc cc0_scratch1) ↦{fullShare} f)
    ∗ (semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0)
    ∗ (semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0)
    ∗ (∃ W' : Waits sig Unit, owes (c : Thread nD τ) 0 W')
    ∗ (((c : Thread nD τ).loc cc0_stg0_0) ↦{fullShare} X m ρ c) ∗ (((c : Thread nD τ).loc cc0_stg1_0) ↦{fullShare} outOf (X m ρ) c))

set_option maxHeartbeats 8000000 in
theorem sound_core (K : GSem nD τ sig → ℕ) (W : Waits sig Unit) (Kt : PUnit → sProp 𝕄)
    (o0 : (cc0_stg1_0 : Ref sig .tc).ty.Contents (Elt F))
    (e0 : (cc0_scratch0 : Ref sig .tc).ty.Contents (Elt F)) (g0 : (cc0_scratch1 : Ref sig .tc).ty.Contents (Elt F)) :
    iprop(iprop(
        -- the invariants
        (cellInv ER (ringRd m ρ) (K (barCell c)) (barCell c)
          ∗ (cellInv ER (ringRd m ρ) (K (sendCell c 1)) (sendCell c 1) ∗ cellInv ER (ringRd m ρ) (K (sendCell c 2)) (sendCell c 2) ∗ cellInv ER (ringRd m ρ) (K (sendCell c 3)) (sendCell c 3) ∗ cellInv ER (ringRd m ρ) (K (sendCell c 4)) (sendCell c 4) ∗ cellInv ER (ringRd m ρ) (K (sendCell c 5)) (sendCell c 5) ∗ cellInv ER (ringRd m ρ) (K (sendCell c 6)) (sendCell c 6) ∗ cellInv ER (ringRd m ρ) (K (sendCell c 7)) (sendCell c 7))
          ∗ (cellInv ER (ringRd m ρ) (K (recvCell c 1)) (recvCell c 1) ∗ cellInv ER (ringRd m ρ) (K (recvCell c 2)) (recvCell c 2) ∗ cellInv ER (ringRd m ρ) (K (recvCell c 3)) (recvCell c 3) ∗ cellInv ER (ringRd m ρ) (K (recvCell c 4)) (recvCell c 4) ∗ cellInv ER (ringRd m ρ) (K (recvCell c 5)) (recvCell c 5) ∗ cellInv ER (ringRd m ρ) (K (recvCell c 6)) (recvCell c 6) ∗ cellInv ER (ringRd m ρ) (K (recvCell c 7)) (recvCell c 7))
          ∗ (cellInv ER (ringRd m ρ) (K (barCell (peer c 1))) (barCell (peer c 1)) ∗ cellInv ER (ringRd m ρ) (K (barCell (peer c 2))) (barCell (peer c 2)) ∗ cellInv ER (ringRd m ρ) (K (barCell (peer c 3))) (barCell (peer c 3)) ∗ cellInv ER (ringRd m ρ) (K (barCell (peer c 4))) (barCell (peer c 4)) ∗ cellInv ER (ringRd m ρ) (K (barCell (peer c 5))) (barCell (peer c 5)) ∗ cellInv ER (ringRd m ρ) (K (barCell (peer c 6))) (barCell (peer c 6)) ∗ cellInv ER (ringRd m ρ) (K (barCell (peer c 7))) (barCell (peer c 7)))
          ∗ (cellInv ER (ringRd m ρ) (K (recvCell (peer c 1) 1)) (recvCell (peer c 1) 1) ∗ cellInv ER (ringRd m ρ) (K (recvCell (peer c 3) 2)) (recvCell (peer c 3) 2) ∗ cellInv ER (ringRd m ρ) (K (recvCell (peer c 4) 3)) (recvCell (peer c 4) 3) ∗ cellInv ER (ringRd m ρ) (K (recvCell (peer c 2) 4)) (recvCell (peer c 2) 4) ∗ cellInv ER (ringRd m ρ) (K (recvCell (peer c 5) 5)) (recvCell (peer c 5) 5) ∗ cellInv ER (ringRd m ρ) (K (recvCell (peer c 7) 6)) (recvCell (peer c 7) 6) ∗ cellInv ER (ringRd m ρ) (K (recvCell (peer c 6) 7)) (recvCell (peer c 6) 7)))
        -- the rounds reached
        ∗ ((reached ER (barCell (peer c 1)) 0 ∗ reached ER (barCell (peer c 2)) 0 ∗ reached ER (barCell (peer c 3)) 0 ∗ reached ER (barCell (peer c 4)) 0 ∗ reached ER (barCell (peer c 5)) 0 ∗ reached ER (barCell (peer c 6)) 0 ∗ reached ER (barCell (peer c 7)) 0)
          ∗ (reached ER (recvCell (peer c 1) 1) 0 ∗ reached ER (recvCell (peer c 3) 2) 0 ∗ reached ER (recvCell (peer c 4) 3) 0 ∗ reached ER (recvCell (peer c 2) 4) 0 ∗ reached ER (recvCell (peer c 5) 5) 0 ∗ reached ER (recvCell (peer c 7) 6) 0 ∗ reached ER (recvCell (peer c 6) 7) 0)
          ∗ (reached ER (sendCell c 1) 0 ∗ reached ER (sendCell c 2) 0 ∗ reached ER (sendCell c 3) 0 ∗ reached ER (sendCell c 4) 0 ∗ reached ER (sendCell c 5) 0 ∗ reached ER (sendCell c 6) 0 ∗ reached ER (sendCell c 7) 0)
          ∗ (reached ER (recvCell c 1) 0 ∗ reached ER (recvCell c 2) 0 ∗ reached ER (recvCell c 3) 0 ∗ reached ER (recvCell c 4) 0 ∗ reached ER (recvCell c 5) 0 ∗ reached ER (recvCell c 6) 0 ∗ reached ER (recvCell c 7) 0))
        ∗ levAts L lv
        -- positions, tokens, credit
        ∗ atPos ER (barCell c) 0 ∅ 0
        ∗ (atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0 ∗ atPos ER (sendCell c 7) 0 ∅ 0)
        ∗ (atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0 ∗ atPos ER (recvCell c 7) 0 ∅ 0)
        ∗ (dutyTok ER (barCell (peer c 1)) 0 1 ∗ dutyTok ER (barCell (peer c 2)) 0 2 ∗ dutyTok ER (barCell (peer c 3)) 0 3 ∗ dutyTok ER (barCell (peer c 4)) 0 4 ∗ dutyTok ER (barCell (peer c 5)) 0 5 ∗ dutyTok ER (barCell (peer c 6)) 0 6 ∗ dutyTok ER (barCell (peer c 7)) 0 7)
        ∗ (dutyTok ER (recvCell (peer c 1) 1) 0 0 ∗ dutyTok ER (recvCell (peer c 3) 2) 0 0 ∗ dutyTok ER (recvCell (peer c 4) 3) 0 0 ∗ dutyTok ER (recvCell (peer c 2) 4) 0 0 ∗ dutyTok ER (recvCell (peer c 5) 5) 0 0 ∗ dutyTok ER (recvCell (peer c 7) 6) 0 0 ∗ dutyTok ER (recvCell (peer c 6) 7) 0 0)
        ∗ (dutyTok ER (sendCell c 1) 0 0 ∗ dutyTok ER (sendCell c 2) 0 0 ∗ dutyTok ER (sendCell c 3) 0 0 ∗ dutyTok ER (sendCell c 4) 0 0 ∗ dutyTok ER (sendCell c 5) 0 0 ∗ dutyTok ER (sendCell c 6) 0 0 ∗ dutyTok ER (sendCell c 7) 0 0)
        ∗ cred (tallyAt (barCell c) () 7)
        ∗ (cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N))
        -- the gather buffer by rows, in the order the signals hand them over; row 0 last
        ∗ (((rowM 1).view.loc (c : Thread nD τ) ↦[(rowM 1).view.set]{fullShare} g0) ∗ ((rowM 4).view.loc (c : Thread nD τ) ↦[(rowM 4).view.set]{fullShare} g0) ∗ ((rowM 2).view.loc (c : Thread nD τ) ↦[(rowM 2).view.set]{fullShare} g0) ∗ ((rowM 3).view.loc (c : Thread nD τ) ↦[(rowM 3).view.set]{fullShare} g0) ∗ ((rowM 5).view.loc (c : Thread nD τ) ↦[(rowM 5).view.set]{fullShare} g0) ∗ ((rowM 7).view.loc (c : Thread nD τ) ↦[(rowM 7).view.set]{fullShare} g0) ∗ ((rowM 6).view.loc (c : Thread nD τ) ↦[(rowM 6).view.set]{fullShare} g0))
        ∗ ((rowM 0).view.loc (c : Thread nD τ) ↦[(rowM 0).view.set]{fullShare} g0)
        ∗ owes (c : Thread nD τ) (tallyAt (recvCell (peer c 6) 7) () N + tallyAt (recvCell (peer c 7) 6) () N + tallyAt (recvCell (peer c 5) 5) () N
            + tallyAt (recvCell (peer c 2) 4) () N + tallyAt (recvCell (peer c 4) 3) () N + tallyAt (recvCell (peer c 3) 2) () N
            + tallyAt (recvCell (peer c 1) 1) () N
            + tallyAt (barCell (peer c 7)) () 1 + tallyAt (barCell (peer c 6)) () 1 + tallyAt (barCell (peer c 5)) () 1 + tallyAt (barCell (peer c 4)) () 1
            + tallyAt (barCell (peer c 3)) () 1 + tallyAt (barCell (peer c 2)) () 1 + tallyAt (barCell (peer c 1)) () 1) W
        ∗ ((Memref.whole cc0_stg0_0 : Memref sig .tc .vmem _ _).view.loc (c : Thread nD τ) ↦[(Memref.whole cc0_stg0_0 : Memref sig .tc .vmem _ _).view.set]{fullShare} (X m ρ c)) ∗ ((Memref.whole cc0_stg1_0 : Memref sig .tc .vmem _ _).view.loc (c : Thread nD τ) ↦[(Memref.whole cc0_stg1_0 : Memref sig .tc .vmem _ _).view.set]{fullShare} o0) ∗ ((Memref.whole cc0_scratch0 : Memref sig .tc .vmem _ _).view.loc (c : Thread nD τ) ↦[(Memref.whole cc0_scratch0 : Memref sig .tc .vmem _ _).view.set]{fullShare} e0))
        ∗ (corePost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  iintro ⟨⟨⟨#HIb, ⟨#HIs1, #HIs2, #HIs3, #HIs4, #HIs5, #HIs6, #HIs7⟩, ⟨#HIr1, #HIr2, #HIr3, #HIr4, #HIr5, #HIr6, #HIr7⟩, ⟨#HIbp1, #HIbp2, #HIbp3, #HIbp4, #HIbp5, #HIbp6, #HIbp7⟩, ⟨#HIrp1, #HIrp2, #HIrp3, #HIrp4, #HIrp5, #HIrp6, #HIrp7⟩⟩,
    ⟨⟨#HrB1, #HrB2, #HrB3, #HrB4, #HrB5, #HrB6, #HrB7⟩, ⟨#HrVp1, #HrVp2, #HrVp3, #HrVp4, #HrVp5, #HrVp6, #HrVp7⟩, ⟨#HrS1, #HrS2, #HrS3, #HrS4, #HrS5, #HrS6, #HrS7⟩, ⟨#HrV1, #HrV2, #HrV3, #HrV4, #HrV5, #HrV6, #HrV7⟩⟩, #Hlev,
    HatB, ⟨HatS1, HatS2, HatS3, HatS4, HatS5, HatS6, HatS7⟩, ⟨HatV1, HatV2, HatV3, HatV4, HatV5, HatV6, HatV7⟩, ⟨HtB1, HtB2, HtB3, HtB4, HtB5, HtB6, HtB7⟩, ⟨HtVp1, HtVp2, HtVp3, HtVp4, HtVp5, HtVp6, HtVp7⟩, ⟨HtS1, HtS2, HtS3, HtS4, HtS5, HtS6, HtS7⟩,
    HcB, ⟨HcV1, HcV2, HcV3, HcV4, HcV5, HcV6, HcV7⟩, ⟨Hrow1, Hrow4, Hrow2, Hrow3, Hrow5, Hrow7, Hrow6⟩, Hrow0, HO, Hx, Hout, He⟩, Hk⟩
  have hmw := mayWait_bar (F := F) c
  have hnm : (Memref.whole cc0_scratch1 : Memref sig .tc .vmem S8x2x1024 .f32).view.setOn (Rect.unit (s := S8x2x1024) ![0, 0, 0] S7x1x1024.size inb_S8x2x1024_S7x1x1024_0_0_0).set ⊆ nearSet c := near_sub_M c
  have hns : (Memref.whole cc0_scratch1 : Memref sig .tc .vmem S8x2x1024 .f32).view.setOn (Rect.unit (s := S8x2x1024) ![0, 1, 0] S7x1x1024.size inb_S8x2x1024_S7x1x1024_0_1_0).set ⊆ nearSet c := near_sub_S c
  have hfm : (Memref.whole cc0_scratch1 : Memref sig .tc .vmem S8x2x1024 .f32).view.setOn (Rect.unit (s := S8x2x1024) ![7, 0, 0] S1x1x1024.size inb_S8x2x1024_S1x1x1024_7_0_0).set ⊆ (rowM 7).view.set := far_sub_M
  have hfS : (Memref.whole cc0_scratch1 : Memref sig .tc .vmem S8x2x1024 .f32).view.setOn (Rect.unit (s := S8x2x1024) ![7, 1, 0] S1x1x1024.size inb_S8x2x1024_S1x1x1024_7_1_0).set ⊆ (rowM 7).view.set := far_sub_S
  -- the seven signals, the block and row 0 loaded, row 0 stored, the entry wait
  sl_exec

  -- the seven rows the peers handed over (key order 1 … 7: rows 1, 4, 2, 3, 5, 7, 6)
  ihave Hp := (Entails.of_eq (bar_payloads m ρ c)) $$ HatB_pay1
  icases Hp with ⟨⟨⟨%fd1, Hp1⟩, -⟩, ⟨⟨%fd4, Hp4⟩, -⟩, ⟨⟨%fd2, Hp2⟩, -⟩, ⟨⟨%fd3, Hp3⟩, -⟩, ⟨⟨%fd5, Hp5⟩, -⟩, ⟨⟨%fd7, Hp7⟩, -⟩, ⟨%fd6, Hp6⟩, -⟩
  -- row 0 holds this device's statistics
  have hfs : ∀ j ∈ (rowM 0).view.set, (sound_core.sl.Hrow0_w1 m ρ c g0) j = gat (X m ρ) c j := by
    intro j hj
    unfold sound_core.sl.Hrow0_w1
    rw [read_x]
    exact row0_written c g0 (X m ρ) j hj
  -- row 0 in its eight shares: one stays here, one goes with each copy
  ihave Hsh := (Entails.of_eq (row0_shares c _)) $$ Hrow0
  icases Hsh with ⟨Hr00, Hr01, Hr02, Hr03, Hr04, Hr05, Hr06, Hr07⟩
  -- the seven copies, each by the send rule at its row

  iapply (wp_send_row m ρ c K 1 (by decide) _ (dev8_eq c) _ hfs fd1 _ _ rfl _ rfl) $$ [Hr01 Hp1 HO HtS1 HtVp1]
  · isplitr; · iexact HIs1
    isplitr; · iexact HIrp1
    isplitl [Hr01]; · iexact Hr01
    isplitl [Hp1]; · iexact Hp1
    isplitl [HO]; · iexact HO
    isplitl [HtS1]; · iexact HtS1
    isplitr; · iexact HrS1
    isplitl [HtVp1]; · iexact HtVp1
    iexact HrVp1
  iintro ⟨HcS1, HO⟩
  sl_exec

  iapply (wp_send_row m ρ c K 2 (by decide) _ (dev9_eq c) _ hfs fd2 _ _ rfl _ rfl) $$ [Hr02 Hp2 HO HtS2 HtVp2]
  · isplitr; · iexact HIs2
    isplitr; · iexact HIrp2
    isplitl [Hr02]; · iexact Hr02
    isplitl [Hp2]; · iexact Hp2
    isplitl [HO]; · iexact HO
    isplitl [HtS2]; · iexact HtS2
    isplitr; · iexact HrS2
    isplitl [HtVp2]; · iexact HtVp2
    iexact HrVp2
  iintro ⟨HcS2, HO⟩
  sl_exec

  iapply (wp_send_row m ρ c K 3 (by decide) _ (dev10_eq c) _ hfs fd3 _ _ rfl _ rfl) $$ [Hr03 Hp3 HO HtS3 HtVp3]
  · isplitr; · iexact HIs3
    isplitr; · iexact HIrp3
    isplitl [Hr03]; · iexact Hr03
    isplitl [Hp3]; · iexact Hp3
    isplitl [HO]; · iexact HO
    isplitl [HtS3]; · iexact HtS3
    isplitr; · iexact HrS3
    isplitl [HtVp3]; · iexact HtVp3
    iexact HrVp3
  iintro ⟨HcS3, HO⟩
  sl_exec

  iapply (wp_send_row m ρ c K 4 (by decide) _ (dev11_eq c) _ hfs fd4 _ _ rfl _ rfl) $$ [Hr04 Hp4 HO HtS4 HtVp4]
  · isplitr; · iexact HIs4
    isplitr; · iexact HIrp4
    isplitl [Hr04]; · iexact Hr04
    isplitl [Hp4]; · iexact Hp4
    isplitl [HO]; · iexact HO
    isplitl [HtS4]; · iexact HtS4
    isplitr; · iexact HrS4
    isplitl [HtVp4]; · iexact HtVp4
    iexact HrVp4
  iintro ⟨HcS4, HO⟩
  sl_exec

  iapply (wp_send_row m ρ c K 5 (by decide) _ (dev12_eq c) _ hfs fd5 _ _ rfl _ rfl) $$ [Hr05 Hp5 HO HtS5 HtVp5]
  · isplitr; · iexact HIs5
    isplitr; · iexact HIrp5
    isplitl [Hr05]; · iexact Hr05
    isplitl [Hp5]; · iexact Hp5
    isplitl [HO]; · iexact HO
    isplitl [HtS5]; · iexact HtS5
    isplitr; · iexact HrS5
    isplitl [HtVp5]; · iexact HtVp5
    iexact HrVp5
  iintro ⟨HcS5, HO⟩
  sl_exec

  iapply (wp_send_row m ρ c K 6 (by decide) _ (dev13_eq c) _ hfs fd6 _ _ rfl _ rfl) $$ [Hr06 Hp6 HO HtS6 HtVp6]
  · isplitr; · iexact HIs6
    isplitr; · iexact HIrp6
    isplitl [Hr06]; · iexact Hr06
    isplitl [Hp6]; · iexact Hp6
    isplitl [HO]; · iexact HO
    isplitl [HtS6]; · iexact HtS6
    isplitr; · iexact HrS6
    isplitl [HtVp6]; · iexact HtVp6
    iexact HrVp6
  iintro ⟨HcS6, HO⟩
  sl_exec

  iapply (wp_send_row m ρ c K 7 (by decide) _ (dev14_eq c) _ hfs fd7 _ _ (zero_add _).symm _ rfl) $$ [Hr07 Hp7 HO HtS7 HtVp7]
  · isplitr; · iexact HIs7
    isplitr; · iexact HIrp7
    isplitl [Hr07]; · iexact Hr07
    isplitl [Hp7]; · iexact Hp7
    isplitl [HO]; · iexact HO
    isplitl [HtS7]; · iexact HtS7
    isplitr; · iexact HrS7
    isplitl [HtVp7]; · iexact HtVp7
    iexact HrVp7
  iintro ⟨HcS7, HO⟩

  -- the exponentials kept, six arrivals
  sl_exec

  -- every row held so far holds the final contents; the device's own share of row 0 restated so
  ihave Hr00' := (Entails.of_eq (pointsTo_congr (q := rowShare 0) hfs)) $$ Hr00
  -- rows 1 … 6 in halves; the left halves join row 0's into the region the two loads of rows 0 … 6 read
  ihave Hh1 := (Entails.of_eq (row_halves c 1 _)) $$ HatV1_pay1
  icases Hh1 with ⟨Hl1, Hg1⟩
  ihave Hh2 := (Entails.of_eq (row_halves c 2 _)) $$ HatV2_pay1
  icases Hh2 with ⟨Hl2, Hg2⟩
  ihave Hh3 := (Entails.of_eq (row_halves c 3 _)) $$ HatV3_pay1
  icases Hh3 with ⟨Hl3, Hg3⟩
  ihave Hh4 := (Entails.of_eq (row_halves c 4 _)) $$ HatV4_pay1
  icases Hh4 with ⟨Hl4, Hg4⟩
  ihave Hh5 := (Entails.of_eq (row_halves c 5 _)) $$ HatV5_pay1
  icases Hh5 with ⟨Hl5, Hg5⟩
  ihave Hh6 := (Entails.of_eq (row_halves c 6 _)) $$ HatV6_pay1
  icases Hh6 with ⟨Hl6, Hg6⟩
  ihave Hnear := (Entails.of_eq (near_join c (gat (X m ρ) c))) $$ [Hr00' Hl1 Hl2 Hl3 Hl4 Hl5 Hl6]
  · isplitl [Hr00']; · iexact Hr00'
    isplitl [Hl1]; · iexact Hl1
    isplitl [Hl2]; · iexact Hl2
    isplitl [Hl3]; · iexact Hl3
    isplitl [Hl4]; · iexact Hl4
    isplitl [Hl5]; · iexact Hl5
    iexact Hl6
  -- rows 0 … 6 read twice (maxima, sums), by the load rule on the joined region
  iapply (wp_load 𝒱₀ (c : Thread nD τ) none Set.univ (m := (gM : Memref sig .tc .vmem S8x2x1024 .f32)) (near_sub_M c)) $$ Hnear
  iintro Hnear
  iapply (wp_load 𝒱₀ (c : Thread nD τ) none Set.univ (m := (gM : Memref sig .tc .vmem S8x2x1024 .f32)) (near_sub_S c)) $$ Hnear
  iintro Hnear
  rw [ret_bind]
  -- the partial maximum and sum, the arrival of row 7, row 7 read, the result written, the seven departures
  sl_exec

  -- the gather buffer whole again, every row holding the final contents
  ihave Hl := (Entails.of_eq (near_join c (gat (X m ρ) c)).symm) $$ Hnear
  icases Hl with ⟨Hl0, Hl1, Hl2, Hl3, Hl4, Hl5, Hl6⟩
  ihave Hf1 := (Entails.of_eq (row_halves c 1 (gat (X m ρ) c)).symm) $$ [Hl1 Hg1]
  · isplitl [Hl1]; · iexact Hl1
    iexact Hg1
  ihave Hf2 := (Entails.of_eq (row_halves c 2 (gat (X m ρ) c)).symm) $$ [Hl2 Hg2]
  · isplitl [Hl2]; · iexact Hl2
    iexact Hg2
  ihave Hf3 := (Entails.of_eq (row_halves c 3 (gat (X m ρ) c)).symm) $$ [Hl3 Hg3]
  · isplitl [Hl3]; · iexact Hl3
    iexact Hg3
  ihave Hf4 := (Entails.of_eq (row_halves c 4 (gat (X m ρ) c)).symm) $$ [Hl4 Hg4]
  · isplitl [Hl4]; · iexact Hl4
    iexact Hg4
  ihave Hf5 := (Entails.of_eq (row_halves c 5 (gat (X m ρ) c)).symm) $$ [Hl5 Hg5]
  · isplitl [Hl5]; · iexact Hl5
    iexact Hg5
  ihave Hf6 := (Entails.of_eq (row_halves c 6 (gat (X m ρ) c)).symm) $$ [Hl6 Hg6]
  · isplitl [Hl6]; · iexact Hl6
    iexact Hg6
  ihave Hf0 := (Entails.of_eq (row0_shares c (gat (X m ρ) c)).symm) $$ [Hl0 HatS1_pay1 HatS2_pay1 HatS3_pay1 HatS4_pay1 HatS5_pay1 HatS6_pay1 HatS7_pay1]
  · isplitl [Hl0]; · iexact Hl0
    isplitl [HatS1_pay1]; · iexact HatS1_pay1
    isplitl [HatS2_pay1]; · iexact HatS2_pay1
    isplitl [HatS3_pay1]; · iexact HatS3_pay1
    isplitl [HatS4_pay1]; · iexact HatS4_pay1
    isplitl [HatS5_pay1]; · iexact HatS5_pay1
    isplitl [HatS6_pay1]; · iexact HatS6_pay1
    iexact HatS7_pay1
  ihave Hg := (Entails.of_eq (rows_split c (gat (X m ρ) c)).symm) $$ [Hf0 Hf1 Hf2 Hf3 Hf4 Hf5 Hf6 HatV7_pay1]
  · isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    iexact HatV7_pay1
  -- the fourteen cells close: their counters at zero are the device's again
  imod (Rounds.cell_close ER (ringRd m ρ) (Set.mem_univ (K (sendCell c 1))) (fun h => h) (R := 1) (duties_later m ρ (sendCell c 1))) $$ [HatS1] with HzS1
  · isplitr; · iexact HIs1
    iexact HatS1
  imod (Rounds.cell_close ER (ringRd m ρ) (Set.mem_univ (K (sendCell c 2))) (fun h => h) (R := 1) (duties_later m ρ (sendCell c 2))) $$ [HatS2] with HzS2
  · isplitr; · iexact HIs2
    iexact HatS2
  imod (Rounds.cell_close ER (ringRd m ρ) (Set.mem_univ (K (sendCell c 3))) (fun h => h) (R := 1) (duties_later m ρ (sendCell c 3))) $$ [HatS3] with HzS3
  · isplitr; · iexact HIs3
    iexact HatS3
  imod (Rounds.cell_close ER (ringRd m ρ) (Set.mem_univ (K (sendCell c 4))) (fun h => h) (R := 1) (duties_later m ρ (sendCell c 4))) $$ [HatS4] with HzS4
  · isplitr; · iexact HIs4
    iexact HatS4
  imod (Rounds.cell_close ER (ringRd m ρ) (Set.mem_univ (K (sendCell c 5))) (fun h => h) (R := 1) (duties_later m ρ (sendCell c 5))) $$ [HatS5] with HzS5
  · isplitr; · iexact HIs5
    iexact HatS5
  imod (Rounds.cell_close ER (ringRd m ρ) (Set.mem_univ (K (sendCell c 6))) (fun h => h) (R := 1) (duties_later m ρ (sendCell c 6))) $$ [HatS6] with HzS6
  · isplitr; · iexact HIs6
    iexact HatS6
  imod (Rounds.cell_close ER (ringRd m ρ) (Set.mem_univ (K (sendCell c 7))) (fun h => h) (R := 1) (duties_later m ρ (sendCell c 7))) $$ [HatS7] with HzS7
  · isplitr; · iexact HIs7
    iexact HatS7
  imod (Rounds.cell_close ER (ringRd m ρ) (Set.mem_univ (K (recvCell c 1))) (fun h => h) (R := 1) (duties_later m ρ (recvCell c 1))) $$ [HatV1] with HzV1
  · isplitr; · iexact HIr1
    iexact HatV1
  imod (Rounds.cell_close ER (ringRd m ρ) (Set.mem_univ (K (recvCell c 2))) (fun h => h) (R := 1) (duties_later m ρ (recvCell c 2))) $$ [HatV2] with HzV2
  · isplitr; · iexact HIr2
    iexact HatV2
  imod (Rounds.cell_close ER (ringRd m ρ) (Set.mem_univ (K (recvCell c 3))) (fun h => h) (R := 1) (duties_later m ρ (recvCell c 3))) $$ [HatV3] with HzV3
  · isplitr; · iexact HIr3
    iexact HatV3
  imod (Rounds.cell_close ER (ringRd m ρ) (Set.mem_univ (K (recvCell c 4))) (fun h => h) (R := 1) (duties_later m ρ (recvCell c 4))) $$ [HatV4] with HzV4
  · isplitr; · iexact HIr4
    iexact HatV4
  imod (Rounds.cell_close ER (ringRd m ρ) (Set.mem_univ (K (recvCell c 5))) (fun h => h) (R := 1) (duties_later m ρ (recvCell c 5))) $$ [HatV5] with HzV5
  · isplitr; · iexact HIr5
    iexact HatV5
  imod (Rounds.cell_close ER (ringRd m ρ) (Set.mem_univ (K (recvCell c 6))) (fun h => h) (R := 1) (duties_later m ρ (recvCell c 6))) $$ [HatV6] with HzV6
  · isplitr; · iexact HIr6
    iexact HatV6
  imod (Rounds.cell_close ER (ringRd m ρ) (Set.mem_univ (K (recvCell c 7))) (fun h => h) (R := 1) (duties_later m ρ (recvCell c 7))) $$ [HatV7] with HzV7
  · isplitr; · iexact HIr7
    iexact HatV7
  -- the result block is the specification's
  have hres : k0_pay13 (sound_core.sl.r m ρ c) (sound_core.sl.r_2 m ρ c) (sound_core.sl.r_3 m ρ c) (sound_core.sl.r_4 m ρ c)
      (sound_core.sl.r_5 m ρ c) (sound_core.sl.r_6 m ρ c) (sound_core.sl.v202 m ρ c) = outOf (X m ρ) c := by
    unfold sound_core.sl.r sound_core.sl.r_2 sound_core.sl.r_3 sound_core.sl.r_4 sound_core.sl.r_5 sound_core.sl.r_6 sound_core.sl.v202
      sound_core.sl.v187 sound_core.sl.v189 sound_core.sl.r_1
    rw [read_x, View.readCov_unit_zero (S := S1024x512) _ hz2 _ _]
    rfl
  have hout := (out_written (F := F) o0 _).trans hres
  sl_step
  iapply Hk
  unfold corePost
  isplitl [He]
  · ihave He' := (Entails.of_eq (whole_e c _)) $$ He
    iexists _; iexact He'
  isplitl [Hg]; · iexists _; iexact Hg
  isplitl [HzS1 HzS2 HzS3 HzS4 HzS5 HzS6 HzS7]
  · isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    iexact HzS7
  isplitl [HzV1 HzV2 HzV3 HzV4 HzV5 HzV6 HzV7]
  · isplitl [HzV1]; · iexact HzV1
    isplitl [HzV2]; · iexact HzV2
    isplitl [HzV3]; · iexact HzV3
    isplitl [HzV4]; · iexact HzV4
    isplitl [HzV5]; · iexact HzV5
    isplitl [HzV6]; · iexact HzV6
    iexact HzV7
  isplitl [HO]; · iexists _; iexact HO
  isplitl [Hx]
  · ihave Hx' := (Entails.of_eq (whole_x c _)) $$ Hx
    iexact Hx'
  ihave Hout' := (Entails.of_eq ((whole_o c _).trans (congrArg (fun f => (((c : Thread nD τ).loc cc0_stg1_0) ↦{fullShare} f : sProp 𝕄)) hout))) $$ Hout
  iexact Hout'

/-- info: 'Cert.KernelIdeal.Proto.sound_core' depends on axioms: [propext, Classical.choice, Quot.sound] -/
#guard_msgs in #print axioms sound_core

end Cert.KernelIdeal.Proto
end
-- ==== Proof.Body.lean ====
/-
  The body's obligation to the launch, from the statement about the body with every family written out.

  The launch states what a device's body starts from through families over the seven keys and the seven rows: the
  invariants, marks, positions and tokens of its cells, its credit, the gather buffer whole. The statement about the
  body wants the same things one by one: each family as a seven-fold product with the peers' keys as numerals, the
  gather buffer as its eight rows (rows 1, 4, 2, 3, 5, 7, 6 in the order the entry signals hand them over, row 0
  apart), the tallies owed summand by summand. This module is the passage between the two. Nothing here is about
  what the kernel computes: a family over 1 … 7 is its seven members, the key of a row is a numeral, the buffer is
  its rows, and the two counters of row 0, which no copy uses, go round the body untouched.

  At the one grid point the input's staging buffer has just been fetched, so it holds the device's block; the
  output's holds anything. Afterwards nothing is owed, and the two staging buffers hold the block and the result.
-/
import proofs.«900601_g7700000000000602_dist_softmax_colshard_i_m1024_n512_v7x_i8_bf16_1_alg».proof.Proof.BodyCore
import proofs.«900601_g7700000000000602_dist_softmax_colshard_i_m1024_n512_v7x_i8_bf16_1_alg».proof.Proof.Rows
import proofs.«900601_g7700000000000602_dist_softmax_colshard_i_m1024_n512_v7x_i8_bf16_1_alg».proof.Proof.Gen.KernelIdeal.Launch
import proofs.«900601_g7700000000000602_dist_softmax_colshard_i_m1024_n512_v7x_i8_bf16_1_alg».proof.Proof.Gen.KernelIdeal.Points

noncomputable section

namespace Cert.KernelIdeal.Proto

open Cert.KernelIdeal Cert.KernelIdeal.Gen Cert.KernelIdeal.Mesh Cert.KernelIdeal.Spec

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Glue

/-! ## Whole buffers -/

/-- A whole staging buffer as the launch hands it over: at some contents, known to be the named ones. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- A whole buffer seen through its memref is the buffer. -/
theorem pts_x (c : Dev nD) (f : Buf (Elt F) ((c : Thread nD τ).loc cc0_stg0_0)) :
    (((Memref.whole cc0_stg0_0 : Memref sig .tc .vmem _ _).view.loc (c : Thread nD τ) ↦[(Memref.whole cc0_stg0_0 : Memref sig .tc .vmem _ _).view.set]{fullShare} f) : sProp 𝕄)
      = (((c : Thread nD τ).loc cc0_stg0_0) ↦{fullShare} f) := by
  rw [View.set_whole]
theorem pts_o (c : Dev nD) (f : Buf (Elt F) ((c : Thread nD τ).loc cc0_stg1_0)) :
    (((Memref.whole cc0_stg1_0 : Memref sig .tc .vmem _ _).view.loc (c : Thread nD τ) ↦[(Memref.whole cc0_stg1_0 : Memref sig .tc .vmem _ _).view.set]{fullShare} f) : sProp 𝕄)
      = (((c : Thread nD τ).loc cc0_stg1_0) ↦{fullShare} f) := by
  rw [View.set_whole]
theorem pts_e (c : Dev nD) (f : Buf (Elt F) ((c : Thread nD τ).loc cc0_scratch0)) :
    (((Memref.whole cc0_scratch0 : Memref sig .tc .vmem _ _).view.loc (c : Thread nD τ) ↦[(Memref.whole cc0_scratch0 : Memref sig .tc .vmem _ _).view.set]{fullShare} f) : sProp 𝕄)
      = (((c : Thread nD τ).loc cc0_scratch0) ↦{fullShare} f) := by
  rw [View.set_whole]

/-- What the obligation hands the body at the one point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it wants back. -/
def bodyPost (c : Dev nD) : sProp 𝕄 :=
  iprop(Φ₁ c ∗ (dats m ρ 0 c).owesAt () t₀.succ ∗ stg c cc0_stg0_0 (X m ρ c) ∗ stg c cc0_stg1_0 (outOf (X m ρ) c))

/-- The input's staging buffer holds the device's block: the one point fetches it. -/
theorem before_x (c : Dev nD) (d : (cfg0.win (0 : Fin 2)).block.Idx → Elt F (cfg0.win (0 : Fin 2)).elt) :
    (dats m ρ 0 c).before (0 : Fin 2) t₀ d = X m ρ c := by
  unfold Dat.before
  rw [if_pos (fetch0_0 t₀)]
  rfl

theorem owed_first (c : Dev nD) : (dats m ρ 0 c).owed t₀.castSucc = (tallyAt (recvCell (peer c 6) 7) () N + tallyAt (recvCell (peer c 7) 6) () N + tallyAt (recvCell (peer c 5) 5) () N
            + tallyAt (recvCell (peer c 2) 4) () N + tallyAt (recvCell (peer c 4) 3) () N + tallyAt (recvCell (peer c 3) 2) () N
            + tallyAt (recvCell (peer c 1) 1) () N
            + tallyAt (barCell (peer c 7)) () 1 + tallyAt (barCell (peer c 6)) () 1 + tallyAt (barCell (peer c 5)) () 1 + tallyAt (barCell (peer c 4)) () 1
            + tallyAt (barCell (peer c 3)) () 1 + tallyAt (barCell (peer c 2)) () 1 + tallyAt (barCell (peer c 1)) () 1) := rfl
theorem owed_last (c : Dev nD) : (dats m ρ 0 c).owed t₀.succ = 0 := rfl

theorem keyOf_1 : keyOf (1 : Fin 8) = 1 := rfl
theorem keyOf_2 : keyOf (2 : Fin 8) = 3 := rfl
theorem keyOf_3 : keyOf (3 : Fin 8) = 4 := rfl
theorem keyOf_4 : keyOf (4 : Fin 8) = 2 := rfl
theorem keyOf_5 : keyOf (5 : Fin 8) = 5 := rfl
theorem keyOf_6 : keyOf (6 : Fin 8) = 7 := rfl
theorem keyOf_7 : keyOf (7 : Fin 8) = 6 := rfl

set_option maxRecDepth 4000 in
theorem body_glue (c : Dev nD) :
    bodyPre' m ρ c ⊢ wp frame (wpE (defs₀ (F := F)) 𝒱₀ c none) Set.univ
      (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c) := by
  unfold bodyPre' Φ₀ start ghost invs marks linear Dat.owesAt Pipeline.owesWithin
  simp only [bigSep_seven]
  simp only [keyOf_1, keyOf_2, keyOf_3, keyOf_4, keyOf_5, keyOf_6, keyOf_7, before_x, owed_first]
  iintro ⟨⟨⟨⟨%K, ⟨Hib, ⟨⟨Is1, Ir1⟩, ⟨Is2, Ir2⟩, ⟨Is3, Ir3⟩, ⟨Is4, Ir4⟩, ⟨Is5, Ir5⟩, ⟨Is6, Ir6⟩, ⟨Is7, Ir7⟩⟩, Hibp, Hirp⟩, ⟨Hmbp, Hmrp, ⟨⟨Ms1, Mr1⟩, ⟨Ms2, Mr2⟩, ⟨Ms3, Mr3⟩, ⟨Ms4, Mr4⟩, ⟨Ms5, Mr5⟩, ⟨Ms6, Mr6⟩, ⟨Ms7, Mr7⟩⟩⟩, ⟨Hpb, ⟨⟨Ps1, Pr1⟩, ⟨Ps2, Pr2⟩, ⟨Ps3, Pr3⟩, ⟨Ps4, Pr4⟩, ⟨Ps5, Pr5⟩, ⟨Ps6, Pr6⟩, ⟨Ps7, Pr7⟩⟩, Htb, ⟨⟨Tr1, Ts1⟩, ⟨Tr2, Ts2⟩, ⟨Tr3, Ts3⟩, ⟨Tr4, Ts4⟩, ⟨Tr5, Ts5⟩, ⟨Tr6, Ts6⟩, ⟨Tr7, Ts7⟩⟩⟩⟩, Hcb, Hcr, Hlev, Hs0, Hr0⟩, ⟨%e0, He⟩, ⟨%g0, Hg⟩⟩, ⟨%W, %hW, Ho⟩, ⟨%d0, %f0, %hf0, Hx⟩, ⟨%d1, %f1, %hf1, Hout⟩⟩
  subst hf0
  have core := sound_core m ρ c K W (fun _ => bodyPost m ρ c) f1 e0 g0
  rw [pts_x, pts_o, pts_e] at core
  iapply core
  icases (Entails.of_eq (rows_split c g0)) $$ Hg with ⟨R0, R1, R2, R3, R4, R5, R6, R7⟩
  isplitr [Hs0 Hr0]
  · isplitl [Hib Is1 Is2 Is3 Is4 Is5 Is6 Is7 Ir1 Ir2 Ir3 Ir4 Ir5 Ir6 Ir7 Hibp Hirp]
    · isplitl [Hib]; · iexact Hib
      isplitl [Is1 Is2 Is3 Is4 Is5 Is6 Is7]
      · isplitl [Is1]; · iexact Is1
        isplitl [Is2]; · iexact Is2
        isplitl [Is3]; · iexact Is3
        isplitl [Is4]; · iexact Is4
        isplitl [Is5]; · iexact Is5
        isplitl [Is6]; · iexact Is6
        iexact Is7
      isplitl [Ir1 Ir2 Ir3 Ir4 Ir5 Ir6 Ir7]
      · isplitl [Ir1]; · iexact Ir1
        isplitl [Ir2]; · iexact Ir2
        isplitl [Ir3]; · iexact Ir3
        isplitl [Ir4]; · iexact Ir4
        isplitl [Ir5]; · iexact Ir5
        isplitl [Ir6]; · iexact Ir6
        iexact Ir7
      isplitl [Hibp]; · iexact Hibp
      iexact Hirp
    isplitl [Hmbp Hmrp Ms1 Ms2 Ms3 Ms4 Ms5 Ms6 Ms7 Mr1 Mr2 Mr3 Mr4 Mr5 Mr6 Mr7]
    · isplitl [Hmbp]; · iexact Hmbp
      isplitl [Hmrp]; · iexact Hmrp
      isplitl [Ms1 Ms2 Ms3 Ms4 Ms5 Ms6 Ms7]
      · isplitl [Ms1]; · iexact Ms1
        isplitl [Ms2]; · iexact Ms2
        isplitl [Ms3]; · iexact Ms3
        isplitl [Ms4]; · iexact Ms4
        isplitl [Ms5]; · iexact Ms5
        isplitl [Ms6]; · iexact Ms6
        iexact Ms7
      isplitl [Mr1]; · iexact Mr1
      isplitl [Mr2]; · iexact Mr2
      isplitl [Mr3]; · iexact Mr3
      isplitl [Mr4]; · iexact Mr4
      isplitl [Mr5]; · iexact Mr5
      isplitl [Mr6]; · iexact Mr6
      iexact Mr7
    isplitl [Hlev]; · iexact Hlev
    isplitl [Hpb]; · iexact Hpb
    isplitl [Ps1 Ps2 Ps3 Ps4 Ps5 Ps6 Ps7]
    · isplitl [Ps1]; · iexact Ps1
      isplitl [Ps2]; · iexact Ps2
      isplitl [Ps3]; · iexact Ps3
      isplitl [Ps4]; · iexact Ps4
      isplitl [Ps5]; · iexact Ps5
      isplitl [Ps6]; · iexact Ps6
      iexact Ps7
    isplitl [Pr1 Pr2 Pr3 Pr4 Pr5 Pr6 Pr7]
    · isplitl [Pr1]; · iexact Pr1
      isplitl [Pr2]; · iexact Pr2
      isplitl [Pr3]; · iexact Pr3
      isplitl [Pr4]; · iexact Pr4
      isplitl [Pr5]; · iexact Pr5
      isplitl [Pr6]; · iexact Pr6
      iexact Pr7
    isplitl [Htb]; · iexact Htb
    isplitl [Tr1 Tr2 Tr3 Tr4 Tr5 Tr6 Tr7]
    · isplitl [Tr1]; · iexact Tr1
      isplitl [Tr2]; · iexact Tr2
      isplitl [Tr3]; · iexact Tr3
      isplitl [Tr4]; · iexact Tr4
      isplitl [Tr5]; · iexact Tr5
      isplitl [Tr6]; · iexact Tr6
      iexact Tr7
    isplitl [Ts1 Ts2 Ts3 Ts4 Ts5 Ts6 Ts7]
    · isplitl [Ts1]; · iexact Ts1
      isplitl [Ts2]; · iexact Ts2
      isplitl [Ts3]; · iexact Ts3
      isplitl [Ts4]; · iexact Ts4
      isplitl [Ts5]; · iexact Ts5
      isplitl [Ts6]; · iexact Ts6
      iexact Ts7
    isplitl [Hcb]; · iexact Hcb
    isplitl [Hcr]; · iexact Hcr
    isplitl [R1 R4 R2 R3 R5 R7 R6]
    · isplitl [R1]; · iexact R1
      isplitl [R4]; · iexact R4
      isplitl [R2]; · iexact R2
      isplitl [R3]; · iexact R3
      isplitl [R5]; · iexact R5
      isplitl [R7]; · iexact R7
      iexact R6
    isplitl [R0]; · iexact R0
    isplitl [Ho]; · iexact Ho
    isplitl [Hx]; · iexact Hx
    isplitl [Hout]; · iexact Hout
    iexact He
  · unfold corePost bodyPost Φ₁ Dat.owesAt Pipeline.owesWithin
    rw [bigSep_eight, bigSep_eight, owed_last]
    iintro ⟨He', Hg', ⟨S1, S2, S3, S4, S5, S6, S7⟩, ⟨Q1, Q2, Q3, Q4, Q5, Q6, Q7⟩, ⟨%W', Ho'⟩, Hx', Hout'⟩
    isplitl [He' Hg' Hs0 S1 S2 S3 S4 S5 S6 S7 Hr0 Q1 Q2 Q3 Q4 Q5 Q6 Q7]
    · isplitl [He']; · iexact He'
      isplitl [Hg']; · iexact Hg'
      isplitl [Hs0 S1 S2 S3 S4 S5 S6 S7]
      · isplitl [Hs0]; · iexact Hs0
        isplitl [S1]; · iexact S1
        isplitl [S2]; · iexact S2
        isplitl [S3]; · iexact S3
        isplitl [S4]; · iexact S4
        isplitl [S5]; · iexact S5
        isplitl [S6]; · iexact S6
        iexact S7
      isplitl [Hr0]; · iexact Hr0
      isplitl [Q1]; · iexact Q1
      isplitl [Q2]; · iexact Q2
      isplitl [Q3]; · iexact Q3
      isplitl [Q4]; · iexact Q4
      isplitl [Q5]; · iexact Q5
      isplitl [Q6]; · iexact Q6
      iexact Q7
    isplitl [Ho']
    · iexists W'; isplitr; · ipureintro; exact fun _ _ => Or.inl trivial
      iexact Ho'
    isplitl [Hx']
    · iexists _; isplitr; · ipureintro; rfl
      iexact Hx'
    iexists _; isplitr; · ipureintro; rfl
    iexact Hout'

end Glue

open Glue

set_option maxRecDepth 4000 in
/-- The library's body obligation on device c. -/
theorem body_obligation (c : Dev nD) : BodyObligation (dats (F := F) m ρ 0 c) (defs₀ (F := F)) 𝒱₀ () Set.univ := fun t => by
  rw [fin_N t]
  rw [Gen.bigSep_W0, Gen.bigSep_W0]
  simp only [Idealize.ShloMosaic.owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  exact body_glue m ρ c

end Cert.KernelIdeal.Proto

end

/-- info: 'Cert.KernelIdeal.Proto.body_obligation' depends on axioms: [propext, Classical.choice, Quot.sound] -/
#guard_msgs in #print axioms Cert.KernelIdeal.Proto.body_obligation
-- ==== Proof.Run.lean ====
/-
  The kernel's run on the eight devices, in closed form.

  The launch theorem asks for three things: that the launch element pays for the pipeline's cells and for every
  device's share of the protocol's, that the counters at zero close every cell's round state into an invariant, and
  that each device's body meets its obligation at the kernel's one grid point. With the three supplied, from any
  memory with zero counters every weakly fair execution of the eight kernels terminates without a fault, each
  device's result array ends holding the block `outOf` computes from all eight devices' input arrays, and each input
  array ends as it was.
-/
import proofs.«900601_g7700000000000602_dist_softmax_colshard_i_m1024_n512_v7x_i8_bf16_1_alg».proof.Proof.LaunchRun
import proofs.«900601_g7700000000000602_dist_softmax_colshard_i_m1024_n512_v7x_i8_bf16_1_alg».proof.Proof.LaunchAlloc
import proofs.«900601_g7700000000000602_dist_softmax_colshard_i_m1024_n512_v7x_i8_bf16_1_alg».proof.Proof.Body

noncomputable section

namespace Cert.KernelIdeal.Proto

open Cert.KernelIdeal Cert.KernelIdeal.Gen Cert.KernelIdeal.Mesh Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- From any memory with zero counters the eight kernels run to the end: each result array is the block computed
    from all eight input arrays, each input array is unchanged. -/
theorem run_closed {F : FTy → Type} [FloatOps F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = outOf (fun d => m ((d.tc : Thread nD τ).loc main_arg0)) c
      ∧ r.2.mem ((c.tc : Thread nD τ).loc main_arg0) = m ((c.tc : Thread nD τ).loc main_arg0)) :=
  run_values m ρ (G m ρ) u₀ ownSemFacts (fund_all m ρ) (glob m ρ) (body_obligation m ρ)

/-- info: 'Cert.KernelIdeal.Proto.run_closed' depends on axioms: [propext, Classical.choice, Quot.sound] -/
#guard_msgs in #print axioms run_closed

end Cert.KernelIdeal.Proto

end
-- ==== Proof.KMesh.lean ====
/-
  The mesh: eight devices in a row, paired by the exclusive or of their positions.

  Device `c` talks to the seven devices `c xor k`, `k = 1 … 7`. Pairing by `k` is an involution, so the device
  that `c` addresses with key `k` addresses `c` with the same key. The statistics a device receives from the peer
  of key `k` land in row `slotOf k` of its gather buffer; `keyOf` is the inverse table, row to key. Row 0 is the
  device's own (key 0).
-/
import proofs.«900601_g7700000000000602_dist_softmax_colshard_i_m1024_n512_v7x_i8_bf16_1_alg».proof.Proof.Gen.Kernel

namespace Cert.Kernel.Mesh

open Cert.Kernel Cert.Kernel.Gen Idealize.ShloMosaic

/-- The device whose position is `c`'s exclusive or with `k`. -/
def peer (c : Dev nD) (k : Fin 8) : Dev nD := ⟨(c.val ^^^ k.val) % 8, Nat.mod_lt _ (by decide)⟩

/-- The key of the peer whose statistics land in row `s`. -/
def keyOf : Fin 8 → Fin 8 := ![0, 1, 3, 4, 2, 5, 7, 6]
/-- The row in which the statistics of the peer of key `k` land. -/
def slotOf : Fin 8 → Fin 8 := ![0, 1, 4, 2, 3, 5, 7, 6]

theorem keyOf_slotOf (k : Fin 8) : keyOf (slotOf k) = k := by revert k; decide
theorem slotOf_keyOf (s : Fin 8) : slotOf (keyOf s) = s := by revert s; decide
theorem keyOf_zero : keyOf 0 = 0 := rfl
theorem keyOf_ne_zero (s : Fin 8) (h : s ≠ 0) : keyOf s ≠ 0 := by revert s; decide

theorem peer_zero (c : Dev nD) : peer c 0 = c := by revert c; decide
theorem peer_peer (c : Dev nD) (k : Fin 8) : peer (peer c k) k = c := by revert c k; decide
theorem peer_ne (c : Dev nD) (k : Fin 8) (h : k ≠ 0) : peer c k ≠ c := by revert c k; decide
theorem peer_inj_key (c : Dev nD) (k k' : Fin 8) (h : peer c k = peer c k') : k = k' := by revert c k k'; decide
theorem peer_inj_dev (c c' : Dev nD) (k : Fin 8) (h : peer c k = peer c' k) : c = c' := by revert c c' k; decide
/-- Every device is the peer of `c` at exactly one key. -/
theorem peer_surj (c d : Dev nD) : ∃ k : Fin 8, peer c k = d := by revert c d; decide

/-- Pairing by a fixed key permutes the devices. -/
def peerEquiv (k : Fin 8) : Dev nD ≃ Dev nD := ⟨fun c => peer c k, fun c => peer c k, fun c => peer_peer c k, fun c => peer_peer c k⟩
/-- For a fixed device, key to peer is a bijection of the eight keys with the eight devices. -/
noncomputable def keyEquiv (c : Dev nD) : Fin 8 ≃ Dev nD :=
  Equiv.ofBijective (peer c) ⟨fun k k' h => peer_inj_key c k k' h, fun d => peer_surj c d⟩

/-! The printed device chains: the seven entry signals address the peers of keys 1 … 7 in order; the seven copies
    address the peers of the keys of rows 1 … 7 in order. -/

theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 4 := by revert c; decide +kernel
theorem dev5_eq (c : Dev nD) : (⟨k0_dev5 c, k0_dev5_lt c⟩ : Dev nD) = peer c 5 := by revert c; decide +kernel
theorem dev6_eq (c : Dev nD) : (⟨k0_dev6 c, k0_dev6_lt c⟩ : Dev nD) = peer c 6 := by revert c; decide +kernel
theorem dev7_eq (c : Dev nD) : (⟨k0_dev7 c, k0_dev7_lt c⟩ : Dev nD) = peer c 7 := by revert c; decide +kernel
theorem dev8_eq (c : Dev nD) : (⟨k0_dev8 c, k0_dev8_lt c⟩ : Dev nD) = peer c (keyOf 1) := by revert c; decide +kernel
theorem dev9_eq (c : Dev nD) : (⟨k0_dev9 c, k0_dev9_lt c⟩ : Dev nD) = peer c (keyOf 2) := by revert c; decide +kernel
theorem dev10_eq (c : Dev nD) : (⟨k0_dev10 c, k0_dev10_lt c⟩ : Dev nD) = peer c (keyOf 3) := by revert c; decide +kernel
theorem dev11_eq (c : Dev nD) : (⟨k0_dev11 c, k0_dev11_lt c⟩ : Dev nD) = peer c (keyOf 4) := by revert c; decide +kernel
theorem dev12_eq (c : Dev nD) : (⟨k0_dev12 c, k0_dev12_lt c⟩ : Dev nD) = peer c (keyOf 5) := by revert c; decide +kernel
theorem dev13_eq (c : Dev nD) : (⟨k0_dev13 c, k0_dev13_lt c⟩ : Dev nD) = peer c (keyOf 6) := by revert c; decide +kernel
theorem dev14_eq (c : Dev nD) : (⟨k0_dev14 c, k0_dev14_lt c⟩ : Dev nD) = peer c (keyOf 7) := by revert c; decide +kernel

end Cert.Kernel.Mesh
-- ==== Proof.KSpec.lean ====
/-
  What the kernel computes on device `c`, as pure terms of every device's block of the input.

  Each device reduces its own block `x` of 512 columns to two rows of 1024 numbers: the row maxima `m` and the row
  sums `s` of `exp (x - m)`. It keeps them in row 0 of an 8 × 2 × 1024 gather buffer and sends them to its seven peers;
  row `r` of the buffer ends holding the statistics of the peer whose key is `keyOf r`. From rows 0 … 6 it forms a
  partial maximum and a partial sum rescaled to it, merges row 7 into both, and scales its own `exp (x - m)` by
  `exp (m - gmax) / gsum`: its block of the softmax over all 4096 columns.
-/
import proofs.«900601_g7700000000000602_dist_softmax_colshard_i_m1024_n512_v7x_i8_bf16_1_alg».proof.Proof.Gen.Kernel.Skeleton
import proofs.«900601_g7700000000000602_dist_softmax_colshard_i_m1024_n512_v7x_i8_bf16_1_alg».proof.Proof.KMesh

noncomputable section

namespace Cert.Kernel.Spec

open Cert.Kernel Cert.Kernel.Gen Cert.Kernel.Mesh Idealize.ShloMosaic

variable {F : FTy → Type} [FloatOps F]

/-- The gather buffer, whole. -/
abbrev gM : Memref sig .tc .vmem S8x2x1024 .f32 := Memref.whole cc0_scratch1

/-- The four rectangles the merge reads: the maxima and the sums of rows 0 … 6, and those of row 7. -/
abbrev rNearM : Rect S8x2x1024 := Rect.unit (s := S8x2x1024) ![0, 0, 0] S7x1x1024.size inb_S8x2x1024_S7x1x1024_0_0_0
abbrev rNearS : Rect S8x2x1024 := Rect.unit (s := S8x2x1024) ![0, 1, 0] S7x1x1024.size inb_S8x2x1024_S7x1x1024_0_1_0
abbrev rFarM : Rect S8x2x1024 := Rect.unit (s := S8x2x1024) ![7, 0, 0] S1x1x1024.size inb_S8x2x1024_S1x1x1024_7_0_0
abbrev rFarS : Rect S8x2x1024 := Rect.unit (s := S8x2x1024) ![7, 1, 0] S1x1x1024.size inb_S8x2x1024_S1x1x1024_7_1_0

/-- A block's statistics as the device publishes them: row maxima over row sums of the shifted exponentials. -/
def stat (x : Vec F S1024x512 .f32) : FVec F S1x2x1024 .f32 := k0_pay4 x

/-- The gather buffer of device `c` once every copy has landed: row `r` is the statistics of the peer of key `keyOf r`. -/
def gat (X : Dev nD → Vec F S1024x512 .f32) (c : Dev nD) : (cc0_scratch1 : Ref sig .tc).ty.Contents (Elt F) :=
  fun i => stat (X (peer c (keyOf ⟨(i 0).val, (i 0).isLt⟩)))
    (fun a => match a with
      | ⟨0, _⟩ => ⟨0, Nat.one_pos⟩
      | ⟨1, _⟩ => ⟨(i 1).val, (i 1).isLt⟩
      | ⟨2, _⟩ => ⟨(i 2).val, (i 2).isLt⟩)

/-- What the four loads of the merge read off it. -/
def nearM (X : Dev nD → Vec F S1024x512 .f32) (c : Dev nD) : Vec F S7x1x1024 .f32 :=
  (gM : Memref sig .tc .vmem S8x2x1024 .f32).view.readAt (Elt F) rNearM.toLoadRect (gat X c)
def nearS (X : Dev nD → Vec F S1024x512 .f32) (c : Dev nD) : Vec F S7x1x1024 .f32 :=
  (gM : Memref sig .tc .vmem S8x2x1024 .f32).view.readAt (Elt F) rNearS.toLoadRect (gat X c)
def farM (X : Dev nD → Vec F S1024x512 .f32) (c : Dev nD) : Vec F S1x1x1024 .f32 :=
  (gM : Memref sig .tc .vmem S8x2x1024 .f32).view.readAt (Elt F) rFarM.toLoadRect (gat X c)
def farS (X : Dev nD → Vec F S1024x512 .f32) (c : Dev nD) : Vec F S1x1x1024 .f32 :=
  (gM : Memref sig .tc .vmem S8x2x1024 .f32).view.readAt (Elt F) rFarS.toLoadRect (gat X c)

/-- The shifted exponentials a device keeps of its own block, in the result's format. -/
def expBlk (x : Vec F S1024x512 .f32) : FVec F S1024x512 .bf16 := k0_pay5 (k0_pay3 x)

/-- The result block of device `c`. -/
def outOf (X : Dev nD → Vec F S1024x512 .f32) (c : Dev nD) : FVec F S1024x512 .bf16 :=
  k0_pay13 (k0_pay2 (X c)) (k0_pay8 (nearM X c) (nearS X c)) (k0_pay9 (farM X c)) (k0_pay10 (farS X c))
    (k0_pay11 (nearM X c) (farM X c)) (k0_pay12 (nearM X c) (farM X c)) (expBlk (X c))

end Cert.Kernel.Spec

end
-- ==== Proof.KSched.lean ====
/-
  The protocol of the eight devices, as a schedule of rounds.

  Every device owns fifteen cells: the entry cell (the barrier semaphore), and for each of the seven rows `s = 1 … 7`
  of its gather buffer a departure cell and an arrival cell. Everything happens in round 0.

  * The entry cell of device `d` has seven duties of one unit, duty `k` paid by the peer of key `k`. With its unit the
    peer hands over the row of ITS OWN gather buffer into which `d` will copy — row `slotOf k` — and the fact that its
    arrival cell of that row has reached round 0. After waiting for all seven units a device owns one row on each peer.
  * The copy of row 0 into row `s` of the peer of key `keyOf s` pays two duties of the row's size: the one duty of the
    sender's departure cell `s`, which returns the share of row 0 the copy was lent, and the one duty of the
    receiver's arrival cell `s`, which hands the receiver its row `s` holding the sender's statistics.
  * Row 0 is read by seven copies at once and by the device itself, so it is held in eight shares: the left half
    stays with the device, the right half is cut into seven for the copies.

  A device waits on its entry cell while it still owes the seven arrivals, so arrival cells lie above entry cells;
  it waits on arrival and departure cells owing nothing.
-/
import proofs.«900601_g7700000000000602_dist_softmax_colshard_i_m1024_n512_v7x_i8_bf16_1_alg».proof.Proof.KSpec
import proofs.«900601_g7700000000000602_dist_softmax_colshard_i_m1024_n512_v7x_i8_bf16_1_alg».proof.Proof.Gen.Kernel.Launch
import proofs.«900601_g7700000000000602_dist_softmax_colshard_i_m1024_n512_v7x_i8_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Mesh Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's, whose duties are named by a key or 0 -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs, rows and cells -/

abbrev xM : Memref sig .tc .vmem S1024x512 .f32 := Memref.whole cc0_stg0_0
abbrev oM : Memref sig .tc .vmem S1024x512 .bf16 := Memref.whole cc0_stg1_0
abbrev eM : Memref sig .tc .vmem S1024x512 .bf16 := Memref.whole cc0_scratch0

theorem row_inb (s : Fin 8) : ∀ a, (![s.val, 0, 0] : Fin 3 → Nat) a + S1x2x1024.size a ≤ S8x2x1024.size a := by
  intro a; have := s.isLt
  match a with
  | ⟨0, _⟩ => show s.val + 1 ≤ 8; omega
  | ⟨1, _⟩ => show 0 + 2 ≤ 2; omega
  | ⟨2, _⟩ => show 0 + 1024 ≤ 1024; omega

/-- Row `s` of the gather buffer as a rectangle of it, -/
abbrev rowR (s : Fin 8) : Rect S8x2x1024 := Rect.unit (s := S8x2x1024) ![s.val, 0, 0] S1x2x1024.size (row_inb s)
/-- and as the 2 × 1024 memref a copy reads or writes. -/
abbrev rowM (s : Fin 8) : Memref sig .tc .vmem S2x1024 .f32 :=
  ((gM : Memref sig .tc .vmem S8x2x1024 .f32).slice (rowR s) (fun _ => rfl)).squeeze S2x1024 squeezes_S1x2x1024_S2x1024

/-- The runtime's barrier semaphore of collective id 0 (unscoped); the departure and arrival semaphores of row `s`. -/
abbrev barS : Sem sig := (SemArray.scalar (sig.barrier 0 rfl) : Sems sig S_).sem
def sendSem (s : Fin 8) : DmaSem sig := ⟨2 + s.val, by have := s.isLt; show 2 + s.val < 18; omega⟩
def recvSem (s : Fin 8) : DmaSem sig := ⟨10 + s.val, by have := s.isLt; show 10 + s.val < 18; omega⟩

abbrev barCell (c : Dev nD) : GSem nD τ sig := ((c : Thread nD τ), .reg barS)
abbrev sendCell (c : Dev nD) (s : Fin 8) : GSem nD τ sig := ((c : Thread nD τ), .dma (sendSem s))
abbrev recvCell (c : Dev nD) (s : Fin 8) : GSem nD τ sig := ((c : Thread nD τ), .dma (recvSem s))

/-- The units a copy of one row credits. -/
abbrev N : ℕ := (rowM 0).view.dmaCredit
theorem N_pos : 0 < N := View.dmaCredit_pos _ (by decide)

/-! ## Contents -/

/-- Device `d`'s block of the input, as its staging buffer holds it at the one grid point. -/
def X (d : Dev nD) : Vec F S1024x512 .f32 :=
  (win0_0.blk (0 : Fin 1)).view.read (Elt F) ((s₀ m ρ).mem ((d : Thread nD τ).loc main_arg0))

/-- The shares of row 0: the left half stays with the device, the right half is cut into seven for the copies. -/
def rowShare : Fin 8 → PosShare TreeShare := fun
  | 0 => fullShare.left
  | 1 => fullShare.right.left.left.left
  | 2 => fullShare.right.left.left.right
  | 3 => fullShare.right.left.right.left
  | 4 => fullShare.right.left.right.right
  | 5 => fullShare.right.right.left.left
  | 6 => fullShare.right.right.left.right
  | 7 => fullShare.right.right.right

/-- Row `s` of device `c`'s gather buffer, held at share `q` with contents `f` (only `f`'s values on the row matter). -/
def rowPts (c : Dev nD) (s : Fin 8) (q : PosShare TreeShare) (f : Buf (Elt F) ((rowM s).view.loc (c : Thread nD τ))) : sProp 𝕄 :=
  (rowM s).view.loc (c : Thread nD τ) ↦[(rowM s).view.set]{q} f

/-! ## The schedule -/

/-- Duty `k` of device `d`'s entry cell, paid by the peer of key `k`: that peer's row for `d`'s copy, and that the
    peer's arrival cell of that row has reached round 0. -/
def barPay (d : Dev nD) (k : Fin 8) : sProp 𝕄 :=
  iprop((∃ f, rowPts (peer d k) (slotOf k) fullShare f) ∗ reached ER (recvCell (peer d k) (slotOf k)) 0)
/-- The arrival in row `s` of device `c`: the row, holding what the whole gather buffer holds there in the end. -/
def recvPay (c : Dev nD) (s : Fin 8) : sProp 𝕄 := rowPts c s fullShare (gat (X m ρ) c)
/-- The departure of the copy into row `s`: the share of row 0 it was lent. -/
def sendPay (c : Dev nD) (s : Fin 8) : sProp 𝕄 := rowPts c 0 (rowShare s) (gat (X m ρ) c)

/-- The row a DMA semaphore serves: 2 … 9 are the departures of rows 0 … 7, 10 … 17 the arrivals. -/
def semRow (q : DmaSem sig) : Fin 8 := ⟨(q.val - 2) % 8, Nat.mod_lt _ (by decide)⟩
abbrev IsBar (g : GSem nD τ sig) : Prop := g.1.2 = .tc ∧ g.2 = .reg barS
/-- A departure or arrival cell of one of the rows 1 … 7. -/
def IsXfer (g : GSem nD τ sig) : Prop :=
  g.1.2 = .tc ∧ ∃ s : Fin 8, s ≠ 0 ∧ (g.2 = .dma (sendSem s) ∨ g.2 = .dma (recvSem s))
instance (g : GSem nD τ sig) : Decidable (IsXfer g) := by unfold IsXfer; infer_instance

/-- One round, round 0: an entry cell has the seven duties `1 … 7` of one unit each, a departure or arrival cell of
    a row `1 … 7` the one duty `0` of the row's credit. -/
def ringRd : Rounds.Schedule (GSem nD τ sig) (Fin 8) 𝕄 where
  duties g r := if r = 0 ∧ IsBar g then Finset.univ.erase 0 else if r = 0 ∧ IsXfer g then {0} else ∅
  unitless _ := False
  amount g _ _ := if g.2 = .reg barS then 1 else N
  payload g _ d := match g.2 with
    | .reg _ => barPay g.1.1 d
    | .dma q => if 10 ≤ q.val then recvPay m ρ g.1.1 (semRow q) else sendPay m ρ g.1.1 (semRow q)
  amount_pos g _ _ _ := by
    by_cases h : g.2 = .reg barS
    · rw [if_pos h]; exact Nat.one_pos
    · rw [if_neg h]; exact N_pos

/-! ## What each device owes at launch; the levels -/

/-- The keys, or rows, `1 … 7`. -/
abbrev seven : Finset (Fin 8) := Finset.univ.erase 0

/-- Device `c` owes the arrival cell of row `s` on the peer of key `keyOf s` the row's credit, and every peer's entry
    cell one unit — written out summand by summand, the first signal's unit last. -/
def O₀ (c : Dev nD) : CellTallies nD τ sig Unit :=
  tallyAt (recvCell (peer c (keyOf 7)) 7) () N + tallyAt (recvCell (peer c (keyOf 6)) 6) () N + tallyAt (recvCell (peer c (keyOf 5)) 5) () N
    + tallyAt (recvCell (peer c (keyOf 4)) 4) () N + tallyAt (recvCell (peer c (keyOf 3)) 3) () N + tallyAt (recvCell (peer c (keyOf 2)) 2) () N
    + tallyAt (recvCell (peer c (keyOf 1)) 1) () N
    + tallyAt (barCell (peer c 7)) () 1 + tallyAt (barCell (peer c 6)) () 1 + tallyAt (barCell (peer c 5)) () 1 + tallyAt (barCell (peer c 4)) () 1
    + tallyAt (barCell (peer c 3)) () 1 + tallyAt (barCell (peer c 2)) () 1 + tallyAt (barCell (peer c 1)) () 1

/-- What is left of it once the seven signals are sent: the seven arrivals. -/
def O₁ (c : Dev nD) : CellTallies nD τ sig Unit :=
  tallyAt (recvCell (peer c (keyOf 7)) 7) () N + tallyAt (recvCell (peer c (keyOf 6)) 6) () N + tallyAt (recvCell (peer c (keyOf 5)) 5) () N
    + tallyAt (recvCell (peer c (keyOf 4)) 4) () N + tallyAt (recvCell (peer c (keyOf 3)) 3) () N + tallyAt (recvCell (peer c (keyOf 2)) 2) () N
    + tallyAt (recvCell (peer c (keyOf 1)) 1) () N

def L (g : GSem nD τ sig) : Finset Unit := if g.1.2 = .tc then {()} else ∅
/-- Entry cells at 1, arrival cells at 2, everything else (staging, departure) at 0. -/
def lv (g : GSem nD τ sig) (_ : Unit) : ℕ := match g.2 with
  | .reg _ => 1
  | .dma q => if 10 ≤ q.val then 2 else 0

/-! ## The ghost state of one device -/

/-- The invariants device `c`'s body opens, under the names `K` the launch allocated them at: its own fifteen cells,
    every peer's entry cell (its signals), and the arrival cell its copy into each peer pays. -/
def invs (K : GSem nD τ sig → ℕ) (c : Dev nD) : sProp 𝕄 :=
  iprop(cellInv ER (ringRd m ρ) (K (barCell c)) (barCell c)
    ∗ (bigSep seven fun s => iprop(cellInv ER (ringRd m ρ) (K (sendCell c s)) (sendCell c s) ∗ cellInv ER (ringRd m ρ) (K (recvCell c s)) (recvCell c s)))
    ∗ (bigSep seven fun k => cellInv ER (ringRd m ρ) (K (barCell (peer c k))) (barCell (peer c k)))
    ∗ (bigSep seven fun s => cellInv ER (ringRd m ρ) (K (recvCell (peer c (keyOf s)) s)) (recvCell (peer c (keyOf s)) s)))

instance invs_persistent (K : GSem nD τ sig → ℕ) (c : Dev nD) : BI.Persistent (invs m ρ K c) := by unfold invs; infer_instance

/-- The rounds reached that device `c` relies on: round 0 of the cells it pays and of its own departure and arrival cells. -/
def marks (c : Dev nD) : sProp 𝕄 :=
  iprop((bigSep seven fun k => reached ER (barCell (peer c k)) 0)
    ∗ (bigSep seven fun s => reached ER (recvCell (peer c (keyOf s)) s) 0)
    ∗ (bigSep seven fun s => iprop(reached ER (sendCell c s) 0 ∗ reached ER (recvCell c s) 0)))

instance marks_persistent (c : Dev nD) : BI.Persistent (marks (F := F) c) := by unfold marks; infer_instance

/-- Its positions at round 0 of its fifteen cells, and the tokens of the twenty-one duties it pays. -/
def linear (c : Dev nD) : sProp 𝕄 :=
  iprop(atPos ER (barCell c) 0 ∅ 0
    ∗ (bigSep seven fun s => iprop(atPos ER (sendCell c s) 0 ∅ 0 ∗ atPos ER (recvCell c s) 0 ∅ 0))
    ∗ (bigSep seven fun k => dutyTok ER (barCell (peer c k)) 0 k)
    ∗ (bigSep seven fun s => iprop(dutyTok ER (recvCell (peer c (keyOf s)) s) 0 0 ∗ dutyTok ER (sendCell c s) 0 0)))

def ghost (K : GSem nD τ sig → ℕ) (c : Dev nD) : sProp 𝕄 := iprop(invs m ρ K c ∗ marks c ∗ linear c)

/-- What device `c`'s body starts from: that at some names, the credit of its entry cell (seven units) and of its
    seven arrival cells, the level facts, and the counters of the two DMA semaphores of row 0, which no copy uses. -/
def start (c : Dev nD) : sProp 𝕄 :=
  iprop((∃ K, ghost m ρ K c) ∗ cred (tallyAt (barCell c) () 7) ∗ (bigSep seven fun s => cred (tallyAt (recvCell c s) () N)) ∗ levAts L lv
    ∗ semVal (sendCell c 0) 0 ∗ semVal (recvCell c 0) 0)

/-- Before the point: that, and the two scratch buffers at some contents. -/
def Φ₀ (c : Dev nD) : sProp 𝕄 :=
  iprop(start m ρ c ∗ (∃ f, ((c : Thread nD τ).loc cc0_scratch0) ↦{fullShare} f) ∗ (∃ f, ((c : Thread nD τ).loc cc0_scratch1) ↦{fullShare} f))
/-- After it: the two scratch buffers at some contents, and all sixteen own counters at zero. -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ (bigSep Finset.univ fun s : Fin 8 => semVal (sendCell c s) 0) ∗ (bigSep Finset.univ fun s : Fin 8 => semVal (recvCell c s) 0))

/-! ## The pipeline's proof data -/

/-- The one grid point. -/
theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => outOf (X m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.Kernel.Proto

end
-- ==== Proof.KLaunchDefs.lean ====
/-
  The launch's shared vocabulary: the kernel's sixteen own DMA semaphores as the launch theorem indexes them, and what
  the step that allocates every device's cells at once hands each device.
-/
import proofs.«900601_g7700000000000602_dist_softmax_colshard_i_m1024_n512_v7x_i8_bf16_1_alg».proof.Proof.KSched

noncomputable section

namespace Cert.Kernel.Proto

open Cert.Kernel Cert.Kernel.Gen Cert.Kernel.Mesh Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own (scoped) semaphores: the eight departure semaphores, then the eight arrival semaphores. -/
abbrev osem : Fin 16 → SemLoc sig := fun j =>
  if h : j.val < 8 then .dma (sendSem ⟨j.val, h⟩) else .dma (recvSem ⟨j.val - 8, by have := j.isLt; omega⟩)

/-- What the allocation of all cells hands device `c`: its ghost state at some names, and the counters of the two
    semaphores of row 0, which are no cells. -/
def G' (c : Dev nD) : sProp 𝕄 :=
  iprop((∃ K, ghost m ρ K c) ∗ semVal (sendCell c 0) 0 ∗ semVal (recvCell c 0) 0)

end Cert.Kernel.Proto

end
-- ==== Proof.KTables.lean ====
/-
  The tables of the eight devices' schedule, cell by cell.

  The schedule has one round. An entry cell has the seven duties 1 … 7 of one unit each; the departure cell and the
  arrival cell of a row 1 … 7 have the one duty 0 of the row's credit. This module reads the schedule's four tables
  (duties, amounts, expected units, payloads) at each of a device's fifteen cells, lists a family over the seven keys
  as a seven-fold product, and proves the order of the levels: departure cells at 0, entry cells at 1, arrival cells
  at 2, so that a device may wait on a departure cell owing anything, and on its entry cell owing the seven arrivals.

  The departure semaphore of row s is number 2 + s, the arrival semaphore number 10 + s: the numbers below 10 are the
  departures, the row is the number less 2 modulo 8.
-/
import proofs.«900601_g7700000000000602_dist_softmax_colshard_i_m1024_n512_v7x_i8_bf16_1_alg».proof.Proof.KSched

noncomputable section

namespace Cert.Kernel.Proto

open Cert.Kernel Cert.Kernel.Gen Cert.Kernel.Mesh Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Tables

variable {F : FTy → Type} [FloatOps F] (m : (ℓ : Loc nD τ sig) → Buf (Elt F) ℓ) (ρ : Dev nD → PrngReg) (c : Dev nD)

local notation "𝕄" => MT nD τ sig Unit (Elt F) ℕ UU ℕ

/-! ## The semaphores: sixteen numbers, none of them the entry semaphore -/

theorem sendSem_val (s : Fin 8) : (sendSem s).val = 2 + s.val := rfl
theorem recvSem_val (s : Fin 8) : (recvSem s).val = 10 + s.val := rfl

theorem send_ne_bar (s : Fin 8) : (SemLoc.dma (sendSem s) : SemLoc sig) ≠ .reg barS := fun h => by cases h
theorem recv_ne_bar (s : Fin 8) : (SemLoc.dma (recvSem s) : SemLoc sig) ≠ .reg barS := fun h => by cases h

/-- A departure number is below 10, an arrival number is not. -/
theorem send_ne_recv (s s' : Fin 8) : (SemLoc.dma (sendSem s) : SemLoc sig) ≠ .dma (recvSem s') := fun h => by
  have h1 : (sendSem s).val = (recvSem s').val := congrArg Fin.val (SemLoc.dma.inj h)
  rw [sendSem_val, recvSem_val] at h1
  have := s.isLt
  omega

theorem sendSem_inj {s s' : Fin 8} (h : sendSem s = sendSem s') : s = s' := by
  have h1 : (sendSem s).val = (sendSem s').val := congrArg Fin.val h
  rw [sendSem_val, sendSem_val] at h1
  exact Fin.ext (by omega)

theorem recvSem_inj {s s' : Fin 8} (h : recvSem s = recvSem s') : s = s' := by
  have h1 : (recvSem s).val = (recvSem s').val := congrArg Fin.val h
  rw [recvSem_val, recvSem_val] at h1
  exact Fin.ext (by omega)

/-- The row of a departure semaphore: (2 + s - 2) mod 8 = s. -/
theorem semRow_send (s : Fin 8) : semRow (sendSem s) = s :=
  Fin.ext (show (2 + s.val - 2) % 8 = s.val by have := s.isLt; omega)

/-- The row of an arrival semaphore: (10 + s - 2) mod 8 = s. -/
theorem semRow_recv (s : Fin 8) : semRow (recvSem s) = s :=
  Fin.ext (show (10 + s.val - 2) % 8 = s.val by have := s.isLt; omega)

theorem isXfer_send (s : Fin 8) (hs : s ≠ 0) : IsXfer (sendCell c s) := ⟨rfl, s, hs, .inl rfl⟩
theorem isXfer_recv (s : Fin 8) (hs : s ≠ 0) : IsXfer (recvCell c s) := ⟨rfl, s, hs, .inr rfl⟩

theorem not_bar_send (s : Fin 8) : ¬ IsBar (sendCell c s) := fun h => send_ne_bar s h.2
theorem not_bar_recv (s : Fin 8) : ¬ IsBar (recvCell c s) := fun h => recv_ne_bar s h.2

/-! ## Duties, amounts and expected units of round 0 -/

theorem duties_bar : (ringRd (F := F) m ρ).duties (barCell c) 0 = seven := by
  dsimp only [ringRd]; exact if_pos ⟨rfl, rfl, rfl⟩

theorem duties_send (s : Fin 8) (hs : s ≠ 0) : (ringRd (F := F) m ρ).duties (sendCell c s) 0 = {0} := by
  dsimp only [ringRd]
  exact (if_neg fun h => not_bar_send c s h.2).trans (if_pos ⟨rfl, isXfer_send c s hs⟩)

theorem duties_recv (s : Fin 8) (hs : s ≠ 0) : (ringRd (F := F) m ρ).duties (recvCell c s) 0 = {0} := by
  dsimp only [ringRd]
  exact (if_neg fun h => not_bar_recv c s h.2).trans (if_pos ⟨rfl, isXfer_recv c s hs⟩)

/-- There is no round after round 0. -/
theorem duties_later (g : GSem nD τ sig) : ∀ r, 1 ≤ r → (ringRd (F := F) m ρ).duties g r = ∅ := fun r hr => by
  have hr0 : r ≠ 0 := by omega
  dsimp only [ringRd]
  exact (if_neg fun h => hr0 h.1).trans (if_neg fun h => hr0 h.1)

theorem amount_bar (d : Fin 8) : (ringRd (F := F) m ρ).amount (barCell c) 0 d = 1 := by
  dsimp only [ringRd]; exact if_pos rfl

theorem amount_send (s d : Fin 8) : (ringRd (F := F) m ρ).amount (sendCell c s) 0 d = N := by
  dsimp only [ringRd]; exact if_neg (send_ne_bar s)

theorem amount_recv (s d : Fin 8) : (ringRd (F := F) m ρ).amount (recvCell c s) 0 d = N := by
  dsimp only [ringRd]; exact if_neg (recv_ne_bar s)

/-- Seven duties of one unit. -/
theorem expect_bar : (ringRd (F := F) m ρ).expect (barCell c) 0 = 7 := by
  unfold Schedule.expect Schedule.amountOf
  rw [duties_bar, Finset.sum_congr rfl fun d _ => amount_bar m ρ c d, Finset.sum_const, smul_eq_mul, mul_one]
  rfl

theorem expect_send (s : Fin 8) (hs : s ≠ 0) : (ringRd (F := F) m ρ).expect (sendCell c s) 0 = N := by
  unfold Schedule.expect Schedule.amountOf
  rw [duties_send m ρ c s hs, Finset.sum_singleton, amount_send]

theorem expect_recv (s : Fin 8) (hs : s ≠ 0) : (ringRd (F := F) m ρ).expect (recvCell c s) 0 = N := by
  unfold Schedule.expect Schedule.amountOf
  rw [duties_recv m ρ c s hs, Finset.sum_singleton, amount_recv]

/-! ## Payloads -/

theorem payload_bar (k : Fin 8) : (ringRd (F := F) m ρ).payload (barCell c) 0 k = barPay c k := rfl

theorem payload_send (s d : Fin 8) : (ringRd (F := F) m ρ).payload (sendCell c s) 0 d = sendPay m ρ c s := by
  show (if 10 ≤ (sendSem s).val then recvPay m ρ c (semRow (sendSem s)) else sendPay m ρ c (semRow (sendSem s))) = _
  rw [if_neg (by rw [sendSem_val]; have := s.isLt; omega), semRow_send]

theorem payload_recv (s d : Fin 8) : (ringRd (F := F) m ρ).payload (recvCell c s) 0 d = recvPay m ρ c s := by
  show (if 10 ≤ (recvSem s).val then recvPay m ρ c (semRow (recvSem s)) else sendPay m ρ c (semRow (recvSem s))) = _
  rw [if_pos (by rw [recvSem_val]; omega), semRow_recv]

/-! ## Families over the seven keys and over the eight rows, listed -/

/-- The seven keys listed: a family over them is the seven-fold product, in this order. -/
theorem bigSep_seven {M : Type} [URA M] (Φ : Fin 8 → sProp M) :
    bigSep seven Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ

theorem bigSep_eight {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The rest of each cell's round with no duty taken yet -/

theorem rest_bar : bigSep ((ringRd (F := F) m ρ).duties (barCell c) 0 \ ∅) (fun d => (ringRd (F := F) m ρ).payload (barCell c) 0 d)
    = iprop(barPay c 1 ∗ barPay c 2 ∗ barPay c 3 ∗ barPay c 4 ∗ barPay c 5 ∗ barPay c 6 ∗ barPay c 7) := by
  rw [Finset.sdiff_empty, duties_bar, bigSep_seven]
  rfl

theorem rest_send (s : Fin 8) (hs : s ≠ 0) : bigSep ((ringRd (F := F) m ρ).duties (sendCell c s) 0 \ ∅) (fun d => (ringRd (F := F) m ρ).payload (sendCell c s) 0 d) = sendPay m ρ c s := by
  rw [Finset.sdiff_empty, duties_send m ρ c s hs, bigSep_singleton, payload_send]

theorem rest_recv (s : Fin 8) (hs : s ≠ 0) : bigSep ((ringRd (F := F) m ρ).duties (recvCell c s) 0 \ ∅) (fun d => (ringRd (F := F) m ρ).payload (recvCell c s) 0 d) = recvPay m ρ c s := by
  rw [Finset.sdiff_empty, duties_recv m ρ c s hs, bigSep_singleton, payload_recv]

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- An entry cell lies at level 1, -/
theorem lv_bar (c : Dev nD) : lv (barCell c) () = 1 := rfl
/-- an arrival cell at level 2, -/
theorem lv_recv (c : Dev nD) (s : Fin 8) : lv (recvCell c s) () = 2 := by
  show (if 10 ≤ (recvSem s).val then 2 else 0) = 2
  rw [if_pos (by rw [recvSem_val]; omega)]
/-- and a DMA semaphore numbered below 10 (staging, departure) at level 0. -/
theorem lv_low (c : Dev nD) (q : DmaSem sig) (hq : q.val < 10) : lv ((c : Thread nD τ), .dma q) () = 0 := by
  show (if 10 ≤ q.val then 2 else 0) = 0
  rw [if_neg (by omega)]

/-- A one-cell tally is positive at its own cell only. -/
theorem cell_of_pos {g' g : GSem nD τ sig} {k : ℕ} {u : Unit} (h : 0 < tallyAt g' () k g u) : g = g' :=
  (Pipeline.tallyAt_pos h).1

/-- What a device owes once its signals are sent is owed to arrival cells of rows 1 … 7. -/
theorem O₁_pos {c : Dev nD} {g : GSem nD τ sig} {u : Unit} (h : 0 < O₁ c g u) :
    ∃ s : Fin 8, s ≠ 0 ∧ g = recvCell (peer c (keyOf s)) s := by
  have key : ∀ s : Fin 8, s ≠ 0 → 0 < tallyAt (recvCell (peer c (keyOf s)) s) () N g u →
      ∃ s : Fin 8, s ≠ 0 ∧ g = recvCell (peer c (keyOf s)) s := fun s hs h => ⟨s, hs, cell_of_pos h⟩
  unfold O₁ at h
  refine (Pipeline.add_pos_cases h).elim (fun h => ?_) (key 1 (by decide))
  refine (Pipeline.add_pos_cases h).elim (fun h => ?_) (key 2 (by decide))
  refine (Pipeline.add_pos_cases h).elim (fun h => ?_) (key 3 (by decide))
  refine (Pipeline.add_pos_cases h).elim (fun h => ?_) (key 4 (by decide))
  refine (Pipeline.add_pos_cases h).elim (fun h => ?_) (key 5 (by decide))
  refine (Pipeline.add_pos_cases h).elim (fun h => ?_) (key 6 (by decide))
  exact key 7 (by decide) h

/-- What a device owes at launch is owed to arrival cells of rows 1 … 7 and to its peers' entry cells. -/
theorem O₀_pos {c : Dev nD} {g : GSem nD τ sig} {u : Unit} (h : 0 < O₀ c g u) :
    (∃ s : Fin 8, s ≠ 0 ∧ g = recvCell (peer c (keyOf s)) s) ∨ (∃ k : Fin 8, k ≠ 0 ∧ g = barCell (peer c k)) := by
  have keyB : ∀ k : Fin 8, k ≠ 0 → 0 < tallyAt (barCell (peer c k)) () 1 g u →
      (∃ s : Fin 8, s ≠ 0 ∧ g = recvCell (peer c (keyOf s)) s) ∨ (∃ k : Fin 8, k ≠ 0 ∧ g = barCell (peer c k)) :=
    fun k hk h => .inr ⟨k, hk, cell_of_pos h⟩
  have keyR : ∀ s : Fin 8, s ≠ 0 → 0 < tallyAt (recvCell (peer c (keyOf s)) s) () N g u →
      (∃ s : Fin 8, s ≠ 0 ∧ g = recvCell (peer c (keyOf s)) s) ∨ (∃ k : Fin 8, k ≠ 0 ∧ g = barCell (peer c k)) :=
    fun s hs h => .inl ⟨s, hs, cell_of_pos h⟩
  unfold O₀ at h
  refine (Pipeline.add_pos_cases h).elim (fun h => ?_) (keyB 1 (by decide))
  refine (Pipeline.add_pos_cases h).elim (fun h => ?_) (keyB 2 (by decide))
  refine (Pipeline.add_pos_cases h).elim (fun h => ?_) (keyB 3 (by decide))
  refine (Pipeline.add_pos_cases h).elim (fun h => ?_) (keyB 4 (by decide))
  refine (Pipeline.add_pos_cases h).elim (fun h => ?_) (keyB 5 (by decide))
  refine (Pipeline.add_pos_cases h).elim (fun h => ?_) (keyB 6 (by decide))
  refine (Pipeline.add_pos_cases h).elim (fun h => ?_) (keyB 7 (by decide))
  refine (Pipeline.add_pos_cases h).elim (fun h => ?_) (keyR 1 (by decide))
  refine (Pipeline.add_pos_cases h).elim (fun h => ?_) (keyR 2 (by decide))
  refine (Pipeline.add_pos_cases h).elim (fun h => ?_) (keyR 3 (by decide))
  refine (Pipeline.add_pos_cases h).elim (fun h => ?_) (keyR 4 (by decide))
  refine (Pipeline.add_pos_cases h).elim (fun h => ?_) (keyR 5 (by decide))
  refine (Pipeline.add_pos_cases h).elim (fun h => ?_) (keyR 6 (by decide))
  exact keyR 7 (by decide) h

/-- A wait on a level-0 DMA semaphore (staging or departure) is allowed owing all of O₀, or nothing: everything owed
    lies at level 1 or 2. -/
theorem mayWait_stage (c : Dev nD) (q : DmaSem sig) (hq : q.val < 10) (O : CellTallies nD τ sig Unit) (hO : O = O₀ c ∨ O = 0) :
    (levAts L lv : sProp (MT nD τ sig Unit (Elt F) ℕ UU ℕ)) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨s, -, rfl⟩ | ⟨k, -, rfl⟩ <;> (rw [L_tc]; exact Finset.mem_singleton_self _))
      (fun p hp => by rw [Finset.mem_singleton.mp hp]; exact (lv_low c q hq).le)
      (fun g u hg => by
        rcases O₀_pos hg with ⟨s, -, rfl⟩ | ⟨k, -, rfl⟩
        · rw [lv_recv]; exact Nat.two_pos
        · rw [lv_bar]; exact Nat.one_pos)
  · rw [MayWait_zero]; iintro -; iempintro

/-- At its entry wait a device owes the seven arrivals only: arrival cells lie above entry cells. -/
theorem mayWait_bar (c : Dev nD) :
    (levAts L lv : sProp (MT nD τ sig Unit (Elt F) ℕ UU ℕ)) ⊢ MayWait (c : Thread nD τ) (.reg barS) () (O₁ c) :=
  MayOwe.of_cut (L := L) (lev := lv) 1
    (fun p hp => by rw [Finset.mem_singleton.mp hp, L_tc]; exact Finset.mem_singleton_self _)
    (fun g u hg => by obtain ⟨s, -, rfl⟩ := O₁_pos hg; rw [L_tc]; exact Finset.mem_singleton_self _)
    (fun p hp => by rw [Finset.mem_singleton.mp hp]; exact (lv_bar c).le)
    (fun g u hg => by obtain ⟨s, -, rfl⟩ := O₁_pos hg; rw [lv_recv]; exact Nat.one_lt_two)

end Tables

end Cert.Kernel.Proto

end

/-- info: 'Cert.Kernel.Proto.mayWait_bar' depends on axioms: [propext, Classical.choice, Quot.sound] -/
#guard_msgs in #print axioms Cert.Kernel.Proto.mayWait_bar
-- ==== Proof.KLaunchRun.lean ====
/-
  The launch of the eight devices' kernels, and what their arrays hold in the end.

  At launch every device is dealt, per cell of its own, one credit token for every unit the other devices owe that
  cell. Counting what is owed: the entry cell of a device is owed one unit by each of the seven other devices (every
  other device is its peer at exactly one key), and the arrival cell of its row `s` the row's credit by the one
  peer whose copy lands there. With that credit, the level facts, and the ghost state the allocation of all cells
  hands it, a device enters the invariant of the kernel's one grid point; it leaves it with the two scratch buffers
  and its sixteen own counters back at zero. The launch theorem then runs all eight kernels; since the one window of
  each array is the whole array, the input array is unchanged and the result array is the block the body wrote.
-/
import proofs.«900601_g7700000000000602_dist_softmax_colshard_i_m1024_n512_v7x_i8_bf16_1_alg».proof.Proof.KLaunchDefs
import proofs.«900601_g7700000000000602_dist_softmax_colshard_i_m1024_n512_v7x_i8_bf16_1_alg».proof.Proof.KTables

noncomputable section

namespace Cert.Kernel.Proto

open Cert.Kernel Cert.Kernel.Gen Cert.Kernel.Mesh Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem share_eq (m : (ℓ : Loc nD τ sig) → Buf (Elt F) ℓ) (ρ : Dev nD → PrngReg) (c : Dev nD) (w : Fin cfg0.W) : (dats m ρ 0 c).share w = fullShare := by unfold Dat.share; split <;> rfl

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} {s s' : Fin 8} : Iff (recvCell a s = recvCell b s') (a = b ∧ s = s') :=
  ⟨fun h => ⟨Fin.ext (congrArg (fun g : GSem nD τ sig => g.1.1.val) h),
      recvSem_inj (SemLoc.dma.inj (congrArg Prod.snd h))⟩, fun h => by rw [h.1, h.2]⟩
omit [FloatOps F] in
theorem bar_ne_recv (a b : Dev nD) (s : Fin 8) : barCell a ≠ recvCell b s := fun h => recv_ne_bar s (congrArg Prod.snd h).symm
omit [FloatOps F] in
theorem recv_ne_bar_cell (a b : Dev nD) (s : Fin 8) : recvCell b s ≠ barCell a := fun h => recv_ne_bar s (congrArg Prod.snd h)

/-- Among the keys 1 … 7, the peers of `d` hit `c` exactly once unless `c = d`. -/
theorem count_bar : ∀ d c : Dev nD,
    (((((((if c = peer d 7 then 1 else 0) + (if c = peer d 6 then 1 else 0)) + (if c = peer d 5 then 1 else 0)) + (if c = peer d 4 then 1 else 0))
      + (if c = peer d 3 then 1 else 0)) + (if c = peer d 2 then 1 else 0)) + (if c = peer d 1 then 1 else 0)) = (if d ≠ c then 1 else 0 : ℕ) := by decide

omit [FloatOps F] in
/-- What device `d` owes the entry cell of device `c`: one unit, unless it is `c` itself. -/
theorem owed_bar (d c : Dev nD) : O₀ d (barCell c) () = if d ≠ c then 1 else 0 := by
  unfold O₀
  simp only [Pi.add_apply, Finsupp.add_apply, tallyAt_apply, bar_eq_iff, bar_ne_recv, and_true, false_and, if_false, Nat.zero_add]
  exact count_bar d c

/-- Among the rows 1 … 7, row `s` of device `c` is the destination of `d`'s copy exactly when `d` is the peer of `c` whose key is the row's. -/
theorem count_recv : ∀ (d c : Dev nD) (s : Fin 8),
    (((((((if c = peer d (keyOf 7) ∧ s = 7 then 1 else 0) + (if c = peer d (keyOf 6) ∧ s = 6 then 1 else 0)) + (if c = peer d (keyOf 5) ∧ s = 5 then 1 else 0))
      + (if c = peer d (keyOf 4) ∧ s = 4 then 1 else 0)) + (if c = peer d (keyOf 3) ∧ s = 3 then 1 else 0)) + (if c = peer d (keyOf 2) ∧ s = 2 then 1 else 0))
      + (if c = peer d (keyOf 1) ∧ s = 1 then 1 else 0)) = (if s ≠ 0 ∧ d = peer c (keyOf s) then 1 else 0 : ℕ) := by decide

omit [FloatOps F] in
theorem ite_scale (p : Prop) [Decidable p] (n : ℕ) : (if p then n else 0) = n * (if p then 1 else 0) := by
  split <;> simp

omit [FloatOps F] in
/-- What device `d` owes the arrival cell of row `s` of device `c`: the row's credit, if its copy into that row goes to `c`. -/
theorem owed_recv (d c : Dev nD) (s : Fin 8) : O₀ d (recvCell c s) () = if s ≠ 0 ∧ d = peer c (keyOf s) then N else 0 := by
  unfold O₀
  simp only [Pi.add_apply, Finsupp.add_apply, tallyAt_apply, recv_eq_iff, recv_ne_bar_cell, and_true, false_and, if_false, Nat.add_zero]
  rw [ite_scale _ N, ite_scale _ N, ite_scale _ N, ite_scale _ N, ite_scale _ N, ite_scale _ N, ite_scale _ N, ite_scale (s ≠ 0 ∧ d = peer c (keyOf s)) N,
    ← Nat.mul_add, ← Nat.mul_add, ← Nat.mul_add, ← Nat.mul_add, ← Nat.mul_add, ← Nat.mul_add, count_recv d c s]

omit [FloatOps F] in
theorem sum_others : ∀ c : Dev nD, (∑ d : Dev nD, if d ≠ c then 1 else 0) = 7 := by decide

omit [FloatOps F] in
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, sum_others]

omit [FloatOps F] in
theorem launch_recv (c : Dev nD) (s : Fin 8) (hs : s ≠ 0) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s]
  simp only [hs, ne_eq, not_false_eq_true, true_and]
  rw [Finset.sum_ite_eq' Finset.univ (peer c (keyOf s)) fun _ => N, if_pos (Finset.mem_univ _)]

omit [FloatOps F] in
theorem recvLoc_injective : Function.Injective (fun s : Fin 8 => (SemLoc.dma (recvSem s) : SemLoc sig)) :=
  fun s s' h => recvSem_inj (SemLoc.dma.inj h)

omit [FloatOps F] in
/-- The launch deals a device the credit of its entry cell, seven units, and of each of its seven arrival cells. -/
theorem creds (c : Dev nD) :
    (Pipeline.launchCred O₀ c : sProp 𝕄) ⊢ iprop(cred (tallyAt (barCell c) () 7) ∗ bigSep seven fun s => cred (tallyAt (recvCell c s) () N)) := by
  unfold Pipeline.launchCred
  rw [bigSep_univ_at _ (SemLoc.reg barS), launch_bar]
  refine sep_mono_right ?_
  refine (bigSep_subset (t := seven.map ⟨fun s : Fin 8 => (SemLoc.dma (recvSem s) : SemLoc sig), recvLoc_injective⟩) fun q hq => ?_).trans ?_
  · obtain ⟨s, -, rfl⟩ := Finset.mem_map.mp hq
    exact Finset.mem_erase.mpr ⟨recv_ne_bar s, Finset.mem_univ _⟩
  · rw [bigSep_map]
    refine bigSep_mono fun s hs => ?_
    rw [← launch_recv c s (Finset.mem_erase.mp hs).1]
    exact .refl _

/-! ## The launch theorem's side conditions -/

/-- Into the body's starting state: the launch credit sorted, the two plain counters of row 0 carried over. -/
theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G'
  iintro ⟨-, Hlev, Hcr, -, HG, Hs0, Hr0⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    isplitl [Hs0]; · iexact Hs0
    iexact Hr0
  · iempintro

theorem phi0_intro (m : (ℓ : Loc nD τ sig) → Buf (Elt F) ℓ) (ρ : Dev nD → PrngReg) (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Ha, Hb⟩
  isplitl [Hs]; · iexact Hs
  isplitl [Ha]; · iexact Ha
  iexact Hb

omit [FloatOps F] in
/-- The kernel's sixteen own semaphores at zero, listed: the eight departure counters, then the eight arrival counters. -/
theorem ownSems0_list (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (sendCell c 4) 0 ∗ semVal (sendCell c 5) 0 ∗ semVal (sendCell c 6) 0 ∗ semVal (sendCell c 7) 0
        ∗ semVal (recvCell c 0) 0 ∗ semVal (recvCell c 1) 0 ∗ semVal (recvCell c 2) 0 ∗ semVal (recvCell c 3) 0
        ∗ semVal (recvCell c 4) 0 ∗ semVal (recvCell c 5) 0 ∗ semVal (recvCell c 6) 0 ∗ semVal (recvCell c 7) 0) := by
  rw [Pipeline.ownSems0_eq_of_list c osem [0, 1, 2, 3, 4, 5, 6, 7, 8, 9, 10, 11, 12, 13, 14, 15] (by decide) (by decide)]; rfl

omit [FloatOps F] in
/-- So they are what the body gives back: the eight departure and the eight arrival counters at zero. -/
theorem ownSems0_intro (c : Dev nD) :
    iprop((bigSep Finset.univ fun s : Fin 8 => semVal (sendCell c s) 0) ∗ (bigSep Finset.univ fun s : Fin 8 => semVal (recvCell c s) 0))
      ⊢ (Pipeline.ownSems0 (Ix := Unit) (Name := ℕ) (U := UU) (Lvl := ℕ) (Val := Elt F) (τ := τ) osem c : sProp 𝕄) := by
  rw [ownSems0_list, bigSep_eight, bigSep_eight]
  iintro ⟨⟨S0, S1, S2, S3, S4, S5, S6, S7⟩, R0, R1, R2, R3, R4, R5, R6, R7⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R7

theorem phi1_exit (m : (ℓ : Loc nD τ sig) → Buf (Elt F) ℓ) (ρ : Dev nD → PrngReg) (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁
  iintro ⟨Ha, Hb, HS, HR⟩
  isplitr; · iempintro
  isplitl [HS HR]
  · iapply (ownSems0_intro (F := F) c)
    isplitl [HS] <;> iassumption
  isplitl [Ha]; · iexact Ha
  iexact Hb

/-- The pipeline's own waits (on the two staging semaphores) lie below everything a device owes. -/
theorem waits (m : (ℓ : Loc nD τ sig) → Buf (Elt F) ℓ) (ρ : Dev nD → PrngReg) (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- At the compiled mesh of eight devices, for any float values, from any memory with zero counters: given the body
    obligation of every device and the step that allocates all devices' cells at once, every weakly fair execution
    of @main — the eight kernels signalling each other's entry cells, then copying their statistics to each other —
    terminates, and every final state has each device's arrays at the contents the pipeline's proof data name. -/
theorem run_main (m : (ℓ : Loc nD τ sig) → Buf (Elt F) ℓ) (ρ : Dev nD → PrngReg) (G : Dev nD → sProp 𝕄) (u₀ : UU) (hown : Pipeline.OwnSemFacts cfg0.spec osem)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄) ⊢ |={Set.univ}=> bigSep Finset.univ (G' m ρ))
    (hbody : ∀ c, BodyObligation (dats (F := F) m ρ 0 c) (defs₀ (F := F)) 𝒱₀ () Set.univ) :
    θ_run defs (onTc (τ := τ) (main (F := F))) (s₀ m ρ) (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ hown (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' m ρ) (u₀ := u₀)
    (hu₀ := hu₀)
    (hglob := hglob)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Proto.run_main' depends on axioms: [propext, Classical.choice, Quot.sound] -/
#guard_msgs in #print axioms run_main

/-! ## The final arrays -/

omit [FloatOps F] in
/-- A device's block as its staging buffer holds it is its input array: the window is the whole array, at the one point. -/
theorem X_eq (m : (ℓ : Loc nD τ sig) → Buf (Elt F) ℓ) (ρ : Dev nD → PrngReg) (d : Dev nD) : X m ρ d = m ((d.tc : Thread nD τ).loc main_arg0) := by
  have hz0 : (fun a => (win0_0.index (0 : Fin 1)) a * main_arg0.ty.shape.size a) = fun _ => 0 :=
    funext fun a => by fin_cases a <;> decide
  exact Memref.read_access_unit_zero (Elt F) main_arg0 hz0 (fun a => by fin_cases a <;> decide) _

/-- The input array is never written: it ends holding what it held. -/
theorem finalA_x (m : (ℓ : Loc nD τ sig) → Buf (Elt F) ℓ) (ρ : Dev nD → PrngReg) (c : Dev nD) : (dats m ρ 0 c).arrAt (0 : Fin 2) cfg0.N = m ((c.tc : Thread nD τ).loc main_arg0) :=
  (dats (F := F) m ρ 0 c).arrAt_in (0 : Fin 2) rfl _

/-- The result array is written back once, whole, at the one point: it ends holding the block the body left. -/
theorem finalA_out (m : (ℓ : Loc nD τ sig) → Buf (Elt F) ℓ) (ρ : Dev nD → PrngReg) (c : Dev nD) : (dats m ρ 0 c).arrAt (1 : Fin 2) cfg0.N = outOf (fun d => m ((d.tc : Thread nD τ).loc main_arg0)) c := by
  have hz : (fun a => (win0_1.index t₀) a * main_v1.ty.shape.size a) = fun _ => 0 :=
    funext fun a => by fin_cases a <;> decide
  rw [show cfg0.N = (t₀ : Fin cfg0.N).val + 1 from rfl, (dats m ρ 0 c).arrAt_succ (1 : Fin 2) t₀, if_pos (flush0_1 t₀),
    show (fun d : Dev nD => m ((d.tc : Thread nD τ).loc main_arg0)) = X m ρ from funext fun d => (X_eq m ρ d).symm]
  exact Memref.write_access_unit_zero_univ (Elt F) main_v1 hz (fun a => by fin_cases a <;> decide) _ _

/-- THE RUN, in its strongest form: every device's result array ends at its block of the result as a pure term of all
    devices' input arrays, and its input array is unchanged. -/
theorem run_values (m : (ℓ : Loc nD τ sig) → Buf (Elt F) ℓ) (ρ : Dev nD → PrngReg) (G : Dev nD → sProp 𝕄) (u₀ : UU) (hown : Pipeline.OwnSemFacts cfg0.spec osem)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄) ⊢ |={Set.univ}=> bigSep Finset.univ (G' m ρ))
    (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outOf (fun d => m ((d.tc : Thread nD τ).loc main_arg0)) c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩)
    (run_main m ρ G u₀ hown hu₀ hglob hbody)

/-- info: 'Cert.Kernel.Proto.run_values' depends on axioms: [propext, Classical.choice, Quot.sound] -/
#guard_msgs in #print axioms run_values

end Cert.Kernel.Proto

end
-- ==== Proof.KLaunchAlloc.lean ====
/-
  The launch's allocation step: every device's fifteen cells funded and made invariants at once, and the duty
  tokens dealt to the devices that pay them.

  The launch element of the protocol's copy of the algebra holds, for each device, the round state, the position and
  the mark of round 0 of its fifteen cells, and the tokens of those cells' twenty-one duties. With the counters of the
  cells at zero each round state closes into an invariant. The tokens are minted at the cell that owns the duty but
  are spent by the device that pays it: duty `k` of a device's entry cell by its peer of key `k`, the arrival duty of
  its row `s` by its peer of key `keyOf s`, the departure duty by the device itself. Pairing by a fixed key permutes
  the devices, so dealing the tokens is re-indexing each family along that permutation.
-/
import proofs.«900601_g7700000000000602_dist_softmax_colshard_i_m1024_n512_v7x_i8_bf16_1_alg».proof.Proof.KLaunchDefs
import proofs.«900601_g7700000000000602_dist_softmax_colshard_i_m1024_n512_v7x_i8_bf16_1_alg».proof.Proof.KTables

noncomputable section

namespace Cert.Kernel.Proto

open Cert.Kernel Cert.Kernel.Gen Cert.Kernel.Mesh Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every payload of the schedule can be kept in an invariant. -/
instance ringRd_payload_storable (g : GSem nD τ sig) (r : ℕ) (d : Fin 8) :
    BI.Storable (upEmb : UEmb _ 𝕄) ((ringRd (F := F) m ρ).payload g r d) := by
  show BI.Storable upEmb (match g.2 with
    | .reg _ => barPay g.1.1 d
    | .dma q => if 10 ≤ q.val then recvPay m ρ g.1.1 (semRow q) else sendPay m ρ g.1.1 (semRow q))
  unfold barPay recvPay sendPay rowPts
  (repeat' split) <;> infer_instance

/-! ## The kernel's own semaphores and the barrier semaphore, at zero -/

theorem ownSemFacts : Pipeline.OwnSemFacts cfg0.spec osem := by decide

theorem osem_send (s : Fin 8) : osem (finSumFinEquiv (m := 8) (n := 8) (Sum.inl s)) = .dma (sendSem s) := by revert s; decide
theorem osem_recv (s : Fin 8) : osem (finSumFinEquiv (m := 8) (n := 8) (Sum.inr s)) = .dma (recvSem s) := by revert s; decide

omit [FloatOps F] in
/-- The sixteen own semaphores are the eight departure and the eight arrival semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 8 => semVal (sendCell c s) 0) ∗ (bigSep Finset.univ fun s : Fin 8 => semVal (recvCell c s) 0)) := by
  unfold Pipeline.ownSems0
  rw [bigSep_univ_equiv (finSumFinEquiv (m := 8) (n := 8)), bigSep_univ_sum]
  exact congrArg₂ BI.sep (bigSep_congr fun s _ => by rw [osem_send s]) (bigSep_congr fun s _ => by rw [osem_recv s])

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells and the duty tokens -/

/-- The rows, or keys, `1 … 7`. -/
abbrev R7 : Type := {s : Fin 8 // s ≠ 0}

/-- A device's fifteen cells: the entry cell, then a departure and an arrival cell for each row `1 … 7`. -/
abbrev CI : Type := Unit ⊕ (R7 ⊕ R7)

def csem : CI → SemLoc sig
  | .inl _ => .reg barS
  | .inr (.inl s) => .dma (sendSem s.1)
  | .inr (.inr s) => .dma (recvSem s.1)

abbrev kcell (ck : Dev nD × CI) : GSem nD τ sig := ((ck.1 : Thread nD τ), csem ck.2)

theorem csem_injective : Function.Injective csem := by
  rintro (a | a | a) (b | b | b) h
  · rfl
  · cases h
  · cases h
  · cases h
  · exact congrArg (fun x => Sum.inr (Sum.inl x)) (Subtype.ext (sendSem_inj (SemLoc.dma.inj h)))
  · exact absurd h (send_ne_recv _ _)
  · cases h
  · exact absurd h.symm (send_ne_recv _ _)
  · exact congrArg (fun x => Sum.inr (Sum.inr x)) (Subtype.ext (recvSem_inj (SemLoc.dma.inj h)))

theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- All the protocol's cells: fifteen a device. -/
def ringCells : Finset (GSem nD τ sig) := Finset.univ.map ⟨kcell, kcell_injective⟩

theorem bar_mem (c : Dev nD) : barCell c ∈ ringCells := Finset.mem_map.mpr ⟨(c, .inl ()), Finset.mem_univ _, rfl⟩
theorem send_mem (c : Dev nD) {s : Fin 8} (hs : s ∈ seven) : sendCell c s ∈ ringCells :=
  Finset.mem_map.mpr ⟨(c, .inr (.inl ⟨s, Finset.ne_of_mem_erase hs⟩)), Finset.mem_univ _, rfl⟩
theorem recv_mem (c : Dev nD) {s : Fin 8} (hs : s ∈ seven) : recvCell c s ∈ ringCells :=
  Finset.mem_map.mpr ⟨(c, .inr (.inr ⟨s, Finset.ne_of_mem_erase hs⟩)), Finset.mem_univ _, rfl⟩

/-- A device's own cells' duty tokens as minted: the seven of its entry cell, then one for each departure and each
    arrival cell. -/
abbrev TI : Type := R7 ⊕ (R7 ⊕ R7)

def tokOf (cj : Dev nD × TI) : GSem nD τ sig × ℕ × Fin 8 := match cj.2 with
  | .inl k => (barCell cj.1, 0, k.1)
  | .inr (.inl s) => (sendCell cj.1 s.1, 0, 0)
  | .inr (.inr s) => (recvCell cj.1 s.1, 0, 0)

theorem tokOf_injective : Function.Injective (tokOf : Dev nD × TI → GSem nD τ sig × ℕ × Fin 8) := by
  rintro ⟨c, j⟩ ⟨c', j'⟩ h
  have h1 : c = c' := by
    have := congrArg (fun x : GSem nD τ sig × ℕ × Fin 8 => x.1.1.1) h
    rcases j with j | j | j <;> rcases j' with j' | j' | j' <;> exact this
  subst h1
  have hs : (tokOf (c, j)).1.2 = (tokOf (c, j')).1.2 := congrArg (fun x : GSem nD τ sig × ℕ × Fin 8 => x.1.2) h
  have hd : (tokOf (c, j)).2.2 = (tokOf (c, j')).2.2 := congrArg (fun x : GSem nD τ sig × ℕ × Fin 8 => x.2.2) h
  have : j = j' := by
    rcases j with j | j | j <;> rcases j' with j' | j' | j'
    · exact congrArg Sum.inl (Subtype.ext hd)
    · cases hs
    · cases hs
    · cases hs
    · exact congrArg (fun x => Sum.inr (Sum.inl x)) (Subtype.ext (sendSem_inj (SemLoc.dma.inj hs)))
    · exact absurd hs (send_ne_recv _ _)
    · cases hs
    · exact absurd hs.symm (send_ne_recv _ _)
    · exact congrArg (fun x => Sum.inr (Sum.inr x)) (Subtype.ext (recvSem_inj (SemLoc.dma.inj hs)))
  subst this; rfl

def ringToks : Finset (GSem nD τ sig × ℕ × Fin 8) := Finset.univ.map ⟨tokOf, tokOf_injective⟩

/-- The launch element: the pipeline's copy for the staging cells, the protocol's for ours. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep seven fun k => dutyTok ER (barCell c) 0 k)
    ∗ (bigSep seven fun s => dutyTok ER (sendCell c s) 0 0)
    ∗ (bigSep seven fun s => dutyTok ER (recvCell c s) 0 0))

/-- What the launch element deals device `c`: the round states of its fifteen cells, its positions at them with the
    marks of round 0, and the tokens of those cells' duties. -/
def G (c : Dev nD) : sProp 𝕄 :=
  iprop((bigSep Finset.univ fun k : CI => roundState ER (ringRd m ρ) (kcell (c, k)) 0)
    ∗ (bigSep Finset.univ fun k : CI => iprop(atPos ER (kcell (c, k)) 0 ∅ 0 ∗ reached ER (kcell (c, k)) 0)) ∗ toks c)

/-! ## Families over a device's cells and tokens, by kind -/

omit [FloatOps F] in
/-- A family over a device's fifteen cells: the entry cell's member, and for each row `1 … 7` the departure cell's and
    the arrival cell's. -/
theorem bigSep_cells (c : Dev nD) (Φ : GSem nD τ sig → sProp 𝕄) :
    (bigSep Finset.univ fun k : CI => Φ (kcell (c, k)))
      = iprop(Φ (barCell c) ∗ bigSep seven fun s => iprop(Φ (sendCell c s) ∗ Φ (recvCell c s))) := by
  rw [bigSep_univ_sum, bigSep_univ_sum, bigSep_univ_of_subsingleton (), bigSep_sep',
    ← bigSep_subtype_ne (0 : Fin 8) (fun s => Φ (sendCell c s)), ← bigSep_subtype_ne (0 : Fin 8) (fun s => Φ (recvCell c s))]
  rfl

omit [FloatOps F] in
theorem bigSep_toks (c : Dev nD) :
    (bigSep Finset.univ fun j : TI => (dutyTok ER (tokOf (c, j)).1 (tokOf (c, j)).2.1 (tokOf (c, j)).2.2 : sProp 𝕄)) = toks c := by
  unfold toks
  rw [bigSep_univ_sum, bigSep_univ_sum, ← bigSep_subtype_ne (0 : Fin 8) (fun k => (dutyTok ER (barCell c) 0 k : sProp 𝕄)),
    ← bigSep_subtype_ne (0 : Fin 8) (fun s => (dutyTok ER (sendCell c s) 0 0 : sProp 𝕄)),
    ← bigSep_subtype_ne (0 : Fin 8) (fun s => (dutyTok ER (recvCell c s) 0 0 : sProp 𝕄))]
  rfl

omit [FloatOps F] in
theorem bigSep_ringCells (Φ : GSem nD τ sig → sProp 𝕄) :
    bigSep ringCells Φ = bigSep Finset.univ fun c : Dev nD => bigSep Finset.univ fun k : CI => Φ (kcell (c, k)) := by
  unfold ringCells; rw [bigSep_map, bigSep_univ_prod]; rfl

/-! ## Funding -/

theorem fund_ring : BI.own (ER (initOf ringCells ringToks)) ⊢ (|==> bigSep Finset.univ (G m ρ) : sProp 𝕄) := by
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => bigSep_toks c
  iintro HX
  imod (Rounds.fund ER (ringRd m ρ) ringCells ringToks) $$ HX with ⟨Hst, Hr, Hat, Htok⟩
  imodintro
  ihave Hst' := (Entails.of_eq (bigSep_ringCells fun g => roundState ER (ringRd m ρ) g 0)) $$ Hst
  ihave Hat' := (Entails.of_eq (bigSep_ringCells fun g => atPos ER g 0 ∅ 0)) $$ Hat
  ihave Hr' := (Entails.of_eq (bigSep_ringCells fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element pays for the pipeline's copy and for every device's share of the protocol's. -/
theorem fund_all : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The cells' counters close their round states into invariants -/

omit [FloatOps F] in
/-- A device's seventeen counters at zero: those of its fifteen cells, and the two of row 0, which are set aside. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell (c, k)) 0) ∗ semVal (sendCell c 0) 0 ∗ semVal (recvCell c 0) 0) : sProp 𝕄) := by
  rw [ownSems0_eq, unscopedSems0_eq, bigSep_cells c (fun g => semVal g 0), bigSep_sep',
    bigSep_univ_at (fun s : Fin 8 => (semVal (sendCell c s) 0 : sProp 𝕄)) 0, bigSep_univ_at (fun s : Fin 8 => (semVal (recvCell c s) 0 : sProp 𝕄)) 0]
  iintro ⟨⟨⟨HS0, HS⟩, HV0, HV⟩, HB⟩
  isplitl [HB HS HV]
  · isplitl [HB]; · iexact HB
    isplitl [HS] <;> iassumption
  isplitl [HS0] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (ringRd m ρ) κ (kcell (c, k))))
          ∗ (bigSep Finset.univ fun k : CI => iprop(atPos ER (kcell (c, k)) 0 ∅ 0 ∗ reached ER (kcell (c, k)) 0)) ∗ toks c
          ∗ semVal (sendCell c 0) 0 ∗ semVal (recvCell c 0) 0) := by
  unfold G
  iintro ⟨Hos, Hus, Hst, Hat, Htok⟩
  ihave Hv := (sems0_eq (F := F) c) $$ [Hos Hus]
  · isplitl [Hos] <;> iassumption
  icases Hv with ⟨Hv, HS0, HV0⟩
  imod (show iprop((bigSep Finset.univ fun k : CI => semVal (kcell (c, k)) 0) ∗ bigSep Finset.univ fun k : CI => roundState ER (ringRd m ρ) (kcell (c, k)) 0)
      ⊢ (|={Set.univ}=> bigSep Finset.univ fun k : CI => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [HS0] <;> iassumption

/-! ## The records every device reads, and the dealing of the tokens -/

/-- All the invariants, under the names `K`, and all the marks of round 0. -/
def records (K : GSem nD τ sig → ℕ) : sProp 𝕄 :=
  iprop((bigSep ringCells fun g => cellInv ER (ringRd m ρ) (K g) g) ∗ bigSep ringCells fun g => reached ER g 0)

instance records_persistent (K : GSem nD τ sig → ℕ) : BI.Persistent (records m ρ K) := by unfold records; infer_instance

theorem inv_at (K : GSem nD τ sig → ℕ) {g : GSem nD τ sig} (hg : g ∈ ringCells) : records m ρ K ⊢ cellInv ER (ringRd m ρ) (K g) g := by
  unfold records
  have h : (bigSep ringCells fun g => (cellInv ER (ringRd m ρ) (K g) g : sProp 𝕄)) ⊢ cellInv ER (ringRd m ρ) (K g) g := bigSep_elim hg
  iintro ⟨HI, -⟩
  iapply h; iexact HI

theorem reached_at (K : GSem nD τ sig → ℕ) {g : GSem nD τ sig} (hg : g ∈ ringCells) : records m ρ K ⊢ reached ER g 0 := by
  unfold records
  have h : (bigSep ringCells fun g => (reached ER g 0 : sProp 𝕄)) ⊢ reached ER g 0 := bigSep_elim hg
  iintro ⟨-, HR⟩
  iapply h; iexact HR

theorem invs_intro (K : GSem nD τ sig → ℕ) (c : Dev nD) : records m ρ K ⊢ invs m ρ K c := by
  have h1 : records m ρ K ⊢ (bigSep seven fun s => iprop(cellInv ER (ringRd m ρ) (K (sendCell c s)) (sendCell c s) ∗ cellInv ER (ringRd m ρ) (K (recvCell c s)) (recvCell c s)) : sProp 𝕄) :=
    bigSep_intro_persistent fun s hs => by
      iintro #HR
      isplitr
      · iapply (inv_at m ρ K (send_mem c hs)); iexact HR
      · iapply (inv_at m ρ K (recv_mem c hs)); iexact HR
  have h2 : records m ρ K ⊢ (bigSep seven fun k => cellInv ER (ringRd m ρ) (K (barCell (peer c k))) (barCell (peer c k)) : sProp 𝕄) :=
    bigSep_intro_persistent fun k _ => inv_at m ρ K (bar_mem (peer c k))
  have h3 : records m ρ K ⊢ (bigSep seven fun s => cellInv ER (ringRd m ρ) (K (recvCell (peer c (keyOf s)) s)) (recvCell (peer c (keyOf s)) s) : sProp 𝕄) :=
    bigSep_intro_persistent fun s hs => inv_at m ρ K (recv_mem (peer c (keyOf s)) hs)
  unfold invs
  iintro #HR
  isplitr; · iapply (inv_at m ρ K (bar_mem c)); iexact HR
  isplitr; · iapply h1; iexact HR
  isplitr; · iapply h2; iexact HR
  iapply h3; iexact HR

theorem marks_intro (K : GSem nD τ sig → ℕ) (c : Dev nD) : records m ρ K ⊢ marks c := by
  have h1 : records m ρ K ⊢ (bigSep seven fun k => reached ER (barCell (peer c k)) 0 : sProp 𝕄) :=
    bigSep_intro_persistent fun k _ => reached_at m ρ K (bar_mem (peer c k))
  have h2 : records m ρ K ⊢ (bigSep seven fun s => reached ER (recvCell (peer c (keyOf s)) s) 0 : sProp 𝕄) :=
    bigSep_intro_persistent fun s hs => reached_at m ρ K (recv_mem (peer c (keyOf s)) hs)
  have h3 : records m ρ K ⊢ (bigSep seven fun s => iprop(reached ER (sendCell c s) 0 ∗ reached ER (recvCell c s) 0) : sProp 𝕄) :=
    bigSep_intro_persistent fun s hs => by
      iintro #HR
      isplitr
      · iapply (reached_at m ρ K (send_mem c hs)); iexact HR
      · iapply (reached_at m ρ K (recv_mem c hs)); iexact HR
  unfold marks
  iintro #HR
  isplitr; · iapply h1; iexact HR
  isplitr; · iapply h2; iexact HR
  iapply h3; iexact HR

/-- The tokens of the duties device `c` pays: duty `k` of the entry cell of its peer of key `k`; for each row `s`, the
    arrival duty of that row on the peer of key `keyOf s`, and its own departure duty. -/
def payToks (c : Dev nD) : sProp 𝕄 :=
  iprop((bigSep seven fun k => dutyTok ER (barCell (peer c k)) 0 k)
    ∗ (bigSep seven fun s => iprop(dutyTok ER (recvCell (peer c (keyOf s)) s) 0 0 ∗ dutyTok ER (sendCell c s) 0 0)))

omit [FloatOps F] in
/-- A doubly indexed family, each column re-indexed by a permutation of the rows of its own. -/
theorem bigSep_deal {I J : Type} [Fintype I] [DecidableEq J] (S : Finset J) (A : I → J → sProp 𝕄) (e : J → I ≃ I) :
    (bigSep Finset.univ fun c => bigSep S fun k => A c k) = bigSep Finset.univ fun c => bigSep S fun k => A (e k c) k := by
  induction S using Finset.induction_on with
  | empty => simp only [bigSep_empty]
  | insert k S hk ih =>
    have e1 : (bigSep Finset.univ fun c => bigSep (insert k S) fun k => A c k)
        = iprop((bigSep Finset.univ fun c => A c k) ∗ bigSep Finset.univ fun c => bigSep S fun k => A c k) := by
      rw [← bigSep_sep']; exact bigSep_congr fun c _ => bigSep_insert hk
    have e2 : (bigSep Finset.univ fun c => bigSep (insert k S) fun k => A (e k c) k)
        = iprop((bigSep Finset.univ fun c => A (e k c) k) ∗ bigSep Finset.univ fun c => bigSep S fun k => A (e k c) k) := by
      rw [← bigSep_sep']; exact bigSep_congr fun c _ => bigSep_insert hk
    rw [e1, e2, ih, bigSep_univ_equiv (e k) (fun c => A c k)]

omit [FloatOps F] in
/-- The tokens dealt: each from the device that owns the duty's cell to the device that pays the duty. -/
theorem toks_around : (bigSep Finset.univ fun c : Dev nD => (toks c : sProp 𝕄)) ⊢ bigSep Finset.univ fun c : Dev nD => payToks c := by
  unfold toks payToks
  rw [bigSep_sep', bigSep_sep', bigSep_sep',
    bigSep_deal seven (fun (c : Dev nD) k => (dutyTok ER (barCell c) 0 k : sProp 𝕄)) peerEquiv,
    bigSep_deal seven (fun (c : Dev nD) s => (dutyTok ER (recvCell c s) 0 0 : sProp 𝕄)) (fun s => peerEquiv (keyOf s)),
    bigSep_congr (s := Finset.univ) (fun (c : Dev nD) _ => bigSep_sep' seven (fun s => (dutyTok ER (recvCell (peer c (keyOf s)) s) 0 0 : sProp 𝕄)) (fun s => dutyTok ER (sendCell c s) 0 0)),
    bigSep_sep']
  iintro ⟨H1, H2, H3⟩
  isplitl [H1]; · iexact H1
  isplitl [H3]; · iexact H3
  iexact H2

/-! ## Every device's ghost state -/

theorem ghost_intro (K : GSem nD τ sig → ℕ) (c : Dev nD) :
    iprop(records m ρ K ∗ ((bigSep Finset.univ fun k : CI => atPos ER (kcell (c, k)) 0 ∅ 0) ∗ payToks c) ∗ semVal (sendCell c 0) 0 ∗ semVal (recvCell c 0) 0)
      ⊢ G' m ρ c := by
  rw [bigSep_cells c (fun g => atPos ER g 0 ∅ 0)]
  unfold G' ghost payToks
  iintro ⟨#HR, ⟨⟨HaB, HaX⟩, HtB, HtX⟩, HS, HV⟩
  isplitr [HS HV]
  · iexists K
    isplitr; · iapply (invs_intro m ρ K c); iexact HR
    isplitr; · iapply (marks_intro m ρ K c); iexact HR
    unfold linear
    isplitl [HaB]; · iexact HaB
    isplitl [HaX]; · iexact HaX
    isplitl [HtB]; · iexact HtB
    iexact HtX
  isplitl [HS] <;> iassumption

theorem regroup :
    (bigSep Finset.univ fun c : Dev nD => iprop((bigSep Finset.univ fun k : CI => iprop(∃ κ : ℕ, cellInv ER (ringRd m ρ) κ (kcell (c, k))))
          ∗ (bigSep Finset.univ fun k : CI => iprop(atPos ER (kcell (c, k)) 0 ∅ 0 ∗ reached ER (kcell (c, k)) 0)) ∗ toks c
          ∗ semVal (sendCell c 0) 0 ∗ semVal (recvCell c 0) 0) : sProp 𝕄)
      ⊢ bigSep Finset.univ (G' m ρ) := by
  have hjoin : iprop(((bigSep Finset.univ fun c : Dev nD => bigSep Finset.univ fun k : CI => (atPos ER (kcell (c, k)) 0 ∅ 0 : sProp 𝕄)) ∗ bigSep Finset.univ fun c : Dev nD => payToks c)
        ∗ bigSep Finset.univ fun c : Dev nD => iprop(semVal (sendCell c 0) 0 ∗ semVal (recvCell c 0) 0))
      ⊢ (bigSep Finset.univ fun c : Dev nD => iprop(((bigSep Finset.univ fun k : CI => atPos ER (kcell (c, k)) 0 ∅ 0) ∗ payToks c) ∗ semVal (sendCell c 0) 0 ∗ semVal (recvCell c 0) 0) : sProp 𝕄) :=
    Entails.of_eq (by rw [← bigSep_sep', ← bigSep_sep'])
  rw [bigSep_sep', bigSep_sep', bigSep_sep', ← bigSep_ringCells (fun g => iprop(∃ κ : ℕ, cellInv ER (ringRd m ρ) κ g)),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_ringCells (fun g => (reached ER g 0 : sProp 𝕄))]
  iintro ⟨HI, ⟨Hat, #HR⟩, Htok, Hsv⟩
  ihave HK := (BI.bigSep_exists_pi ringCells (fun (g : GSem nD τ sig) (κ : ℕ) => (cellInv ER (ringRd m ρ) κ g : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  iapply hjoin
  isplitl [Hat Htk]
  · isplitl [Hat] <;> iassumption
  iexact Hsv

/-- The global step: every device's counters at zero and its share of the launch element become every device's ghost
    state, with the two counters of row 0 untouched. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.Kernel.Proto.ownSemFacts' depends on axioms: [propext, Classical.choice, Quot.sound] -/
#guard_msgs in #print axioms ownSemFacts
/-- info: 'Cert.Kernel.Proto.ownSems0_eq' depends on axioms: [propext, Classical.choice, Quot.sound] -/
#guard_msgs in #print axioms ownSems0_eq
/-- info: 'Cert.Kernel.Proto.unscopedSems0_eq' depends on axioms: [propext, Classical.choice, Quot.sound] -/
#guard_msgs in #print axioms unscopedSems0_eq
/-- info: 'Cert.Kernel.Proto.fund_all' depends on axioms: [propext, Classical.choice, Quot.sound] -/
#guard_msgs in #print axioms fund_all
/-- info: 'Cert.Kernel.Proto.glob' depends on axioms: [propext, Classical.choice, Quot.sound] -/
#guard_msgs in #print axioms glob

end Cert.Kernel.Proto

end
-- ==== Proof.KRows.lean ====
/-
  The gather buffer by rows and by shares.

  The buffer of a device is eight rows of 2 × 1024 numbers. An element lies in row `s` exactly when its first
  coordinate is `s`, and the 2 × 1024 view of the row places `(b, r)` at `(s, b, r)`. From this: the whole buffer is
  the eight rows side by side; the loads and the store of the body stay inside the rows they name; a row at the full
  share is its two halves, and row 0 is its eight shares; the row a device wrote from its own block, and the row a
  copy of a peer's row 0 landed in, hold the statistics the final buffer holds there.
-/
import proofs.«900601_g7700000000000602_dist_softmax_colshard_i_m1024_n512_v7x_i8_bf16_1_alg».proof.Proof.KTables
import Idealize.ShloMosaic.Lib.ValueIdx
import Idealize.ShloMosaic.Lib.ValueLayout

noncomputable section

namespace Cert.Kernel.Proto

open Cert.Kernel Cert.Kernel.Gen Cert.Kernel.Mesh Cert.Kernel.Spec

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Rows

variable {F : FTy → Type} [FloatOps F]

local notation "𝕄" => MT nD τ sig Unit (Elt F) ℕ UU ℕ

/-- The rectangle of the body's own load and store of row 0. -/
abbrev r0 : Rect S8x2x1024 := Rect.unit (s := S8x2x1024) ![0, 0, 0] S1x2x1024.size inb_S8x2x1024_S1x2x1024_0_0_0

/-! ## Rows by coordinates -/

/-- An element of the buffer lies in row `s` exactly when its first coordinate is `s`. -/
theorem mem_row_iff (s : Fin 8) (i : S8x2x1024.Idx) : i ∈ (rowM s).view.set ↔ (i 0).val = s.val := by
  rw [View.set_reshape, View.set_slice_whole, Rect.mem_set_unit]
  constructor
  · intro h
    have h0 := h 0
    have e : (![s.val, 0, 0] : Fin 3 → Nat) 0 = s.val := rfl
    have e' : S1x2x1024.size 0 = 1 := rfl
    rw [e, e'] at h0
    omega
  · intro h a
    match a with
    | ⟨0, _⟩ => show s.val ≤ (i 0).val ∧ (i 0).val < s.val + 1; omega
    | ⟨1, _⟩ => show 0 ≤ (i 1).val ∧ (i 1).val < 0 + 2; have : (i 1).val < 2 := (i 1).isLt; omega
    | ⟨2, _⟩ => show 0 ≤ (i 2).val ∧ (i 2).val < 0 + 1024; have : (i 2).val < 1024 := (i 2).isLt; omega

/-- The 2 × 1024 view of row `s` places `(b, r)` at `(s, b, r)`. -/
theorem rowM_emb (s : Fin 8) (b : Fin 2) (r : Fin 1024) : (rowM s).view.emb (ix2 b r) = (ix3 s b r : S8x2x1024.Idx) := by
  show (rowR s).emb (Shape.reshapeEquiv _ (ix2 b r)) = _
  refine (congrArg (rowR s).emb (reshapeEquiv_ix2_1ab _ b r)).trans ?_
  funext a
  apply Fin.ext
  match a with
  | ⟨0, _⟩ => show s.val + 1 * 0 = s.val; omega
  | ⟨1, _⟩ => show 0 + 1 * b.val = b.val; omega
  | ⟨2, _⟩ => show 0 + 1 * r.val = r.val; omega

/-- An element whose first coordinate is `s` is `(s, b, r)` for its other two coordinates. -/
theorem eq_ix3_of_row (s : Fin 8) (i : S8x2x1024.Idx) (h : (i 0).val = s.val) :
    i = (ix3 s (⟨(i 1).val, (i 1).isLt⟩ : Fin 2) (⟨(i 2).val, (i 2).isLt⟩ : Fin 1024) : S8x2x1024.Idx) := by
  funext a
  apply Fin.ext
  match a with
  | ⟨0, _⟩ => exact h
  | ⟨1, _⟩ => rfl
  | ⟨2, _⟩ => rfl

/-- Row `t` of the final buffer holds the statistics of the device `peer c (keyOf t)`. -/
theorem gat_ix3 (Xs : Dev nD → Vec F S1024x512 .f32) (d : Dev nD) (t : Fin 8) (b : Fin 2) (r : Fin 1024) :
    gat Xs d (ix3 t b r : S8x2x1024.Idx) = stat (Xs (peer d (keyOf t))) (ix3 (0 : Fin 1) b r) := by
  unfold gat
  refine congrArg (stat (Xs (peer d (keyOf t)))) (funext fun a => ?_)
  match a with
  | ⟨0, _⟩ => rfl
  | ⟨1, _⟩ => rfl
  | ⟨2, _⟩ => rfl

/-! ## Contents of a row after the device's own store and after a copy has landed -/

/-- What the device stores into row 0 from its own block is what the final buffer holds there. -/
theorem row0_written (c : Dev nD) (g0 : Buf (Elt F) ((gM : Memref sig .tc .vmem S8x2x1024 .f32).view.loc (c : Thread nD τ))) (Xs : Dev nD → Vec F S1024x512 .f32) :
    ∀ i ∈ (rowM 0).view.set, (((gM : Memref sig .tc .vmem S8x2x1024 .f32).access r0).write (Elt F) g0 (k0_pay4 (Xs c)) Finset.univ) i = gat Xs c i := by
  intro i hi
  have h0 : (i 0).val = (0 : Fin 8).val := (mem_row_iff 0 i).mp hi
  have hb : (i 1).val < 2 := (i 1).isLt
  have hr : (i 2).val < 1024 := (i 2).isLt
  have e : i = ((gM : Memref sig .tc .vmem S8x2x1024 .f32).access r0).emb (ix3 (0 : Fin 1) (⟨(i 1).val, hb⟩ : Fin 2) (⟨(i 2).val, hr⟩ : Fin 1024)) := by
    funext a
    apply Fin.ext
    match a with
    | ⟨0, _⟩ => show (i 0).val = 0 + 1 * 0; rw [h0]; rfl
    | ⟨1, _⟩ => show (i 1).val = 0 + 1 * (i 1).val; omega
    | ⟨2, _⟩ => show (i 2).val = 0 + 1 * (i 2).val; omega
  have eg : gat Xs c i = k0_pay4 (Xs c) (ix3 (0 : Fin 1) (⟨(i 1).val, hb⟩ : Fin 2) (⟨(i 2).val, hr⟩ : Fin 1024)) := by
    refine (congrArg (gat Xs c) (eq_ix3_of_row 0 i h0)).trans ?_
    rw [gat_ix3, keyOf_zero, peer_zero]
    rfl
  rw [eg]
  refine (congrArg _ e).trans ?_
  exact View.write_emb_of_mem _ _ (Finset.mem_univ _)

/-- Row `s` of the peer of key `keyOf s`, once the copy of this device's row 0 has landed in it, holds what that
    peer's final buffer holds there: the statistics of this device. -/
theorem landed (c : Dev nD) (s : Fin 8) (hs : s ≠ 0) (Xs : Dev nD → Vec F S1024x512 .f32)
    (fd : Buf (Elt F) ((rowM s).view.loc (peer c (keyOf s) : Thread nD τ))) (fs : Buf (Elt F) ((rowM 0).view.loc (c : Thread nD τ)))
    (hfs : ∀ j ∈ (rowM 0).view.set, fs j = gat Xs c j) :
    ∀ i ∈ (rowM s).view.set, ((rowM s).view.write (Elt F) fd ((rowM 0).view.read (Elt F) fs) Finset.univ) i = gat Xs (peer c (keyOf s)) i := by
  intro i hi
  have h0 : (i 0).val = s.val := (mem_row_iff s i).mp hi
  have hb : (i 1).val < 2 := (i 1).isLt
  have hr : (i 2).val < 1024 := (i 2).isLt
  have e : i = (rowM s).view.emb (ix2 (⟨(i 1).val, hb⟩ : Fin 2) (⟨(i 2).val, hr⟩ : Fin 1024)) :=
    (eq_ix3_of_row s i h0).trans (rowM_emb s _ _).symm
  have eg : gat Xs (peer c (keyOf s)) i = gat Xs c ((rowM 0).view.emb (ix2 (⟨(i 1).val, hb⟩ : Fin 2) (⟨(i 2).val, hr⟩ : Fin 1024))) := by
    refine (congrArg (gat Xs (peer c (keyOf s))) (eq_ix3_of_row s i h0)).trans ?_
    rw [rowM_emb, gat_ix3, gat_ix3, peer_peer, keyOf_zero, peer_zero]
  rw [eg]
  refine (congrArg _ e).trans ?_
  refine (View.write_emb_of_mem _ _ (Finset.mem_univ _)).trans ?_
  rw [View.read_apply, cast_cast, cast_eq]
  exact hfs _ (View.emb_mem_set _ _)

/-! ## The two payloads of a copy -/

/-- The share of row 0 a copy was lent, holding the device's statistics, is the departure's payload. -/
theorem hpay_send (m : (ℓ : Loc nD τ sig) → Buf (Elt F) ℓ) (ρ : Dev nD → PrngReg) (c : Dev nD) (s : Fin 8) (g1 : Buf (Elt F) ((rowM 0).view.loc (c : Thread nD τ))) (h : ∀ j ∈ (rowM 0).view.set, g1 j = gat (X m ρ) c j) :
    (((rowM 0).view.loc (c : Thread nD τ) ↦[(rowM 0).view.set]{rowShare s} g1 : sProp 𝕄)) ⊢ (ringRd (F := F) m ρ).payload (sendCell c s) 0 0 := by
  rw [payload_send]
  unfold sendPay rowPts
  exact Entails.of_eq (pointsTo_congr h)

/-- The row a copy landed in is the arrival's payload. -/
theorem hpay_recv (m : (ℓ : Loc nD τ sig) → Buf (Elt F) ℓ) (ρ : Dev nD → PrngReg) (c : Dev nD) (s : Fin 8) (hs : s ≠ 0) (fd : Buf (Elt F) ((rowM s).view.loc (peer c (keyOf s) : Thread nD τ))) (fs : Buf (Elt F) ((rowM 0).view.loc (c : Thread nD τ)))
    (hfs : ∀ j ∈ (rowM 0).view.set, fs j = gat (X m ρ) c j) :
    (((rowM s).view.loc (peer c (keyOf s) : Thread nD τ) ↦[(rowM s).view.set]{fullShare} ((rowM s).view.write (Elt F) fd ((rowM 0).view.read (Elt F) fs) Finset.univ) : sProp 𝕄))
      ⊢ (ringRd (F := F) m ρ).payload (recvCell (peer c (keyOf s)) s) 0 0 := by
  rw [payload_recv]
  unfold recvPay rowPts
  exact Entails.of_eq (pointsTo_congr (landed c s hs (X m ρ) fd fs hfs))

/-! ## Bientailments as equations; a points-to cut along shares and along disjoint sets -/

theorem eq_of_equiv {M : Type} [URA M] {P Q : sProp M} (h : P ⊣⊢ Q) : P = Q := BI.equiv_iff.mp ⟨h.1, h.2⟩

theorem sep_assoc_eq {M : Type} [URA M] (A B C : sProp M) : iprop((A ∗ B) ∗ C) = iprop(A ∗ B ∗ C) :=
  eq_of_equiv Laws.sep_assoc

/-- A points-to at a share is the product of the same at the share's two halves. -/
theorem pts_halves {ℓ : Loc nD τ sig} (I : Finset (Idx ℓ)) (q : PosShare TreeShare) (f : Buf (Elt F) ℓ) :
    (ℓ ↦[I]{q} f : sProp 𝕄) = iprop((ℓ ↦[I]{q.left} f) ∗ ℓ ↦[I]{q.right} f) :=
  eq_of_equiv (pointsTo_share (PosShare.mem_left_op_right q))

/-- A points-to on a disjoint union is the product of the two. -/
theorem pts_union {ℓ : Loc nD τ sig} (I J : Finset (Idx ℓ)) (q : PosShare TreeShare) (f : Buf (Elt F) ℓ) (h : Disjoint I J) :
    (ℓ ↦[I ∪ J]{q} f : sProp 𝕄) = iprop((ℓ ↦[I]{q} f) ∗ ℓ ↦[J]{q} f) :=
  eq_of_equiv (pointsTo_union h)

/-- Seven pairwise disjoint sets. -/
theorem pts_union7 {ℓ : Loc nD τ sig} (K : Fin 8 → Finset (Idx ℓ)) (hd : ∀ s t : Fin 8, s ≠ t → Disjoint (K s) (K t))
    (q : PosShare TreeShare) (f : Buf (Elt F) ℓ) :
    (ℓ ↦[K 0 ∪ K 1 ∪ K 2 ∪ K 3 ∪ K 4 ∪ K 5 ∪ K 6]{q} f : sProp 𝕄)
      = iprop((ℓ ↦[K 0]{q} f) ∗ (ℓ ↦[K 1]{q} f) ∗ (ℓ ↦[K 2]{q} f) ∗ (ℓ ↦[K 3]{q} f) ∗ (ℓ ↦[K 4]{q} f) ∗ (ℓ ↦[K 5]{q} f) ∗ (ℓ ↦[K 6]{q} f)) := by
  have d1 : Disjoint (K 0) (K 1) := hd 0 1 (by decide)
  have d2 : Disjoint (K 0 ∪ K 1) (K 2) := by
    simp only [Finset.disjoint_union_left]; exact ⟨hd 0 2 (by decide), hd 1 2 (by decide)⟩
  have d3 : Disjoint (K 0 ∪ K 1 ∪ K 2) (K 3) := by
    simp only [Finset.disjoint_union_left]; exact ⟨⟨hd 0 3 (by decide), hd 1 3 (by decide)⟩, hd 2 3 (by decide)⟩
  have d4 : Disjoint (K 0 ∪ K 1 ∪ K 2 ∪ K 3) (K 4) := by
    simp only [Finset.disjoint_union_left]
    exact ⟨⟨⟨hd 0 4 (by decide), hd 1 4 (by decide)⟩, hd 2 4 (by decide)⟩, hd 3 4 (by decide)⟩
  have d5 : Disjoint (K 0 ∪ K 1 ∪ K 2 ∪ K 3 ∪ K 4) (K 5) := by
    simp only [Finset.disjoint_union_left]
    exact ⟨⟨⟨⟨hd 0 5 (by decide), hd 1 5 (by decide)⟩, hd 2 5 (by decide)⟩, hd 3 5 (by decide)⟩, hd 4 5 (by decide)⟩
  have d6 : Disjoint (K 0 ∪ K 1 ∪ K 2 ∪ K 3 ∪ K 4 ∪ K 5) (K 6) := by
    simp only [Finset.disjoint_union_left]
    exact ⟨⟨⟨⟨⟨hd 0 6 (by decide), hd 1 6 (by decide)⟩, hd 2 6 (by decide)⟩, hd 3 6 (by decide)⟩, hd 4 6 (by decide)⟩, hd 5 6 (by decide)⟩
  rw [pts_union _ _ q f d6, pts_union _ _ q f d5, pts_union _ _ q f d4, pts_union _ _ q f d3, pts_union _ _ q f d2,
    pts_union _ _ q f d1]
  simp only [sep_assoc_eq]

/-! ## The buffer is its eight rows -/

theorem rows_disjoint (s t : Fin 8) (h : s ≠ t) : Disjoint (rowM s).view.set (rowM t).view.set := by
  rw [Finset.disjoint_left]
  intro i hs ht
  exact h (Fin.ext (((mem_row_iff s i).mp hs).symm.trans ((mem_row_iff t i).mp ht)))

theorem rows_cover (c : Dev nD) :
    (Finset.univ : Finset (Idx ((c : Thread nD τ).loc cc0_scratch1))) = Finset.univ.biUnion fun s : Fin 8 => (rowM s).view.set := by
  ext i
  simp only [Finset.mem_univ, Finset.mem_biUnion, true_and, true_iff]
  exact ⟨⟨(i 0).val, (i 0).isLt⟩, (mem_row_iff _ i).mpr rfl⟩

/-- (1) The whole gather buffer is its eight rows. -/
theorem rows_split (c : Dev nD) (f : Buf (Elt F) ((c : Thread nD τ).loc cc0_scratch1)) :
    ((((c : Thread nD τ).loc cc0_scratch1) ↦{fullShare} f : sProp 𝕄))
      = iprop(((rowM 0).view.loc (c : Thread nD τ) ↦[(rowM 0).view.set]{fullShare} f) ∗ ((rowM 1).view.loc (c : Thread nD τ) ↦[(rowM 1).view.set]{fullShare} f)
          ∗ ((rowM 2).view.loc (c : Thread nD τ) ↦[(rowM 2).view.set]{fullShare} f) ∗ ((rowM 3).view.loc (c : Thread nD τ) ↦[(rowM 3).view.set]{fullShare} f)
          ∗ ((rowM 4).view.loc (c : Thread nD τ) ↦[(rowM 4).view.set]{fullShare} f) ∗ ((rowM 5).view.loc (c : Thread nD τ) ↦[(rowM 5).view.set]{fullShare} f)
          ∗ ((rowM 6).view.loc (c : Thread nD τ) ↦[(rowM 6).view.set]{fullShare} f) ∗ ((rowM 7).view.loc (c : Thread nD τ) ↦[(rowM 7).view.set]{fullShare} f)) := by
  refine (congrArg (fun I => (pointsTo ((c : Thread nD τ).loc cc0_scratch1) I fullShare f : sProp 𝕄)) (rows_cover c)).trans ?_
  refine (pointsTo_biUnion (ℓ := (c : Thread nD τ).loc cc0_scratch1) (q := fullShare) (f := f) Finset.univ
    (fun s : Fin 8 => (rowM s).view.set) (fun s _ t _ hst => rows_disjoint s t hst)).trans ?_
  exact bigSep_eight _

/-- (3) A row at the full share is its two halves. -/
theorem row_halves (c : Dev nD) (s : Fin 8) (f : Buf (Elt F) ((rowM s).view.loc (c : Thread nD τ))) :
    (((rowM s).view.loc (c : Thread nD τ) ↦[(rowM s).view.set]{fullShare} f : sProp 𝕄))
      = iprop(((rowM s).view.loc (c : Thread nD τ) ↦[(rowM s).view.set]{fullShare.left} f) ∗ ((rowM s).view.loc (c : Thread nD τ) ↦[(rowM s).view.set]{fullShare.right} f)) :=
  pts_halves _ fullShare f

/-- (2) Row 0 at the full share is row 0 at its eight shares. -/
theorem row0_shares (c : Dev nD) (f : Buf (Elt F) ((rowM 0).view.loc (c : Thread nD τ))) :
    (((rowM 0).view.loc (c : Thread nD τ) ↦[(rowM 0).view.set]{fullShare} f : sProp 𝕄))
      = iprop(((rowM 0).view.loc (c : Thread nD τ) ↦[(rowM 0).view.set]{rowShare 0} f) ∗ ((rowM 0).view.loc (c : Thread nD τ) ↦[(rowM 0).view.set]{rowShare 1} f)
          ∗ ((rowM 0).view.loc (c : Thread nD τ) ↦[(rowM 0).view.set]{rowShare 2} f) ∗ ((rowM 0).view.loc (c : Thread nD τ) ↦[(rowM 0).view.set]{rowShare 3} f)
          ∗ ((rowM 0).view.loc (c : Thread nD τ) ↦[(rowM 0).view.set]{rowShare 4} f) ∗ ((rowM 0).view.loc (c : Thread nD τ) ↦[(rowM 0).view.set]{rowShare 5} f)
          ∗ ((rowM 0).view.loc (c : Thread nD τ) ↦[(rowM 0).view.set]{rowShare 6} f) ∗ ((rowM 0).view.loc (c : Thread nD τ) ↦[(rowM 0).view.set]{rowShare 7} f)) := by
  have e0 : rowShare 0 = fullShare.left := rfl
  have e1 : rowShare 1 = fullShare.right.left.left.left := rfl
  have e2 : rowShare 2 = fullShare.right.left.left.right := rfl
  have e3 : rowShare 3 = fullShare.right.left.right.left := rfl
  have e4 : rowShare 4 = fullShare.right.left.right.right := rfl
  have e5 : rowShare 5 = fullShare.right.right.left.left := rfl
  have e6 : rowShare 6 = fullShare.right.right.left.right := rfl
  have e7 : rowShare 7 = fullShare.right.right.right := rfl
  rw [e0, e1, e2, e3, e4, e5, e6, e7]
  rw [pts_halves _ fullShare f, pts_halves _ fullShare.right f, pts_halves _ fullShare.right.left f, pts_halves _ fullShare.right.right f,
    pts_halves _ fullShare.right.left.left f, pts_halves _ fullShare.right.left.right f, pts_halves _ fullShare.right.right.left f]
  simp only [sep_assoc_eq]

/-! ## The body's loads and its store stay inside the rows they name -/

/-- Through the whole buffer an index set is itself. -/
theorem setOn_gM (M : Finset S8x2x1024.Idx) : (gM : Memref sig .tc .vmem S8x2x1024 .f32).view.setOn M = M := Finset.map_refl

theorem far_sub_M : (gM : Memref sig .tc .vmem S8x2x1024 .f32).view.setOn rFarM.toLoadRect.set ⊆ (rowM 7).view.set := by
  intro i hi
  rw [setOn_gM, Rect.mem_set_unit] at hi
  refine (mem_row_iff 7 i).mpr ?_
  have h0 : 7 ≤ (i 0).val ∧ (i 0).val < 7 + 1 := hi 0
  show (i 0).val = 7
  omega

theorem far_sub_S : (gM : Memref sig .tc .vmem S8x2x1024 .f32).view.setOn rFarS.toLoadRect.set ⊆ (rowM 7).view.set := by
  intro i hi
  rw [setOn_gM, Rect.mem_set_unit] at hi
  refine (mem_row_iff 7 i).mpr ?_
  have h0 : 7 ≤ (i 0).val ∧ (i 0).val < 7 + 1 := hi 0
  show (i 0).val = 7
  omega

theorem row0_sub_load : (gM : Memref sig .tc .vmem S8x2x1024 .f32).view.setOn (r0.toLoadRect).set ⊆ (rowM 0).view.set := by
  intro i hi
  rw [setOn_gM, Rect.mem_set_unit] at hi
  refine (mem_row_iff 0 i).mpr ?_
  have h0 : 0 ≤ (i 0).val ∧ (i 0).val < 0 + 1 := hi 0
  show (i 0).val = 0
  omega

theorem row0_sub_store : ((gM : Memref sig .tc .vmem S8x2x1024 .f32).access r0).setOn Finset.univ ⊆ (rowM 0).view.set := by
  intro i hi
  rw [View.setOn_univ, View.set_slice_whole, Rect.mem_set_unit] at hi
  refine (mem_row_iff 0 i).mpr ?_
  have h0 : 0 ≤ (i 0).val ∧ (i 0).val < 0 + 1 := hi 0
  show (i 0).val = 0
  omega

/-! ## Rows 0 … 6 as one region -/

/-- (4) The elements of rows 0 … 6. -/
def nearSet (c : Dev nD) : Finset (Idx ((gM : Memref sig .tc .vmem S8x2x1024 .f32).view.loc (c : Thread nD τ))) :=
  (rowM 0).view.set ∪ (rowM 1).view.set ∪ (rowM 2).view.set ∪ (rowM 3).view.set ∪ (rowM 4).view.set ∪ (rowM 5).view.set ∪ (rowM 6).view.set

theorem near_join (c : Dev nD) (f : Buf (Elt F) ((gM : Memref sig .tc .vmem S8x2x1024 .f32).view.loc (c : Thread nD τ))) :
    (iprop(((rowM 0).view.loc (c : Thread nD τ) ↦[(rowM 0).view.set]{fullShare.left} f) ∗ ((rowM 1).view.loc (c : Thread nD τ) ↦[(rowM 1).view.set]{fullShare.left} f)
          ∗ ((rowM 2).view.loc (c : Thread nD τ) ↦[(rowM 2).view.set]{fullShare.left} f) ∗ ((rowM 3).view.loc (c : Thread nD τ) ↦[(rowM 3).view.set]{fullShare.left} f)
          ∗ ((rowM 4).view.loc (c : Thread nD τ) ↦[(rowM 4).view.set]{fullShare.left} f) ∗ ((rowM 5).view.loc (c : Thread nD τ) ↦[(rowM 5).view.set]{fullShare.left} f)
          ∗ ((rowM 6).view.loc (c : Thread nD τ) ↦[(rowM 6).view.set]{fullShare.left} f)) : sProp 𝕄)
      = ((gM : Memref sig .tc .vmem S8x2x1024 .f32).view.loc (c : Thread nD τ) ↦[nearSet c]{fullShare.left} f) :=
  (pts_union7 (ℓ := (gM : Memref sig .tc .vmem S8x2x1024 .f32).view.loc (c : Thread nD τ)) (fun s : Fin 8 => (rowM s).view.set)
    rows_disjoint fullShare.left f).symm

/-- An element whose first coordinate is below 7 lies in rows 0 … 6. -/
theorem mem_nearSet (c : Dev nD) (i : S8x2x1024.Idx) (h : (i 0).val < 7) : i ∈ nearSet c := by
  unfold nearSet
  simp only [Finset.mem_union]
  have h7 : (i 0).val = 0 ∨ (i 0).val = 1 ∨ (i 0).val = 2 ∨ (i 0).val = 3 ∨ (i 0).val = 4 ∨ (i 0).val = 5 ∨ (i 0).val = 6 := by omega
  rcases h7 with h | h | h | h | h | h | h
  · exact Or.inl (Or.inl (Or.inl (Or.inl (Or.inl (Or.inl ((mem_row_iff 0 i).mpr h))))))
  · exact Or.inl (Or.inl (Or.inl (Or.inl (Or.inl (Or.inr ((mem_row_iff 1 i).mpr h))))))
  · exact Or.inl (Or.inl (Or.inl (Or.inl (Or.inr ((mem_row_iff 2 i).mpr h)))))
  · exact Or.inl (Or.inl (Or.inl (Or.inr ((mem_row_iff 3 i).mpr h))))
  · exact Or.inl (Or.inl (Or.inr ((mem_row_iff 4 i).mpr h)))
  · exact Or.inl (Or.inr ((mem_row_iff 5 i).mpr h))
  · exact Or.inr ((mem_row_iff 6 i).mpr h)

theorem near_sub_M (c : Dev nD) : (gM : Memref sig .tc .vmem S8x2x1024 .f32).view.setOn rNearM.toLoadRect.set ⊆ nearSet c := by
  intro i hi
  rw [setOn_gM, Rect.mem_set_unit] at hi
  have h0 : 0 ≤ (i 0).val ∧ (i 0).val < 0 + 7 := hi 0
  exact mem_nearSet c i (by omega)

theorem near_sub_S (c : Dev nD) : (gM : Memref sig .tc .vmem S8x2x1024 .f32).view.setOn rNearS.toLoadRect.set ⊆ nearSet c := by
  intro i hi
  rw [setOn_gM, Rect.mem_set_unit] at hi
  have h0 : 0 ≤ (i 0).val ∧ (i 0).val < 0 + 7 := hi 0
  exact mem_nearSet c i (by omega)

end Rows

end Cert.Kernel.Proto

end

/-- info: 'Cert.Kernel.Proto.hpay_send' depends on axioms: [propext, Classical.choice, Quot.sound] -/
#guard_msgs in #print axioms Cert.Kernel.Proto.hpay_send
/-- info: 'Cert.Kernel.Proto.hpay_recv' depends on axioms: [propext, Classical.choice, Quot.sound] -/
#guard_msgs in #print axioms Cert.Kernel.Proto.hpay_recv
/-- info: 'Cert.Kernel.Proto.row0_written' depends on axioms: [propext, Classical.choice, Quot.sound] -/
#guard_msgs in #print axioms Cert.Kernel.Proto.row0_written
/-- info: 'Cert.Kernel.Proto.rows_split' depends on axioms: [propext, Classical.choice, Quot.sound] -/
#guard_msgs in #print axioms Cert.Kernel.Proto.rows_split
/-- info: 'Cert.Kernel.Proto.row0_shares' depends on axioms: [propext, Classical.choice, Quot.sound] -/
#guard_msgs in #print axioms Cert.Kernel.Proto.row0_shares
/-- info: 'Cert.Kernel.Proto.near_join' depends on axioms: [propext, Classical.choice, Quot.sound] -/
#guard_msgs in #print axioms Cert.Kernel.Proto.near_join
/-- info: 'Cert.Kernel.Proto.near_sub_M' depends on axioms: [propext, Classical.choice, Quot.sound] -/
#guard_msgs in #print axioms Cert.Kernel.Proto.near_sub_M
/-- info: 'Cert.Kernel.Proto.row0_sub_store' depends on axioms: [propext, Classical.choice, Quot.sound] -/
#guard_msgs in #print axioms Cert.Kernel.Proto.row0_sub_store
-- ==== Proof.KBodyCore.lean ====
/-
  One device's body, run once at a symbolic device.

  The body signals the seven peers' entry cells, handing each peer the row of its own gather buffer that the peer will
  fill; reduces its block to row maxima and row sums and keeps them in row 0; waits for its own seven entry units,
  which bring it one row on each peer; copies row 0 into those seven rows, lending each copy one share of row 0;
  keeps the shifted exponentials; waits for six arrivals and merges rows 0 … 6, waits for the seventh and merges
  row 7; scales the exponentials and writes the result; and waits for its seven departures, which return the shares.

  The gather buffer is cut into its eight rows at the start and row 0 into its eight shares before the copies; at the
  end every piece holds the same final contents, so the shares, the halves and the rows join back into the whole
  buffer. The fourteen cells of the seven rows end with nothing left to happen and are closed.
-/
import proofs.«900601_g7700000000000602_dist_softmax_colshard_i_m1024_n512_v7x_i8_bf16_1_alg».proof.Proof.KRows
import proofs.«900601_g7700000000000602_dist_softmax_colshard_i_m1024_n512_v7x_i8_bf16_1_alg».proof.Proof.Gen.Kernel.Skeleton
noncomputable section
namespace Cert.Kernel.Proto
open Cert.Kernel Cert.Kernel.Gen Cert.Kernel.Mesh Cert.Kernel.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ) (ρ : Dev nD → PrngReg) (c : Dev nD)

/-! ## The schedule's tables at the literal keys and rows -/

theorem duties_bar' : (ringRd (F := F) m ρ).duties (barCell c) 0 = seven := duties_bar m ρ c
theorem expect_bar' : (ringRd (F := F) m ρ).expect (barCell c) 0 = 7 := expect_bar m ρ c
theorem duties_send_1 : (ringRd (F := F) m ρ).duties (sendCell c 1) 0 = {0} := duties_send m ρ c 1 (by decide)
theorem duties_send_2 : (ringRd (F := F) m ρ).duties (sendCell c 2) 0 = {0} := duties_send m ρ c 2 (by decide)
theorem duties_send_3 : (ringRd (F := F) m ρ).duties (sendCell c 3) 0 = {0} := duties_send m ρ c 3 (by decide)
theorem duties_send_4 : (ringRd (F := F) m ρ).duties (sendCell c 4) 0 = {0} := duties_send m ρ c 4 (by decide)
theorem duties_send_5 : (ringRd (F := F) m ρ).duties (sendCell c 5) 0 = {0} := duties_send m ρ c 5 (by decide)
theorem duties_send_6 : (ringRd (F := F) m ρ).duties (sendCell c 6) 0 = {0} := duties_send m ρ c 6 (by decide)
theorem duties_send_7 : (ringRd (F := F) m ρ).duties (sendCell c 7) 0 = {0} := duties_send m ρ c 7 (by decide)
theorem duties_recv_1 : (ringRd (F := F) m ρ).duties (recvCell c 1) 0 = {0} := duties_recv m ρ c 1 (by decide)
theorem duties_recv_2 : (ringRd (F := F) m ρ).duties (recvCell c 2) 0 = {0} := duties_recv m ρ c 2 (by decide)
theorem duties_recv_3 : (ringRd (F := F) m ρ).duties (recvCell c 3) 0 = {0} := duties_recv m ρ c 3 (by decide)
theorem duties_recv_4 : (ringRd (F := F) m ρ).duties (recvCell c 4) 0 = {0} := duties_recv m ρ c 4 (by decide)
theorem duties_recv_5 : (ringRd (F := F) m ρ).duties (recvCell c 5) 0 = {0} := duties_recv m ρ c 5 (by decide)
theorem duties_recv_6 : (ringRd (F := F) m ρ).duties (recvCell c 6) 0 = {0} := duties_recv m ρ c 6 (by decide)
theorem duties_recv_7 : (ringRd (F := F) m ρ).duties (recvCell c 7) 0 = {0} := duties_recv m ρ c 7 (by decide)
theorem expect_send_1 : (ringRd (F := F) m ρ).expect (sendCell c 1) 0 = N := expect_send m ρ c 1 (by decide)
theorem expect_send_2 : (ringRd (F := F) m ρ).expect (sendCell c 2) 0 = N := expect_send m ρ c 2 (by decide)
theorem expect_send_3 : (ringRd (F := F) m ρ).expect (sendCell c 3) 0 = N := expect_send m ρ c 3 (by decide)
theorem expect_send_4 : (ringRd (F := F) m ρ).expect (sendCell c 4) 0 = N := expect_send m ρ c 4 (by decide)
theorem expect_send_5 : (ringRd (F := F) m ρ).expect (sendCell c 5) 0 = N := expect_send m ρ c 5 (by decide)
theorem expect_send_6 : (ringRd (F := F) m ρ).expect (sendCell c 6) 0 = N := expect_send m ρ c 6 (by decide)
theorem expect_send_7 : (ringRd (F := F) m ρ).expect (sendCell c 7) 0 = N := expect_send m ρ c 7 (by decide)
theorem expect_recv_1 : (ringRd (F := F) m ρ).expect (recvCell c 1) 0 = N := expect_recv m ρ c 1 (by decide)
theorem expect_recv_2 : (ringRd (F := F) m ρ).expect (recvCell c 2) 0 = N := expect_recv m ρ c 2 (by decide)
theorem expect_recv_3 : (ringRd (F := F) m ρ).expect (recvCell c 3) 0 = N := expect_recv m ρ c 3 (by decide)
theorem expect_recv_4 : (ringRd (F := F) m ρ).expect (recvCell c 4) 0 = N := expect_recv m ρ c 4 (by decide)
theorem expect_recv_5 : (ringRd (F := F) m ρ).expect (recvCell c 5) 0 = N := expect_recv m ρ c 5 (by decide)
theorem expect_recv_6 : (ringRd (F := F) m ρ).expect (recvCell c 6) 0 = N := expect_recv m ρ c 6 (by decide)
theorem expect_recv_7 : (ringRd (F := F) m ρ).expect (recvCell c 7) 0 = N := expect_recv m ρ c 7 (by decide)
theorem duties_recvp_1 : (ringRd (F := F) m ρ).duties (recvCell (peer c 1) 1) 0 = {0} := duties_recv m ρ (peer c 1) 1 (by decide)
theorem duties_recvp_2 : (ringRd (F := F) m ρ).duties (recvCell (peer c 3) 2) 0 = {0} := duties_recv m ρ (peer c 3) 2 (by decide)
theorem duties_recvp_3 : (ringRd (F := F) m ρ).duties (recvCell (peer c 4) 3) 0 = {0} := duties_recv m ρ (peer c 4) 3 (by decide)
theorem duties_recvp_4 : (ringRd (F := F) m ρ).duties (recvCell (peer c 2) 4) 0 = {0} := duties_recv m ρ (peer c 2) 4 (by decide)
theorem duties_recvp_5 : (ringRd (F := F) m ρ).duties (recvCell (peer c 5) 5) 0 = {0} := duties_recv m ρ (peer c 5) 5 (by decide)
theorem duties_recvp_6 : (ringRd (F := F) m ρ).duties (recvCell (peer c 7) 6) 0 = {0} := duties_recv m ρ (peer c 7) 6 (by decide)
theorem duties_recvp_7 : (ringRd (F := F) m ρ).duties (recvCell (peer c 6) 7) 0 = {0} := duties_recv m ρ (peer c 6) 7 (by decide)
theorem amount_bar' (d : Dev nD) (k : Fin 8) : (ringRd (F := F) m ρ).amount (barCell d) 0 k = 1 := amount_bar m ρ d k
theorem amount_send' (d : Dev nD) (s k : Fin 8) : (ringRd (F := F) m ρ).amount (sendCell d s) 0 k = N := amount_send m ρ d s k
theorem amount_recv' (d : Dev nD) (s k : Fin 8) : (ringRd (F := F) m ρ).amount (recvCell d s) 0 k = N := amount_recv m ρ d s k
theorem duties_barp (k : Fin 8) : (ringRd (F := F) m ρ).duties (barCell (peer c k)) 0 = seven := duties_bar m ρ (peer c k)

theorem pay_bar_peer_1 : (ringRd (F := F) m ρ).payload (barCell (peer c 1)) 0 1
    = iprop((∃ f, (rowM 1).view.loc (c : Thread nD τ) ↦[(rowM 1).view.set]{fullShare} f) ∗ reached ER (recvCell c 1) 0) := by
  rw [payload_bar m ρ (peer c 1) 1]; unfold barPay rowPts; rw [peer_peer]; rfl
theorem pay_bar_peer_2 : (ringRd (F := F) m ρ).payload (barCell (peer c 2)) 0 2
    = iprop((∃ f, (rowM 4).view.loc (c : Thread nD τ) ↦[(rowM 4).view.set]{fullShare} f) ∗ reached ER (recvCell c 4) 0) := by
  rw [payload_bar m ρ (peer c 2) 2]; unfold barPay rowPts; rw [peer_peer]; rfl
theorem pay_bar_peer_3 : (ringRd (F := F) m ρ).payload (barCell (peer c 3)) 0 3
    = iprop((∃ f, (rowM 2).view.loc (c : Thread nD τ) ↦[(rowM 2).view.set]{fullShare} f) ∗ reached ER (recvCell c 2) 0) := by
  rw [payload_bar m ρ (peer c 3) 3]; unfold barPay rowPts; rw [peer_peer]; rfl
theorem pay_bar_peer_4 : (ringRd (F := F) m ρ).payload (barCell (peer c 4)) 0 4
    = iprop((∃ f, (rowM 3).view.loc (c : Thread nD τ) ↦[(rowM 3).view.set]{fullShare} f) ∗ reached ER (recvCell c 3) 0) := by
  rw [payload_bar m ρ (peer c 4) 4]; unfold barPay rowPts; rw [peer_peer]; rfl
theorem pay_bar_peer_5 : (ringRd (F := F) m ρ).payload (barCell (peer c 5)) 0 5
    = iprop((∃ f, (rowM 5).view.loc (c : Thread nD τ) ↦[(rowM 5).view.set]{fullShare} f) ∗ reached ER (recvCell c 5) 0) := by
  rw [payload_bar m ρ (peer c 5) 5]; unfold barPay rowPts; rw [peer_peer]; rfl
theorem pay_bar_peer_6 : (ringRd (F := F) m ρ).payload (barCell (peer c 6)) 0 6
    = iprop((∃ f, (rowM 7).view.loc (c : Thread nD τ) ↦[(rowM 7).view.set]{fullShare} f) ∗ reached ER (recvCell c 7) 0) := by
  rw [payload_bar m ρ (peer c 6) 6]; unfold barPay rowPts; rw [peer_peer]; rfl
theorem pay_bar_peer_7 : (ringRd (F := F) m ρ).payload (barCell (peer c 7)) 0 7
    = iprop((∃ f, (rowM 6).view.loc (c : Thread nD τ) ↦[(rowM 6).view.set]{fullShare} f) ∗ reached ER (recvCell c 6) 0) := by
  rw [payload_bar m ρ (peer c 7) 7]; unfold barPay rowPts; rw [peer_peer]; rfl
theorem pay_bar_own_1 : (ringRd (F := F) m ρ).payload (barCell c) 0 1
    = iprop((∃ f, (rowM 1).view.loc (peer c 1 : Thread nD τ) ↦[(rowM 1).view.set]{fullShare} f) ∗ reached ER (recvCell (peer c 1) 1) 0) := by
  rw [payload_bar m ρ c 1]; unfold barPay rowPts; rfl
theorem pay_bar_own_2 : (ringRd (F := F) m ρ).payload (barCell c) 0 2
    = iprop((∃ f, (rowM 4).view.loc (peer c 2 : Thread nD τ) ↦[(rowM 4).view.set]{fullShare} f) ∗ reached ER (recvCell (peer c 2) 4) 0) := by
  rw [payload_bar m ρ c 2]; unfold barPay rowPts; rfl
theorem pay_bar_own_3 : (ringRd (F := F) m ρ).payload (barCell c) 0 3
    = iprop((∃ f, (rowM 2).view.loc (peer c 3 : Thread nD τ) ↦[(rowM 2).view.set]{fullShare} f) ∗ reached ER (recvCell (peer c 3) 2) 0) := by
  rw [payload_bar m ρ c 3]; unfold barPay rowPts; rfl
theorem pay_bar_own_4 : (ringRd (F := F) m ρ).payload (barCell c) 0 4
    = iprop((∃ f, (rowM 3).view.loc (peer c 4 : Thread nD τ) ↦[(rowM 3).view.set]{fullShare} f) ∗ reached ER (recvCell (peer c 4) 3) 0) := by
  rw [payload_bar m ρ c 4]; unfold barPay rowPts; rfl
theorem pay_bar_own_5 : (ringRd (F := F) m ρ).payload (barCell c) 0 5
    = iprop((∃ f, (rowM 5).view.loc (peer c 5 : Thread nD τ) ↦[(rowM 5).view.set]{fullShare} f) ∗ reached ER (recvCell (peer c 5) 5) 0) := by
  rw [payload_bar m ρ c 5]; unfold barPay rowPts; rfl
theorem pay_bar_own_6 : (ringRd (F := F) m ρ).payload (barCell c) 0 6
    = iprop((∃ f, (rowM 7).view.loc (peer c 6 : Thread nD τ) ↦[(rowM 7).view.set]{fullShare} f) ∗ reached ER (recvCell (peer c 6) 7) 0) := by
  rw [payload_bar m ρ c 6]; unfold barPay rowPts; rfl
theorem pay_bar_own_7 : (ringRd (F := F) m ρ).payload (barCell c) 0 7
    = iprop((∃ f, (rowM 6).view.loc (peer c 7 : Thread nD τ) ↦[(rowM 6).view.set]{fullShare} f) ∗ reached ER (recvCell (peer c 7) 6) 0) := by
  rw [payload_bar m ρ c 7]; unfold barPay rowPts; rfl
theorem pay_recv_1 : (ringRd (F := F) m ρ).payload (recvCell c 1) 0 0
    = ((rowM 1).view.loc (c : Thread nD τ) ↦[(rowM 1).view.set]{fullShare} gat (X m ρ) c : sProp 𝕄) := by
  rw [payload_recv m ρ c 1 0]; rfl
theorem pay_recv_2 : (ringRd (F := F) m ρ).payload (recvCell c 2) 0 0
    = ((rowM 2).view.loc (c : Thread nD τ) ↦[(rowM 2).view.set]{fullShare} gat (X m ρ) c : sProp 𝕄) := by
  rw [payload_recv m ρ c 2 0]; rfl
theorem pay_recv_3 : (ringRd (F := F) m ρ).payload (recvCell c 3) 0 0
    = ((rowM 3).view.loc (c : Thread nD τ) ↦[(rowM 3).view.set]{fullShare} gat (X m ρ) c : sProp 𝕄) := by
  rw [payload_recv m ρ c 3 0]; rfl
theorem pay_recv_4 : (ringRd (F := F) m ρ).payload (recvCell c 4) 0 0
    = ((rowM 4).view.loc (c : Thread nD τ) ↦[(rowM 4).view.set]{fullShare} gat (X m ρ) c : sProp 𝕄) := by
  rw [payload_recv m ρ c 4 0]; rfl
theorem pay_recv_5 : (ringRd (F := F) m ρ).payload (recvCell c 5) 0 0
    = ((rowM 5).view.loc (c : Thread nD τ) ↦[(rowM 5).view.set]{fullShare} gat (X m ρ) c : sProp 𝕄) := by
  rw [payload_recv m ρ c 5 0]; rfl
theorem pay_recv_6 : (ringRd (F := F) m ρ).payload (recvCell c 6) 0 0
    = ((rowM 6).view.loc (c : Thread nD τ) ↦[(rowM 6).view.set]{fullShare} gat (X m ρ) c : sProp 𝕄) := by
  rw [payload_recv m ρ c 6 0]; rfl
theorem pay_recv_7 : (ringRd (F := F) m ρ).payload (recvCell c 7) 0 0
    = ((rowM 7).view.loc (c : Thread nD τ) ↦[(rowM 7).view.set]{fullShare} gat (X m ρ) c : sProp 𝕄) := by
  rw [payload_recv m ρ c 7 0]; rfl
theorem pay_send_1 : (ringRd (F := F) m ρ).payload (sendCell c 1) 0 0
    = ((rowM 0).view.loc (c : Thread nD τ) ↦[(rowM 0).view.set]{rowShare 1} gat (X m ρ) c : sProp 𝕄) := by
  rw [payload_send m ρ c 1 0]; rfl
theorem pay_send_2 : (ringRd (F := F) m ρ).payload (sendCell c 2) 0 0
    = ((rowM 0).view.loc (c : Thread nD τ) ↦[(rowM 0).view.set]{rowShare 2} gat (X m ρ) c : sProp 𝕄) := by
  rw [payload_send m ρ c 2 0]; rfl
theorem pay_send_3 : (ringRd (F := F) m ρ).payload (sendCell c 3) 0 0
    = ((rowM 0).view.loc (c : Thread nD τ) ↦[(rowM 0).view.set]{rowShare 3} gat (X m ρ) c : sProp 𝕄) := by
  rw [payload_send m ρ c 3 0]; rfl
theorem pay_send_4 : (ringRd (F := F) m ρ).payload (sendCell c 4) 0 0
    = ((rowM 0).view.loc (c : Thread nD τ) ↦[(rowM 0).view.set]{rowShare 4} gat (X m ρ) c : sProp 𝕄) := by
  rw [payload_send m ρ c 4 0]; rfl
theorem pay_send_5 : (ringRd (F := F) m ρ).payload (sendCell c 5) 0 0
    = ((rowM 0).view.loc (c : Thread nD τ) ↦[(rowM 0).view.set]{rowShare 5} gat (X m ρ) c : sProp 𝕄) := by
  rw [payload_send m ρ c 5 0]; rfl
theorem pay_send_6 : (ringRd (F := F) m ρ).payload (sendCell c 6) 0 0
    = ((rowM 0).view.loc (c : Thread nD τ) ↦[(rowM 0).view.set]{rowShare 6} gat (X m ρ) c : sProp 𝕄) := by
  rw [payload_send m ρ c 6 0]; rfl
theorem pay_send_7 : (ringRd (F := F) m ρ).payload (sendCell c 7) 0 0
    = ((rowM 0).view.loc (c : Thread nD τ) ↦[(rowM 0).view.set]{rowShare 7} gat (X m ρ) c : sProp 𝕄) := by
  rw [payload_send m ρ c 7 0]; rfl

/-- The copies' device chains with the key written out. -/
theorem dev8_eq' : (⟨k0_dev8 c, k0_dev8_lt c⟩ : Dev nD) = peer c 1 := dev8_eq c
theorem dev9_eq' : (⟨k0_dev9 c, k0_dev9_lt c⟩ : Dev nD) = peer c 3 := dev9_eq c
theorem dev10_eq' : (⟨k0_dev10 c, k0_dev10_lt c⟩ : Dev nD) = peer c 4 := dev10_eq c
theorem dev11_eq' : (⟨k0_dev11 c, k0_dev11_lt c⟩ : Dev nD) = peer c 2 := dev11_eq c
theorem dev12_eq' : (⟨k0_dev12 c, k0_dev12_lt c⟩ : Dev nD) = peer c 5 := dev12_eq c
theorem dev13_eq' : (⟨k0_dev13 c, k0_dev13_lt c⟩ : Dev nD) = peer c 7 := dev13_eq c
theorem dev14_eq' : (⟨k0_dev14 c, k0_dev14_lt c⟩ : Dev nD) = peer c 6 := dev14_eq c

attribute [local sl_rounds] duties_bar' expect_bar' duties_barp amount_bar' amount_send' amount_recv'
  duties_send_1 duties_recv_1 expect_send_1 expect_recv_1 duties_recvp_1 pay_bar_own_1 pay_recv_1 pay_send_1 duties_send_2 duties_recv_2 expect_send_2 expect_recv_2 duties_recvp_2 pay_bar_own_2 pay_recv_2 pay_send_2 duties_send_3 duties_recv_3 expect_send_3 expect_recv_3 duties_recvp_3 pay_bar_own_3 pay_recv_3 pay_send_3 duties_send_4 duties_recv_4 expect_send_4 expect_recv_4 duties_recvp_4 pay_bar_own_4 pay_recv_4 pay_send_4 duties_send_5 duties_recv_5 expect_send_5 expect_recv_5 duties_recvp_5 pay_bar_own_5 pay_recv_5 pay_send_5 duties_send_6 duties_recv_6 expect_send_6 expect_recv_6 duties_recvp_6 pay_bar_own_6 pay_recv_6 pay_send_6 duties_send_7 duties_recv_7 expect_send_7 expect_recv_7 duties_recvp_7 pay_bar_own_7 pay_recv_7 pay_send_7
attribute [local sl_rounds high] pay_bar_peer_1 pay_bar_peer_2 pay_bar_peer_3 pay_bar_peer_4 pay_bar_peer_5 pay_bar_peer_6 pay_bar_peer_7
attribute [local sl_canon] dev1_eq dev2_eq dev3_eq dev4_eq dev5_eq dev6_eq dev7_eq dev8_eq' dev9_eq' dev10_eq' dev11_eq' dev12_eq' dev13_eq' dev14_eq'
attribute [local irreducible] Cert.Kernel.Mesh.peer

/-! ## One copy: row 0, lent at the share of row `s`, into row `s` of the peer of key `keyOf s` -/

theorem wp_send_row (K : GSem nD τ sig → ℕ) (s : Fin 8) (hs : s ≠ 0) (n : Dev nD) (hn : n = peer c (keyOf s))
    {hsc : (rowM s : Memref sig (Dev.tc n : Thread nD τ).2.kind .vmem S2x1024 .f32).view.ref.isScScratch = false}
    {hsrc : (rowM 0 : Memref sig .tc .vmem S2x1024 .f32).view.WordExact} {hdst : (rowM s : Memref sig .tc .vmem S2x1024 .f32).view.WordExact}
    {hsem : DmaTarget.Typed .vmem (.dma (recvSem s)) (.remote (Dev.tc n : Thread nD τ) (rowM s : Memref sig .tc .vmem S2x1024 .f32) (.dma (sendSem s)) hsc)}
    {α : Type} {Q : α → sProp 𝕄} {k : PUnit → Prog (TpuEff nD τ sig (Elt F) Λ₀ .tc) α}
    (fs : Buf (Elt F) ((rowM 0).view.loc (c : Thread nD τ))) (hfs : ∀ j ∈ (rowM 0).view.set, fs j = gat (X m ρ) c j)
    (fd : Buf (Elt F) ((rowM s).view.loc (peer c (keyOf s) : Thread nD τ)))
    (O₀' O : CellTallies nD τ sig Unit) (hO : O₀' = O + tallyAt (recvCell (peer c (keyOf s)) s) () N) (W : Waits sig Unit)
    (hN : (rowM s).view.amount (.dma (recvSem s)) = N) :
    iprop(cellInv ER (ringRd m ρ) (K (sendCell c s)) (sendCell c s) ∗ cellInv ER (ringRd m ρ) (K (recvCell (peer c (keyOf s)) s)) (recvCell (peer c (keyOf s)) s)
        ∗ ((rowM 0).view.loc (c : Thread nD τ) ↦[(rowM 0).view.set]{rowShare s} fs)
        ∗ ((rowM s).view.loc (peer c (keyOf s) : Thread nD τ) ↦[(rowM s).view.set]{fullShare} fd)
        ∗ owes (c : Thread nD τ) O₀' W
        ∗ dutyTok ER (sendCell c s) 0 0 ∗ reached ER (sendCell c s) 0
        ∗ dutyTok ER (recvCell (peer c (keyOf s)) s) 0 0 ∗ reached ER (recvCell (peer c (keyOf s)) s) 0)
      ⊢ iprop(((cred (tallyAt (sendCell c s) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0) (.remote (Dev.tc n : Thread nD τ) (rowM s) (.dma (sendSem s)) hsc) (.dma (recvSem s)) hsrc hdst hsem) k) Q) := by
  subst hn
  exact Rounds.wp_send_pointsTo 𝒱₀ ER (ringRd m ρ) (c : Thread nD τ) none (κ₁ := K (sendCell c s)) (κ₂ := K (recvCell (peer c (keyOf s)) s))
    (r₁ := 0) (r₂ := 0) (d₁ := 0) (d₂ := 0) (fd := fd)
    (by rw [duties_send m ρ c s hs]; exact Finset.mem_singleton_self _) (by rw [duties_recv m ρ _ s hs]; exact Finset.mem_singleton_self _)
    () () N hN (amount_send m ρ c s 0) (amount_recv m ρ _ s 0) O hO (W := W)
    (hpay_send m ρ c s fs hfs) (hpay_recv m ρ c s hs fd fs hfs)

/-- What the entry wait returns: each peer's row for this device's copy, and the mark that comes with it. -/
theorem bar_payloads : (bigSep seven fun d => (ringRd (F := F) m ρ).payload (barCell c) 0 d)
    = iprop(((∃ f, (rowM 1).view.loc (peer c 1 : Thread nD τ) ↦[(rowM 1).view.set]{fullShare} f) ∗ reached ER (recvCell (peer c 1) 1) 0)
        ∗ ((∃ f, (rowM 4).view.loc (peer c 2 : Thread nD τ) ↦[(rowM 4).view.set]{fullShare} f) ∗ reached ER (recvCell (peer c 2) 4) 0)
        ∗ ((∃ f, (rowM 2).view.loc (peer c 3 : Thread nD τ) ↦[(rowM 2).view.set]{fullShare} f) ∗ reached ER (recvCell (peer c 3) 2) 0)
        ∗ ((∃ f, (rowM 3).view.loc (peer c 4 : Thread nD τ) ↦[(rowM 3).view.set]{fullShare} f) ∗ reached ER (recvCell (peer c 4) 3) 0)
        ∗ ((∃ f, (rowM 5).view.loc (peer c 5 : Thread nD τ) ↦[(rowM 5).view.set]{fullShare} f) ∗ reached ER (recvCell (peer c 5) 5) 0)
        ∗ ((∃ f, (rowM 7).view.loc (peer c 6 : Thread nD τ) ↦[(rowM 7).view.set]{fullShare} f) ∗ reached ER (recvCell (peer c 6) 7) 0)
        ∗ ((∃ f, (rowM 6).view.loc (peer c 7 : Thread nD τ) ↦[(rowM 6).view.set]{fullShare} f) ∗ reached ER (recvCell (peer c 7) 6) 0)) := by
  rw [bigSep_seven, pay_bar_own_1 m ρ c, pay_bar_own_2 m ρ c, pay_bar_own_3 m ρ c, pay_bar_own_4 m ρ c, pay_bar_own_5 m ρ c, pay_bar_own_6 m ρ c, pay_bar_own_7 m ρ c]

/-- A load of the whole input staging buffer reads its contents. -/
theorem read_x (f : (cc0_stg0_0 : Ref sig .tc).ty.Contents (Elt F)) :
    View.readAt (Elt F) (Memref.whole cc0_stg0_0 : Memref sig .tc .vmem S1024x512 .f32).view
      (Rect.unit (s := S1024x512) ![0, 0] S1024x512.size inb_S1024x512_S1024x512_0_0).toLoadRect f = f :=
  Memref.readAt_unit_zero (Elt F) cc0_stg0_0 (funext fun a => by fin_cases a <;> rfl) _ f

/-- Returning a value and going on is going on with the value. -/
theorem ret_bind {E : Type → Type} {α β : Type} (a : α) (k : α → Prog E β) : (Prog.ret a).bind k = k a := rfl

/-- A whole buffer held through its memref's view is the buffer held. -/
theorem whole_x (f : (cc0_stg0_0 : Ref sig .tc).ty.Contents (Elt F)) :
    (((Memref.whole cc0_stg0_0 : Memref sig .tc .vmem _ _).view.loc (c : Thread nD τ) ↦[(Memref.whole cc0_stg0_0 : Memref sig .tc .vmem _ _).view.set]{fullShare} f : sProp 𝕄))
      = (((c : Thread nD τ).loc cc0_stg0_0) ↦{fullShare} f) := by rw [View.set_whole]
theorem whole_o (f : (cc0_stg1_0 : Ref sig .tc).ty.Contents (Elt F)) :
    (((Memref.whole cc0_stg1_0 : Memref sig .tc .vmem _ _).view.loc (c : Thread nD τ) ↦[(Memref.whole cc0_stg1_0 : Memref sig .tc .vmem _ _).view.set]{fullShare} f : sProp 𝕄))
      = (((c : Thread nD τ).loc cc0_stg1_0) ↦{fullShare} f) := by rw [View.set_whole]
theorem whole_e (f : (cc0_scratch0 : Ref sig .tc).ty.Contents (Elt F)) :
    (((Memref.whole cc0_scratch0 : Memref sig .tc .vmem _ _).view.loc (c : Thread nD τ) ↦[(Memref.whole cc0_scratch0 : Memref sig .tc .vmem _ _).view.set]{fullShare} f : sProp 𝕄))
      = (((c : Thread nD τ).loc cc0_scratch0) ↦{fullShare} f) := by rw [View.set_whole]
theorem hz2 : (![0, 0] : Fin 2 → Nat) = fun _ => 0 := funext fun a => by fin_cases a <;> rfl
/-- One store over the whole output staging buffer leaves the stored block. -/
theorem out_written (o0 w : (cc0_stg1_0 : Ref sig .tc).ty.Contents (Elt F)) :
    (Memref.whole cc0_stg1_0 : Memref sig .tc .vmem S1024x512 .bf16).view.writes (Elt F) o0
      [⟨Rect.unit (s := S1024x512) ![0, 0] S1024x512.size inb_S1024x512_S1024x512_0_0, w⟩] = w := by
  show (((Memref.whole cc0_stg1_0 : Memref sig .tc .vmem S1024x512 .bf16).access (Rect.unit (s := S1024x512) ![0, 0] S1024x512.size inb_S1024x512_S1024x512_0_0) : View sig .tc _ _ _)).write (Elt F) o0 w Finset.univ = w
  exact Memref.write_access_unit_zero_univ (Elt F) cc0_stg1_0 hz2 _ o0 w

/-- What the body leaves: both scratch buffers at some contents, the fourteen cells it closed back as plain counters at
    zero, nothing owed, the input block in place and the result block in the output's staging buffer. -/
def corePost : sProp 𝕄 :=
  iprop((∃ f, ((c : Thread nD τ).loc cc0_scratch0) ↦{fullShare} f) ∗ (∃ f, ((c : Thread nD τ).loc cc0_scratch1) ↦{fullShare} f)
    ∗ (semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0)
    ∗ (semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0)
    ∗ (∃ W' : Waits sig Unit, owes (c : Thread nD τ) 0 W')
    ∗ (((c : Thread nD τ).loc cc0_stg0_0) ↦{fullShare} X m ρ c) ∗ (((c : Thread nD τ).loc cc0_stg1_0) ↦{fullShare} outOf (X m ρ) c))

set_option maxHeartbeats 8000000 in
theorem sound_core (K : GSem nD τ sig → ℕ) (W : Waits sig Unit) (Kt : PUnit → sProp 𝕄)
    (o0 : (cc0_stg1_0 : Ref sig .tc).ty.Contents (Elt F))
    (e0 : (cc0_scratch0 : Ref sig .tc).ty.Contents (Elt F)) (g0 : (cc0_scratch1 : Ref sig .tc).ty.Contents (Elt F)) :
    iprop(iprop(
        -- the invariants
        (cellInv ER (ringRd m ρ) (K (barCell c)) (barCell c)
          ∗ (cellInv ER (ringRd m ρ) (K (sendCell c 1)) (sendCell c 1) ∗ cellInv ER (ringRd m ρ) (K (sendCell c 2)) (sendCell c 2) ∗ cellInv ER (ringRd m ρ) (K (sendCell c 3)) (sendCell c 3) ∗ cellInv ER (ringRd m ρ) (K (sendCell c 4)) (sendCell c 4) ∗ cellInv ER (ringRd m ρ) (K (sendCell c 5)) (sendCell c 5) ∗ cellInv ER (ringRd m ρ) (K (sendCell c 6)) (sendCell c 6) ∗ cellInv ER (ringRd m ρ) (K (sendCell c 7)) (sendCell c 7))
          ∗ (cellInv ER (ringRd m ρ) (K (recvCell c 1)) (recvCell c 1) ∗ cellInv ER (ringRd m ρ) (K (recvCell c 2)) (recvCell c 2) ∗ cellInv ER (ringRd m ρ) (K (recvCell c 3)) (recvCell c 3) ∗ cellInv ER (ringRd m ρ) (K (recvCell c 4)) (recvCell c 4) ∗ cellInv ER (ringRd m ρ) (K (recvCell c 5)) (recvCell c 5) ∗ cellInv ER (ringRd m ρ) (K (recvCell c 6)) (recvCell c 6) ∗ cellInv ER (ringRd m ρ) (K (recvCell c 7)) (recvCell c 7))
          ∗ (cellInv ER (ringRd m ρ) (K (barCell (peer c 1))) (barCell (peer c 1)) ∗ cellInv ER (ringRd m ρ) (K (barCell (peer c 2))) (barCell (peer c 2)) ∗ cellInv ER (ringRd m ρ) (K (barCell (peer c 3))) (barCell (peer c 3)) ∗ cellInv ER (ringRd m ρ) (K (barCell (peer c 4))) (barCell (peer c 4)) ∗ cellInv ER (ringRd m ρ) (K (barCell (peer c 5))) (barCell (peer c 5)) ∗ cellInv ER (ringRd m ρ) (K (barCell (peer c 6))) (barCell (peer c 6)) ∗ cellInv ER (ringRd m ρ) (K (barCell (peer c 7))) (barCell (peer c 7)))
          ∗ (cellInv ER (ringRd m ρ) (K (recvCell (peer c 1) 1)) (recvCell (peer c 1) 1) ∗ cellInv ER (ringRd m ρ) (K (recvCell (peer c 3) 2)) (recvCell (peer c 3) 2) ∗ cellInv ER (ringRd m ρ) (K (recvCell (peer c 4) 3)) (recvCell (peer c 4) 3) ∗ cellInv ER (ringRd m ρ) (K (recvCell (peer c 2) 4)) (recvCell (peer c 2) 4) ∗ cellInv ER (ringRd m ρ) (K (recvCell (peer c 5) 5)) (recvCell (peer c 5) 5) ∗ cellInv ER (ringRd m ρ) (K (recvCell (peer c 7) 6)) (recvCell (peer c 7) 6) ∗ cellInv ER (ringRd m ρ) (K (recvCell (peer c 6) 7)) (recvCell (peer c 6) 7)))
        -- the rounds reached
        ∗ ((reached ER (barCell (peer c 1)) 0 ∗ reached ER (barCell (peer c 2)) 0 ∗ reached ER (barCell (peer c 3)) 0 ∗ reached ER (barCell (peer c 4)) 0 ∗ reached ER (barCell (peer c 5)) 0 ∗ reached ER (barCell (peer c 6)) 0 ∗ reached ER (barCell (peer c 7)) 0)
          ∗ (reached ER (recvCell (peer c 1) 1) 0 ∗ reached ER (recvCell (peer c 3) 2) 0 ∗ reached ER (recvCell (peer c 4) 3) 0 ∗ reached ER (recvCell (peer c 2) 4) 0 ∗ reached ER (recvCell (peer c 5) 5) 0 ∗ reached ER (recvCell (peer c 7) 6) 0 ∗ reached ER (recvCell (peer c 6) 7) 0)
          ∗ (reached ER (sendCell c 1) 0 ∗ reached ER (sendCell c 2) 0 ∗ reached ER (sendCell c 3) 0 ∗ reached ER (sendCell c 4) 0 ∗ reached ER (sendCell c 5) 0 ∗ reached ER (sendCell c 6) 0 ∗ reached ER (sendCell c 7) 0)
          ∗ (reached ER (recvCell c 1) 0 ∗ reached ER (recvCell c 2) 0 ∗ reached ER (recvCell c 3) 0 ∗ reached ER (recvCell c 4) 0 ∗ reached ER (recvCell c 5) 0 ∗ reached ER (recvCell c 6) 0 ∗ reached ER (recvCell c 7) 0))
        ∗ levAts L lv
        -- positions, tokens, credit
        ∗ atPos ER (barCell c) 0 ∅ 0
        ∗ (atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0 ∗ atPos ER (sendCell c 7) 0 ∅ 0)
        ∗ (atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0 ∗ atPos ER (recvCell c 7) 0 ∅ 0)
        ∗ (dutyTok ER (barCell (peer c 1)) 0 1 ∗ dutyTok ER (barCell (peer c 2)) 0 2 ∗ dutyTok ER (barCell (peer c 3)) 0 3 ∗ dutyTok ER (barCell (peer c 4)) 0 4 ∗ dutyTok ER (barCell (peer c 5)) 0 5 ∗ dutyTok ER (barCell (peer c 6)) 0 6 ∗ dutyTok ER (barCell (peer c 7)) 0 7)
        ∗ (dutyTok ER (recvCell (peer c 1) 1) 0 0 ∗ dutyTok ER (recvCell (peer c 3) 2) 0 0 ∗ dutyTok ER (recvCell (peer c 4) 3) 0 0 ∗ dutyTok ER (recvCell (peer c 2) 4) 0 0 ∗ dutyTok ER (recvCell (peer c 5) 5) 0 0 ∗ dutyTok ER (recvCell (peer c 7) 6) 0 0 ∗ dutyTok ER (recvCell (peer c 6) 7) 0 0)
        ∗ (dutyTok ER (sendCell c 1) 0 0 ∗ dutyTok ER (sendCell c 2) 0 0 ∗ dutyTok ER (sendCell c 3) 0 0 ∗ dutyTok ER (sendCell c 4) 0 0 ∗ dutyTok ER (sendCell c 5) 0 0 ∗ dutyTok ER (sendCell c 6) 0 0 ∗ dutyTok ER (sendCell c 7) 0 0)
        ∗ cred (tallyAt (barCell c) () 7)
        ∗ (cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N))
        -- the gather buffer by rows, in the order the signals hand them over; row 0 last
        ∗ (((rowM 1).view.loc (c : Thread nD τ) ↦[(rowM 1).view.set]{fullShare} g0) ∗ ((rowM 4).view.loc (c : Thread nD τ) ↦[(rowM 4).view.set]{fullShare} g0) ∗ ((rowM 2).view.loc (c : Thread nD τ) ↦[(rowM 2).view.set]{fullShare} g0) ∗ ((rowM 3).view.loc (c : Thread nD τ) ↦[(rowM 3).view.set]{fullShare} g0) ∗ ((rowM 5).view.loc (c : Thread nD τ) ↦[(rowM 5).view.set]{fullShare} g0) ∗ ((rowM 7).view.loc (c : Thread nD τ) ↦[(rowM 7).view.set]{fullShare} g0) ∗ ((rowM 6).view.loc (c : Thread nD τ) ↦[(rowM 6).view.set]{fullShare} g0))
        ∗ ((rowM 0).view.loc (c : Thread nD τ) ↦[(rowM 0).view.set]{fullShare} g0)
        ∗ owes (c : Thread nD τ) (tallyAt (recvCell (peer c 6) 7) () N + tallyAt (recvCell (peer c 7) 6) () N + tallyAt (recvCell (peer c 5) 5) () N
            + tallyAt (recvCell (peer c 2) 4) () N + tallyAt (recvCell (peer c 4) 3) () N + tallyAt (recvCell (peer c 3) 2) () N
            + tallyAt (recvCell (peer c 1) 1) () N
            + tallyAt (barCell (peer c 7)) () 1 + tallyAt (barCell (peer c 6)) () 1 + tallyAt (barCell (peer c 5)) () 1 + tallyAt (barCell (peer c 4)) () 1
            + tallyAt (barCell (peer c 3)) () 1 + tallyAt (barCell (peer c 2)) () 1 + tallyAt (barCell (peer c 1)) () 1) W
        ∗ ((Memref.whole cc0_stg0_0 : Memref sig .tc .vmem _ _).view.loc (c : Thread nD τ) ↦[(Memref.whole cc0_stg0_0 : Memref sig .tc .vmem _ _).view.set]{fullShare} (X m ρ c)) ∗ ((Memref.whole cc0_stg1_0 : Memref sig .tc .vmem _ _).view.loc (c : Thread nD τ) ↦[(Memref.whole cc0_stg1_0 : Memref sig .tc .vmem _ _).view.set]{fullShare} o0) ∗ ((Memref.whole cc0_scratch0 : Memref sig .tc .vmem _ _).view.loc (c : Thread nD τ) ↦[(Memref.whole cc0_scratch0 : Memref sig .tc .vmem _ _).view.set]{fullShare} e0))
        ∗ (corePost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  iintro ⟨⟨⟨#HIb, ⟨#HIs1, #HIs2, #HIs3, #HIs4, #HIs5, #HIs6, #HIs7⟩, ⟨#HIr1, #HIr2, #HIr3, #HIr4, #HIr5, #HIr6, #HIr7⟩, ⟨#HIbp1, #HIbp2, #HIbp3, #HIbp4, #HIbp5, #HIbp6, #HIbp7⟩, ⟨#HIrp1, #HIrp2, #HIrp3, #HIrp4, #HIrp5, #HIrp6, #HIrp7⟩⟩,
    ⟨⟨#HrB1, #HrB2, #HrB3, #HrB4, #HrB5, #HrB6, #HrB7⟩, ⟨#HrVp1, #HrVp2, #HrVp3, #HrVp4, #HrVp5, #HrVp6, #HrVp7⟩, ⟨#HrS1, #HrS2, #HrS3, #HrS4, #HrS5, #HrS6, #HrS7⟩, ⟨#HrV1, #HrV2, #HrV3, #HrV4, #HrV5, #HrV6, #HrV7⟩⟩, #Hlev,
    HatB, ⟨HatS1, HatS2, HatS3, HatS4, HatS5, HatS6, HatS7⟩, ⟨HatV1, HatV2, HatV3, HatV4, HatV5, HatV6, HatV7⟩, ⟨HtB1, HtB2, HtB3, HtB4, HtB5, HtB6, HtB7⟩, ⟨HtVp1, HtVp2, HtVp3, HtVp4, HtVp5, HtVp6, HtVp7⟩, ⟨HtS1, HtS2, HtS3, HtS4, HtS5, HtS6, HtS7⟩,
    HcB, ⟨HcV1, HcV2, HcV3, HcV4, HcV5, HcV6, HcV7⟩, ⟨Hrow1, Hrow4, Hrow2, Hrow3, Hrow5, Hrow7, Hrow6⟩, Hrow0, HO, Hx, Hout, He⟩, Hk⟩
  have hmw := mayWait_bar (F := F) c
  have hnm : (Memref.whole cc0_scratch1 : Memref sig .tc .vmem S8x2x1024 .f32).view.setOn (Rect.unit (s := S8x2x1024) ![0, 0, 0] S7x1x1024.size inb_S8x2x1024_S7x1x1024_0_0_0).set ⊆ nearSet c := near_sub_M c
  have hns : (Memref.whole cc0_scratch1 : Memref sig .tc .vmem S8x2x1024 .f32).view.setOn (Rect.unit (s := S8x2x1024) ![0, 1, 0] S7x1x1024.size inb_S8x2x1024_S7x1x1024_0_1_0).set ⊆ nearSet c := near_sub_S c
  have hfm : (Memref.whole cc0_scratch1 : Memref sig .tc .vmem S8x2x1024 .f32).view.setOn (Rect.unit (s := S8x2x1024) ![7, 0, 0] S1x1x1024.size inb_S8x2x1024_S1x1x1024_7_0_0).set ⊆ (rowM 7).view.set := far_sub_M
  have hfS : (Memref.whole cc0_scratch1 : Memref sig .tc .vmem S8x2x1024 .f32).view.setOn (Rect.unit (s := S8x2x1024) ![7, 1, 0] S1x1x1024.size inb_S8x2x1024_S1x1x1024_7_1_0).set ⊆ (rowM 7).view.set := far_sub_S
  -- the seven signals, the block and row 0 loaded, row 0 stored, the entry wait
  sl_exec

  -- the seven rows the peers handed over (key order 1 … 7: rows 1, 4, 2, 3, 5, 7, 6)
  ihave Hp := (Entails.of_eq (bar_payloads m ρ c)) $$ HatB_pay1
  icases Hp with ⟨⟨⟨%fd1, Hp1⟩, -⟩, ⟨⟨%fd4, Hp4⟩, -⟩, ⟨⟨%fd2, Hp2⟩, -⟩, ⟨⟨%fd3, Hp3⟩, -⟩, ⟨⟨%fd5, Hp5⟩, -⟩, ⟨⟨%fd7, Hp7⟩, -⟩, ⟨%fd6, Hp6⟩, -⟩
  -- row 0 holds this device's statistics
  have hfs : ∀ j ∈ (rowM 0).view.set, (sound_core.sl.Hrow0_w1 m ρ c g0) j = gat (X m ρ) c j := by
    intro j hj
    unfold sound_core.sl.Hrow0_w1
    rw [read_x]
    exact row0_written c g0 (X m ρ) j hj
  -- row 0 in its eight shares: one stays here, one goes with each copy
  ihave Hsh := (Entails.of_eq (row0_shares c _)) $$ Hrow0
  icases Hsh with ⟨Hr00, Hr01, Hr02, Hr03, Hr04, Hr05, Hr06, Hr07⟩
  -- the seven copies, each by the send rule at its row

  iapply (wp_send_row m ρ c K 1 (by decide) _ (dev8_eq c) _ hfs fd1 _ _ rfl _ rfl) $$ [Hr01 Hp1 HO HtS1 HtVp1]
  · isplitr; · iexact HIs1
    isplitr; · iexact HIrp1
    isplitl [Hr01]; · iexact Hr01
    isplitl [Hp1]; · iexact Hp1
    isplitl [HO]; · iexact HO
    isplitl [HtS1]; · iexact HtS1
    isplitr; · iexact HrS1
    isplitl [HtVp1]; · iexact HtVp1
    iexact HrVp1
  iintro ⟨HcS1, HO⟩
  sl_exec

  iapply (wp_send_row m ρ c K 2 (by decide) _ (dev9_eq c) _ hfs fd2 _ _ rfl _ rfl) $$ [Hr02 Hp2 HO HtS2 HtVp2]
  · isplitr; · iexact HIs2
    isplitr; · iexact HIrp2
    isplitl [Hr02]; · iexact Hr02
    isplitl [Hp2]; · iexact Hp2
    isplitl [HO]; · iexact HO
    isplitl [HtS2]; · iexact HtS2
    isplitr; · iexact HrS2
    isplitl [HtVp2]; · iexact HtVp2
    iexact HrVp2
  iintro ⟨HcS2, HO⟩
  sl_exec

  iapply (wp_send_row m ρ c K 3 (by decide) _ (dev10_eq c) _ hfs fd3 _ _ rfl _ rfl) $$ [Hr03 Hp3 HO HtS3 HtVp3]
  · isplitr; · iexact HIs3
    isplitr; · iexact HIrp3
    isplitl [Hr03]; · iexact Hr03
    isplitl [Hp3]; · iexact Hp3
    isplitl [HO]; · iexact HO
    isplitl [HtS3]; · iexact HtS3
    isplitr; · iexact HrS3
    isplitl [HtVp3]; · iexact HtVp3
    iexact HrVp3
  iintro ⟨HcS3, HO⟩
  sl_exec

  iapply (wp_send_row m ρ c K 4 (by decide) _ (dev11_eq c) _ hfs fd4 _ _ rfl _ rfl) $$ [Hr04 Hp4 HO HtS4 HtVp4]
  · isplitr; · iexact HIs4
    isplitr; · iexact HIrp4
    isplitl [Hr04]; · iexact Hr04
    isplitl [Hp4]; · iexact Hp4
    isplitl [HO]; · iexact HO
    isplitl [HtS4]; · iexact HtS4
    isplitr; · iexact HrS4
    isplitl [HtVp4]; · iexact HtVp4
    iexact HrVp4
  iintro ⟨HcS4, HO⟩
  sl_exec

  iapply (wp_send_row m ρ c K 5 (by decide) _ (dev12_eq c) _ hfs fd5 _ _ rfl _ rfl) $$ [Hr05 Hp5 HO HtS5 HtVp5]
  · isplitr; · iexact HIs5
    isplitr; · iexact HIrp5
    isplitl [Hr05]; · iexact Hr05
    isplitl [Hp5]; · iexact Hp5
    isplitl [HO]; · iexact HO
    isplitl [HtS5]; · iexact HtS5
    isplitr; · iexact HrS5
    isplitl [HtVp5]; · iexact HtVp5
    iexact HrVp5
  iintro ⟨HcS5, HO⟩
  sl_exec

  iapply (wp_send_row m ρ c K 6 (by decide) _ (dev13_eq c) _ hfs fd6 _ _ rfl _ rfl) $$ [Hr06 Hp6 HO HtS6 HtVp6]
  · isplitr; · iexact HIs6
    isplitr; · iexact HIrp6
    isplitl [Hr06]; · iexact Hr06
    isplitl [Hp6]; · iexact Hp6
    isplitl [HO]; · iexact HO
    isplitl [HtS6]; · iexact HtS6
    isplitr; · iexact HrS6
    isplitl [HtVp6]; · iexact HtVp6
    iexact HrVp6
  iintro ⟨HcS6, HO⟩
  sl_exec

  iapply (wp_send_row m ρ c K 7 (by decide) _ (dev14_eq c) _ hfs fd7 _ _ (zero_add _).symm _ rfl) $$ [Hr07 Hp7 HO HtS7 HtVp7]
  · isplitr; · iexact HIs7
    isplitr; · iexact HIrp7
    isplitl [Hr07]; · iexact Hr07
    isplitl [Hp7]; · iexact Hp7
    isplitl [HO]; · iexact HO
    isplitl [HtS7]; · iexact HtS7
    isplitr; · iexact HrS7
    isplitl [HtVp7]; · iexact HtVp7
    iexact HrVp7
  iintro ⟨HcS7, HO⟩

  -- the exponentials kept, six arrivals
  sl_exec

  -- every row held so far holds the final contents; the device's own share of row 0 restated so
  ihave Hr00' := (Entails.of_eq (pointsTo_congr (q := rowShare 0) hfs)) $$ Hr00
  -- rows 1 … 6 in halves; the left halves join row 0's into the region the two loads of rows 0 … 6 read
  ihave Hh1 := (Entails.of_eq (row_halves c 1 _)) $$ HatV1_pay1
  icases Hh1 with ⟨Hl1, Hg1⟩
  ihave Hh2 := (Entails.of_eq (row_halves c 2 _)) $$ HatV2_pay1
  icases Hh2 with ⟨Hl2, Hg2⟩
  ihave Hh3 := (Entails.of_eq (row_halves c 3 _)) $$ HatV3_pay1
  icases Hh3 with ⟨Hl3, Hg3⟩
  ihave Hh4 := (Entails.of_eq (row_halves c 4 _)) $$ HatV4_pay1
  icases Hh4 with ⟨Hl4, Hg4⟩
  ihave Hh5 := (Entails.of_eq (row_halves c 5 _)) $$ HatV5_pay1
  icases Hh5 with ⟨Hl5, Hg5⟩
  ihave Hh6 := (Entails.of_eq (row_halves c 6 _)) $$ HatV6_pay1
  icases Hh6 with ⟨Hl6, Hg6⟩
  ihave Hnear := (Entails.of_eq (near_join c (gat (X m ρ) c))) $$ [Hr00' Hl1 Hl2 Hl3 Hl4 Hl5 Hl6]
  · isplitl [Hr00']; · iexact Hr00'
    isplitl [Hl1]; · iexact Hl1
    isplitl [Hl2]; · iexact Hl2
    isplitl [Hl3]; · iexact Hl3
    isplitl [Hl4]; · iexact Hl4
    isplitl [Hl5]; · iexact Hl5
    iexact Hl6
  -- rows 0 … 6 read twice (maxima, sums), by the load rule on the joined region
  iapply (wp_load 𝒱₀ (c : Thread nD τ) none Set.univ (m := (gM : Memref sig .tc .vmem S8x2x1024 .f32)) (near_sub_M c)) $$ Hnear
  iintro Hnear
  iapply (wp_load 𝒱₀ (c : Thread nD τ) none Set.univ (m := (gM : Memref sig .tc .vmem S8x2x1024 .f32)) (near_sub_S c)) $$ Hnear
  iintro Hnear
  rw [ret_bind]
  -- the partial maximum and sum, the arrival of row 7, row 7 read, the result written, the seven departures
  sl_exec

  -- the gather buffer whole again, every row holding the final contents
  ihave Hl := (Entails.of_eq (near_join c (gat (X m ρ) c)).symm) $$ Hnear
  icases Hl with ⟨Hl0, Hl1, Hl2, Hl3, Hl4, Hl5, Hl6⟩
  ihave Hf1 := (Entails.of_eq (row_halves c 1 (gat (X m ρ) c)).symm) $$ [Hl1 Hg1]
  · isplitl [Hl1]; · iexact Hl1
    iexact Hg1
  ihave Hf2 := (Entails.of_eq (row_halves c 2 (gat (X m ρ) c)).symm) $$ [Hl2 Hg2]
  · isplitl [Hl2]; · iexact Hl2
    iexact Hg2
  ihave Hf3 := (Entails.of_eq (row_halves c 3 (gat (X m ρ) c)).symm) $$ [Hl3 Hg3]
  · isplitl [Hl3]; · iexact Hl3
    iexact Hg3
  ihave Hf4 := (Entails.of_eq (row_halves c 4 (gat (X m ρ) c)).symm) $$ [Hl4 Hg4]
  · isplitl [Hl4]; · iexact Hl4
    iexact Hg4
  ihave Hf5 := (Entails.of_eq (row_halves c 5 (gat (X m ρ) c)).symm) $$ [Hl5 Hg5]
  · isplitl [Hl5]; · iexact Hl5
    iexact Hg5
  ihave Hf6 := (Entails.of_eq (row_halves c 6 (gat (X m ρ) c)).symm) $$ [Hl6 Hg6]
  · isplitl [Hl6]; · iexact Hl6
    iexact Hg6
  ihave Hf0 := (Entails.of_eq (row0_shares c (gat (X m ρ) c)).symm) $$ [Hl0 HatS1_pay1 HatS2_pay1 HatS3_pay1 HatS4_pay1 HatS5_pay1 HatS6_pay1 HatS7_pay1]
  · isplitl [Hl0]; · iexact Hl0
    isplitl [HatS1_pay1]; · iexact HatS1_pay1
    isplitl [HatS2_pay1]; · iexact HatS2_pay1
    isplitl [HatS3_pay1]; · iexact HatS3_pay1
    isplitl [HatS4_pay1]; · iexact HatS4_pay1
    isplitl [HatS5_pay1]; · iexact HatS5_pay1
    isplitl [HatS6_pay1]; · iexact HatS6_pay1
    iexact HatS7_pay1
  ihave Hg := (Entails.of_eq (rows_split c (gat (X m ρ) c)).symm) $$ [Hf0 Hf1 Hf2 Hf3 Hf4 Hf5 Hf6 HatV7_pay1]
  · isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    iexact HatV7_pay1
  -- the fourteen cells close: their counters at zero are the device's again
  imod (Rounds.cell_close ER (ringRd m ρ) (Set.mem_univ (K (sendCell c 1))) (fun h => h) (R := 1) (duties_later m ρ (sendCell c 1))) $$ [HatS1] with HzS1
  · isplitr; · iexact HIs1
    iexact HatS1
  imod (Rounds.cell_close ER (ringRd m ρ) (Set.mem_univ (K (sendCell c 2))) (fun h => h) (R := 1) (duties_later m ρ (sendCell c 2))) $$ [HatS2] with HzS2
  · isplitr; · iexact HIs2
    iexact HatS2
  imod (Rounds.cell_close ER (ringRd m ρ) (Set.mem_univ (K (sendCell c 3))) (fun h => h) (R := 1) (duties_later m ρ (sendCell c 3))) $$ [HatS3] with HzS3
  · isplitr; · iexact HIs3
    iexact HatS3
  imod (Rounds.cell_close ER (ringRd m ρ) (Set.mem_univ (K (sendCell c 4))) (fun h => h) (R := 1) (duties_later m ρ (sendCell c 4))) $$ [HatS4] with HzS4
  · isplitr; · iexact HIs4
    iexact HatS4
  imod (Rounds.cell_close ER (ringRd m ρ) (Set.mem_univ (K (sendCell c 5))) (fun h => h) (R := 1) (duties_later m ρ (sendCell c 5))) $$ [HatS5] with HzS5
  · isplitr; · iexact HIs5
    iexact HatS5
  imod (Rounds.cell_close ER (ringRd m ρ) (Set.mem_univ (K (sendCell c 6))) (fun h => h) (R := 1) (duties_later m ρ (sendCell c 6))) $$ [HatS6] with HzS6
  · isplitr; · iexact HIs6
    iexact HatS6
  imod (Rounds.cell_close ER (ringRd m ρ) (Set.mem_univ (K (sendCell c 7))) (fun h => h) (R := 1) (duties_later m ρ (sendCell c 7))) $$ [HatS7] with HzS7
  · isplitr; · iexact HIs7
    iexact HatS7
  imod (Rounds.cell_close ER (ringRd m ρ) (Set.mem_univ (K (recvCell c 1))) (fun h => h) (R := 1) (duties_later m ρ (recvCell c 1))) $$ [HatV1] with HzV1
  · isplitr; · iexact HIr1
    iexact HatV1
  imod (Rounds.cell_close ER (ringRd m ρ) (Set.mem_univ (K (recvCell c 2))) (fun h => h) (R := 1) (duties_later m ρ (recvCell c 2))) $$ [HatV2] with HzV2
  · isplitr; · iexact HIr2
    iexact HatV2
  imod (Rounds.cell_close ER (ringRd m ρ) (Set.mem_univ (K (recvCell c 3))) (fun h => h) (R := 1) (duties_later m ρ (recvCell c 3))) $$ [HatV3] with HzV3
  · isplitr; · iexact HIr3
    iexact HatV3
  imod (Rounds.cell_close ER (ringRd m ρ) (Set.mem_univ (K (recvCell c 4))) (fun h => h) (R := 1) (duties_later m ρ (recvCell c 4))) $$ [HatV4] with HzV4
  · isplitr; · iexact HIr4
    iexact HatV4
  imod (Rounds.cell_close ER (ringRd m ρ) (Set.mem_univ (K (recvCell c 5))) (fun h => h) (R := 1) (duties_later m ρ (recvCell c 5))) $$ [HatV5] with HzV5
  · isplitr; · iexact HIr5
    iexact HatV5
  imod (Rounds.cell_close ER (ringRd m ρ) (Set.mem_univ (K (recvCell c 6))) (fun h => h) (R := 1) (duties_later m ρ (recvCell c 6))) $$ [HatV6] with HzV6
  · isplitr; · iexact HIr6
    iexact HatV6
  imod (Rounds.cell_close ER (ringRd m ρ) (Set.mem_univ (K (recvCell c 7))) (fun h => h) (R := 1) (duties_later m ρ (recvCell c 7))) $$ [HatV7] with HzV7
  · isplitr; · iexact HIr7
    iexact HatV7
  -- the result block is the specification's
  have hres : k0_pay13 (sound_core.sl.r m ρ c) (sound_core.sl.r_2 m ρ c) (sound_core.sl.r_3 m ρ c) (sound_core.sl.r_4 m ρ c)
      (sound_core.sl.r_5 m ρ c) (sound_core.sl.r_6 m ρ c) (sound_core.sl.v202 m ρ c) = outOf (X m ρ) c := by
    unfold sound_core.sl.r sound_core.sl.r_2 sound_core.sl.r_3 sound_core.sl.r_4 sound_core.sl.r_5 sound_core.sl.r_6 sound_core.sl.v202
      sound_core.sl.v187 sound_core.sl.v189 sound_core.sl.r_1
    rw [read_x, View.readCov_unit_zero (S := S1024x512) _ hz2 _ _]
    rfl
  have hout := (out_written (F := F) o0 _).trans hres
  sl_step
  iapply Hk
  unfold corePost
  isplitl [He]
  · ihave He' := (Entails.of_eq (whole_e c _)) $$ He
    iexists _; iexact He'
  isplitl [Hg]; · iexists _; iexact Hg
  isplitl [HzS1 HzS2 HzS3 HzS4 HzS5 HzS6 HzS7]
  · isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    iexact HzS7
  isplitl [HzV1 HzV2 HzV3 HzV4 HzV5 HzV6 HzV7]
  · isplitl [HzV1]; · iexact HzV1
    isplitl [HzV2]; · iexact HzV2
    isplitl [HzV3]; · iexact HzV3
    isplitl [HzV4]; · iexact HzV4
    isplitl [HzV5]; · iexact HzV5
    isplitl [HzV6]; · iexact HzV6
    iexact HzV7
  isplitl [HO]; · iexists _; iexact HO
  isplitl [Hx]
  · ihave Hx' := (Entails.of_eq (whole_x c _)) $$ Hx
    iexact Hx'
  ihave Hout' := (Entails.of_eq ((whole_o c _).trans (congrArg (fun f => (((c : Thread nD τ).loc cc0_stg1_0) ↦{fullShare} f : sProp 𝕄)) hout))) $$ Hout
  iexact Hout'

/-- info: 'Cert.Kernel.Proto.sound_core' depends on axioms: [propext, Classical.choice, Quot.sound] -/
#guard_msgs in #print axioms sound_core

end Cert.Kernel.Proto
end
-- ==== Proof.KBody.lean ====
/-
  The body's obligation to the launch, from the statement about the body with every family written out.

  The launch states what a device's body starts from through families over the seven keys and the seven rows: the
  invariants, marks, positions and tokens of its cells, its credit, the gather buffer whole. The statement about the
  body wants the same things one by one: each family as a seven-fold product with the peers' keys as numerals, the
  gather buffer as its eight rows (rows 1, 4, 2, 3, 5, 7, 6 in the order the entry signals hand them over, row 0
  apart), the tallies owed summand by summand. This module is the passage between the two. Nothing here is about
  what the kernel computes: a family over 1 … 7 is its seven members, the key of a row is a numeral, the buffer is
  its rows, and the two counters of row 0, which no copy uses, go round the body untouched.

  At the one grid point the input's staging buffer has just been fetched, so it holds the device's block; the
  output's holds anything. Afterwards nothing is owed, and the two staging buffers hold the block and the result.
-/
import proofs.«900601_g7700000000000602_dist_softmax_colshard_i_m1024_n512_v7x_i8_bf16_1_alg».proof.Proof.KBodyCore
import proofs.«900601_g7700000000000602_dist_softmax_colshard_i_m1024_n512_v7x_i8_bf16_1_alg».proof.Proof.KRows
import proofs.«900601_g7700000000000602_dist_softmax_colshard_i_m1024_n512_v7x_i8_bf16_1_alg».proof.Proof.Gen.Kernel.Launch
import proofs.«900601_g7700000000000602_dist_softmax_colshard_i_m1024_n512_v7x_i8_bf16_1_alg».proof.Proof.Gen.Kernel.Points

noncomputable section

namespace Cert.Kernel.Proto

open Cert.Kernel Cert.Kernel.Gen Cert.Kernel.Mesh Cert.Kernel.Spec

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Glue

/-! ## Whole buffers -/

/-- A whole staging buffer as the launch hands it over: at some contents, known to be the named ones. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- A whole buffer seen through its memref is the buffer. -/
theorem pts_x (c : Dev nD) (f : Buf (Elt F) ((c : Thread nD τ).loc cc0_stg0_0)) :
    (((Memref.whole cc0_stg0_0 : Memref sig .tc .vmem _ _).view.loc (c : Thread nD τ) ↦[(Memref.whole cc0_stg0_0 : Memref sig .tc .vmem _ _).view.set]{fullShare} f) : sProp 𝕄)
      = (((c : Thread nD τ).loc cc0_stg0_0) ↦{fullShare} f) := by
  rw [View.set_whole]
theorem pts_o (c : Dev nD) (f : Buf (Elt F) ((c : Thread nD τ).loc cc0_stg1_0)) :
    (((Memref.whole cc0_stg1_0 : Memref sig .tc .vmem _ _).view.loc (c : Thread nD τ) ↦[(Memref.whole cc0_stg1_0 : Memref sig .tc .vmem _ _).view.set]{fullShare} f) : sProp 𝕄)
      = (((c : Thread nD τ).loc cc0_stg1_0) ↦{fullShare} f) := by
  rw [View.set_whole]
theorem pts_e (c : Dev nD) (f : Buf (Elt F) ((c : Thread nD τ).loc cc0_scratch0)) :
    (((Memref.whole cc0_scratch0 : Memref sig .tc .vmem _ _).view.loc (c : Thread nD τ) ↦[(Memref.whole cc0_scratch0 : Memref sig .tc .vmem _ _).view.set]{fullShare} f) : sProp 𝕄)
      = (((c : Thread nD τ).loc cc0_scratch0) ↦{fullShare} f) := by
  rw [View.set_whole]

/-- What the obligation hands the body at the one point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it wants back. -/
def bodyPost (c : Dev nD) : sProp 𝕄 :=
  iprop(Φ₁ c ∗ (dats m ρ 0 c).owesAt () t₀.succ ∗ stg c cc0_stg0_0 (X m ρ c) ∗ stg c cc0_stg1_0 (outOf (X m ρ) c))

/-- The input's staging buffer holds the device's block: the one point fetches it. -/
theorem before_x (c : Dev nD) (d : (cfg0.win (0 : Fin 2)).block.Idx → Elt F (cfg0.win (0 : Fin 2)).elt) :
    (dats m ρ 0 c).before (0 : Fin 2) t₀ d = X m ρ c := by
  unfold Dat.before
  rw [if_pos (fetch0_0 t₀)]
  rfl

theorem owed_first (c : Dev nD) : (dats m ρ 0 c).owed t₀.castSucc = (tallyAt (recvCell (peer c 6) 7) () N + tallyAt (recvCell (peer c 7) 6) () N + tallyAt (recvCell (peer c 5) 5) () N
            + tallyAt (recvCell (peer c 2) 4) () N + tallyAt (recvCell (peer c 4) 3) () N + tallyAt (recvCell (peer c 3) 2) () N
            + tallyAt (recvCell (peer c 1) 1) () N
            + tallyAt (barCell (peer c 7)) () 1 + tallyAt (barCell (peer c 6)) () 1 + tallyAt (barCell (peer c 5)) () 1 + tallyAt (barCell (peer c 4)) () 1
            + tallyAt (barCell (peer c 3)) () 1 + tallyAt (barCell (peer c 2)) () 1 + tallyAt (barCell (peer c 1)) () 1) := rfl
theorem owed_last (c : Dev nD) : (dats m ρ 0 c).owed t₀.succ = 0 := rfl

theorem keyOf_1 : keyOf (1 : Fin 8) = 1 := rfl
theorem keyOf_2 : keyOf (2 : Fin 8) = 3 := rfl
theorem keyOf_3 : keyOf (3 : Fin 8) = 4 := rfl
theorem keyOf_4 : keyOf (4 : Fin 8) = 2 := rfl
theorem keyOf_5 : keyOf (5 : Fin 8) = 5 := rfl
theorem keyOf_6 : keyOf (6 : Fin 8) = 7 := rfl
theorem keyOf_7 : keyOf (7 : Fin 8) = 6 := rfl

set_option maxRecDepth 4000 in
theorem body_glue (c : Dev nD) :
    bodyPre' m ρ c ⊢ wp frame (wpE (defs₀ (F := F)) 𝒱₀ c none) Set.univ
      (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c) := by
  unfold bodyPre' Φ₀ start ghost invs marks linear Dat.owesAt Pipeline.owesWithin
  simp only [bigSep_seven]
  simp only [keyOf_1, keyOf_2, keyOf_3, keyOf_4, keyOf_5, keyOf_6, keyOf_7, before_x, owed_first]
  iintro ⟨⟨⟨⟨%K, ⟨Hib, ⟨⟨Is1, Ir1⟩, ⟨Is2, Ir2⟩, ⟨Is3, Ir3⟩, ⟨Is4, Ir4⟩, ⟨Is5, Ir5⟩, ⟨Is6, Ir6⟩, ⟨Is7, Ir7⟩⟩, Hibp, Hirp⟩, ⟨Hmbp, Hmrp, ⟨⟨Ms1, Mr1⟩, ⟨Ms2, Mr2⟩, ⟨Ms3, Mr3⟩, ⟨Ms4, Mr4⟩, ⟨Ms5, Mr5⟩, ⟨Ms6, Mr6⟩, ⟨Ms7, Mr7⟩⟩⟩, ⟨Hpb, ⟨⟨Ps1, Pr1⟩, ⟨Ps2, Pr2⟩, ⟨Ps3, Pr3⟩, ⟨Ps4, Pr4⟩, ⟨Ps5, Pr5⟩, ⟨Ps6, Pr6⟩, ⟨Ps7, Pr7⟩⟩, Htb, ⟨⟨Tr1, Ts1⟩, ⟨Tr2, Ts2⟩, ⟨Tr3, Ts3⟩, ⟨Tr4, Ts4⟩, ⟨Tr5, Ts5⟩, ⟨Tr6, Ts6⟩, ⟨Tr7, Ts7⟩⟩⟩⟩, Hcb, Hcr, Hlev, Hs0, Hr0⟩, ⟨%e0, He⟩, ⟨%g0, Hg⟩⟩, ⟨%W, %hW, Ho⟩, ⟨%d0, %f0, %hf0, Hx⟩, ⟨%d1, %f1, %hf1, Hout⟩⟩
  subst hf0
  have core := sound_core m ρ c K W (fun _ => bodyPost m ρ c) f1 e0 g0
  rw [pts_x, pts_o, pts_e] at core
  iapply core
  icases (Entails.of_eq (rows_split c g0)) $$ Hg with ⟨R0, R1, R2, R3, R4, R5, R6, R7⟩
  isplitr [Hs0 Hr0]
  · isplitl [Hib Is1 Is2 Is3 Is4 Is5 Is6 Is7 Ir1 Ir2 Ir3 Ir4 Ir5 Ir6 Ir7 Hibp Hirp]
    · isplitl [Hib]; · iexact Hib
      isplitl [Is1 Is2 Is3 Is4 Is5 Is6 Is7]
      · isplitl [Is1]; · iexact Is1
        isplitl [Is2]; · iexact Is2
        isplitl [Is3]; · iexact Is3
        isplitl [Is4]; · iexact Is4
        isplitl [Is5]; · iexact Is5
        isplitl [Is6]; · iexact Is6
        iexact Is7
      isplitl [Ir1 Ir2 Ir3 Ir4 Ir5 Ir6 Ir7]
      · isplitl [Ir1]; · iexact Ir1
        isplitl [Ir2]; · iexact Ir2
        isplitl [Ir3]; · iexact Ir3
        isplitl [Ir4]; · iexact Ir4
        isplitl [Ir5]; · iexact Ir5
        isplitl [Ir6]; · iexact Ir6
        iexact Ir7
      isplitl [Hibp]; · iexact Hibp
      iexact Hirp
    isplitl [Hmbp Hmrp Ms1 Ms2 Ms3 Ms4 Ms5 Ms6 Ms7 Mr1 Mr2 Mr3 Mr4 Mr5 Mr6 Mr7]
    · isplitl [Hmbp]; · iexact Hmbp
      isplitl [Hmrp]; · iexact Hmrp
      isplitl [Ms1 Ms2 Ms3 Ms4 Ms5 Ms6 Ms7]
      · isplitl [Ms1]; · iexact Ms1
        isplitl [Ms2]; · iexact Ms2
        isplitl [Ms3]; · iexact Ms3
        isplitl [Ms4]; · iexact Ms4
        isplitl [Ms5]; · iexact Ms5
        isplitl [Ms6]; · iexact Ms6
        iexact Ms7
      isplitl [Mr1]; · iexact Mr1
      isplitl [Mr2]; · iexact Mr2
      isplitl [Mr3]; · iexact Mr3
      isplitl [Mr4]; · iexact Mr4
      isplitl [Mr5]; · iexact Mr5
      isplitl [Mr6]; · iexact Mr6
      iexact Mr7
    isplitl [Hlev]; · iexact Hlev
    isplitl [Hpb]; · iexact Hpb
    isplitl [Ps1 Ps2 Ps3 Ps4 Ps5 Ps6 Ps7]
    · isplitl [Ps1]; · iexact Ps1
      isplitl [Ps2]; · iexact Ps2
      isplitl [Ps3]; · iexact Ps3
      isplitl [Ps4]; · iexact Ps4
      isplitl [Ps5]; · iexact Ps5
      isplitl [Ps6]; · iexact Ps6
      iexact Ps7
    isplitl [Pr1 Pr2 Pr3 Pr4 Pr5 Pr6 Pr7]
    · isplitl [Pr1]; · iexact Pr1
      isplitl [Pr2]; · iexact Pr2
      isplitl [Pr3]; · iexact Pr3
      isplitl [Pr4]; · iexact Pr4
      isplitl [Pr5]; · iexact Pr5
      isplitl [Pr6]; · iexact Pr6
      iexact Pr7
    isplitl [Htb]; · iexact Htb
    isplitl [Tr1 Tr2 Tr3 Tr4 Tr5 Tr6 Tr7]
    · isplitl [Tr1]; · iexact Tr1
      isplitl [Tr2]; · iexact Tr2
      isplitl [Tr3]; · iexact Tr3
      isplitl [Tr4]; · iexact Tr4
      isplitl [Tr5]; · iexact Tr5
      isplitl [Tr6]; · iexact Tr6
      iexact Tr7
    isplitl [Ts1 Ts2 Ts3 Ts4 Ts5 Ts6 Ts7]
    · isplitl [Ts1]; · iexact Ts1
      isplitl [Ts2]; · iexact Ts2
      isplitl [Ts3]; · iexact Ts3
      isplitl [Ts4]; · iexact Ts4
      isplitl [Ts5]; · iexact Ts5
      isplitl [Ts6]; · iexact Ts6
      iexact Ts7
    isplitl [Hcb]; · iexact Hcb
    isplitl [Hcr]; · iexact Hcr
    isplitl [R1 R4 R2 R3 R5 R7 R6]
    · isplitl [R1]; · iexact R1
      isplitl [R4]; · iexact R4
      isplitl [R2]; · iexact R2
      isplitl [R3]; · iexact R3
      isplitl [R5]; · iexact R5
      isplitl [R7]; · iexact R7
      iexact R6
    isplitl [R0]; · iexact R0
    isplitl [Ho]; · iexact Ho
    isplitl [Hx]; · iexact Hx
    isplitl [Hout]; · iexact Hout
    iexact He
  · unfold corePost bodyPost Φ₁ Dat.owesAt Pipeline.owesWithin
    rw [bigSep_eight, bigSep_eight, owed_last]
    iintro ⟨He', Hg', ⟨S1, S2, S3, S4, S5, S6, S7⟩, ⟨Q1, Q2, Q3, Q4, Q5, Q6, Q7⟩, ⟨%W', Ho'⟩, Hx', Hout'⟩
    isplitl [He' Hg' Hs0 S1 S2 S3 S4 S5 S6 S7 Hr0 Q1 Q2 Q3 Q4 Q5 Q6 Q7]
    · isplitl [He']; · iexact He'
      isplitl [Hg']; · iexact Hg'
      isplitl [Hs0 S1 S2 S3 S4 S5 S6 S7]
      · isplitl [Hs0]; · iexact Hs0
        isplitl [S1]; · iexact S1
        isplitl [S2]; · iexact S2
        isplitl [S3]; · iexact S3
        isplitl [S4]; · iexact S4
        isplitl [S5]; · iexact S5
        isplitl [S6]; · iexact S6
        iexact S7
      isplitl [Hr0]; · iexact Hr0
      isplitl [Q1]; · iexact Q1
      isplitl [Q2]; · iexact Q2
      isplitl [Q3]; · iexact Q3
      isplitl [Q4]; · iexact Q4
      isplitl [Q5]; · iexact Q5
      isplitl [Q6]; · iexact Q6
      iexact Q7
    isplitl [Ho']
    · iexists W'; isplitr; · ipureintro; exact fun _ _ => Or.inl trivial
      iexact Ho'
    isplitl [Hx']
    · iexists _; isplitr; · ipureintro; rfl
      iexact Hx'
    iexists _; isplitr; · ipureintro; rfl
    iexact Hout'

end Glue

open Glue

set_option maxRecDepth 4000 in
/-- The library's body obligation on device c. -/
theorem body_obligation (c : Dev nD) : BodyObligation (dats (F := F) m ρ 0 c) (defs₀ (F := F)) 𝒱₀ () Set.univ := fun t => by
  rw [fin_N t]
  rw [Gen.bigSep_W0, Gen.bigSep_W0]
  simp only [Idealize.ShloMosaic.owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  exact body_glue m ρ c

end Cert.Kernel.Proto

end

/-- info: 'Cert.Kernel.Proto.body_obligation' depends on axioms: [propext, Classical.choice, Quot.sound] -/
#guard_msgs in #print axioms Cert.Kernel.Proto.body_obligation
-- ==== Proof.KRun.lean ====
/-
  The kernel's run on the eight devices, in closed form.

  The launch theorem asks for three things: that the launch element pays for the pipeline's cells and for every
  device's share of the protocol's, that the counters at zero close every cell's round state into an invariant, and
  that each device's body meets its obligation at the kernel's one grid point. With the three supplied, from any
  memory with zero counters every weakly fair execution of the eight kernels terminates without a fault, each
  device's result array ends holding the block `outOf` computes from all eight devices' input arrays, and each input
  array ends as it was.
-/
import proofs.«900601_g7700000000000602_dist_softmax_colshard_i_m1024_n512_v7x_i8_bf16_1_alg».proof.Proof.KLaunchRun
import proofs.«900601_g7700000000000602_dist_softmax_colshard_i_m1024_n512_v7x_i8_bf16_1_alg».proof.Proof.KLaunchAlloc
import proofs.«900601_g7700000000000602_dist_softmax_colshard_i_m1024_n512_v7x_i8_bf16_1_alg».proof.Proof.KBody

noncomputable section

namespace Cert.Kernel.Proto

open Cert.Kernel Cert.Kernel.Gen Cert.Kernel.Mesh Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- From any memory with zero counters the eight kernels run to the end: each result array is the block computed
    from all eight input arrays, each input array is unchanged. -/
theorem run_closed {F : FTy → Type} [FloatOps F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = outOf (fun d => m ((d.tc : Thread nD τ).loc main_arg0)) c
      ∧ r.2.mem ((c.tc : Thread nD τ).loc main_arg0) = m ((c.tc : Thread nD τ).loc main_arg0)) :=
  run_values m ρ (G m ρ) u₀ ownSemFacts (fund_all m ρ) (glob m ρ) (body_obligation m ρ)

/-- info: 'Cert.Kernel.Proto.run_closed' depends on axioms: [propext, Classical.choice, Quot.sound] -/
#guard_msgs in #print axioms run_closed

end Cert.Kernel.Proto

end
-- ==== Proof.RefFrame.lean ====
/-
  The reference program on one device: its run and its frame.

  The reference is a straight-line host program: a row maximum, the exponential of the
  difference, a row sum, and the quotient. Its run ends with the result array at the
  composed term of the argument array and with the argument array unchanged; the frame
  claim is that run with the value dropped.
-/
import proofs.«900601_g7700000000000602_dist_softmax_colshard_i_m1024_n512_v7x_i8_bf16_1_alg».proof.Defs
import proofs.«900601_g7700000000000602_dist_softmax_colshard_i_m1024_n512_v7x_i8_bf16_1_alg».proof.Proof.Gen.ReferenceIdeal
import proofs.«900601_g7700000000000602_dist_softmax_colshard_i_m1024_n512_v7x_i8_bf16_1_alg».proof.Proof.Gen.Pre_finite_inputs_ReferenceIdeal
import proofs.«900601_g7700000000000602_dist_softmax_colshard_i_m1024_n512_v7x_i8_bf16_1_alg».proof.Proof.Gen.ReferenceIdeal.Run
import proofs.«900601_g7700000000000602_dist_softmax_colshard_i_m1024_n512_v7x_i8_bf16_1_alg».proof.Proof.Gen.ReferenceIdeal.Read

noncomputable section

namespace Cert.Proof.RefSide

open Idealize.ShloMosaic Idealize.SL.Sem

/-- The reference terminates without a fault from any memory and leaves its argument array as it was. -/
theorem frame_ri :
    Cert.frame_ReferenceIdeal (hReferenceIdeal := Cert.ReferenceIdeal.Gen.facts)
      (hPre_finite_inputs_ReferenceIdeal := Cert.Pre_finite_inputs_ReferenceIdeal.Gen.facts) :=
  fun m ρ _ =>
    (θ_run Cert.ReferenceIdeal.defs _ _).mono (fun _ h c => (h c).2) (Cert.ReferenceIdeal.Value.run (F := Ideal) m ρ)

end Cert.Proof.RefSide

end
-- ==== Proof.SoftmaxLaw.lean ====
/-
  The algebra of a softmax whose row is split over several holders.

  Each holder d owns the entries x d j of one row and forms, with a shift m d of its own,
  the shifted exponentials e d j = exp (x d j - m d) and their sum s d.  The partial sums are
  then merged in two stages (all holders but the last against a shift p, then that merged sum and
  the last holder against a shift g), and every entry is rescaled by exp (m c - g) / gsum.
  The one-holder reference divides exp (x c j - M) by the sum over the whole row of
  exp (x d j' - M).

  The two agree for ARBITRARY real shifts: no property of a maximum is used.  The reason is that the
  real exponential turns a sum of differences into a product, exp (a - b) * exp (b - c) = exp (a - c),
  so every partial sum, once rescaled, is the sum of exp (x d j - g) over the holder's entries, and
  exp (y - a) / Σ exp (x - a) = exp y / Σ exp x for every real a.  All values are finite, so the
  extended-real operations are the coercions of the real ones; the denominators are positive.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Exp
import Mathlib.Algebra.BigOperators.Fin
import Mathlib.Algebra.Order.BigOperators.Group.Finset
import Mathlib.Data.Finset.Fold
import Mathlib.Tactic.Ring
import Mathlib.Tactic.FieldSimp
import Mathlib.Tactic.Positivity

open scoped BigOperators
open Idealize.ShloMosaic

namespace Cert.SoftmaxLaw

/-! ### Coercions: the extended-real operations on finite values are the real ones -/

/-- The exponential of a real, read in the extended reals, is the real exponential. -/
theorem exp_coe (a : ℝ) : Ideal.exp (a : EReal) = ((Real.exp a : ℝ) : EReal) := rfl

/-- The exponential of a difference of two reals. -/
theorem exp_sub_coe (a b : ℝ) :
    Ideal.exp ((a : EReal) - (b : EReal)) = ((Real.exp (a - b) : ℝ) : EReal) := by
  rw [← EReal.coe_sub]; rfl

/-- The quotient of two reals with a nonzero denominator is the real quotient. -/
theorem div_coe (a b : ℝ) (hb : b ≠ 0) :
    Ideal.div (a : EReal) (b : EReal) = ((a / b : ℝ) : EReal) := by
  rw [Ideal.div_coe hb, ← EReal.coe_mul, mul_one_div]

/-- A finite sum of reals, read in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two reals, read in the extended reals. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A maximum of finitely many reals over a nonempty set, folded from the bottom element, is a real. -/
theorem fold_max_bot_coe_of_nonempty {ι : Type} (f : ι → ℝ) (s : Finset ι) (hs : s.Nonempty) :
    ∃ μ : ℝ, s.fold max (⊥ : EReal) (fun i => ((f i : ℝ) : EReal)) = (μ : EReal) := by
  induction hs using Finset.Nonempty.cons_induction with
  | singleton a => exact ⟨f a, by rw [Finset.fold_singleton, max_eq_left bot_le]⟩
  | cons a s ha _ ih =>
    obtain ⟨μ, hμ⟩ := ih
    exact ⟨max (f a) μ, by rw [Finset.fold_cons, hμ, max_coe]⟩

/-- A maximum of finitely many reals, folded from the bottom element, is a real. -/
theorem fold_max_bot_coe {ι : Type} [Fintype ι] [Nonempty ι] (f : ι → ℝ) :
    ∃ μ : ℝ, (Finset.univ : Finset ι).fold max (⊥ : EReal) (fun i => ((f i : ℝ) : EReal)) = (μ : EReal) :=
  fold_max_bot_coe_of_nonempty f Finset.univ Finset.univ_nonempty

/-! ### The identities of real numbers -/

/-- A sum of exponentials over a row that has an entry is positive. -/
theorem sum_exp_pos {D J : Type} [Fintype D] [Fintype J] (y : D → J → ℝ) (c : D) (j : J) :
    0 < ∑ d, ∑ j', Real.exp (y d j') :=
  Finset.sum_pos' (fun _ _ => Finset.sum_nonneg fun _ _ => (Real.exp_pos _).le)
    ⟨c, Finset.mem_univ c, Finset.sum_pos' (fun _ _ => (Real.exp_pos _).le) ⟨j, Finset.mem_univ j, Real.exp_pos _⟩⟩

/-- Rescaling a partial sum from the shift a to the shift b: exp (y - a) * exp (a - b) = exp (y - b), termwise. -/
theorem rescale {J : Type} [Fintype J] (y : J → ℝ) (a b : ℝ) :
    (∑ j, Real.exp (y j - a)) * Real.exp (a - b) = ∑ j, Real.exp (y j - b) := by
  rw [Finset.sum_mul]
  refine Finset.sum_congr rfl fun j _ => ?_
  rw [← Real.exp_add, sub_add_sub_cancel]

/-- A sum of exponentials shifted by a is the unshifted sum scaled by exp (-a). -/
theorem sum_exp_shift {D J : Type} [Fintype D] [Fintype J] (x : D → J → ℝ) (a : ℝ) :
    ∑ d, ∑ j, Real.exp (x d j - a) = (∑ d, ∑ j, Real.exp (x d j)) * Real.exp (-a) := by
  rw [Finset.sum_mul]
  refine Finset.sum_congr rfl fun d _ => ?_
  rw [Finset.sum_mul]
  refine Finset.sum_congr rfl fun j _ => ?_
  rw [← Real.exp_add, sub_eq_add_neg]

/-- Softmax is invariant under a common shift of the whole row. -/
theorem softmax_shift {D J : Type} [Fintype D] [Fintype J] (x : D → J → ℝ) (c : D) (j : J) (a : ℝ) :
    Real.exp (x c j - a) / ∑ d, ∑ j', Real.exp (x d j' - a)
      = Real.exp (x c j) / ∑ d, ∑ j', Real.exp (x d j') := by
  have hT : (∑ d, ∑ j', Real.exp (x d j')) ≠ 0 := (sum_exp_pos x c j).ne'
  have ha : Real.exp (-a) ≠ 0 := (Real.exp_pos _).ne'
  rw [sum_exp_shift, sub_eq_add_neg, Real.exp_add, mul_div_mul_right _ _ ha]

/-- The two-stage merge of the partial sums, each rescaled from its own shift, is the sum over the whole
    row of the exponentials shifted by g: the intermediate shifts m and p cancel. -/
theorem gsum_real {n : ℕ} {D J : Type} [Fintype D] [Fintype J]
    (σ : Fin (n + 1) ≃ D) (x : D → J → ℝ) (m : D → ℝ) (p g : ℝ) :
    (∑ t : Fin n, (∑ j', Real.exp (x (σ t.castSucc) j' - m (σ t.castSucc)))
          * Real.exp (m (σ t.castSucc) - p)) * Real.exp (p - g)
        + (∑ j', Real.exp (x (σ (Fin.last n)) j' - m (σ (Fin.last n))))
          * Real.exp (m (σ (Fin.last n)) - g)
      = ∑ d, ∑ j', Real.exp (x d j' - g) := by
  rw [← Equiv.sum_comp σ (fun d => ∑ j', Real.exp (x d j' - g)), Fin.sum_univ_castSucc, Finset.sum_mul]
  congr 1
  · refine Finset.sum_congr rfl fun t _ => ?_
    rw [rescale, rescale]
  · rw [rescale]

/-! ### The merged softmax -/

/-- The merged softmax over n+1 slots. σ names the holder in each slot; slot Fin.last is merged last. -/
theorem merged {n : ℕ} {D J : Type} [Fintype D] [DecidableEq D] [Fintype J]
    (σ : Fin (n + 1) ≃ D) (x : D → J → ℝ) (m : D → ℝ) (p g M : ℝ) (c : D) (j : J) :
    let e : D → J → EReal := fun d j => Ideal.exp ((x d j : EReal) - (m d : EReal))
    let s : D → EReal := fun d => ∑ j', e d j'
    let psum : EReal := ∑ t : Fin n, s (σ t.castSucc) * Ideal.exp ((m (σ t.castSucc) : EReal) - (p : EReal))
    let gsum : EReal := psum * Ideal.exp ((p : EReal) - (g : EReal)) + s (σ (Fin.last n)) * Ideal.exp ((m (σ (Fin.last n)) : EReal) - (g : EReal))
    e c j * Ideal.div (Ideal.exp ((m c : EReal) - (g : EReal))) gsum
      = Ideal.div (Ideal.exp ((x c j : EReal) - (M : EReal))) ((0 : EReal) + ∑ d, ∑ j', Ideal.exp ((x d j' : EReal) - (M : EReal))) := by
  intro e s psum gsum
  -- every quantity is the coercion of its real counterpart
  have he : ∀ d j', e d j' = ((Real.exp (x d j' - m d) : ℝ) : EReal) := fun d j' => exp_sub_coe _ _
  have hs : ∀ d, s d = ((∑ j', Real.exp (x d j' - m d) : ℝ) : EReal) := fun d => by
    show ∑ j', e d j' = _
    simp only [he, coe_sum]
  have hp : psum = ((∑ t : Fin n, (∑ j', Real.exp (x (σ t.castSucc) j' - m (σ t.castSucc)))
      * Real.exp (m (σ t.castSucc) - p) : ℝ) : EReal) := by
    show ∑ t : Fin n, s (σ t.castSucc) * Ideal.exp ((m (σ t.castSucc) : EReal) - (p : EReal)) = _
    simp only [hs, exp_sub_coe, ← EReal.coe_mul, coe_sum]
  have hg : gsum = ((∑ d, ∑ j', Real.exp (x d j' - g) : ℝ) : EReal) := by
    show psum * Ideal.exp ((p : EReal) - (g : EReal))
      + s (σ (Fin.last n)) * Ideal.exp ((m (σ (Fin.last n)) : EReal) - (g : EReal)) = _
    rw [hp, hs, exp_sub_coe, exp_sub_coe, ← EReal.coe_mul, ← EReal.coe_mul, ← EReal.coe_add, gsum_real]
  have hden : (0 : EReal) + ∑ d, ∑ j', Ideal.exp ((x d j' : EReal) - (M : EReal))
      = ((∑ d, ∑ j', Real.exp (x d j' - M) : ℝ) : EReal) := by
    rw [zero_add]; simp only [exp_sub_coe, coe_sum]
  have hG : (∑ d, ∑ j', Real.exp (x d j' - g)) ≠ 0 := (sum_exp_pos (fun d j' => x d j' - g) c j).ne'
  have hM : (∑ d, ∑ j', Real.exp (x d j' - M)) ≠ 0 := (sum_exp_pos (fun d j' => x d j' - M) c j).ne'
  rw [he, hg, hden, exp_sub_coe, exp_sub_coe, div_coe _ _ hG, div_coe _ _ hM, ← EReal.coe_mul]
  -- what is left is an identity of reals: both sides are exp (x c j) over the unshifted sum
  rw [← mul_div_assoc, ← Real.exp_add, sub_add_sub_cancel, softmax_shift x c j g, softmax_shift x c j M]

/-- The same statement with the abbreviations e, s, psum and gsum written out. -/
theorem merged_expanded {n : ℕ} {D J : Type} [Fintype D] [DecidableEq D] [Fintype J]
    (σ : Fin (n + 1) ≃ D) (x : D → J → ℝ) (m : D → ℝ) (p g M : ℝ) (c : D) (j : J) :
    Ideal.exp ((x c j : EReal) - (m c : EReal))
        * Ideal.div (Ideal.exp ((m c : EReal) - (g : EReal)))
            ((∑ t : Fin n, (∑ j', Ideal.exp ((x (σ t.castSucc) j' : EReal) - (m (σ t.castSucc) : EReal)))
                * Ideal.exp ((m (σ t.castSucc) : EReal) - (p : EReal))) * Ideal.exp ((p : EReal) - (g : EReal))
              + (∑ j', Ideal.exp ((x (σ (Fin.last n)) j' : EReal) - (m (σ (Fin.last n)) : EReal)))
                * Ideal.exp ((m (σ (Fin.last n)) : EReal) - (g : EReal)))
      = Ideal.div (Ideal.exp ((x c j : EReal) - (M : EReal)))
          ((0 : EReal) + ∑ d, ∑ j', Ideal.exp ((x d j' : EReal) - (M : EReal))) :=
  merged σ x m p g M c j

/-- info: 'Cert.SoftmaxLaw.merged' depends on axioms: [propext, Classical.choice, Quot.sound] -/
#guard_msgs in #print axioms merged

end Cert.SoftmaxLaw
-- ==== Proof.KerValue.lean ====
/-
  The kernel's result block read at one index.

  Every payload of the body is a chain of pointwise operations, reductions along one axis, shape casts and
  broadcasts. Read at a row `r` (and a local column `j`), each is a plain expression of extended reals: a row
  maximum is the fold of `max` from `⊥` over the row's 512 entries, a row sum is the sum of the shifted
  exponentials, and the gather buffer's row `t` holds the two statistics of the device `peer c (keyOf t)`.
  The merge over the buffer's rows then reads as a fold and a sum over `Fin 7` and one more step for row 7.
  No finiteness is used: every step is the unfolding of a definition or an index identity.
-/
import proofs.«900601_g7700000000000602_dist_softmax_colshard_i_m1024_n512_v7x_i8_bf16_1_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.KerValue

open Idealize.ShloMosaic Idealize.ShloMosaic.ValueIdx Cert.KernelIdeal Cert.KernelIdeal.Gen Cert.KernelIdeal.Mesh

/-! ## Small facts -/

/-- The word of negative infinity reads as the bottom element. -/
theorem ofBits_negInf : FloatOps.ofBits (F := Ideal) .f32 0xFF800000#32 = (⊥ : EReal) := by
  simp [Ideal.ofBits, Ideal.ieee]

/-- The source index over row `r` with column `l` inserted is `(r, l)`. -/
theorem lift_row (r : Fin 1024) (l : Fin 512) : reduces_S1024x512_S1024.lift (ix1 r) l = ix2 r l :=
  funext fun a => Fin.ext (by match a with | ⟨0, _⟩ => rfl | ⟨1, _⟩ => rfl)

/-- The source index over lane `r` with buffer row `t` inserted is `(t, r)`. -/
theorem lift_col (r : Fin 1024) (t : Fin 7) : reduces_S7x1024_S1024.lift (ix1 r) t = ix2 t r :=
  funext fun a => Fin.ext (by match a with | ⟨0, _⟩ => rfl | ⟨1, _⟩ => rfl)

/-! ## Layout operations on columns and unit axes, read at an index -/

section Layout

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add, Nat.add_zero])

end Layout

/-! ## A block's own statistics -/

/-- The maximum of row `r` of a block: the fold of `max` from `⊥` over the row's entries. -/
def rowMax (x : Vec Ideal S1024x512 .f32) (r : Fin 1024) : EReal :=
  (Finset.univ : Finset (Fin 512)).fold max (⊥ : EReal) (fun l => x (ix2 r l))

/-- The sum over row `r` of the exponentials of the entries less the row's maximum. -/
def rowSum (x : Vec Ideal S1024x512 .f32) (r : Fin 1024) : EReal :=
  ∑ l : Fin 512, Ideal.exp (x (ix2 r l) - rowMax x r)

/-- The cast of the block to its own shape is the block. -/
theorem pay1_eq (x : Vec Ideal S1024x512 .f32) : k0_pay1 x = x := shapeCast_self x _

/-- The row maximum at row `r`. -/
theorem pay2_apply (x : Vec Ideal S1024x512 .f32) (r : Fin 1024) : k0_pay2 x (ix1 r) = rowMax x r := by
  unfold k0_pay2 rowMax
  refine (Ideal.multiReduction_maximumf_single (k0_pay1 x) 0xFF800000#32 reduces_S1024x512_S1024 (.inl rfl) rfl (ix1 r)).trans ?_
  rw [ofBits_negInf, pay1_eq]
  show (Finset.univ : Finset (Fin 512)).fold max (⊥ : EReal) (fun l => x (reduces_S1024x512_S1024.lift (ix1 r) l)) = _
  exact Finset.fold_congr fun l _ => congrArg x (lift_row r l)

/-- The shifted exponential at `(r, l)`. -/
theorem pay3_apply (x : Vec Ideal S1024x512 .f32) (r : Fin 1024) (l : Fin 512) :
    k0_pay3 x (ix2 r l) = Ideal.exp (x (ix2 r l) - rowMax x r) := by
  unfold k0_pay3
  show Ideal.exp (k0_pay1 x (ix2 r l)
    - broadcastTo S1024x512 (shapeCast S1024x1 (k0_pay2 x) shapeCasts_S1024_S1024x1) broadcasts_S1024x1_S1024x512 (ix2 r l)) = _
  rw [pay1_eq]
  refine congrArg (fun z => Ideal.exp (x (ix2 r l) - z)) ?_
  refine (broadcastTo_a1_ab_apply _ _ r l).trans ?_
  refine (shapeCast_a_a1_apply _ _ r 0).trans ?_
  exact pay2_apply x r

/-- The published statistics, first row: the row maxima. -/
theorem pay4_max_apply (x : Vec Ideal S1024x512 .f32) (r : Fin 1024) :
    k0_pay4 x (ix3 (0 : Fin 1) (0 : Fin 2) r) = rowMax x r := by
  unfold k0_pay4
  refine (shapeCast_ab_1ab_apply _ shapeCasts_S2x1024_S1x2x1024 (0 : Fin 1) (0 : Fin 2) r).trans ?_
  refine (concatenate_pair_apply_left (t := S2x1024) (s₁ := S1x1024) (s₂ := S1x1024) (0 : Fin 2) _ _ concatenates_S1x1024_S1x1024_S2x1024_d0 (ix2 (0 : Fin 2) r) rfl
    (ix2 (0 : Fin 1) r) (fun b => ?_)).trans ?_
  · match b with
    | ⟨0, _⟩ => rfl
    | ⟨1, _⟩ => rfl
  · refine (shapeCast_a_1a_apply _ shapeCasts_S1024_S1x1024 (0 : Fin 1) r).trans ?_
    exact pay2_apply x r

/-- The published statistics, second row: the row sums of the shifted exponentials. -/
theorem pay4_sum_apply (x : Vec Ideal S1024x512 .f32) (r : Fin 1024) :
    k0_pay4 x (ix3 (0 : Fin 1) (1 : Fin 2) r) = rowSum x r := by
  unfold k0_pay4 rowSum
  refine (shapeCast_ab_1ab_apply _ shapeCasts_S2x1024_S1x2x1024 (0 : Fin 1) (1 : Fin 2) r).trans ?_
  refine (concatenate_pair_apply_right (t := S2x1024) (s₁ := S1x1024) (s₂ := S1x1024) (0 : Fin 2) _ _ concatenates_S1x1024_S1x1024_S2x1024_d0 (ix2 (1 : Fin 2) r) rfl rfl
    (ix2 (0 : Fin 1) r) (fun b hb => ?_) rfl).trans ?_
  · match b with
    | ⟨0, _⟩ => exact absurd rfl hb
    | ⟨1, _⟩ => rfl
  · refine (shapeCast_a_1a_apply _ shapeCasts_S1024_S1x1024 (0 : Fin 1) r).trans ?_
    refine (Ideal.multiReduction_add_single (k0_pay3 x) 0x00000000#32 reduces_S1024x512_S1024 (.inl rfl) rfl (ix1 r)).trans ?_
    show ∑ l : Fin 512, k0_pay3 x (reduces_S1024x512_S1024.lift (ix1 r) l) = _
    exact Finset.sum_congr rfl fun l _ => (congrArg (k0_pay3 x) (lift_row r l)).trans (pay3_apply x r l)

/-- The exponentials a device keeps, in the result's format, are the shifted exponentials. -/
theorem pay5_apply (v : FVec Ideal S1024x512 .f32) (i : S1024x512.Idx) : k0_pay5 v i = v i :=
  congrFun (shapeCast_self (truncf .bf16 v bitsLt_bf16_f32) shapeCasts_S1024x512_S1024x512) i

/-! ## The gather buffer read at an index -/

/-- Row `t` of the gather buffer holds the statistics of the device `peer c (keyOf t)`. -/
theorem gat_apply (X : Dev nD → Vec Ideal S1024x512 .f32) (c : Dev nD) (t : Fin 8) (b : Fin 2) (r : Fin 1024) :
    Spec.gat X c (ix3 t b r) = Spec.stat (X (peer c (keyOf t))) (ix3 (0 : Fin 1) b r) := by
  unfold Spec.gat
  refine congrArg (Spec.stat (X (peer c (keyOf t)))) (funext fun a => ?_)
  match a with
  | ⟨0, _⟩ => rfl
  | ⟨1, _⟩ => rfl
  | ⟨2, _⟩ => rfl

/-- The maxima of rows 0 … 6. -/
theorem nearM_apply (X : Dev nD → Vec Ideal S1024x512 .f32) (c : Dev nD) (t : Fin 7) (r : Fin 1024) :
    Spec.nearM X c (ix3 t (0 : Fin 1) r) = rowMax (X (peer c (keyOf t.castSucc))) r := by
  unfold Spec.nearM
  refine Eq.trans ?_ ((gat_apply X c t.castSucc 0 r).trans (pay4_max_apply _ r))
  refine (View.readAt_apply _ _ _).trans ((View.read_apply _ _).trans ?_)
  show Spec.gat X c _ = Spec.gat X c _
  refine congrArg (Spec.gat X c) (funext fun a => Fin.ext ?_)
  match a with
  | ⟨0, _⟩ => show 0 + 1 * t.val = t.val; omega
  | ⟨1, _⟩ => rfl
  | ⟨2, _⟩ => show 0 + 1 * r.val = r.val; omega

/-- The sums of rows 0 … 6. -/
theorem nearS_apply (X : Dev nD → Vec Ideal S1024x512 .f32) (c : Dev nD) (t : Fin 7) (r : Fin 1024) :
    Spec.nearS X c (ix3 t (0 : Fin 1) r) = rowSum (X (peer c (keyOf t.castSucc))) r := by
  unfold Spec.nearS
  refine Eq.trans ?_ ((gat_apply X c t.castSucc 1 r).trans (pay4_sum_apply _ r))
  refine (View.readAt_apply _ _ _).trans ((View.read_apply _ _).trans ?_)
  show Spec.gat X c _ = Spec.gat X c _
  refine congrArg (Spec.gat X c) (funext fun a => Fin.ext ?_)
  match a with
  | ⟨0, _⟩ => show 0 + 1 * t.val = t.val; omega
  | ⟨1, _⟩ => rfl
  | ⟨2, _⟩ => show 0 + 1 * r.val = r.val; omega

/-- The maxima of row 7. -/
theorem farM_apply (X : Dev nD → Vec Ideal S1024x512 .f32) (c : Dev nD) (r : Fin 1024) :
    Spec.farM X c (ix3 (0 : Fin 1) (0 : Fin 1) r) = rowMax (X (peer c (keyOf (Fin.last 7)))) r := by
  unfold Spec.farM
  refine Eq.trans ?_ ((gat_apply X c (Fin.last 7) 0 r).trans (pay4_max_apply _ r))
  refine (View.readAt_apply _ _ _).trans ((View.read_apply _ _).trans ?_)
  show Spec.gat X c _ = Spec.gat X c _
  refine congrArg (Spec.gat X c) (funext fun a => Fin.ext ?_)
  match a with
  | ⟨0, _⟩ => rfl
  | ⟨1, _⟩ => rfl
  | ⟨2, _⟩ => show 0 + 1 * r.val = r.val; omega

/-- The sums of row 7. -/
theorem farS_apply (X : Dev nD → Vec Ideal S1024x512 .f32) (c : Dev nD) (r : Fin 1024) :
    Spec.farS X c (ix3 (0 : Fin 1) (0 : Fin 1) r) = rowSum (X (peer c (keyOf (Fin.last 7)))) r := by
  unfold Spec.farS
  refine Eq.trans ?_ ((gat_apply X c (Fin.last 7) 1 r).trans (pay4_sum_apply _ r))
  refine (View.readAt_apply _ _ _).trans ((View.read_apply _ _).trans ?_)
  show Spec.gat X c _ = Spec.gat X c _
  refine congrArg (Spec.gat X c) (funext fun a => Fin.ext ?_)
  match a with
  | ⟨0, _⟩ => rfl
  | ⟨1, _⟩ => rfl
  | ⟨2, _⟩ => show 0 + 1 * r.val = r.val; omega

/-! ## The merge over the buffer's rows -/

/-- The rows 0 … 6 as a `7 × 1024` matrix. -/
theorem pay6_apply (v : Vec Ideal S7x1x1024 .f32) (t : Fin 7) (r : Fin 1024) :
    k0_pay6 v (ix2 t r) = v (ix3 t (0 : Fin 1) r) :=
  shapeCast_a1b_ab_apply v shapeCasts_S7x1x1024_S7x1024 t r

/-- The partial maximum over rows 0 … 6. -/
theorem pay7_apply (v : Vec Ideal S7x1x1024 .f32) (r : Fin 1024) :
    k0_pay7 v (ix1 r) = (Finset.univ : Finset (Fin 7)).fold max (⊥ : EReal) (fun t => v (ix3 t (0 : Fin 1) r)) := by
  unfold k0_pay7
  refine (Ideal.multiReduction_maximumf_single (k0_pay6 v) 0xFF800000#32 reduces_S7x1024_S1024 (.inl rfl) rfl (ix1 r)).trans ?_
  rw [ofBits_negInf]
  show (Finset.univ : Finset (Fin 7)).fold max (⊥ : EReal) (fun t => k0_pay6 v (reduces_S7x1024_S1024.lift (ix1 r) t)) = _
  exact Finset.fold_congr fun t _ => (congrArg (k0_pay6 v) (lift_col r t)).trans (pay6_apply v t r)

/-- The partial sum over rows 0 … 6, each row's sum rescaled to the partial maximum. -/
theorem pay8_apply (vM vS : Vec Ideal S7x1x1024 .f32) (r : Fin 1024) :
    k0_pay8 vM vS (ix1 r)
      = ∑ t : Fin 7, vS (ix3 t (0 : Fin 1) r) * Ideal.exp (vM (ix3 t (0 : Fin 1) r) - k0_pay7 vM (ix1 r)) := by
  unfold k0_pay8
  refine (Ideal.multiReduction_add_single _ 0x00000000#32 reduces_S7x1024_S1024 (.inl rfl) rfl (ix1 r)).trans ?_
  refine Finset.sum_congr rfl fun (t : Fin 7) _ => ?_
  show shapeCast S7x1024 vS shapeCasts_S7x1x1024_S7x1024 (reduces_S7x1024_S1024.lift (ix1 r) t)
      * Ideal.exp (k0_pay6 vM (reduces_S7x1024_S1024.lift (ix1 r) t)
        - broadcastTo S7x1024 (shapeCast S1x1024 (k0_pay7 vM) shapeCasts_S1024_S1x1024) broadcasts_S1x1024_S7x1024
            (reduces_S7x1024_S1024.lift (ix1 r) t)) = _
  rw [lift_col r t]
  refine congrArg₂ (fun y z => y * Ideal.exp z) ?_ (congrArg₂ (fun y z => y - z) ?_ ?_)
  · exact shapeCast_a1b_ab_apply vS shapeCasts_S7x1x1024_S7x1024 t r
  · exact pay6_apply vM t r
  · refine (broadcastTo_1b_ab_apply _ broadcasts_S1x1024_S7x1024 t r).trans ?_
    exact shapeCast_a_1a_apply _ shapeCasts_S1024_S1x1024 (0 : Fin 1) r

/-- Row 7's maxima as a vector. -/
theorem pay9_apply (v : Vec Ideal S1x1x1024 .f32) (r : Fin 1024) :
    k0_pay9 v (ix1 r) = v (ix3 (0 : Fin 1) (0 : Fin 1) r) :=
  shapeCast_11a_a_apply v shapeCasts_S1x1x1024_S1024 r

/-- Row 7's sums as a vector. -/
theorem pay10_apply (v : Vec Ideal S1x1x1024 .f32) (r : Fin 1024) :
    k0_pay10 v (ix1 r) = v (ix3 (0 : Fin 1) (0 : Fin 1) r) :=
  shapeCast_11a_a_apply v shapeCasts_S1x1x1024_S1024 r

/-- The maximum over all eight rows. -/
theorem pay11_apply (vM : Vec Ideal S7x1x1024 .f32) (vF : Vec Ideal S1x1x1024 .f32) (r : Fin 1024) :
    k0_pay11 vM vF (ix1 r) = max (k0_pay7 vM (ix1 r)) (vF (ix3 (0 : Fin 1) (0 : Fin 1) r)) := by
  unfold k0_pay11
  show max (k0_pay7 vM (ix1 r)) (k0_pay9 vF (ix1 r)) = _
  rw [pay9_apply]

/-- The partial maximum less the maximum. -/
theorem pay12_apply (vM : Vec Ideal S7x1x1024 .f32) (vF : Vec Ideal S1x1x1024 .f32) (r : Fin 1024) :
    k0_pay12 vM vF (ix1 r) = k0_pay7 vM (ix1 r) - k0_pay11 vM vF (ix1 r) := rfl

/-- The result at `(r, j)`: the kept exponential times the row's scale `exp (m - gmax) / gsum`. -/
theorem pay13_apply (v27 v178 v188 v190 v191 v192 : FVec Ideal S1024 .f32) (v202 : Vec Ideal S1024x512 .bf16)
    (r : Fin 1024) (j : Fin 512) :
    k0_pay13 v27 v178 v188 v190 v191 v192 v202 (ix2 r j)
      = v202 (ix2 r j) * Ideal.div (Ideal.exp (v27 (ix1 r) - v191 (ix1 r)))
          (v178 (ix1 r) * Ideal.exp (v192 (ix1 r)) + v190 (ix1 r) * Ideal.exp (v188 (ix1 r) - v191 (ix1 r))) := by
  unfold k0_pay13
  show v202 (ix2 r j)
      * broadcastTo S1024x512 (shapeCast S1024x1
          (truncf .bf16 (divf (exp (subf v27 v191)) (addf (mulf v178 (exp v192)) (mulf v190 (exp (subf v188 v191))))) bitsLt_bf16_f32)
          shapeCasts_S1024_S1024x1) broadcasts_S1024x1_S1024x512 (ix2 r j) = _
  refine congrArg (fun z => v202 (ix2 r j) * z) ?_
  refine (broadcastTo_a1_ab_apply _ broadcasts_S1024x1_S1024x512 r j).trans ?_
  refine (shapeCast_a_a1_apply _ shapeCasts_S1024_S1024x1 r (0 : Fin 1)).trans ?_
  rfl

/-! ## The result block at an index -/

/-- The kernel's result block at row r, local column j, as plain extended-real arithmetic of the devices' blocks. Pure unfolding: no finiteness is used. -/
theorem outOf_apply (X : Dev nD → Vec Ideal S1024x512 .f32) (c : Dev nD) (r : Fin 1024) (j : Fin 512) :
    Cert.KernelIdeal.Spec.outOf (F := Ideal) X c (ix2 r j) =
      (let mloc : Dev nD → EReal := fun d => (Finset.univ : Finset (Fin 512)).fold max (⊥ : EReal) (fun l => X d (ix2 r l))
       let e : Dev nD → Fin 512 → EReal := fun d l => Ideal.exp (X d (ix2 r l) - mloc d)
       let s : Dev nD → EReal := fun d => ∑ l : Fin 512, e d l
       let dev : Fin 8 → Dev nD := fun t => peer c (keyOf t)
       let pmax : EReal := (Finset.univ : Finset (Fin 7)).fold max (⊥ : EReal) (fun t => mloc (dev t.castSucc))
       let psum : EReal := ∑ t : Fin 7, s (dev t.castSucc) * Ideal.exp (mloc (dev t.castSucc) - pmax)
       let gmax : EReal := max pmax (mloc (dev (Fin.last 7)))
       let gsum : EReal := psum * Ideal.exp (pmax - gmax) + s (dev (Fin.last 7)) * Ideal.exp (mloc (dev (Fin.last 7)) - gmax)
       e c j * Ideal.div (Ideal.exp (mloc c - gmax)) gsum) := by
  have h7 : k0_pay7 (Spec.nearM X c) (ix1 r)
      = (Finset.univ : Finset (Fin 7)).fold max (⊥ : EReal) (fun t => rowMax (X (peer c (keyOf t.castSucc))) r) :=
    (pay7_apply _ r).trans (Finset.fold_congr fun t _ => nearM_apply X c t r)
  have h8 : k0_pay8 (Spec.nearM X c) (Spec.nearS X c) (ix1 r)
      = ∑ t : Fin 7, rowSum (X (peer c (keyOf t.castSucc))) r
          * Ideal.exp (rowMax (X (peer c (keyOf t.castSucc))) r
            - (Finset.univ : Finset (Fin 7)).fold max (⊥ : EReal) (fun t => rowMax (X (peer c (keyOf t.castSucc))) r)) := by
    rw [pay8_apply, h7]
    exact Finset.sum_congr rfl fun t _ => by rw [nearM_apply, nearS_apply]
  have h9 : k0_pay9 (Spec.farM X c) (ix1 r) = rowMax (X (peer c (keyOf (Fin.last 7)))) r :=
    (pay9_apply _ r).trans (farM_apply X c r)
  have h10 : k0_pay10 (Spec.farS X c) (ix1 r) = rowSum (X (peer c (keyOf (Fin.last 7)))) r :=
    (pay10_apply _ r).trans (farS_apply X c r)
  have h11 : k0_pay11 (Spec.nearM X c) (Spec.farM X c) (ix1 r)
      = max ((Finset.univ : Finset (Fin 7)).fold max (⊥ : EReal) (fun t => rowMax (X (peer c (keyOf t.castSucc))) r))
          (rowMax (X (peer c (keyOf (Fin.last 7)))) r) := by
    rw [pay11_apply, h7, farM_apply]
  have h12 : k0_pay12 (Spec.nearM X c) (Spec.farM X c) (ix1 r)
      = (Finset.univ : Finset (Fin 7)).fold max (⊥ : EReal) (fun t => rowMax (X (peer c (keyOf t.castSucc))) r)
        - max ((Finset.univ : Finset (Fin 7)).fold max (⊥ : EReal) (fun t => rowMax (X (peer c (keyOf t.castSucc))) r))
            (rowMax (X (peer c (keyOf (Fin.last 7)))) r) := by
    rw [pay12_apply, h7, h11]
  have hE : Spec.expBlk (X c) (ix2 r j) = Ideal.exp (X c (ix2 r j) - rowMax (X c) r) :=
    (pay5_apply _ _).trans (pay3_apply (X c) r j)
  unfold Spec.outOf
  refine (pay13_apply _ _ _ _ _ _ _ r j).trans ?_
  rw [hE, pay2_apply, h8, h9, h10, h11, h12]
  rfl

/-- info: 'Cert.KernelIdeal.KerValue.outOf_apply' depends on axioms: [propext, Classical.choice, Quot.sound] -/
#guard_msgs in #print axioms outOf_apply

end Cert.KernelIdeal.KerValue

end
-- ==== Proof.RefValue.lean ====
/-
  The reference program read at one entry of its result.

  On one device the reference takes the whole 1024 × 4096 array, subtracts from each row its maximum, exponentiates,
  and divides by the row's sum of exponentials. Read at row `r`, column `k`, the result is
  `exp (x r k - M) / (0 + ∑ k', exp (x r k' - M))` with `M` the maximum of row `r` taken from -∞.
-/
import proofs.«900601_g7700000000000602_dist_softmax_colshard_i_m1024_n512_v7x_i8_bf16_1_alg».proof.Proof.Gen.ReferenceIdeal.Read
import Idealize.ShloMosaic.Lib.ValueIdx
import Idealize.ShloMosaic.PureOps.Ideal.Laws

noncomputable section

open scoped BigOperators

namespace Cert.Proof.Join

open Idealize.ShloMosaic Idealize.ShloMosaic.ValueIdx Cert.ReferenceIdeal Cert.ReferenceIdeal.Gen Cert.ReferenceIdeal.Read

/-- The word of -∞ is the bottom of the extended reals. -/
theorem ofBits_neg_inf : Ideal.ofBits .f32 0xFF800000#32 = (⊥ : EReal) := by
  simp [Ideal.ofBits, Ideal.ieee]

/-- A row index with column `k` put back on the reduced axis is the entry (r, k). -/
theorem lift_row (h : S1024x4096.Reduces [1] S1024) (r : Fin 1024) (k : Fin (S1024x4096.size 1)) :
    h.lift (ix1 r) k = ix2 r (⟨k.val, k.isLt⟩ : Fin 4096) := by
  funext c; apply Fin.ext
  fin_cases c <;> rfl

/-- The row maximum of the reference at row `r`: the maximum from -∞ of the row's 4096 entries. -/
theorem rowMax_apply (xw : FVec Ideal S1024x4096 .f32) (r : Fin 1024) :
    val_main_v0 (F := Ideal) xw (ix1 r)
      = (Finset.univ : Finset (Fin 4096)).fold max (⊥ : EReal) (fun k' => xw (ix2 r k')) := by
  unfold val_main_v0
  have h : S1024x4096.Reduces [1] S1024 := by decide
  rw [Host.reduce_eq_fold_single FloatOps.maximumf xw _ reducesTo_S1024x4096_S1024_d1 h h_S_]
  have hf : (xw ∘ h.lift (ix1 r)) = fun k : Fin 4096 => xw (ix2 r k) :=
    funext fun k => congrArg xw (lift_row h r k)
  have hi : val_main_cst (F := Ideal) (Shape.Idx.first h_S_) = (⊥ : EReal) := ofBits_neg_inf
  rw [hi]
  exact congrArg (fun f => Finset.fold max (⊥ : EReal) f (Finset.univ : Finset (Fin 4096))) hf

/-- The row maximum broadcast back over the row: at (r, k) it is row `r`'s maximum. -/
theorem bcastMax_apply (xw : FVec Ideal S1024x4096 .f32) (r : Fin 1024) (k : Fin 4096) :
    val_main_v2 (F := Ideal) xw (ix2 r k)
      = (Finset.univ : Finset (Fin 4096)).fold max (⊥ : EReal) (fun k' => xw (ix2 r k')) := by
  rw [val_main_v2_apply, val_main_v1_apply]
  have hi : idx_main_v1 (idx_main_v2 (ix2 r k)) = ix1 r :=
    funext fun a => Fin.ext (by match a with | ⟨0, _⟩ => rfl)
  rw [hi]
  exact rowMax_apply xw r

/-- The shifted exponential at (r, k). -/
theorem expShift_apply (xw : FVec Ideal S1024x4096 .f32) (r : Fin 1024) (k : Fin 4096) :
    val_main_v4 (F := Ideal) xw (ix2 r k)
      = Ideal.exp (xw (ix2 r k) - (Finset.univ : Finset (Fin 4096)).fold max (⊥ : EReal) (fun k' => xw (ix2 r k'))) := by
  rw [val_main_v4_apply, val_main_v3_apply, bcastMax_apply]
  rfl

/-- The row sum of the shifted exponentials at row `r`, from the zero word. -/
theorem rowSum_apply (xw : FVec Ideal S1024x4096 .f32) (r : Fin 1024) :
    val_main_v5 (F := Ideal) xw (ix1 r)
      = (0 : EReal) + ∑ k' : Fin 4096,
          Ideal.exp (xw (ix2 r k') - (Finset.univ : Finset (Fin 4096)).fold max (⊥ : EReal) (fun k'' => xw (ix2 r k''))) := by
  rw [val_main_v5_apply]
  have h0 : val_main_cst_0 (F := Ideal) (Shape.Idx.first h_S_) = (0 : EReal) := Ideal.ofBits_zero_f32
  rw [h0]
  refine congrArg ((0 : EReal) + ·) (Finset.sum_congr rfl fun k' _ => ?_)
  have hi : idx_main_v5 (ix1 r) k' = ix2 r k' :=
    funext fun a => Fin.ext (by match a with | ⟨0, _⟩ => rfl | ⟨1, _⟩ => rfl)
  rw [hi]
  exact expShift_apply xw r k'

/-- The row sum broadcast back over the row. -/
theorem bcastSum_apply (xw : FVec Ideal S1024x4096 .f32) (r : Fin 1024) (k : Fin 4096) :
    val_main_v7 (F := Ideal) xw (ix2 r k) = val_main_v5 (F := Ideal) xw (ix1 r) := by
  rw [val_main_v7_apply, val_main_v6_apply]
  have hi : idx_main_v6 (idx_main_v7 (ix2 r k)) = ix1 r :=
    funext fun a => Fin.ext (by match a with | ⟨0, _⟩ => rfl)
  rw [hi]

/-- The reference's result at row r, column k of the whole array. -/
theorem ref_apply (xw : FVec Ideal Cert.ReferenceIdeal.S1024x4096 .f32) (r : Fin 1024) (k : Fin 4096) :
    Cert.ReferenceIdeal.Read.val_main_v9 (F := Ideal) xw (ix2 r k) =
      (let M : EReal := (Finset.univ : Finset (Fin 4096)).fold max (⊥ : EReal) (fun k' => xw (ix2 r k'))
       Ideal.div (Ideal.exp (xw (ix2 r k) - M)) ((0 : EReal) + ∑ k' : Fin 4096, Ideal.exp (xw (ix2 r k') - M))) := by
  rw [val_main_v9_apply, val_main_v8_apply, bcastSum_apply, rowSum_apply, expShift_apply]
  rfl

/-- info: 'Cert.Proof.Join.ref_apply' depends on axioms: [propext, Classical.choice, Quot.sound] -/
#guard_msgs in #print axioms ref_apply

end Cert.Proof.Join

end
-- ==== Proof.Join.lean ====
/-
  The join: the kernel's result block is the matching block of the reference's result.

  Fix a row `r`. Device `c` holds columns `c · 512 … c · 512 + 511` of the whole row. From the eight blocks' rows the
  kernel forms, per block, the maximum `m d` and the sum `s d` of `exp (x - m d)`; it folds the maxima of the seven
  devices named by rows 0 … 6 of its gather buffer into a partial maximum, rescales their sums to it, merges the
  device named by row 7 into both, and scales its own `exp (x - m c)` by `exp (m c - gmax) / gsum`. The rows of the
  buffer name each of the eight devices exactly once, so when every entry is a real number this is
  `exp (x - M) / ∑ exp (x' - M)` over all 4096 columns of the row, for any shift `M`: the softmax does not depend on
  the shift. The reference computes the same quotient with `M` the maximum of the whole row, its single sum over
  4096 columns being the double sum over the 8 blocks and their 512 columns.
-/
import proofs.«900601_g7700000000000602_dist_softmax_colshard_i_m1024_n512_v7x_i8_bf16_1_alg».proof.Proof.Spec
import proofs.«900601_g7700000000000602_dist_softmax_colshard_i_m1024_n512_v7x_i8_bf16_1_alg».proof.Proof.SoftmaxLaw
import proofs.«900601_g7700000000000602_dist_softmax_colshard_i_m1024_n512_v7x_i8_bf16_1_alg».proof.Proof.KerValue
import proofs.«900601_g7700000000000602_dist_softmax_colshard_i_m1024_n512_v7x_i8_bf16_1_alg».proof.Proof.RefValue
import Idealize.ShloMosaic.Lib.Layout
import Idealize.ShloMosaic.Lib.ValueIdx
import Idealize.ShloMosaic.PureOps.Ideal.Laws

noncomputable section

open scoped BigOperators

namespace Cert.Proof.Join

open Idealize.ShloMosaic Idealize.ShloMosaic.ValueIdx Cert.KernelIdeal Cert.KernelIdeal.Mesh

/-! ### Where a block's entry sits in the whole array -/

/-- Column `l` of block `d` is column `d · 512 + l` of the whole array. -/
def col (d : Fin 8) (l : Fin 512) : Fin 4096 :=
  ⟨d.val * 512 + l.val, by have := d.isLt; have := l.isLt; omega⟩

/-- The entry (r, l) of block `d` is the entry (r, d · 512 + l) of the whole array. -/
theorem blockIdx (h : Layout.Tiles ⟨2, ![1024, 512]⟩ ⟨2, ![1024, 4096]⟩ 1 8) (d : Fin 8) (r : Fin 1024) (l : Fin 512) :
    h.idx d (ix2 r l) = ix2 r (col d l) := by
  funext a; apply Fin.ext
  match a with
  | ⟨0, _⟩ => rfl
  | ⟨1, _⟩ => rfl

/-- A block read at (r, l). -/
theorem block_at {α : Type} (v : (⟨2, ![1024, 4096]⟩ : Shape).Idx → α) (d : Fin 8) (r : Fin 1024) (l : Fin 512) :
    (Layout.block ⟨2, ![1024, 512]⟩ ⟨2, ![1024, 4096]⟩ 1 8 d v) (ix2 r l) = v (ix2 r (col d l)) :=
  congrArg v (blockIdx _ d r l)

/-- The 4096 columns are the 512 columns of each of the 8 blocks. -/
def colEquiv : Fin 8 × Fin 512 ≃ Fin 4096 where
  toFun p := col p.1 p.2
  invFun k := (⟨k.val / 512, by have := k.isLt; omega⟩, ⟨k.val % 512, Nat.mod_lt _ (by decide)⟩)
  left_inv p := by
    rcases p with ⟨d, l⟩
    refine Prod.ext (Fin.ext ?_) (Fin.ext ?_)
    · show (d.val * 512 + l.val) / 512 = d.val
      have := l.isLt; omega
    · show (d.val * 512 + l.val) % 512 = l.val
      have := l.isLt; omega
  right_inv k := Fin.ext (by
    show k.val / 512 * 512 + k.val % 512 = k.val
    omega)

/-- A sum over the 4096 columns is the sum over the blocks of the sums over each block's columns. -/
theorem sum_cols (F : Fin 4096 → EReal) : ∑ k : Fin 4096, F k = ∑ d : Fin 8, ∑ l : Fin 512, F (col d l) := by
  rw [← Equiv.sum_comp colEquiv F, Fintype.sum_prod_type]
  rfl

/-! ### The rows of the gather buffer name the eight devices -/

/-- Row `t` of device `c`'s buffer holds the statistics of `peer c (keyOf t)`: the rows name each device once. -/
def slotDev (c : Dev nD) : Fin (7 + 1) ≃ Dev nD :=
  Equiv.ofBijective (fun t => peer c (keyOf t))
    ⟨fun t t' h => by
        have hk := peer_inj_key c _ _ h
        have hs := congrArg slotOf hk
        rwa [slotOf_keyOf, slotOf_keyOf] at hs,
     fun d => by
        obtain ⟨k, hk⟩ := peer_surj c d
        exact ⟨slotOf k, by show peer c (keyOf (slotOf k)) = d; rw [keyOf_slotOf]; exact hk⟩⟩

theorem slotDev_apply (c : Dev nD) (t : Fin (7 + 1)) : slotDev c t = peer c (keyOf t) := rfl

/-! ### The kernel's arithmetic over one row, as a function of the eight blocks' rows -/

/-- The maximum of block `d`'s row, from -∞. -/
def bmax (y : Dev nD → Fin 512 → EReal) (d : Dev nD) : EReal :=
  (Finset.univ : Finset (Fin 512)).fold max (⊥ : EReal) (fun l => y d l)
/-- The sum of block `d`'s shifted exponentials. -/
def bsum (y : Dev nD → Fin 512 → EReal) (d : Dev nD) : EReal :=
  ∑ l : Fin 512, Ideal.exp (y d l - bmax y d)
/-- The maximum over the devices named by rows 0 … 6. -/
def pmax (c : Dev nD) (y : Dev nD → Fin 512 → EReal) : EReal :=
  (Finset.univ : Finset (Fin 7)).fold max (⊥ : EReal) (fun t => bmax y (peer c (keyOf t.castSucc)))
/-- Their sums, rescaled to that maximum. -/
def psum (c : Dev nD) (y : Dev nD → Fin 512 → EReal) : EReal :=
  ∑ t : Fin 7, bsum y (peer c (keyOf t.castSucc)) * Ideal.exp (bmax y (peer c (keyOf t.castSucc)) - pmax c y)
/-- The maximum with row 7 merged in. -/
def gmax (c : Dev nD) (y : Dev nD → Fin 512 → EReal) : EReal :=
  max (pmax c y) (bmax y (peer c (keyOf (Fin.last 7))))
/-- The sum with row 7 merged in, rescaled to the merged maximum. -/
def gsum (c : Dev nD) (y : Dev nD → Fin 512 → EReal) : EReal :=
  psum c y * Ideal.exp (pmax c y - gmax c y)
    + bsum y (peer c (keyOf (Fin.last 7))) * Ideal.exp (bmax y (peer c (keyOf (Fin.last 7))) - gmax c y)
/-- Device `c`'s result at local column `j`. -/
def kerForm (c : Dev nD) (y : Dev nD → Fin 512 → EReal) (j : Fin 512) : EReal :=
  Ideal.exp (y c j - bmax y c) * Ideal.div (Ideal.exp (bmax y c - gmax c y)) (gsum c y)

/-- The kernel's result block at (r, j) is that arithmetic of the eight blocks' rows `r`. -/
theorem outOf_eq_kerForm (X : Dev nD → Vec Ideal S1024x512 .f32) (c : Dev nD) (r : Fin 1024) (j : Fin 512) :
    Cert.KernelIdeal.Spec.outOf (F := Ideal) X c (ix2 r j) = kerForm c (fun d l => X d (ix2 r l)) j :=
  Cert.KernelIdeal.KerValue.outOf_apply X c r j

/-- On rows of real numbers the kernel's arithmetic is the softmax over all eight blocks, written with any shift `M`. -/
theorem kerForm_real (c : Dev nD) (x : Dev nD → Fin 512 → ℝ) (M : ℝ) (j : Fin 512) :
    kerForm c (fun d l => ((x d l : ℝ) : EReal)) j
      = Ideal.div (Ideal.exp ((x c j : EReal) - (M : EReal)))
          ((0 : EReal) + ∑ d : Dev nD, ∑ l : Fin 512, Ideal.exp ((x d l : EReal) - (M : EReal))) := by
  choose m hm using fun d : Dev nD => Cert.SoftmaxLaw.fold_max_bot_coe (x d)
  obtain ⟨p, hp⟩ := Cert.SoftmaxLaw.fold_max_bot_coe (fun t : Fin 7 => m (peer c (keyOf t.castSucc)))
  have key := Cert.SoftmaxLaw.merged_expanded (slotDev c) x m p (max p (m (peer c (keyOf (Fin.last 7))))) M c j
  simp only [slotDev_apply] at key
  have hbmax : ∀ d : Dev nD, bmax (fun d l => ((x d l : ℝ) : EReal)) d = (m d : EReal) := fun d => hm d
  have hpmax : pmax c (fun d l => ((x d l : ℝ) : EReal)) = (p : EReal) := by
    unfold pmax
    simp only [hbmax]
    exact hp
  have hgmax : gmax c (fun d l => ((x d l : ℝ) : EReal))
      = ((max p (m (peer c (keyOf (Fin.last 7)))) : ℝ) : EReal) := by
    unfold gmax
    rw [hpmax, hbmax, Cert.SoftmaxLaw.max_coe]
  unfold kerForm gsum psum bsum
  simp only [hbmax, hpmax, hgmax]
  exact key

/-! ### The reference's arithmetic over one row -/

/-- The reference's result at column `k` as a function of the whole row. -/
def refForm (y : Fin 4096 → EReal) (k : Fin 4096) : EReal :=
  Ideal.div (Ideal.exp (y k - (Finset.univ : Finset (Fin 4096)).fold max (⊥ : EReal) y))
    ((0 : EReal) + ∑ k' : Fin 4096, Ideal.exp (y k' - (Finset.univ : Finset (Fin 4096)).fold max (⊥ : EReal) y))

theorem ref_eq_refForm (xw : FVec Ideal Cert.ReferenceIdeal.S1024x4096 .f32) (r : Fin 1024) (k : Fin 4096) :
    Cert.ReferenceIdeal.Read.val_main_v9 (F := Ideal) xw (ix2 r k) = refForm (fun k' => xw (ix2 r k')) k :=
  ref_apply xw r k

/-- On a row of real numbers whose maximum is `M`. -/
theorem refForm_real (z : Fin 4096 → ℝ) (M : ℝ)
    (hM : (Finset.univ : Finset (Fin 4096)).fold max (⊥ : EReal) (fun k => ((z k : ℝ) : EReal)) = (M : EReal)) (k : Fin 4096) :
    refForm (fun k => ((z k : ℝ) : EReal)) k
      = Ideal.div (Ideal.exp ((z k : EReal) - (M : EReal))) ((0 : EReal) + ∑ k' : Fin 4096, Ideal.exp ((z k' : EReal) - (M : EReal))) := by
  unfold refForm
  rw [hM]

/-! ### The join -/

/-- THE JOIN: when every device's block is its block of a whole array of real numbers, device c's result is its block of the reference's result. -/
theorem out_eq_block (xw : FVec Ideal Cert.ReferenceIdeal.S1024x4096 .f32) (hfin : ∀ i, ∃ x : ℝ, xw i = (x : EReal)) (c : Dev Cert.KernelIdeal.nD) :
    Cert.KernelIdeal.Spec.outOf (F := Ideal) (fun d => Layout.block ⟨2, ![1024, 512]⟩ ⟨2, ![1024, 4096]⟩ 1 8 d xw) c
      = Layout.block ⟨2, ![1024, 512]⟩ ⟨2, ![1024, 4096]⟩ 1 8 c (Cert.ReferenceIdeal.Read.val_main_v9 (F := Ideal) xw) := by
  funext i
  obtain ⟨r, j, rfl⟩ : ∃ (r : Fin 1024) (j : Fin 512), i = ix2 r j := ⟨i 0, i 1, eq_ix2 i⟩
  choose z hz using hfin
  obtain ⟨M, hM⟩ := Cert.SoftmaxLaw.fold_max_bot_coe (fun k : Fin 4096 => z (ix2 r k))
  -- the kernel's side, over the real entries of the eight blocks' rows
  have hblk : (fun (d : Dev nD) (l : Fin 512) => (Layout.block ⟨2, ![1024, 512]⟩ ⟨2, ![1024, 4096]⟩ 1 8 d xw) (ix2 r l))
      = fun d l => ((z (ix2 r (col d l)) : ℝ) : EReal) :=
    funext fun d => funext fun l => (block_at xw d r l).trans (hz _)
  have hL := (outOf_eq_kerForm (fun d => Layout.block ⟨2, ![1024, 512]⟩ ⟨2, ![1024, 4096]⟩ 1 8 d xw) c r j).trans
    (congrArg (fun y => kerForm c y j) hblk)
  -- the reference's side, over the real entries of the whole row
  have hrow : (fun k : Fin 4096 => xw (ix2 r k)) = fun k => ((z (ix2 r k) : ℝ) : EReal) := funext fun k => hz _
  have hR := (block_at (Cert.ReferenceIdeal.Read.val_main_v9 (F := Ideal) xw) c r j).trans
    ((ref_eq_refForm xw r (col c j)).trans (congrArg (fun y => refForm y (col c j)) hrow))
  rw [hL, hR, kerForm_real c (fun d l => z (ix2 r (col d l))) M j, refForm_real (fun k => z (ix2 r k)) M hM (col c j),
    sum_cols (fun k' => Ideal.exp (((z (ix2 r k') : ℝ) : EReal) - (M : EReal)))]

/-- info: 'Cert.Proof.Join.out_eq_block' depends on axioms: [propext, Classical.choice, Quot.sound] -/
#guard_msgs in #print axioms out_eq_block

end Cert.Proof.Join

end
-- ==== Proof.Finite.lean ====
/-
  The precondition read back: every entry of every device's block is a real number.

  The precondition says that on each device the predicate "every entry has absolute value below +∞" of the
  device's block evaluates to true. The predicate is an `and`-reduction over the whole block of the comparison
  `|x| < +∞`; the reduction being 1, every comparison is 1, and an extended real whose absolute value is below
  `⊤` is neither `⊤` nor `⊥`.
-/
import proofs.«900601_g7700000000000602_dist_softmax_colshard_i_m1024_n512_v7x_i8_bf16_1_alg».proof.Defs
import proofs.«900601_g7700000000000602_dist_softmax_colshard_i_m1024_n512_v7x_i8_bf16_1_alg».proof.Proof.Gen.Pre_finite_inputs_Kernel
import Idealize.ShloMosaic.Lib.ReduceAll
import Idealize.ShloMosaic.Lib.ValueIdx
import Idealize.ShloMosaic.PureOps.Ideal.Laws

noncomputable section

namespace Cert.Proof.Join

open Idealize.ShloMosaic

/-- The word of +∞ is the top of the extended reals. -/
theorem ofBits_pos_inf : Ideal.ofBits .f32 0x7F800000#32 = (⊤ : EReal) := by
  simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A comparison "less than" that came out 1 holds. -/
theorem lt_of_cmp_olt (a b : EReal) (h : Ideal.cmp .olt a b = 1#1) : a < b := by
  by_contra hn
  have h0 : Ideal.cmp .olt a b = 0#1 := by simp [Ideal.cmp, hn]
  rw [h0] at h
  exact absurd h (by decide)

/-- If the printed predicate of a block is true, every entry of the block is a real number. -/
theorem finite_of_fn [Cert.Pre_finite_inputs_Kernel.Facts]
    (x : FVec Ideal Cert.Pre_finite_inputs_Kernel.S1024x512 .f32)
    (h : Cert.Pre_finite_inputs_Kernel.fn (F := Ideal) x = fun _ => 1#1)
    (i : Cert.Pre_finite_inputs_Kernel.S1024x512.Idx) : ∃ r : ℝ, x i = (r : EReal) := by
  haveI : Subsingleton Cert.Pre_finite_inputs_Kernel.S_.Idx := ⟨fun a b => funext fun d => d.elim0⟩
  have h0 := congrFun h ValueIdx.ix0
  dsimp only [Cert.Pre_finite_inputs_Kernel.fn] at h0
  have h1 := Host.reduce_andi_all _ _ _ _ _ h0 i
  have h2 : Ideal.cmp .olt (max (x i) (-(x i))) (Ideal.ofBits .f32 0x7F800000#32) = 1#1 := h1
  rw [ofBits_pos_inf] at h2
  exact real_of_abs_lt_top (x i) (lt_of_cmp_olt _ _ h2)

/-- The precondition on every device's block makes every entry a real number. -/
theorem finite_of_pre (m : (ℓ : Loc Cert.KernelIdeal.nD Cert.KernelIdeal.τ Cert.KernelIdeal.sig) → Buf (Elt Ideal) ℓ)
    (h : Cert.Pre_KernelIdeal (hPre_finite_inputs_Kernel := Cert.Pre_finite_inputs_Kernel.Gen.facts) m) (c : Dev Cert.KernelIdeal.nD) (i) :
    ∃ x : ℝ, m ((c.tc : Thread Cert.KernelIdeal.nD Cert.KernelIdeal.τ).loc Cert.KernelIdeal.main_arg0) i = (x : EReal) :=
  @finite_of_fn Cert.Pre_finite_inputs_Kernel.Gen.facts _ (h c) i

/-- info: 'Cert.Proof.Join.finite_of_pre' depends on axioms: [propext, Classical.choice, Quot.sound] -/
#guard_msgs in #print axioms finite_of_pre

end Cert.Proof.Join

end
-- ==== Proof.lean ====
/-
  The certificate's five claims, assembled.

  The kernel, on eight devices, computes a softmax over rows of 4096 columns of which each device holds 512; the
  reference computes it on one device from the whole array. The kernel's run, at any float instance, ends with each
  device's result array holding the block `outOf` computes from all eight input blocks and with the input arrays
  unchanged. Dropping the values gives the two frame claims of the kernel, at the word level and over the extended
  reals; the reference's run gives its own. Over the extended reals, when every device's block is a block of one
  whole array and every entry is finite, the whole array is finite (the entry (r, k) of the whole array is the entry
  (r, k mod 512) of the block of device k div 512), and then `outOf` of the blocks is, device by device, the matching
  block of the reference's result: the softmax merged from the per-block maxima and sums is the softmax of the row.
  The idealized kernel is the kernel's own text read over the extended reals, so there is nothing to preserve.
-/
import proofs.«900601_g7700000000000602_dist_softmax_colshard_i_m1024_n512_v7x_i8_bf16_1_alg».proof.Defs
import proofs.«900601_g7700000000000602_dist_softmax_colshard_i_m1024_n512_v7x_i8_bf16_1_alg».proof.Proof.Run
import proofs.«900601_g7700000000000602_dist_softmax_colshard_i_m1024_n512_v7x_i8_bf16_1_alg».proof.Proof.KRun
import proofs.«900601_g7700000000000602_dist_softmax_colshard_i_m1024_n512_v7x_i8_bf16_1_alg».proof.Proof.RefFrame
import proofs.«900601_g7700000000000602_dist_softmax_colshard_i_m1024_n512_v7x_i8_bf16_1_alg».proof.Proof.Join
import proofs.«900601_g7700000000000602_dist_softmax_colshard_i_m1024_n512_v7x_i8_bf16_1_alg».proof.Proof.Finite

noncomputable section

namespace Cert.Proof

open Idealize.ShloMosaic Idealize.ShloMosaic.ValueIdx Idealize.SL.Sem

/-- The word-level kernel terminates without a fault from any memory and leaves its argument arrays as they were. -/
theorem frame_k :
    Cert.frame_Kernel (hKernel := Cert.Kernel.Gen.facts) (hPre_finite_inputs_Kernel := Cert.Pre_finite_inputs_Kernel.Gen.facts) :=
  fun m ρ _ =>
    (θ_run Cert.Kernel.defs _ _).mono (fun _ h c => (h c).2) (Cert.Kernel.Proto.run_closed (F := Bits) m ρ)

/-- The kernel over the extended reals terminates without a fault from any memory and leaves its argument arrays as they were. -/
theorem frame_ki :
    Cert.frame_KernelIdeal (hKernelIdeal := Cert.KernelIdeal.Gen.facts) (hPre_finite_inputs_Kernel := Cert.Pre_finite_inputs_Kernel.Gen.facts) :=
  fun m ρ _ =>
    (θ_run Cert.KernelIdeal.defs _ _).mono (fun _ h c => (h c).2) (Cert.KernelIdeal.Proto.run_closed (F := Ideal) m ρ)

/-- When every device's block is finite and is its block of the whole array, the whole array is finite: the entry
    (r, k) of the whole array is the entry (r, k mod 512) of the block of device k div 512. -/
theorem whole_finite
    (m : (ℓ : Loc Cert.KernelIdeal.nD Cert.KernelIdeal.τ Cert.KernelIdeal.sig) → Buf (Elt Ideal) ℓ)
    (xw : FVec Ideal Cert.ReferenceIdeal.S1024x4096 .f32)
    (hpre : Cert.Pre_KernelIdeal (hPre_finite_inputs_Kernel := Cert.Pre_finite_inputs_Kernel.Gen.facts) m)
    (hagree : ∀ c : Dev Cert.KernelIdeal.nD,
      m ((c.tc : Thread Cert.KernelIdeal.nD Cert.KernelIdeal.τ).loc Cert.KernelIdeal.main_arg0)
        = Layout.block ⟨2, ![1024, 512]⟩ ⟨2, ![1024, 4096]⟩ 1 8 c xw)
    (i : Cert.ReferenceIdeal.S1024x4096.Idx) : ∃ x : ℝ, xw i = (x : EReal) := by
  obtain ⟨r, k, rfl⟩ : ∃ (r : Fin 1024) (k : Fin 4096), i = ix2 r k := ⟨i 0, i 1, eq_ix2 i⟩
  obtain ⟨⟨d, l⟩, rfl⟩ : ∃ p : Fin 8 × Fin 512, Join.colEquiv p = k :=
    ⟨Join.colEquiv.symm k, Join.colEquiv.apply_symm_apply k⟩
  obtain ⟨x, hx⟩ := Join.finite_of_pre m hpre d (ix2 r l)
  exact ⟨x, ((Join.block_at xw d r l).symm.trans (congrFun (hagree d).symm (ix2 r l))).trans hx⟩

/-- At the extended reals the eight devices' result blocks are the blocks of the reference's result. -/
theorem algebraic_ki_ri :
    Cert.algebraic_KernelIdeal_ReferenceIdeal (hKernelIdeal := Cert.KernelIdeal.Gen.facts)
      (hReferenceIdeal := Cert.ReferenceIdeal.Gen.facts) (hPre_finite_inputs_Kernel := Cert.Pre_finite_inputs_Kernel.Gen.facts) := by
  intro m ρ m' ρ' hpre hagree
  have hfin := whole_finite m _ hpre hagree
  refine ⟨Cert.ReferenceIdeal.Read.val_main_v9 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨?_, (h c).2⟩)
      (Cert.KernelIdeal.Proto.run_closed (F := Ideal) m ρ)
    have hX : (fun d : Dev Cert.KernelIdeal.nD =>
          m ((d.tc : Thread Cert.KernelIdeal.nD Cert.KernelIdeal.τ).loc Cert.KernelIdeal.main_arg0))
        = fun d => Layout.block ⟨2, ![1024, 512]⟩ ⟨2, ![1024, 4096]⟩ 1 8 d
            (m' (((0 : Dev Cert.ReferenceIdeal.nD).tc : Thread Cert.ReferenceIdeal.nD Cert.ReferenceIdeal.τ).loc Cert.ReferenceIdeal.main_arg0)) :=
      funext fun d => hagree d
    exact ((h c).1.trans (congrArg (fun X => Cert.KernelIdeal.Spec.outOf (F := Ideal) X c) hX)).trans
      (Join.out_eq_block _ hfin c)
  · refine (θ_run Cert.ReferenceIdeal.defs _ _).mono (fun r h => ⟨?_, (h 0).2⟩)
      (Cert.ReferenceIdeal.Value.run (F := Ideal) m' ρ')
    exact (h 0).1.trans (Cert.ReferenceIdeal.Read.val_main_v9_eq _)

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, RefSide.frame_ri, trivial, algebraic_ki_ri⟩

end Cert.Proof

end
